-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S256x1 : Shape := ⟨2, ![256, 1]⟩
abbrev S256x64 : Shape := ⟨2, ![256, 64]⟩
abbrev S64x1 : Shape := ⟨2, ![64, 1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x256 : S_.BroadcastsInDim S512x256 (![] : Fin 0 → Fin S512x256.rank)
  reducesTo_S512x256_S_d0_1 : S512x256.ReducesTo [0, 1] S_
  bcast_S_S256x1 : S_.BroadcastsInDim S256x1 (![] : Fin 0 → Fin S256x1.rank)
  reducesTo_S256x1_S_d0_1 : S256x1.ReducesTo [0, 1] S_
  bcast_S_S256x64 : S_.BroadcastsInDim S256x64 (![] : Fin 0 → Fin S256x64.rank)
  reducesTo_S256x64_S_d0_1 : S256x64.ReducesTo [0, 1] S_
  bcast_S_S64x1 : S_.BroadcastsInDim S64x1 (![] : Fin 0 → Fin S64x1.rank)
  reducesTo_S64x1_S_d0_1 : S64x1.ReducesTo [0, 1] S_

variable [Facts]

def fn_part2 {F : FTy → Type} [FloatOps F] (main_arg8 : FVec F S64x1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  main_v38

def fn_part1 {F : FTy → Type} [FloatOps F] (main_arg5 : FVec F S256x1 .f32) (main_arg6 : FVec F S256x64 .f32) (main_arg7 : FVec F S64x1 .f32) (main_arg8 : FVec F S64x1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S256x1 .f32 := Host.absf main_arg5
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64x1 .f32 := Host.absf main_arg7
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg8 main_v33

def fn {F : FTy → Type} [FloatOps F] (main_arg0 : FVec F S8192x512 .f32) (main_arg1 : IVec S8192x8192 32) (main_arg2 : FVec F S8192x8192 .f32) (main_arg3 : FVec F S512x256 .f32) (main_arg4 : FVec F S256x1 .f32) (main_arg5 : FVec F S256x1 .f32) (main_arg6 : FVec F S256x64 .f32) (main_arg7 : FVec F S64x1 .f32) (main_arg8 : FVec F S64x1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg2
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x1 .f32 := Host.absf main_arg4
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg5 main_arg6 main_arg7 main_arg8 main_v13 main_v16
-- ==== Kernel.lean ====
abbrev S8192x512 : Shape := ⟨2, ![8192, 512]⟩
abbrev S8192x8192 : Shape := ⟨2, ![8192, 8192]⟩
abbrev S512x256 : Shape := ⟨2, ![512, 256]⟩
abbrev S256x1 : Shape := ⟨2, ![256, 1]⟩
abbrev S256x64 : Shape := ⟨2, ![256, 64]⟩
abbrev S64x1 : Shape := ⟨2, ![64, 1]⟩
abbrev S8192x256 : Shape := ⟨2, ![8192, 256]⟩
abbrev S8192x1 : Shape := ⟨2, ![8192, 1]⟩
abbrev S1x8192 : Shape := ⟨2, ![1, 8192]⟩
abbrev S1024x1 : Shape := ⟨2, ![1024, 1]⟩
abbrev S1x1024 : Shape := ⟨2, ![1, 1024]⟩
abbrev S1024x1024 : Shape := ⟨2, ![1024, 1024]⟩
abbrev S1024x256 : Shape := ⟨2, ![1024, 256]⟩
abbrev S1024 : Shape := ⟨1, ![1024]⟩
abbrev S8192x64 : Shape := ⟨2, ![8192, 64]⟩
abbrev S1024x64 : Shape := ⟨2, ![1024, 64]⟩

abbrev nBuf : Space → Nat
  | .hbm => 21
  | .vmem => 28
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S8192x8192, .f32⟩
  | .hbm, ⟨3, _⟩ => ⟨S512x256, .f32⟩
  | .hbm, ⟨4, _⟩ => ⟨S256x1, .f32⟩
  | .hbm, ⟨5, _⟩ => ⟨S256x1, .f32⟩
  | .hbm, ⟨6, _⟩ => ⟨S256x64, .f32⟩
  | .hbm, ⟨7, _⟩ => ⟨S64x1, .f32⟩
  | .hbm, ⟨8, _⟩ => ⟨S64x1, .f32⟩
  | .hbm, ⟨9, _⟩ => ⟨S8192x256, .f32⟩
  | .hbm, ⟨10, _⟩ => ⟨S8192x1, .f32⟩
  | .hbm, ⟨11, _⟩ => ⟨S8192x1, .f32⟩
  | .hbm, ⟨12, _⟩ => ⟨S1x8192, .f32⟩
  | .hbm, ⟨13, _⟩ => ⟨S8192x256, .bf16⟩
  | .hbm, ⟨14, _⟩ => ⟨S8192x256, .f32⟩
  | .hbm, ⟨15, _⟩ => ⟨S8192x64, .f32⟩
  | .hbm, ⟨16, _⟩ => ⟨S8192x1, .f32⟩
  | .hbm, ⟨17, _⟩ => ⟨S8192x1, .f32⟩
  | .hbm, ⟨18, _⟩ => ⟨S1x8192, .f32⟩
  | .hbm, ⟨19, _⟩ => ⟨S8192x64, .bf16⟩
  | .hbm, ⟨20, _⟩ => ⟨S8192x64, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .i32⟩
  | .local _ .vmem, ⟨7, _⟩ => ⟨S1024x1024, .i32⟩
  | .local _ .vmem, ⟨8, _⟩ => ⟨S8192x256, .bf16⟩
  | .local _ .vmem, ⟨9, _⟩ => ⟨S1024x256, .f32⟩
  | .local _ .vmem, ⟨10, _⟩ => ⟨S1024x256, .f32⟩
  | .local _ .vmem, ⟨11, _⟩ => ⟨S1024x1, .f32⟩
  | .local _ .vmem, ⟨12, _⟩ => ⟨S1024x1, .f32⟩
  | .local _ .vmem, ⟨13, _⟩ => ⟨S1024x256, .f32⟩
  | .local _ .vmem, ⟨14, _⟩ => ⟨S1024x1, .f32⟩
  | .local _ .vmem, ⟨15, _⟩ => ⟨S1024x1, .f32⟩
  | .local _ .vmem, ⟨16, _⟩ => ⟨S1x1024, .f32⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .i32⟩
  | .local _ .vmem, ⟨21, _⟩ => ⟨S1024x1024, .i32⟩
  | .local _ .vmem, ⟨22, _⟩ => ⟨S8192x64, .bf16⟩
  | .local _ .vmem, ⟨23, _⟩ => ⟨S1024x64, .f32⟩
  | .local _ .vmem, ⟨24, _⟩ => ⟨S1024x64, .f32⟩
  | .local _ .vmem, ⟨25, _⟩ => ⟨S1024x1, .f32⟩
  | .local _ .vmem, ⟨26, _⟩ => ⟨S1024x1, .f32⟩
  | .local _ .vmem, ⟨27, _⟩ => ⟨S1024x64, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg5_1 : Ref sig .tc := ⟨.vmem, 24, rfl⟩
abbrev cc1_scratch0 : Ref sig .tc := ⟨.vmem, 25, rfl⟩
abbrev cc1_scratch1 : Ref sig .tc := ⟨.vmem, 26, rfl⟩
abbrev cc1_scratch2 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v38 : BitVec 32 := Scalar.muli arg1 c1024_i32
  v38
def k0_off1 (i : grid0.Coords) : Fin 2 → Nat :=
  let arg1 : BitVec 32 := BitVec.ofNat 32 (i 1).val
  let c1024_i32 : BitVec 32 := 1024#32
  let v38 : BitVec 32 := Scalar.muli arg1 c1024_i32
  let v39 : BitVec 32 := v38
  let v40 : Index := Scalar.indexCast v39
  let c0_20 : Index := 0#32
  ![v40.toNat, 0]
def k0_cond2 (i : grid0.Coords) : BitVec 1 :=
  let arg1 : BitVec 32 := BitVec.ofNat 32 (i 1).val
  let c7_i32 : BitVec 32 := 7#32
  let v55 : BitVec 1 := Scalar.cmpi .eq arg1 c7_i32
  let v56 : BitVec 32 := Scalar.extui v55
  let c0_i32_28 : BitVec 32 := 0#32
  let v57 : BitVec 1 := Scalar.cmpi .ne v56 c0_i32_28
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8192x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v38 : BitVec 32 := Scalar.muli arg1 c1024_i32
  v38
def k1_off1 (i : grid1.Coords) : Fin 2 → Nat :=
  let arg1 : BitVec 32 := BitVec.ofNat 32 (i 1).val
  let c1024_i32 : BitVec 32 := 1024#32
  let v38 : BitVec 32 := Scalar.muli arg1 c1024_i32
  let v39 : BitVec 32 := v38
  let v40 : Index := Scalar.indexCast v39
  let c0_20 : Index := 0#32
  ![v40.toNat, 0]
def k1_cond2 (i : grid1.Coords) : BitVec 1 :=
  let arg1 : BitVec 32 := BitVec.ofNat 32 (i 1).val
  let c7_i32 : BitVec 32 := 7#32
  let v55 : BitVec 1 := Scalar.cmpi .eq arg1 c7_i32
  let v56 : BitVec 32 := Scalar.extui v55
  let c0_i32_28 : BitVec 32 := 0#32
  let v57 : BitVec 1 := Scalar.cmpi .ne v56 c0_i32_28
  v57

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S8192x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  transposes_S8192x1_S1x8192_1_0 : S8192x1.Transposes [1, 0] S1x8192
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x256 : S1024x1.Broadcasts S1024x256
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  broadcasts_S1024x1_S1024x64 : S1024x1.Broadcasts S1024x64
  dot_S8192x512_S512x256_S8192x256_1_0_0_1_n_n_wf : DotDims.WF S8192x512 S512x256 S8192x256 [1] [0] [0] [1] [] []
  dot_S8192x256_S256x1_S8192x1_1_0_0_1_n_n_wf : DotDims.WF S8192x256 S256x1 S8192x1 [1] [0] [0] [1] [] []
  dot_S1024x1024_S1024x256_S1024x256_1_0_0_1_n_n_wf : DotDims.WF S1024x1024 S1024x256 S1024x256 [1] [0] [0] [1] [] []
  dot_S8192x256_S256x64_S8192x64_1_0_0_1_n_n_wf : DotDims.WF S8192x256 S256x64 S8192x64 [1] [0] [0] [1] [] []
  dot_S8192x64_S64x1_S8192x1_1_0_0_1_n_n_wf : DotDims.WF S8192x64 S64x1 S8192x1 [1] [0] [0] [1] [] []
  dot_S1024x1024_S1024x64_S1024x64_1_0_0_1_n_n_wf : DotDims.WF S1024x1024 S1024x64 S1024x64 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .i32 = 32 ∨ (Rect.block (s := S8192x8192) S1024x1024.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8192x256.size a ≤ S8192x256.size a
  hwx0_4 : ∀ i : grid0.Coords, EltTy.bits .bf16 = 32 ∨ (Rect.block (s := S8192x256) S8192x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x256.size a
  hwx0_5 : ∀ i : grid0.Coords, EltTy.bits .f32 = 32 ∨ (Rect.block (s := S8192x256) S1024x256.size (cc0_transform_5 i) (hinb0_5 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x64.size a ≤ S8192x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S8192x1.size a
  hwx1_0 : ∀ i : grid1.Coords, EltTy.bits .f32 = 32 ∨ (Rect.block (s := S8192x1) S1024x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x8192.size a
  hwx1_1 : ∀ i : grid1.Coords, EltTy.bits .f32 = 32 ∨ (Rect.block (s := S1x8192) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x8192.size a
  hwx1_3 : ∀ i : grid1.Coords, EltTy.bits .i32 = 32 ∨ (Rect.block (s := S8192x8192) S1024x1024.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8192x64.size a ≤ S8192x64.size a
  hwx1_4 : ∀ i : grid1.Coords, EltTy.bits .bf16 = 32 ∨ (Rect.block (s := S8192x64) S8192x64.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x64.size a ≤ S8192x64.size a
  hwx1_5 : ∀ i : grid1.Coords, EltTy.bits .f32 = 32 ∨ (Rect.block (s := S8192x64) S1024x64.size (cc1_transform_5 i) (hinb1_5 i)).WholeWords (EltTy.packing .f32)

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v1) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S8192x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v7) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S8192x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1024x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S256x1 : Shape := ⟨2, ![256, 1]⟩
abbrev S256x64 : Shape := ⟨2, ![256, 64]⟩
abbrev S64x1 : Shape := ⟨2, ![64, 1]⟩
abbrev S_ : Shape := ⟨0, ![]⟩
abbrev S8192x256 : Shape := ⟨2, ![8192, 256]⟩
abbrev S8192x1 : Shape := ⟨2, ![8192, 1]⟩
abbrev S1x8192 : Shape := ⟨2, ![1, 8192]⟩
abbrev S8192 : Shape := ⟨1, ![8192]⟩
abbrev S8192x64 : Shape := ⟨2, ![8192, 64]⟩

abbrev nBuf : Space → Nat
  | .hbm => 112
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S8192x8192, .f32⟩
  | .hbm, ⟨3, _⟩ => ⟨S512x256, .f32⟩
  | .hbm, ⟨4, _⟩ => ⟨S256x1, .f32⟩
  | .hbm, ⟨5, _⟩ => ⟨S256x1, .f32⟩
  | .hbm, ⟨6, _⟩ => ⟨S256x64, .f32⟩
  | .hbm, ⟨7, _⟩ => ⟨S64x1, .f32⟩
  | .hbm, ⟨8, _⟩ => ⟨S64x1, .f32⟩
  | .hbm, ⟨9, _⟩ => ⟨S_, .i32⟩
  | .hbm, ⟨10, _⟩ => ⟨S8192x8192, .i32⟩
  | .hbm, ⟨11, _⟩ => ⟨S8192x8192, .i1⟩
  | .hbm, ⟨12, _⟩ => ⟨S8192x256, .f32⟩
  | .hbm, ⟨13, _⟩ => ⟨S8192x1, .f32⟩
  | .hbm, ⟨14, _⟩ => ⟨S8192x1, .f32⟩
  | .hbm, ⟨15, _⟩ => ⟨S1x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S_, .f32⟩
  | .hbm, ⟨22, _⟩ => ⟨S8192x8192, .f32⟩
  | .hbm, ⟨23, _⟩ => ⟨S8192x8192, .i1⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S8192x1, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x8192, .f32⟩
  | .hbm, ⟨45, _⟩ => ⟨S8192x8192, .f32⟩
  | .hbm, ⟨46, _⟩ => ⟨S8192x256, .f32⟩
  | .hbm, ⟨47, _⟩ => ⟨S_, .f32⟩
  | .hbm, ⟨48, _⟩ => ⟨S8192x256, .f32⟩
  | .hbm, ⟨49, _⟩ => ⟨S8192x256, .i1⟩
  | .hbm, ⟨50, _⟩ => ⟨S_, .f32⟩
  | .hbm, ⟨51, _⟩ => ⟨S8192x256, .f32⟩
  | .hbm, ⟨52, _⟩ => ⟨S8192x256, .i1⟩
  | .hbm, ⟨53, _⟩ => ⟨S_, .f32⟩
  | .hbm, ⟨54, _⟩ => ⟨S_, .f32⟩
  | .hbm, ⟨55, _⟩ => ⟨S8192x256, .f32⟩
  | .hbm, ⟨56, _⟩ => ⟨S8192x256, .f32⟩
  | .hbm, ⟨57, _⟩ => ⟨S8192x256, .f32⟩
  | .hbm, ⟨58, _⟩ => ⟨S_, .f32⟩
  | .hbm, ⟨59, _⟩ => ⟨S8192x256, .f32⟩
  | .hbm, ⟨60, _⟩ => ⟨S8192x256, .f32⟩
  | .hbm, ⟨61, _⟩ => ⟨S8192x256, .f32⟩
  | .hbm, ⟨62, _⟩ => ⟨S8192x64, .f32⟩
  | .hbm, ⟨63, _⟩ => ⟨S8192x1, .f32⟩
  | .hbm, ⟨64, _⟩ => ⟨S8192x1, .f32⟩
  | .hbm, ⟨65, _⟩ => ⟨S1x8192, .f32⟩
  | .hbm, ⟨66, _⟩ => ⟨S8192x8192, .f32⟩
  | .hbm, ⟨67, _⟩ => ⟨S8192x8192, .f32⟩
  | .hbm, ⟨68, _⟩ => ⟨S8192x8192, .f32⟩
  | .hbm, ⟨69, _⟩ => ⟨S8192x8192, .f32⟩
  | .hbm, ⟨70, _⟩ => ⟨S_, .f32⟩
  | .hbm, ⟨71, _⟩ => ⟨S_, .f32⟩
  | .hbm, ⟨72, _⟩ => ⟨S8192x8192, .f32⟩
  | .hbm, ⟨73, _⟩ => ⟨S8192x8192, .i1⟩
  | .hbm, ⟨74, _⟩ => ⟨S_, .f32⟩
  | .hbm, ⟨75, _⟩ => ⟨S8192x8192, .f32⟩
  | .hbm, ⟨76, _⟩ => ⟨S8192x8192, .f32⟩
  | .hbm, ⟨77, _⟩ => ⟨S8192x8192, .f32⟩
  | .hbm, ⟨78, _⟩ => ⟨S_, .f32⟩
  | .hbm, ⟨79, _⟩ => ⟨S_, .f32⟩
  | .hbm, ⟨80, _⟩ => ⟨S8192x8192, .f32⟩
  | .hbm, ⟨81, _⟩ => ⟨S8192x8192, .f32⟩
  | .hbm, ⟨82, _⟩ => ⟨S_, .f32⟩
  | .hbm, ⟨83, _⟩ => ⟨S8192, .f32⟩
  | .hbm, ⟨84, _⟩ => ⟨S_, .f32⟩
  | .hbm, ⟨85, _⟩ => ⟨S8192, .f32⟩
  | .hbm, ⟨86, _⟩ => ⟨S8192, .f32⟩
  | .hbm, ⟨87, _⟩ => ⟨S8192x1, .f32⟩
  | .hbm, ⟨88, _⟩ => ⟨S8192x8192, .f32⟩
  | .hbm, ⟨89, _⟩ => ⟨S8192x8192, .f32⟩
  | .hbm, ⟨90, _⟩ => ⟨S8192x8192, .f32⟩
  | .hbm, ⟨91, _⟩ => ⟨S_, .f32⟩
  | .hbm, ⟨92, _⟩ => ⟨S8192, .f32⟩
  | .hbm, ⟨93, _⟩ => ⟨S8192x1, .f32⟩
  | .hbm, ⟨94, _⟩ => ⟨S8192x8192, .f32⟩
  | .hbm, ⟨95, _⟩ => ⟨S8192x8192, .f32⟩
  | .hbm, ⟨96, _⟩ => ⟨S8192x64, .f32⟩
  | .hbm, ⟨97, _⟩ => ⟨S_, .f32⟩
  | .hbm, ⟨98, _⟩ => ⟨S8192x64, .f32⟩
  | .hbm, ⟨99, _⟩ => ⟨S8192x64, .i1⟩
  | .hbm, ⟨100, _⟩ => ⟨S_, .f32⟩
  | .hbm, ⟨101, _⟩ => ⟨S8192x64, .f32⟩
  | .hbm, ⟨102, _⟩ => ⟨S8192x64, .i1⟩
  | .hbm, ⟨103, _⟩ => ⟨S_, .f32⟩
  | .hbm, ⟨104, _⟩ => ⟨S_, .f32⟩
  | .hbm, ⟨105, _⟩ => ⟨S8192x64, .f32⟩
  | .hbm, ⟨106, _⟩ => ⟨S8192x64, .f32⟩
  | .hbm, ⟨107, _⟩ => ⟨S8192x64, .f32⟩
  | .hbm, ⟨108, _⟩ => ⟨S_, .f32⟩
  | .hbm, ⟨109, _⟩ => ⟨S8192x64, .f32⟩
  | .hbm, ⟨110, _⟩ => ⟨S8192x64, .f32⟩
  | .hbm, ⟨111, _⟩ => ⟨S8192x64, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v10 : Ref sig .tc := ⟨.hbm, 27, rfl⟩
abbrev main_cst_0 : Ref sig .tc := ⟨.hbm, 28, rfl⟩
abbrev main_call1_v0 : Ref sig .tc := ⟨.hbm, 29, rfl⟩
abbrev main_call1_v1 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call2_cst : Ref sig .tc := ⟨.hbm, 47, rfl⟩
abbrev main_call2_v0 : Ref sig .tc := ⟨.hbm, 48, rfl⟩
abbrev main_call2_v1 : Ref sig .tc := ⟨.hbm, 49, rfl⟩
abbrev main_call2_cst_0 : Ref sig .tc := ⟨.hbm, 50, rfl⟩
abbrev main_call2_v2 : Ref sig .tc := ⟨.hbm, 51, rfl⟩
abbrev main_call2_v3 : Ref sig .tc := ⟨.hbm, 52, rfl⟩
abbrev main_call2_cst_1 : Ref sig .tc := ⟨.hbm, 53, rfl⟩
abbrev main_call2_call0_v0 : Ref sig .tc := ⟨.hbm, 54, rfl⟩
abbrev main_call2_call0_v1 : Ref sig .tc := ⟨.hbm, 55, rfl⟩
abbrev main_call2_v4 : Ref sig .tc := ⟨.hbm, 56, rfl⟩
abbrev main_call2_v5 : Ref sig .tc := ⟨.hbm, 57, rfl⟩
abbrev main_call2_cst_2 : Ref sig .tc := ⟨.hbm, 58, rfl⟩
abbrev main_call2_v6 : Ref sig .tc := ⟨.hbm, 59, rfl⟩
abbrev main_call2_v7 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_4 : Ref sig .tc := ⟨.hbm, 70, rfl⟩
abbrev main_call3_cst : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_v33 : Ref sig .tc := ⟨.hbm, 77, rfl⟩
abbrev main_cst_5 : Ref sig .tc := ⟨.hbm, 78, rfl⟩
abbrev main_call4_v0 : Ref sig .tc := ⟨.hbm, 79, rfl⟩
abbrev main_call4_v1 : Ref sig .tc := ⟨.hbm, 80, rfl⟩
abbrev main_v34 : Ref sig .tc := ⟨.hbm, 81, rfl⟩
abbrev main_cst_6 : Ref sig .tc := ⟨.hbm, 82, rfl⟩
abbrev main_v35 : Ref sig .tc := ⟨.hbm, 83, rfl⟩
abbrev main_cst_7 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_cst_8 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_call5_cst : Ref sig .tc := ⟨.hbm, 97, rfl⟩
abbrev main_call5_v0 : Ref sig .tc := ⟨.hbm, 98, rfl⟩
abbrev main_call5_v1 : Ref sig .tc := ⟨.hbm, 99, rfl⟩
abbrev main_call5_cst_0 : Ref sig .tc := ⟨.hbm, 100, rfl⟩
abbrev main_call5_v2 : Ref sig .tc := ⟨.hbm, 101, rfl⟩
abbrev main_call5_v3 : Ref sig .tc := ⟨.hbm, 102, rfl⟩
abbrev main_call5_cst_1 : Ref sig .tc := ⟨.hbm, 103, rfl⟩
abbrev main_call5_call0_v0 : Ref sig .tc := ⟨.hbm, 104, rfl⟩
abbrev main_call5_call0_v1 : Ref sig .tc := ⟨.hbm, 105, rfl⟩
abbrev main_call5_v4 : Ref sig .tc := ⟨.hbm, 106, rfl⟩
abbrev main_call5_v5 : Ref sig .tc := ⟨.hbm, 107, rfl⟩
abbrev main_call5_cst_2 : Ref sig .tc := ⟨.hbm, 108, rfl⟩
abbrev main_call5_v6 : Ref sig .tc := ⟨.hbm, 109, rfl⟩
abbrev main_call5_v7 : Ref sig .tc := ⟨.hbm, 110, rfl⟩
abbrev main_v47 : Ref sig .tc := ⟨.hbm, 111, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x256 : S_.BroadcastsInDim S8192x256 (![] : Fin 0 → Fin S8192x256.rank)
  bcast_S_S8192x64 : S_.BroadcastsInDim S8192x64 (![] : Fin 0 → Fin S8192x64.rank)
  dot_S8192x512_S512x256_S8192x256_1_0_0_1_n_n_wf : DotDims.WF S8192x512 S512x256 S8192x256 [1] [0] [0] [1] [] []
  dot_S8192x256_S256x1_S8192x1_1_0_0_1_n_n_wf : DotDims.WF S8192x256 S256x1 S8192x1 [1] [0] [0] [1] [] []
  dot_S8192x8192_S8192x256_S8192x256_1_0_0_1_n_n_wf : DotDims.WF S8192x8192 S8192x256 S8192x256 [1] [0] [0] [1] [] []
  dot_S8192x256_S256x64_S8192x64_1_0_0_1_n_n_wf : DotDims.WF S8192x256 S256x64 S8192x64 [1] [0] [0] [1] [] []
  dot_S8192x64_S64x1_S8192x1_1_0_0_1_n_n_wf : DotDims.WF S8192x64 S64x1 S8192x1 [1] [0] [0] [1] [] []
  dot_S8192x8192_S8192x64_S8192x64_1_0_0_1_n_n_wf : DotDims.WF S8192x8192 S8192x64 S8192x64 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.K.R0Base.lean ====
/-
  The first attention layer's kernel region: where on its 8 x 8 grid each of the body's two branches is taken.
  A point `t` is query tile `t / 8` and key tile `t % 8`. The running maximum, running sum and accumulator are reset
  at key tile 0 and the normalised, activated block is stored at key tile 7; the output window is untouched
  (idle) at the other key tiles and written back only after key tile 7.
-/
import proofs.«404965_j38543036514339_3_alg».proof.Proof.Gen.Kernel.Skeleton
import proofs.«404965_j38543036514339_3_alg».proof.Proof.Gen.Kernel.Launch
import proofs.«404965_j38543036514339_3_alg».proof.Proof.Gen.Kernel.Points
import Idealize.ShloMosaic.Lib.Pipeline.Frame
import Idealize.ShloMosaic.Lib.Exec
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-- The reset branch is taken: the key tile is 0. -/
abbrev condReset (i : grid0.Coords) : Prop :=
  (Scalar.cmpi .ne (Scalar.extui (Scalar.cmpi .eq (BitVec.ofNat 32 (i 1).val) 0#32)) 0#32) = 1#1
/-- The epilogue branch is taken: the key tile is 7. -/
abbrev condLast (i : grid0.Coords) : Prop := k0_cond2 i = 1#1

theorem hcondReset : ∀ t : Fin cfg0.N, condReset (grid0.coords t) ↔ t.val % 8 = 0 :=
  (by decide +kernel : ∀ t : Fin grid0.N, condReset (grid0.coords t) ↔ t.val % 8 = 0)
theorem hcondLast : ∀ t : Fin cfg0.N, condLast (grid0.coords t) ↔ t.val % 8 = 7 :=
  (by decide +kernel : ∀ t : Fin grid0.N, condLast (grid0.coords t) ↔ t.val % 8 = 7)

/-- The five input windows are stored into nowhere and never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- The output window is idle, and not written back, away from key tile 7; live there. -/
theorem idle5 : ∀ t : Fin cfg0.N, ¬condLast (grid0.coords t) → cfg0.idle 5 (grid0.coords t) = true := by decide +kernel
theorem noFlush5 : ∀ t : Fin cfg0.N, ¬condLast (grid0.coords t) → (cfg0.win 5).flush t = false := by decide +kernel
theorem live5 : ∀ t : Fin cfg0.N, condLast (grid0.coords t) → cfg0.idle 5 (grid0.coords t) = false := by decide +kernel

/-- The three scratch buffers the body carries from key tile to key tile. -/
abbrev scMax : Memref sig .tc .vmem S1024x1 .f32 := Memref.whole cc0_scratch0
abbrev scSum : Memref sig .tc .vmem S1024x1 .f32 := Memref.whole cc0_scratch1
abbrev scAcc : Memref sig .tc .vmem S1024x256 .f32 := Memref.whole cc0_scratch2

end Cert.Kernel.R0

end
-- ==== Proof.K.R0RunReset.lean ====
/-
  The body of the first layer's kernel at key tile 0: the reset branch is taken, so the carried maximum, sum and
  accumulator are first overwritten whole (by the finite sentinel and by zeros) and what they held before is never
  read; the online-softmax step then runs from that start. The output block is not stored.
-/
import proofs.«404965_j38543036514339_3_alg».proof.Proof.K.R0Base

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
local notation "𝕄" => MT nD τ sig Unit (Elt F) ℕ (UR sig nD τ) ℕ

set_option maxHeartbeats 4000000 in
/-- On whole staging memrefs holding `x0 … x4`, the output's at `xo` (handed back untouched), the three scratch
    buffers at anything: the body runs and leaves each scratch with the pieces its stores wrote (reset, then step). -/
noncomputable def runReset (c : Dev nD) (i : grid0.Coords)
    (arg2 : Memref sig .tc .vmem S1024x1 .f32) (harg2 : arg2.IsWhole) (arg3 : Memref sig .tc .vmem S1x1024 .f32) (harg3 : arg3.IsWhole)
    (arg4 : Memref sig .tc .vmem S1024x1024 .f32) (harg4 : arg4.IsWhole) (arg5 : Memref sig .tc .vmem S1024x1024 .i32) (harg5 : arg5.IsWhole)
    (arg6 : Memref sig .tc .vmem S8192x256 .bf16) (harg6 : arg6.IsWhole) (arg7 : Memref sig .tc .vmem S1024x256 .f32) (harg7 : arg7.IsWhole)
    (hr : condReset i) (hl : ¬condLast i)
    (x0 : Vec F S1024x1 .f32) (x1 : Vec F S1x1024 .f32) (x2 : Vec F S1024x1024 .f32) (x3 : Vec F S1024x1024 .i32) (x4 : Vec F S8192x256 .bf16) :
    Σ' (LM LS : List (View.Piece (Elt F) S1024x1 .f32)), { LA : List (View.Piece (Elt F) S1024x256 .f32) //
      ∀ (xo : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xo
            ∗ (∃ d, owns (c : Thread nD τ) scMax fullShare d) ∗ (∃ d, owns (c : Thread nD τ) scSum fullShare d) ∗ (∃ d, owns (c : Thread nD τ) scAcc fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xo
                ∗ (∃ f, scMax.view.loc (c : Thread nD τ) ↦[scMax.view.set]{fullShare} scMax.view.writes (Elt F) f LM)
                ∗ (∃ f, scSum.view.loc (c : Thread nD τ) ↦[scSum.view.set]{fullShare} scSum.view.writes (Elt F) f LS)
                ∗ (∃ f, scAcc.view.loc (c : Thread nD τ) ↦[scAcc.view.set]{fullShare} scAcc.view.writes (Elt F) f LA)) -∗ K ⟨⟩))
          ⊢ wp frame (wpE (defs₀ (F := F)) Variants.none c none) E
              (cc0__gat_attn_kernel i arg2 harg2 arg3 harg3 arg4 harg4 arg5 harg5 arg6 harg6 arg7 harg7 scMax (Memref.isWhole_whole _) scSum (Memref.isWhole_whole _) scAcc (Memref.isWhole_whole _)) K } := by
  refine ⟨?_, ?_, ?_, fun xo E K => ?run⟩
  case run =>
    simp only [cc0__gat_attn_kernel_eq_skeleton]; unfold cc0__gat_attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dm, %fm, -, HM⟩, ⟨%ds, %fs, -, HS⟩, ⟨%da, %fa, -, HA⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hr | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HM]; · iexists _; iexact HM
    isplitl [HS]; · iexists _; iexact HS
    iexists _; iexact HA

end Cert.Kernel.R0

end
-- ==== Proof.K.R0RunMid.lean ====
/-
  The body of the first layer's kernel at a key tile that is neither the first nor the last: neither branch is
  taken. It reads the query column, the key row, the coefficient tile, the adjacency tile and the key tile's rows
  of the resident features, and replaces the carried maximum, sum and accumulator by the online-softmax step's.
-/
import proofs.«404965_j38543036514339_3_alg».proof.Proof.K.R0RunReset

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole staging memrefs holding `x0 … x4`, the output's at `xo` (handed back untouched), the carried scratch
    at `sm`, `sl`, `sa`: the body runs and leaves each scratch with the pieces its stores wrote. -/
noncomputable def runMid (c : Dev nD) (i : grid0.Coords)
    (arg2 : Memref sig .tc .vmem S1024x1 .f32) (harg2 : arg2.IsWhole) (arg3 : Memref sig .tc .vmem S1x1024 .f32) (harg3 : arg3.IsWhole)
    (arg4 : Memref sig .tc .vmem S1024x1024 .f32) (harg4 : arg4.IsWhole) (arg5 : Memref sig .tc .vmem S1024x1024 .i32) (harg5 : arg5.IsWhole)
    (arg6 : Memref sig .tc .vmem S8192x256 .bf16) (harg6 : arg6.IsWhole) (arg7 : Memref sig .tc .vmem S1024x256 .f32) (harg7 : arg7.IsWhole)
    (hr : ¬condReset i) (hl : ¬condLast i)
    (x0 : Vec F S1024x1 .f32) (x1 : Vec F S1x1024 .f32) (x2 : Vec F S1024x1024 .f32) (x3 : Vec F S1024x1024 .i32) (x4 : Vec F S8192x256 .bf16)
    (sm sl : Vec F S1024x1 .f32) (sa : Vec F S1024x256 .f32) :
    Σ' (LM LS : List (View.Piece (Elt F) S1024x1 .f32)), { LA : List (View.Piece (Elt F) S1024x256 .f32) //
      ∀ (xo : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xo
            ∗ owns (c : Thread nD τ) scMax fullShare sm ∗ owns (c : Thread nD τ) scSum fullShare sl ∗ owns (c : Thread nD τ) scAcc fullShare sa
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare xo
                ∗ (∃ f, scMax.view.loc (c : Thread nD τ) ↦[scMax.view.set]{fullShare} scMax.view.writes (Elt F) f LM)
                ∗ (∃ f, scSum.view.loc (c : Thread nD τ) ↦[scSum.view.set]{fullShare} scSum.view.writes (Elt F) f LS)
                ∗ (∃ f, scAcc.view.loc (c : Thread nD τ) ↦[scAcc.view.set]{fullShare} scAcc.view.writes (Elt F) f LA)) -∗ K ⟨⟩))
          ⊢ wp frame (wpE (defs₀ (F := F)) Variants.none c none) E
              (cc0__gat_attn_kernel i arg2 harg2 arg3 harg3 arg4 harg4 arg5 harg5 arg6 harg6 arg7 harg7 scMax (Memref.isWhole_whole _) scSum (Memref.isWhole_whole _) scAcc (Memref.isWhole_whole _)) K } := by
  refine ⟨?_, ?_, ?_, fun xo E K => ?run⟩
  case run =>
    simp only [cc0__gat_attn_kernel_eq_skeleton]; unfold cc0__gat_attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fm, %hfm, HM⟩, ⟨%fs, %hfs, HS⟩, ⟨%fa, %hfa, HA⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := (Memref.isWhole_whole _ : scMax.IsWhole).eq_unread hfm
    obtain rfl := (Memref.isWhole_whole _ : scSum.IsWhole).eq_unread hfs
    obtain rfl := (Memref.isWhole_whole _ : scAcc.IsWhole).eq_unread hfa
    sl_exec (disch := first | exact hr | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HM]; · iexists _; iexact HM
    isplitl [HS]; · iexists _; iexact HS
    iexists _; iexact HA

end Cert.Kernel.R0

end
-- ==== Proof.K.R0RunLast.lean ====
/-
  The body of the first layer's kernel at key tile 7: the online-softmax step as at every later key tile, then the
  epilogue branch, which divides the accumulator by the sum, applies the exponential linear unit and stores the
  whole output block. What the output's buffer held before is never read.
-/
import proofs.«404965_j38543036514339_3_alg».proof.Proof.K.R0RunMid

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
local notation "𝕄" => MT nD τ sig Unit (Elt F) ℕ (UR sig nD τ) ℕ

set_option maxHeartbeats 4000000 in
/-- On whole staging memrefs holding `x0 … x4`, the output's at anything, the carried scratch at `sm`, `sl`,
    `sa`: the body runs and leaves each scratch, and the output's buffer, with the pieces its stores wrote. -/
noncomputable def runLast (c : Dev nD) (i : grid0.Coords)
    (arg2 : Memref sig .tc .vmem S1024x1 .f32) (harg2 : arg2.IsWhole) (arg3 : Memref sig .tc .vmem S1x1024 .f32) (harg3 : arg3.IsWhole)
    (arg4 : Memref sig .tc .vmem S1024x1024 .f32) (harg4 : arg4.IsWhole) (arg5 : Memref sig .tc .vmem S1024x1024 .i32) (harg5 : arg5.IsWhole)
    (arg6 : Memref sig .tc .vmem S8192x256 .bf16) (harg6 : arg6.IsWhole) (arg7 : Memref sig .tc .vmem S1024x256 .f32) (harg7 : arg7.IsWhole)
    (hr : ¬condReset i) (hl : condLast i)
    (x0 : Vec F S1024x1 .f32) (x1 : Vec F S1x1024 .f32) (x2 : Vec F S1024x1024 .f32) (x3 : Vec F S1024x1024 .i32) (x4 : Vec F S8192x256 .bf16)
    (sm sl : Vec F S1024x1 .f32) (sa : Vec F S1024x256 .f32) :
    Σ' (LM LS : List (View.Piece (Elt F) S1024x1 .f32)) (LA : List (View.Piece (Elt F) S1024x256 .f32)), { LO : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ owns (c : Thread nD τ) scMax fullShare sm ∗ owns (c : Thread nD τ) scSum fullShare sl ∗ owns (c : Thread nD τ) scAcc fullShare sa
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ (∃ f, arg7.view.loc (c : Thread nD τ) ↦[arg7.view.set]{fullShare} arg7.view.writes (Elt F) f LO)
                ∗ (∃ f, scMax.view.loc (c : Thread nD τ) ↦[scMax.view.set]{fullShare} scMax.view.writes (Elt F) f LM)
                ∗ (∃ f, scSum.view.loc (c : Thread nD τ) ↦[scSum.view.set]{fullShare} scSum.view.writes (Elt F) f LS)
                ∗ (∃ f, scAcc.view.loc (c : Thread nD τ) ↦[scAcc.view.set]{fullShare} scAcc.view.writes (Elt F) f LA)) -∗ K ⟨⟩))
          ⊢ wp frame (wpE (defs₀ (F := F)) Variants.none c none) E
              (cc0__gat_attn_kernel i arg2 harg2 arg3 harg3 arg4 harg4 arg5 harg5 arg6 harg6 arg7 harg7 scMax (Memref.isWhole_whole _) scSum (Memref.isWhole_whole _) scAcc (Memref.isWhole_whole _)) K } := by
  refine ⟨?_, ?_, ?_, ?_, fun E K => ?run⟩
  case run =>
    simp only [cc0__gat_attn_kernel_eq_skeleton]; unfold cc0__gat_attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fm, %hfm, HM⟩, ⟨%fs, %hfs, HS⟩, ⟨%fa, %hfa, HA⟩, Hk⟩
    obtain rfl := harg2.eq_unread hf0; obtain rfl := harg3.eq_unread hf1; obtain rfl := harg4.eq_unread hf2
    obtain rfl := harg5.eq_unread hf3; obtain rfl := harg6.eq_unread hf4
    obtain rfl := (Memref.isWhole_whole _ : scMax.IsWhole).eq_unread hfm
    obtain rfl := (Memref.isWhole_whole _ : scSum.IsWhole).eq_unread hfs
    obtain rfl := (Memref.isWhole_whole _ : scAcc.IsWhole).eq_unread hfa
    sl_exec (disch := first | exact hr | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HM]; · iexists _; iexact HM
    isplitl [HS]; · iexists _; iexact HS
    iexists _; iexact HA

end Cert.Kernel.R0

end
-- ==== Proof.K.R0Data.lean ====
/-
  The first attention layer's kernel region, point by point. Point `t` of the 8 x 8 grid is query tile `t / 8`
  against key tile `t % 8`. Every input window's staging buffer holds that point's block of its array. The body
  carries three values from key tile to key tile of one query tile — the running maximum and running sum of each
  query row and the accumulated weighted features — in scratch buffers the pipeline does not stage; they are reset
  at key tile 0, so what a query tile starts from is never read. The output block is stored once, at key tile 7.
-/
import proofs.«404965_j38543036514339_3_alg».proof.Proof.K.R0RunLast
import Idealize.ShloMosaic.Lib.Pipeline.FrameBody
import Idealize.ShloMosaic.Lib.Ring
import Idealize.ShloMosaic.Lib.Writes

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- The unscoped buffers' contents as the region is entered.
variable (V : (c : Dev nD) → (b : Ref sig .tc) → Buf (Elt F) ((c : Thread nD τ).loc b))

/-! ## The windows at a point -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging memref each window is on at point `t`. -/
abbrev ms0 (t : Fin cfg0.N) : Memref sig .tc .vmem S1024x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8192x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x256 .f32 := win0_5.stage (cfg0.slots t 5)
abbrev hs5 (t : Fin cfg0.N) : (ms5 t).IsWhole := hstage0_5 ((cfg0.slots t 5).cast nbuf0_5)

/-! ## What each case leaves, read back from the pieces its stores wrote -/

/-- Fixed whole views to read a scratch's, and the output block's, pieces back through. -/
abbrev VMax : View sig .tc .vmem S1024x1 .f32 := scMax.view
abbrev VSum : View sig .tc .vmem S1024x1 .f32 := scSum.view
abbrev VAcc : View sig .tc .vmem S1024x256 .f32 := scAcc.view
abbrev VOut : View sig .tc .vmem S1024x256 .f32 := (Memref.whole cc0_stg5_0 : Memref sig .tc .vmem S1024x256 .f32).view

/-- The carried triple: running maximum, running sum, accumulator. -/
abbrev Carried (F : FTy → Type) [FloatOps F] : Type := Vec F S1024x1 .f32 × Vec F S1024x1 .f32 × Vec F S1024x256 .f32

section AtPoint

variable (c : Dev nD) (t : Fin cfg0.N)

/-- The reset case's run at point `t`, on that point's memrefs and input blocks. -/
abbrev resetAt (hr : t.val % 8 = 0) (hl : ¬t.val % 8 = 7) :=
  runReset (F := F) c (grid0.coords t) (ms0 t) (hs0 t) (ms1 t) (hs1 t) (ms2 t) (hs2 t) (ms3 t) (hs3 t) (ms4 t) (hs4 t) (ms5 t) (hs5 t)
    ((hcondReset t).mpr hr) (fun h => hl ((hcondLast t).mp h)) (iblk V c 0 t) (iblk V c 1 t) (iblk V c 2 t) (iblk V c 3 t) (iblk V c 4 t)
/-- The middle case's, from what the point before left. -/
abbrev midAt (hr : ¬t.val % 8 = 0) (hl : ¬t.val % 8 = 7) (p : Carried F) :=
  runMid (F := F) c (grid0.coords t) (ms0 t) (hs0 t) (ms1 t) (hs1 t) (ms2 t) (hs2 t) (ms3 t) (hs3 t) (ms4 t) (hs4 t) (ms5 t) (hs5 t)
    (fun h => hr ((hcondReset t).mp h)) (fun h => hl ((hcondLast t).mp h)) (iblk V c 0 t) (iblk V c 1 t) (iblk V c 2 t) (iblk V c 3 t) (iblk V c 4 t) p.1 p.2.1 p.2.2
/-- The last case's, from what the point before left. -/
abbrev lastAt (hr : ¬t.val % 8 = 0) (hl : t.val % 8 = 7) (p : Carried F) :=
  runLast (F := F) c (grid0.coords t) (ms0 t) (hs0 t) (ms1 t) (hs1 t) (ms2 t) (hs2 t) (ms3 t) (hs3 t) (ms4 t) (hs4 t) (ms5 t) (hs5 t)
    (fun h => hr ((hcondReset t).mp h)) ((hcondLast t).mpr hl) (iblk V c 0 t) (iblk V c 1 t) (iblk V c 2 t) (iblk V c 3 t) (iblk V c 4 t) p.1 p.2.1 p.2.2

/-- What the reset case leaves carried: each scratch's pieces read back over junk. -/
def carriedReset (hr : t.val % 8 = 0) (hl : ¬t.val % 8 = 7) : Carried F :=
  (VMax.read (Elt F) (VMax.writes (Elt F) VMax.junk (resetAt V c t hr hl).1),
   VSum.read (Elt F) (VSum.writes (Elt F) VSum.junk (resetAt V c t hr hl).2.1),
   VAcc.read (Elt F) (VAcc.writes (Elt F) VAcc.junk (resetAt V c t hr hl).2.2.1))
def carriedMid (hr : ¬t.val % 8 = 0) (hl : ¬t.val % 8 = 7) (p : Carried F) : Carried F :=
  (VMax.read (Elt F) (VMax.writes (Elt F) VMax.junk (midAt V c t hr hl p).1),
   VSum.read (Elt F) (VSum.writes (Elt F) VSum.junk (midAt V c t hr hl p).2.1),
   VAcc.read (Elt F) (VAcc.writes (Elt F) VAcc.junk (midAt V c t hr hl p).2.2.1))
def carriedLast (hr : ¬t.val % 8 = 0) (hl : t.val % 8 = 7) (p : Carried F) : Carried F :=
  (VMax.read (Elt F) (VMax.writes (Elt F) VMax.junk (lastAt V c t hr hl p).1),
   VSum.read (Elt F) (VSum.writes (Elt F) VSum.junk (lastAt V c t hr hl p).2.1),
   VAcc.read (Elt F) (VAcc.writes (Elt F) VAcc.junk (lastAt V c t hr hl p).2.2.1))
/-- What the last case leaves in the output's staging buffer: the block it stores. -/
def outLast (hr : ¬t.val % 8 = 0) (hl : t.val % 8 = 7) (p : Carried F) : Vec F S1024x256 .f32 :=
  VOut.read (Elt F) (VOut.writes (Elt F) VOut.junk (lastAt V c t hr hl p).2.2.2.1)

/-- Every case's stores cover each scratch whole, and the last case's cover the output block. -/
theorem coverReset_max (hr : t.val % 8 = 0) (hl : ¬t.val % 8 = 7) (y : S1024x1.Idx) : ∃ pc ∈ (resetAt V c t hr hl).1, y ∈ pc.1.set :=
  View.cover_of_tiledL (resetAt V c t hr hl).1 S1024x1.size (by sl_kernel_rfl) y
theorem coverReset_sum (hr : t.val % 8 = 0) (hl : ¬t.val % 8 = 7) (y : S1024x1.Idx) : ∃ pc ∈ (resetAt V c t hr hl).2.1, y ∈ pc.1.set :=
  View.cover_of_tiledL (resetAt V c t hr hl).2.1 S1024x1.size (by sl_kernel_rfl) y
theorem coverReset_acc (hr : t.val % 8 = 0) (hl : ¬t.val % 8 = 7) (y : S1024x256.Idx) : ∃ pc ∈ (resetAt V c t hr hl).2.2.1, y ∈ pc.1.set :=
  View.cover_of_tiledL (resetAt V c t hr hl).2.2.1 S1024x256.size (by sl_kernel_rfl) y
theorem coverMid_max (hr : ¬t.val % 8 = 0) (hl : ¬t.val % 8 = 7) (p : Carried F) (y : S1024x1.Idx) : ∃ pc ∈ (midAt V c t hr hl p).1, y ∈ pc.1.set :=
  View.cover_of_tiledL (midAt V c t hr hl p).1 S1024x1.size (by sl_kernel_rfl) y
theorem coverMid_sum (hr : ¬t.val % 8 = 0) (hl : ¬t.val % 8 = 7) (p : Carried F) (y : S1024x1.Idx) : ∃ pc ∈ (midAt V c t hr hl p).2.1, y ∈ pc.1.set :=
  View.cover_of_tiledL (midAt V c t hr hl p).2.1 S1024x1.size (by sl_kernel_rfl) y
theorem coverMid_acc (hr : ¬t.val % 8 = 0) (hl : ¬t.val % 8 = 7) (p : Carried F) (y : S1024x256.Idx) : ∃ pc ∈ (midAt V c t hr hl p).2.2.1, y ∈ pc.1.set :=
  View.cover_of_tiledL (midAt V c t hr hl p).2.2.1 S1024x256.size (by sl_kernel_rfl) y
theorem coverLast_max (hr : ¬t.val % 8 = 0) (hl : t.val % 8 = 7) (p : Carried F) (y : S1024x1.Idx) : ∃ pc ∈ (lastAt V c t hr hl p).1, y ∈ pc.1.set :=
  View.cover_of_tiledL (lastAt V c t hr hl p).1 S1024x1.size (by sl_kernel_rfl) y
theorem coverLast_sum (hr : ¬t.val % 8 = 0) (hl : t.val % 8 = 7) (p : Carried F) (y : S1024x1.Idx) : ∃ pc ∈ (lastAt V c t hr hl p).2.1, y ∈ pc.1.set :=
  View.cover_of_tiledL (lastAt V c t hr hl p).2.1 S1024x1.size (by sl_kernel_rfl) y
theorem coverLast_acc (hr : ¬t.val % 8 = 0) (hl : t.val % 8 = 7) (p : Carried F) (y : S1024x256.Idx) : ∃ pc ∈ (lastAt V c t hr hl p).2.2.1, y ∈ pc.1.set :=
  View.cover_of_tiledL (lastAt V c t hr hl p).2.2.1 S1024x256.size (by sl_kernel_rfl) y
theorem coverLast_out (hr : ¬t.val % 8 = 0) (hl : t.val % 8 = 7) (p : Carried F) (y : S1024x256.Idx) : ∃ pc ∈ (lastAt V c t hr hl p).2.2.2.1, y ∈ pc.1.set :=
  View.cover_of_tiledL (lastAt V c t hr hl p).2.2.2.1 S1024x256.size (by sl_kernel_rfl) y

end AtPoint

/-! ## What is carried, and what the output's buffer holds, after each point -/

/-- After the body at position `n`: the output block's staging contents and the carried triple. At key tile 0 the
    reset case's, from nothing; at later key tiles the step's over what the point before left; the output block is
    what the last case stores, and at the other points a placeholder nothing consults (the window is idle there and
    not written back). -/
def outsAt (c : Dev nD) : (n : ℕ) → n < cfg0.N → Vec F S1024x256 .f32 × Carried F
  | 0, hn => (VOut.read (Elt F) VOut.junk, carriedReset V c ⟨0, hn⟩ (Nat.zero_mod _) (by show ¬ (0 % 8 = 7); decide))
  | n + 1, hn =>
    if hr : (n + 1) % 8 = 0 then
      if hl : (n + 1) % 8 = 7 then False.elim (by omega)
      else (VOut.read (Elt F) VOut.junk, carriedReset V c ⟨n + 1, hn⟩ hr hl)
    else
      if hl : (n + 1) % 8 = 7 then
        (outLast V c ⟨n + 1, hn⟩ hr hl (outsAt c n (Nat.lt_of_succ_lt hn)).2, carriedLast V c ⟨n + 1, hn⟩ hr hl (outsAt c n (Nat.lt_of_succ_lt hn)).2)
      else
        (VOut.read (Elt F) VOut.junk, carriedMid V c ⟨n + 1, hn⟩ hr hl (outsAt c n (Nat.lt_of_succ_lt hn)).2)

/-- What the point before `t` left carried (for `t` not the first point). -/
abbrev prevCarried (c : Dev nD) (t : Fin cfg0.N) : Carried F :=
  (outsAt V c (t.val - 1) (Nat.lt_of_le_of_lt (Nat.sub_le _ _) t.isLt)).2

theorem outsAt_reset (c : Dev nD) (t : Fin cfg0.N) (hr : t.val % 8 = 0) (hl : ¬t.val % 8 = 7) :
    outsAt V c t.val t.isLt = (VOut.read (Elt F) VOut.junk, carriedReset V c t hr hl) := by
  obtain ⟨n, hn⟩ := t
  cases n with
  | zero => exact rfl
  | succ n => exact (dif_pos hr).trans ((dif_neg hl).trans rfl)
theorem outsAt_mid (c : Dev nD) (t : Fin cfg0.N) (hr : ¬t.val % 8 = 0) (hl : ¬t.val % 8 = 7) :
    outsAt V c t.val t.isLt = (VOut.read (Elt F) VOut.junk, carriedMid V c t hr hl (prevCarried V c t)) := by
  obtain ⟨n, hn⟩ := t
  cases n with
  | zero => exact absurd (Nat.zero_mod _) hr
  | succ n => exact (dif_neg hr).trans ((dif_neg hl).trans rfl)
theorem outsAt_last (c : Dev nD) (t : Fin cfg0.N) (hr : ¬t.val % 8 = 0) (hl : t.val % 8 = 7) :
    outsAt V c t.val t.isLt = (outLast V c t hr hl (prevCarried V c t), carriedLast V c t hr hl (prevCarried V c t)) := by
  obtain ⟨n, hn⟩ := t
  cases n with
  | zero => exact absurd (Nat.zero_mod _) hr
  | succ n => exact (dif_neg hr).trans ((dif_pos hl).trans rfl)

/-! ## The invariant -/

/-- The core's scoped buffers that are neither a staging buffer of this region nor one of its three scratch
    buffers (the second layer's region's), each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

/-- The class's invariant with this region's three scratch buffers as memrefs owned at some contents. -/
theorem PhiA_eq (c : Dev nD) :
    (Pipeline.ΦA spec0 c : sProp 𝕄)
      = iprop(iprop((∃ d, owns (c : Thread nD τ) scMax fullShare d) ∗ (∃ d, owns (c : Thread nD τ) scSum fullShare d) ∗ (∃ d, owns (c : Thread nD τ) scAcc fullShare d) ∗ otherScoped (F := F) c) ∗ (∃ r, prngReg c r)) := by
  unfold Pipeline.ΦA otherScoped; rw [scopedRest0_eq]; simp only [scMax, scSum, scAcc, owns_whole]
  -- the scoped rest lists the same seventeen buffers, possibly in another order: a bi-entailment is an equality
  first
  | rfl
  | (refine congrArg (fun X : sProp 𝕄 => iprop(X ∗ (∃ r, prngReg c r))) (equiv_iff.mp ⟨?_, ?_⟩) <;>
      (show (_ : sProp 𝕄) ⊢ _; iintro ⟨H1, H2, H3, H4, H5, H6, H7, H8, H9, H10, H11, H12, H13, H14, H15, H16, H17⟩; iframe))

/-- Before position `n`: before the first point the class's invariant (every scratch at anything); afterwards the
    three carried scratch buffers at what the point before left, the other scoped buffers at anything, the
    generator register at some state. -/
def PhiS (c : Dev nD) : (n : ℕ) → n ≤ cfg0.N → sProp 𝕄
  | 0, _ => Pipeline.ΦA spec0 c
  | n + 1, hn => iprop(iprop(owns (c : Thread nD τ) scMax fullShare (outsAt V c n hn).2.1 ∗ owns (c : Thread nD τ) scSum fullShare (outsAt V c n hn).2.2.1
      ∗ owns (c : Thread nD τ) scAcc fullShare (outsAt V c n hn).2.2.2 ∗ otherScoped (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scMax fullShare (outsAt V c n hn).2.1 ∗ owns (c : Thread nD τ) scSum fullShare (outsAt V c n hn).2.2.1
      ∗ owns (c : Thread nD τ) scAcc fullShare (outsAt V c n hn).2.2.2 ∗ otherScoped (F := F) c) ∗ (∃ r, prngReg c r)) := rfl
theorem PhiS_pos (c : Dev nD) (n : ℕ) (h : n ≤ cfg0.N) (hz : n ≠ 0) :
    PhiS V c n h = iprop(iprop(owns (c : Thread nD τ) scMax fullShare (outsAt V c (n - 1) (by omega)).2.1 ∗ owns (c : Thread nD τ) scSum fullShare (outsAt V c (n - 1) (by omega)).2.2.1
      ∗ owns (c : Thread nD τ) scAcc fullShare (outsAt V c (n - 1) (by omega)).2.2.2 ∗ otherScoped (F := F) c) ∗ (∃ r, prngReg c r)) := by
  cases n with
  | zero => exact absurd rfl hz
  | succ n => rfl

/-! ## The proof data -/

/-- The region's proof data on core `c`: the arrays as the region finds them; after the body at point `t` each
    input's buffer at its block and the output's at `outsAt`'s first component; the invariant `PhiS`; nothing owed;
    full shares. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

theorem A_eq (c : Dev nD) (w : Fin cfg0.W) : (dat0 V c).A w = V c (Pipeline.arrRef spec0 w) := by dsimp only [dat0]
theorem PhiS_castSucc (c : Dev nD) (t : Fin cfg0.N) : (dat0 V c).Φ t.castSucc = PhiS V c t.val (Nat.le_of_lt t.isLt) := by
  dsimp only [dat0]; simp only [Fin.coe_castSucc]
theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = iblk V c 4 t := by dsimp only [dat0]
theorem after_5 (c : Dev nD) (t : Fin cfg0.N) : (dat0 V c).after 5 t = (outsAt V c t.val t.isLt).1 := by dsimp only [dat0]

/-! ## The body obligation -/

/-- Each input window's current staging buffer holds its block at every point. -/
theorem before_0 (c : Dev nD) (t : Fin cfg0.N) (d) : (dat0 V c).before 0 t d = iblk V c 0 t :=
  ((dat0 V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat0 V c).before 1 t d = iblk V c 1 t :=
  ((dat0 V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat0 V c).before 2 t d = iblk V c 2 t :=
  ((dat0 V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat0 V c).before 3 t d = iblk V c 3 t :=
  ((dat0 V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat0 V c).before 4 t d = iblk V c 4 t :=
  ((dat0 V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d))
    ∗ (∃ d, owns (c : Thread nD τ) (ms5 t) fullShare ((dat0 V c).before 5 t d)))
/-- and what it returns. -/
def bodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- The body at any point. The inputs' memrefs hold their blocks; the key tile says which case the point is in;
    the invariant hands the body the carried buffers at what the point before left (at anything before the first
    point, and the reset case does not look), and takes them back at this point's contents, each read back from
    the pieces that cover it; the output's buffer goes back as found away from key tile 7 and at the stored block
    there; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases hr : t.val % 8 = 0
  · by_cases hl : t.val % 8 = 7
    · exfalso; omega
    · rw [show (dat0 V c).leavesExact 0 t = owns (c : Thread nD τ) (ms0 t) fullShare ((dat0 V c).after 0 t) from by
        unfold Dat.leavesExact; rw [live0 t], after_0]
      rw [show (dat0 V c).leavesExact 1 t = owns (c : Thread nD τ) (ms1 t) fullShare ((dat0 V c).after 1 t) from by
        unfold Dat.leavesExact; rw [live1 t], after_1]
      rw [show (dat0 V c).leavesExact 2 t = owns (c : Thread nD τ) (ms2 t) fullShare ((dat0 V c).after 2 t) from by
        unfold Dat.leavesExact; rw [live2 t], after_2]
      rw [show (dat0 V c).leavesExact 3 t = owns (c : Thread nD τ) (ms3 t) fullShare ((dat0 V c).after 3 t) from by
        unfold Dat.leavesExact; rw [live3 t], after_3]
      rw [show (dat0 V c).leavesExact 4 t = owns (c : Thread nD τ) (ms4 t) fullShare ((dat0 V c).after 4 t) from by
        unfold Dat.leavesExact; rw [live4 t], after_4]
      rw [Dat.leavesExact_idle (dat0 V c) 5 t (idle5 t (fun h => hl ((hcondLast t).mp h))) (noFlush5 t (fun h => hl ((hcondLast t).mp h)))]
      rw [outsAt_reset V c t hr hl]
      unfold carriedReset; (try dsimp only)
      by_cases hz : t.val = 0
      · rw [PhiS_castSucc V c t, PhiS_zero V c _ _ hz, PhiA_eq]
        iintro ⟨⟨⟨HM, HS, HA, Hrest⟩, Hg⟩, Ho, ⟨%d0, H0⟩, ⟨%d1, H1⟩, ⟨%d2, H2⟩, ⟨%d3, H3⟩, ⟨%d4, H4⟩, ⟨%d5, H5⟩⟩
        iapply ((resetAt V c t hr hl).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HM]; · iexact HM
        isplitl [HS]; · iexact HS
        isplitl [HA]; · iexact HA
        iintro ⟨H0, H1, H2, H3, H4, H5, ⟨%em, HM⟩, ⟨%es, HS⟩, ⟨%ea, HA⟩⟩
        isplitl [HM HS HA Hrest Hg]
        · isplitl [HM HS HA Hrest]
          · isplitl [HM]
            · unfold owns; iexists _; isplitr; swap; iexact HM; ipureintro; exact View.read_writes_of_cover _ _ _ _ _ (coverReset_max V c t hr hl)
            isplitl [HS]
            · unfold owns; iexists _; isplitr; swap; iexact HS; ipureintro; exact View.read_writes_of_cover _ _ _ _ _ (coverReset_sum V c t hr hl)
            isplitl [HA]
            · unfold owns; iexists _; isplitr; swap; iexact HA; ipureintro; exact View.read_writes_of_cover _ _ _ _ _ (coverReset_acc V c t hr hl)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨HM, HS, HA, Hrest⟩, Hg⟩, Ho, ⟨%d0, H0⟩, ⟨%d1, H1⟩, ⟨%d2, H2⟩, ⟨%d3, H3⟩, ⟨%d4, H4⟩, ⟨%d5, H5⟩⟩
        iapply ((resetAt V c t hr hl).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HM]; · iexists _; iexact HM
        isplitl [HS]; · iexists _; iexact HS
        isplitl [HA]; · iexists _; iexact HA
        iintro ⟨H0, H1, H2, H3, H4, H5, ⟨%em, HM⟩, ⟨%es, HS⟩, ⟨%ea, HA⟩⟩
        isplitl [HM HS HA Hrest Hg]
        · isplitl [HM HS HA Hrest]
          · isplitl [HM]
            · unfold owns; iexists _; isplitr; swap; iexact HM; ipureintro; exact View.read_writes_of_cover _ _ _ _ _ (coverReset_max V c t hr hl)
            isplitl [HS]
            · unfold owns; iexists _; isplitr; swap; iexact HS; ipureintro; exact View.read_writes_of_cover _ _ _ _ _ (coverReset_sum V c t hr hl)
            isplitl [HA]
            · unfold owns; iexists _; isplitr; swap; iexact HA; ipureintro; exact View.read_writes_of_cover _ _ _ _ _ (coverReset_acc V c t hr hl)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun h => hr (by rw [h])
    by_cases hl : t.val % 8 = 7
    · rw [show (dat0 V c).leavesExact 0 t = owns (c : Thread nD τ) (ms0 t) fullShare ((dat0 V c).after 0 t) from by
        unfold Dat.leavesExact; rw [live0 t], after_0]
      rw [show (dat0 V c).leavesExact 1 t = owns (c : Thread nD τ) (ms1 t) fullShare ((dat0 V c).after 1 t) from by
        unfold Dat.leavesExact; rw [live1 t], after_1]
      rw [show (dat0 V c).leavesExact 2 t = owns (c : Thread nD τ) (ms2 t) fullShare ((dat0 V c).after 2 t) from by
        unfold Dat.leavesExact; rw [live2 t], after_2]
      rw [show (dat0 V c).leavesExact 3 t = owns (c : Thread nD τ) (ms3 t) fullShare ((dat0 V c).after 3 t) from by
        unfold Dat.leavesExact; rw [live3 t], after_3]
      rw [show (dat0 V c).leavesExact 4 t = owns (c : Thread nD τ) (ms4 t) fullShare ((dat0 V c).after 4 t) from by
        unfold Dat.leavesExact; rw [live4 t], after_4]
      rw [show (dat0 V c).leavesExact 5 t = owns (c : Thread nD τ) (ms5 t) fullShare ((dat0 V c).after 5 t) from by
        unfold Dat.leavesExact; rw [live5 t ((hcondLast t).mpr hl)], after_5]
      rw [outsAt_last V c t hr hl]
      unfold carriedLast outLast; (try dsimp only)
      rw [PhiS_castSucc V c t, PhiS_pos V c _ _ hz]
      iintro ⟨⟨⟨HM, HS, HA, Hrest⟩, Hg⟩, Ho, ⟨%d0, H0⟩, ⟨%d1, H1⟩, ⟨%d2, H2⟩, ⟨%d3, H3⟩, ⟨%d4, H4⟩, ⟨%d5, H5⟩⟩
      iapply ((lastAt V c t hr hl (prevCarried V c t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HM]; · iexact HM
      isplitl [HS]; · iexact HS
      isplitl [HA]; · iexact HA
      iintro ⟨H0, H1, H2, H3, H4, ⟨%eo, H5⟩, ⟨%em, HM⟩, ⟨%es, HS⟩, ⟨%ea, HA⟩⟩
      isplitl [HM HS HA Hrest Hg]
      · isplitl [HM HS HA Hrest]
        · isplitl [HM]
          · unfold owns; iexists _; isplitr; swap; iexact HM; ipureintro; exact View.read_writes_of_cover _ _ _ _ _ (coverLast_max V c t hr hl _)
          isplitl [HS]
          · unfold owns; iexists _; isplitr; swap; iexact HS; ipureintro; exact View.read_writes_of_cover _ _ _ _ _ (coverLast_sum V c t hr hl _)
          isplitl [HA]
          · unfold owns; iexists _; isplitr; swap; iexact HA; ipureintro; exact View.read_writes_of_cover _ _ _ _ _ (coverLast_acc V c t hr hl _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr; swap; iexact H5; ipureintro; exact View.read_writes_of_cover _ _ _ _ _ (coverLast_out V c t hr hl _)
    · rw [show (dat0 V c).leavesExact 0 t = owns (c : Thread nD τ) (ms0 t) fullShare ((dat0 V c).after 0 t) from by
        unfold Dat.leavesExact; rw [live0 t], after_0]
      rw [show (dat0 V c).leavesExact 1 t = owns (c : Thread nD τ) (ms1 t) fullShare ((dat0 V c).after 1 t) from by
        unfold Dat.leavesExact; rw [live1 t], after_1]
      rw [show (dat0 V c).leavesExact 2 t = owns (c : Thread nD τ) (ms2 t) fullShare ((dat0 V c).after 2 t) from by
        unfold Dat.leavesExact; rw [live2 t], after_2]
      rw [show (dat0 V c).leavesExact 3 t = owns (c : Thread nD τ) (ms3 t) fullShare ((dat0 V c).after 3 t) from by
        unfold Dat.leavesExact; rw [live3 t], after_3]
      rw [show (dat0 V c).leavesExact 4 t = owns (c : Thread nD τ) (ms4 t) fullShare ((dat0 V c).after 4 t) from by
        unfold Dat.leavesExact; rw [live4 t], after_4]
      rw [Dat.leavesExact_idle (dat0 V c) 5 t (idle5 t (fun h => hl ((hcondLast t).mp h))) (noFlush5 t (fun h => hl ((hcondLast t).mp h)))]
      rw [outsAt_mid V c t hr hl]
      unfold carriedMid; (try dsimp only)
      rw [PhiS_castSucc V c t, PhiS_pos V c _ _ hz]
      iintro ⟨⟨⟨HM, HS, HA, Hrest⟩, Hg⟩, Ho, ⟨%d0, H0⟩, ⟨%d1, H1⟩, ⟨%d2, H2⟩, ⟨%d3, H3⟩, ⟨%d4, H4⟩, ⟨%d5, H5⟩⟩
      iapply ((midAt V c t hr hl (prevCarried V c t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HM]; · iexact HM
      isplitl [HS]; · iexact HS
      isplitl [HA]; · iexact HA
      iintro ⟨H0, H1, H2, H3, H4, H5, ⟨%em, HM⟩, ⟨%es, HS⟩, ⟨%ea, HA⟩⟩
      isplitl [HM HS HA Hrest Hg]
      · isplitl [HM HS HA Hrest]
        · isplitl [HM]
          · unfold owns; iexists _; isplitr; swap; iexact HM; ipureintro; exact View.read_writes_of_cover _ _ _ _ _ (coverMid_max V c t hr hl _)
          isplitl [HS]
          · unfold owns; iexists _; isplitr; swap; iexact HS; ipureintro; exact View.read_writes_of_cover _ _ _ _ _ (coverMid_sum V c t hr hl _)
          isplitl [HA]
          · unfold owns; iexists _; isplitr; swap; iexact HA; ipureintro; exact View.read_writes_of_cover _ _ _ _ _ (coverMid_acc V c t hr hl _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation (c : Dev nD) : BodyObligation (dat0 (F := F) V c) (defs₀ (F := F)) Variants.none () Set.univ := fun t => by
  rw [bigSep_W0, bigSep_W0]
  exact sound_body V c t

/-- What the launch hands the region is the invariant before the first point, -/
theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _
/-- and after the last point the invariant gives it back, the carried contents forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA_eq]
  iintro ⟨⟨HM, HS, HA, Hrest⟩, Hg⟩
  isplitl [HM HS HA Hrest]
  · isplitl [HM]; · iexists _; iexact HM
    isplitl [HS]; · iexists _; iexact HS
    isplitl [HA]; · iexists _; iexact HA
    iexact Hrest
  iexact Hg
theorem hout (c : Dev nD) : (dat0 V c).Φ (Fin.last cfg0.N) ⊢ Pipeline.ΦA spec0 c :=
  Phi_out V c _ (by rw [Fin.val_last]; have : cfg0.N = 64 := N_0; omega)

end Cert.Kernel.R0

end
-- ==== Proof.K.R1Base.lean ====
/-
  The first attention layer's kernel region: where on its 8 x 8 grid each of the body's two branches is taken.
  A point `t` is query tile `t / 8` and key tile `t % 8`. The running maximum, running sum and accumulator are reset
  at key tile 0 and the normalised, activated block is stored at key tile 7; the output window is untouched
  (idle) at the other key tiles and written back only after key tile 7.
-/
import proofs.«404965_j38543036514339_3_alg».proof.Proof.Gen.Kernel.Skeleton
import proofs.«404965_j38543036514339_3_alg».proof.Proof.Gen.Kernel.Launch
import proofs.«404965_j38543036514339_3_alg».proof.Proof.Gen.Kernel.Points
import Idealize.ShloMosaic.Lib.Pipeline.Frame
import Idealize.ShloMosaic.Lib.Exec
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-- The reset branch is taken: the key tile is 0. -/
abbrev condReset (i : grid1.Coords) : Prop :=
  (Scalar.cmpi .ne (Scalar.extui (Scalar.cmpi .eq (BitVec.ofNat 32 (i 1).val) 0#32)) 0#32) = 1#1
/-- The epilogue branch is taken: the key tile is 7. -/
abbrev condLast (i : grid1.Coords) : Prop := k1_cond2 i = 1#1

theorem hcondReset : ∀ t : Fin cfg1.N, condReset (grid1.coords t) ↔ t.val % 8 = 0 :=
  (by decide +kernel : ∀ t : Fin grid1.N, condReset (grid1.coords t) ↔ t.val % 8 = 0)
theorem hcondLast : ∀ t : Fin cfg1.N, condLast (grid1.coords t) ↔ t.val % 8 = 7 :=
  (by decide +kernel : ∀ t : Fin grid1.N, condLast (grid1.coords t) ↔ t.val % 8 = 7)

/-- The five input windows are stored into nowhere and never idle. -/
theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
theorem live4 : ∀ t : Fin cfg1.N, cfg1.idle 4 (grid1.coords t) = false := by decide +kernel
/-- The output window is idle, and not written back, away from key tile 7; live there. -/
theorem idle5 : ∀ t : Fin cfg1.N, ¬condLast (grid1.coords t) → cfg1.idle 5 (grid1.coords t) = true := by decide +kernel
theorem noFlush5 : ∀ t : Fin cfg1.N, ¬condLast (grid1.coords t) → (cfg1.win 5).flush t = false := by decide +kernel
theorem live5 : ∀ t : Fin cfg1.N, condLast (grid1.coords t) → cfg1.idle 5 (grid1.coords t) = false := by decide +kernel

/-- The three scratch buffers the body carries from key tile to key tile. -/
abbrev scMax : Memref sig .tc .vmem S1024x1 .f32 := Memref.whole cc1_scratch0
abbrev scSum : Memref sig .tc .vmem S1024x1 .f32 := Memref.whole cc1_scratch1
abbrev scAcc : Memref sig .tc .vmem S1024x64 .f32 := Memref.whole cc1_scratch2

end Cert.Kernel.R1

end
-- ==== Proof.K.R1RunReset.lean ====
/-
  The body of the first layer's kernel at key tile 0: the reset branch is taken, so the carried maximum, sum and
  accumulator are first overwritten whole (by the finite sentinel and by zeros) and what they held before is never
  read; the online-softmax step then runs from that start. The output block is not stored.
-/
import proofs.«404965_j38543036514339_3_alg».proof.Proof.K.R1Base

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
local notation "𝕄" => MT nD τ sig Unit (Elt F) ℕ (UR sig nD τ) ℕ

set_option maxHeartbeats 4000000 in
/-- On whole staging memrefs holding `x0 … x4`, the output's at `xo` (handed back untouched), the three scratch
    buffers at anything: the body runs and leaves each scratch with the pieces its stores wrote (reset, then step). -/
noncomputable def runReset (c : Dev nD) (i : grid1.Coords)
    (arg2 : Memref sig .tc .vmem S1024x1 .f32) (harg2 : arg2.IsWhole) (arg3 : Memref sig .tc .vmem S1x1024 .f32) (harg3 : arg3.IsWhole)
    (arg4 : Memref sig .tc .vmem S1024x1024 .f32) (harg4 : arg4.IsWhole) (arg5 : Memref sig .tc .vmem S1024x1024 .i32) (harg5 : arg5.IsWhole)
    (arg6 : Memref sig .tc .vmem S8192x64 .bf16) (harg6 : arg6.IsWhole) (arg7 : Memref sig .tc .vmem S1024x64 .f32) (harg7 : arg7.IsWhole)
    (hr : condReset i) (hl : ¬condLast i)
    (x0 : Vec F S1024x1 .f32) (x1 : Vec F S1x1024 .f32) (x2 : Vec F S1024x1024 .f32) (x3 : Vec F S1024x1024 .i32) (x4 : Vec F S8192x64 .bf16) :
    Σ' (LM LS : List (View.Piece (Elt F) S1024x1 .f32)), { LA : List (View.Piece (Elt F) S1024x64 .f32) //
      ∀ (xo : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xo
            ∗ (∃ d, owns (c : Thread nD τ) scMax fullShare d) ∗ (∃ d, owns (c : Thread nD τ) scSum fullShare d) ∗ (∃ d, owns (c : Thread nD τ) scAcc fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xo
                ∗ (∃ f, scMax.view.loc (c : Thread nD τ) ↦[scMax.view.set]{fullShare} scMax.view.writes (Elt F) f LM)
                ∗ (∃ f, scSum.view.loc (c : Thread nD τ) ↦[scSum.view.set]{fullShare} scSum.view.writes (Elt F) f LS)
                ∗ (∃ f, scAcc.view.loc (c : Thread nD τ) ↦[scAcc.view.set]{fullShare} scAcc.view.writes (Elt F) f LA)) -∗ K ⟨⟩))
          ⊢ wp frame (wpE (defs₀ (F := F)) Variants.none c none) E
              (cc1__gat_attn_kernel i arg2 harg2 arg3 harg3 arg4 harg4 arg5 harg5 arg6 harg6 arg7 harg7 scMax (Memref.isWhole_whole _) scSum (Memref.isWhole_whole _) scAcc (Memref.isWhole_whole _)) K } := by
  refine ⟨?_, ?_, ?_, fun xo E K => ?run⟩
  case run =>
    simp only [cc1__gat_attn_kernel_eq_skeleton]; unfold cc1__gat_attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dm, %fm, -, HM⟩, ⟨%ds, %fs, -, HS⟩, ⟨%da, %fa, -, HA⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hr | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HM]; · iexists _; iexact HM
    isplitl [HS]; · iexists _; iexact HS
    iexists _; iexact HA

end Cert.Kernel.R1

end
-- ==== Proof.K.R1RunMid.lean ====
/-
  The body of the first layer's kernel at a key tile that is neither the first nor the last: neither branch is
  taken. It reads the query column, the key row, the coefficient tile, the adjacency tile and the key tile's rows
  of the resident features, and replaces the carried maximum, sum and accumulator by the online-softmax step's.
-/
import proofs.«404965_j38543036514339_3_alg».proof.Proof.K.R1RunReset

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole staging memrefs holding `x0 … x4`, the output's at `xo` (handed back untouched), the carried scratch
    at `sm`, `sl`, `sa`: the body runs and leaves each scratch with the pieces its stores wrote. -/
noncomputable def runMid (c : Dev nD) (i : grid1.Coords)
    (arg2 : Memref sig .tc .vmem S1024x1 .f32) (harg2 : arg2.IsWhole) (arg3 : Memref sig .tc .vmem S1x1024 .f32) (harg3 : arg3.IsWhole)
    (arg4 : Memref sig .tc .vmem S1024x1024 .f32) (harg4 : arg4.IsWhole) (arg5 : Memref sig .tc .vmem S1024x1024 .i32) (harg5 : arg5.IsWhole)
    (arg6 : Memref sig .tc .vmem S8192x64 .bf16) (harg6 : arg6.IsWhole) (arg7 : Memref sig .tc .vmem S1024x64 .f32) (harg7 : arg7.IsWhole)
    (hr : ¬condReset i) (hl : ¬condLast i)
    (x0 : Vec F S1024x1 .f32) (x1 : Vec F S1x1024 .f32) (x2 : Vec F S1024x1024 .f32) (x3 : Vec F S1024x1024 .i32) (x4 : Vec F S8192x64 .bf16)
    (sm sl : Vec F S1024x1 .f32) (sa : Vec F S1024x64 .f32) :
    Σ' (LM LS : List (View.Piece (Elt F) S1024x1 .f32)), { LA : List (View.Piece (Elt F) S1024x64 .f32) //
      ∀ (xo : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xo
            ∗ owns (c : Thread nD τ) scMax fullShare sm ∗ owns (c : Thread nD τ) scSum fullShare sl ∗ owns (c : Thread nD τ) scAcc fullShare sa
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare xo
                ∗ (∃ f, scMax.view.loc (c : Thread nD τ) ↦[scMax.view.set]{fullShare} scMax.view.writes (Elt F) f LM)
                ∗ (∃ f, scSum.view.loc (c : Thread nD τ) ↦[scSum.view.set]{fullShare} scSum.view.writes (Elt F) f LS)
                ∗ (∃ f, scAcc.view.loc (c : Thread nD τ) ↦[scAcc.view.set]{fullShare} scAcc.view.writes (Elt F) f LA)) -∗ K ⟨⟩))
          ⊢ wp frame (wpE (defs₀ (F := F)) Variants.none c none) E
              (cc1__gat_attn_kernel i arg2 harg2 arg3 harg3 arg4 harg4 arg5 harg5 arg6 harg6 arg7 harg7 scMax (Memref.isWhole_whole _) scSum (Memref.isWhole_whole _) scAcc (Memref.isWhole_whole _)) K } := by
  refine ⟨?_, ?_, ?_, fun xo E K => ?run⟩
  case run =>
    simp only [cc1__gat_attn_kernel_eq_skeleton]; unfold cc1__gat_attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fm, %hfm, HM⟩, ⟨%fs, %hfs, HS⟩, ⟨%fa, %hfa, HA⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := (Memref.isWhole_whole _ : scMax.IsWhole).eq_unread hfm
    obtain rfl := (Memref.isWhole_whole _ : scSum.IsWhole).eq_unread hfs
    obtain rfl := (Memref.isWhole_whole _ : scAcc.IsWhole).eq_unread hfa
    sl_exec (disch := first | exact hr | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HM]; · iexists _; iexact HM
    isplitl [HS]; · iexists _; iexact HS
    iexists _; iexact HA

end Cert.Kernel.R1

end
-- ==== Proof.K.R1RunLast.lean ====
/-
  The body of the first layer's kernel at key tile 7: the online-softmax step as at every later key tile, then the
  epilogue branch, which divides the accumulator by the sum, applies the exponential linear unit and stores the
  whole output block. What the output's buffer held before is never read.
-/
import proofs.«404965_j38543036514339_3_alg».proof.Proof.K.R1RunMid

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
local notation "𝕄" => MT nD τ sig Unit (Elt F) ℕ (UR sig nD τ) ℕ

set_option maxHeartbeats 4000000 in
/-- On whole staging memrefs holding `x0 … x4`, the output's at anything, the carried scratch at `sm`, `sl`,
    `sa`: the body runs and leaves each scratch, and the output's buffer, with the pieces its stores wrote. -/
noncomputable def runLast (c : Dev nD) (i : grid1.Coords)
    (arg2 : Memref sig .tc .vmem S1024x1 .f32) (harg2 : arg2.IsWhole) (arg3 : Memref sig .tc .vmem S1x1024 .f32) (harg3 : arg3.IsWhole)
    (arg4 : Memref sig .tc .vmem S1024x1024 .f32) (harg4 : arg4.IsWhole) (arg5 : Memref sig .tc .vmem S1024x1024 .i32) (harg5 : arg5.IsWhole)
    (arg6 : Memref sig .tc .vmem S8192x64 .bf16) (harg6 : arg6.IsWhole) (arg7 : Memref sig .tc .vmem S1024x64 .f32) (harg7 : arg7.IsWhole)
    (hr : ¬condReset i) (hl : condLast i)
    (x0 : Vec F S1024x1 .f32) (x1 : Vec F S1x1024 .f32) (x2 : Vec F S1024x1024 .f32) (x3 : Vec F S1024x1024 .i32) (x4 : Vec F S8192x64 .bf16)
    (sm sl : Vec F S1024x1 .f32) (sa : Vec F S1024x64 .f32) :
    Σ' (LM LS : List (View.Piece (Elt F) S1024x1 .f32)) (LA : List (View.Piece (Elt F) S1024x64 .f32)), { LO : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ owns (c : Thread nD τ) scMax fullShare sm ∗ owns (c : Thread nD τ) scSum fullShare sl ∗ owns (c : Thread nD τ) scAcc fullShare sa
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ (∃ f, arg7.view.loc (c : Thread nD τ) ↦[arg7.view.set]{fullShare} arg7.view.writes (Elt F) f LO)
                ∗ (∃ f, scMax.view.loc (c : Thread nD τ) ↦[scMax.view.set]{fullShare} scMax.view.writes (Elt F) f LM)
                ∗ (∃ f, scSum.view.loc (c : Thread nD τ) ↦[scSum.view.set]{fullShare} scSum.view.writes (Elt F) f LS)
                ∗ (∃ f, scAcc.view.loc (c : Thread nD τ) ↦[scAcc.view.set]{fullShare} scAcc.view.writes (Elt F) f LA)) -∗ K ⟨⟩))
          ⊢ wp frame (wpE (defs₀ (F := F)) Variants.none c none) E
              (cc1__gat_attn_kernel i arg2 harg2 arg3 harg3 arg4 harg4 arg5 harg5 arg6 harg6 arg7 harg7 scMax (Memref.isWhole_whole _) scSum (Memref.isWhole_whole _) scAcc (Memref.isWhole_whole _)) K } := by
  refine ⟨?_, ?_, ?_, ?_, fun E K => ?run⟩
  case run =>
    simp only [cc1__gat_attn_kernel_eq_skeleton]; unfold cc1__gat_attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fm, %hfm, HM⟩, ⟨%fs, %hfs, HS⟩, ⟨%fa, %hfa, HA⟩, Hk⟩
    obtain rfl := harg2.eq_unread hf0; obtain rfl := harg3.eq_unread hf1; obtain rfl := harg4.eq_unread hf2
    obtain rfl := harg5.eq_unread hf3; obtain rfl := harg6.eq_unread hf4
    obtain rfl := (Memref.isWhole_whole _ : scMax.IsWhole).eq_unread hfm
    obtain rfl := (Memref.isWhole_whole _ : scSum.IsWhole).eq_unread hfs
    obtain rfl := (Memref.isWhole_whole _ : scAcc.IsWhole).eq_unread hfa
    sl_exec (disch := first | exact hr | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HM]; · iexists _; iexact HM
    isplitl [HS]; · iexists _; iexact HS
    iexists _; iexact HA

end Cert.Kernel.R1

end
-- ==== Proof.K.R1Data.lean ====
/-
  The first attention layer's kernel region, point by point. Point `t` of the 8 x 8 grid is query tile `t / 8`
  against key tile `t % 8`. Every input window's staging buffer holds that point's block of its array. The body
  carries three values from key tile to key tile of one query tile — the running maximum and running sum of each
  query row and the accumulated weighted features — in scratch buffers the pipeline does not stage; they are reset
  at key tile 0, so what a query tile starts from is never read. The output block is stored once, at key tile 7.
-/
import proofs.«404965_j38543036514339_3_alg».proof.Proof.K.R1RunLast
import Idealize.ShloMosaic.Lib.Pipeline.FrameBody
import Idealize.ShloMosaic.Lib.Ring
import Idealize.ShloMosaic.Lib.Writes

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- The unscoped buffers' contents as the region is entered.
variable (V : (c : Dev nD) → (b : Ref sig .tc) → Buf (Elt F) ((c : Thread nD τ).loc b))

/-! ## The windows at a point -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging memref each window is on at point `t`. -/
abbrev ms0 (t : Fin cfg1.N) : Memref sig .tc .vmem S1024x1 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x1024 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x1024 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S8192x64 .bf16 := win1_4.stage (cfg1.slots t 4)
abbrev hs4 (t : Fin cfg1.N) : (ms4 t).IsWhole := hstage1_4 ((cfg1.slots t 4).cast nbuf1_4)
abbrev ms5 (t : Fin cfg1.N) : Memref sig .tc .vmem S1024x64 .f32 := win1_5.stage (cfg1.slots t 5)
abbrev hs5 (t : Fin cfg1.N) : (ms5 t).IsWhole := hstage1_5 ((cfg1.slots t 5).cast nbuf1_5)

/-! ## What each case leaves, read back from the pieces its stores wrote -/

/-- Fixed whole views to read a scratch's, and the output block's, pieces back through. -/
abbrev VMax : View sig .tc .vmem S1024x1 .f32 := scMax.view
abbrev VSum : View sig .tc .vmem S1024x1 .f32 := scSum.view
abbrev VAcc : View sig .tc .vmem S1024x64 .f32 := scAcc.view
abbrev VOut : View sig .tc .vmem S1024x64 .f32 := (Memref.whole cc1_stg5_0 : Memref sig .tc .vmem S1024x64 .f32).view

/-- The carried triple: running maximum, running sum, accumulator. -/
abbrev Carried (F : FTy → Type) [FloatOps F] : Type := Vec F S1024x1 .f32 × Vec F S1024x1 .f32 × Vec F S1024x64 .f32

section AtPoint

variable (c : Dev nD) (t : Fin cfg1.N)

/-- The reset case's run at point `t`, on that point's memrefs and input blocks. -/
abbrev resetAt (hr : t.val % 8 = 0) (hl : ¬t.val % 8 = 7) :=
  runReset (F := F) c (grid1.coords t) (ms0 t) (hs0 t) (ms1 t) (hs1 t) (ms2 t) (hs2 t) (ms3 t) (hs3 t) (ms4 t) (hs4 t) (ms5 t) (hs5 t)
    ((hcondReset t).mpr hr) (fun h => hl ((hcondLast t).mp h)) (iblk V c 0 t) (iblk V c 1 t) (iblk V c 2 t) (iblk V c 3 t) (iblk V c 4 t)
/-- The middle case's, from what the point before left. -/
abbrev midAt (hr : ¬t.val % 8 = 0) (hl : ¬t.val % 8 = 7) (p : Carried F) :=
  runMid (F := F) c (grid1.coords t) (ms0 t) (hs0 t) (ms1 t) (hs1 t) (ms2 t) (hs2 t) (ms3 t) (hs3 t) (ms4 t) (hs4 t) (ms5 t) (hs5 t)
    (fun h => hr ((hcondReset t).mp h)) (fun h => hl ((hcondLast t).mp h)) (iblk V c 0 t) (iblk V c 1 t) (iblk V c 2 t) (iblk V c 3 t) (iblk V c 4 t) p.1 p.2.1 p.2.2
/-- The last case's, from what the point before left. -/
abbrev lastAt (hr : ¬t.val % 8 = 0) (hl : t.val % 8 = 7) (p : Carried F) :=
  runLast (F := F) c (grid1.coords t) (ms0 t) (hs0 t) (ms1 t) (hs1 t) (ms2 t) (hs2 t) (ms3 t) (hs3 t) (ms4 t) (hs4 t) (ms5 t) (hs5 t)
    (fun h => hr ((hcondReset t).mp h)) ((hcondLast t).mpr hl) (iblk V c 0 t) (iblk V c 1 t) (iblk V c 2 t) (iblk V c 3 t) (iblk V c 4 t) p.1 p.2.1 p.2.2

/-- What the reset case leaves carried: each scratch's pieces read back over junk. -/
def carriedReset (hr : t.val % 8 = 0) (hl : ¬t.val % 8 = 7) : Carried F :=
  (VMax.read (Elt F) (VMax.writes (Elt F) VMax.junk (resetAt V c t hr hl).1),
   VSum.read (Elt F) (VSum.writes (Elt F) VSum.junk (resetAt V c t hr hl).2.1),
   VAcc.read (Elt F) (VAcc.writes (Elt F) VAcc.junk (resetAt V c t hr hl).2.2.1))
def carriedMid (hr : ¬t.val % 8 = 0) (hl : ¬t.val % 8 = 7) (p : Carried F) : Carried F :=
  (VMax.read (Elt F) (VMax.writes (Elt F) VMax.junk (midAt V c t hr hl p).1),
   VSum.read (Elt F) (VSum.writes (Elt F) VSum.junk (midAt V c t hr hl p).2.1),
   VAcc.read (Elt F) (VAcc.writes (Elt F) VAcc.junk (midAt V c t hr hl p).2.2.1))
def carriedLast (hr : ¬t.val % 8 = 0) (hl : t.val % 8 = 7) (p : Carried F) : Carried F :=
  (VMax.read (Elt F) (VMax.writes (Elt F) VMax.junk (lastAt V c t hr hl p).1),
   VSum.read (Elt F) (VSum.writes (Elt F) VSum.junk (lastAt V c t hr hl p).2.1),
   VAcc.read (Elt F) (VAcc.writes (Elt F) VAcc.junk (lastAt V c t hr hl p).2.2.1))
/-- What the last case leaves in the output's staging buffer: the block it stores. -/
def outLast (hr : ¬t.val % 8 = 0) (hl : t.val % 8 = 7) (p : Carried F) : Vec F S1024x64 .f32 :=
  VOut.read (Elt F) (VOut.writes (Elt F) VOut.junk (lastAt V c t hr hl p).2.2.2.1)

/-- Every case's stores cover each scratch whole, and the last case's cover the output block. -/
theorem coverReset_max (hr : t.val % 8 = 0) (hl : ¬t.val % 8 = 7) (y : S1024x1.Idx) : ∃ pc ∈ (resetAt V c t hr hl).1, y ∈ pc.1.set :=
  View.cover_of_tiledL (resetAt V c t hr hl).1 S1024x1.size (by sl_kernel_rfl) y
theorem coverReset_sum (hr : t.val % 8 = 0) (hl : ¬t.val % 8 = 7) (y : S1024x1.Idx) : ∃ pc ∈ (resetAt V c t hr hl).2.1, y ∈ pc.1.set :=
  View.cover_of_tiledL (resetAt V c t hr hl).2.1 S1024x1.size (by sl_kernel_rfl) y
theorem coverReset_acc (hr : t.val % 8 = 0) (hl : ¬t.val % 8 = 7) (y : S1024x64.Idx) : ∃ pc ∈ (resetAt V c t hr hl).2.2.1, y ∈ pc.1.set :=
  View.cover_of_tiledL (resetAt V c t hr hl).2.2.1 S1024x64.size (by sl_kernel_rfl) y
theorem coverMid_max (hr : ¬t.val % 8 = 0) (hl : ¬t.val % 8 = 7) (p : Carried F) (y : S1024x1.Idx) : ∃ pc ∈ (midAt V c t hr hl p).1, y ∈ pc.1.set :=
  View.cover_of_tiledL (midAt V c t hr hl p).1 S1024x1.size (by sl_kernel_rfl) y
theorem coverMid_sum (hr : ¬t.val % 8 = 0) (hl : ¬t.val % 8 = 7) (p : Carried F) (y : S1024x1.Idx) : ∃ pc ∈ (midAt V c t hr hl p).2.1, y ∈ pc.1.set :=
  View.cover_of_tiledL (midAt V c t hr hl p).2.1 S1024x1.size (by sl_kernel_rfl) y
theorem coverMid_acc (hr : ¬t.val % 8 = 0) (hl : ¬t.val % 8 = 7) (p : Carried F) (y : S1024x64.Idx) : ∃ pc ∈ (midAt V c t hr hl p).2.2.1, y ∈ pc.1.set :=
  View.cover_of_tiledL (midAt V c t hr hl p).2.2.1 S1024x64.size (by sl_kernel_rfl) y
theorem coverLast_max (hr : ¬t.val % 8 = 0) (hl : t.val % 8 = 7) (p : Carried F) (y : S1024x1.Idx) : ∃ pc ∈ (lastAt V c t hr hl p).1, y ∈ pc.1.set :=
  View.cover_of_tiledL (lastAt V c t hr hl p).1 S1024x1.size (by sl_kernel_rfl) y
theorem coverLast_sum (hr : ¬t.val % 8 = 0) (hl : t.val % 8 = 7) (p : Carried F) (y : S1024x1.Idx) : ∃ pc ∈ (lastAt V c t hr hl p).2.1, y ∈ pc.1.set :=
  View.cover_of_tiledL (lastAt V c t hr hl p).2.1 S1024x1.size (by sl_kernel_rfl) y
theorem coverLast_acc (hr : ¬t.val % 8 = 0) (hl : t.val % 8 = 7) (p : Carried F) (y : S1024x64.Idx) : ∃ pc ∈ (lastAt V c t hr hl p).2.2.1, y ∈ pc.1.set :=
  View.cover_of_tiledL (lastAt V c t hr hl p).2.2.1 S1024x64.size (by sl_kernel_rfl) y
theorem coverLast_out (hr : ¬t.val % 8 = 0) (hl : t.val % 8 = 7) (p : Carried F) (y : S1024x64.Idx) : ∃ pc ∈ (lastAt V c t hr hl p).2.2.2.1, y ∈ pc.1.set :=
  View.cover_of_tiledL (lastAt V c t hr hl p).2.2.2.1 S1024x64.size (by sl_kernel_rfl) y

end AtPoint

/-! ## What is carried, and what the output's buffer holds, after each point -/

/-- After the body at position `n`: the output block's staging contents and the carried triple. At key tile 0 the
    reset case's, from nothing; at later key tiles the step's over what the point before left; the output block is
    what the last case stores, and at the other points a placeholder nothing consults (the window is idle there and
    not written back). -/
def outsAt (c : Dev nD) : (n : ℕ) → n < cfg1.N → Vec F S1024x64 .f32 × Carried F
  | 0, hn => (VOut.read (Elt F) VOut.junk, carriedReset V c ⟨0, hn⟩ (Nat.zero_mod _) (by show ¬ (0 % 8 = 7); decide))
  | n + 1, hn =>
    if hr : (n + 1) % 8 = 0 then
      if hl : (n + 1) % 8 = 7 then False.elim (by omega)
      else (VOut.read (Elt F) VOut.junk, carriedReset V c ⟨n + 1, hn⟩ hr hl)
    else
      if hl : (n + 1) % 8 = 7 then
        (outLast V c ⟨n + 1, hn⟩ hr hl (outsAt c n (Nat.lt_of_succ_lt hn)).2, carriedLast V c ⟨n + 1, hn⟩ hr hl (outsAt c n (Nat.lt_of_succ_lt hn)).2)
      else
        (VOut.read (Elt F) VOut.junk, carriedMid V c ⟨n + 1, hn⟩ hr hl (outsAt c n (Nat.lt_of_succ_lt hn)).2)

/-- What the point before `t` left carried (for `t` not the first point). -/
abbrev prevCarried (c : Dev nD) (t : Fin cfg1.N) : Carried F :=
  (outsAt V c (t.val - 1) (Nat.lt_of_le_of_lt (Nat.sub_le _ _) t.isLt)).2

theorem outsAt_reset (c : Dev nD) (t : Fin cfg1.N) (hr : t.val % 8 = 0) (hl : ¬t.val % 8 = 7) :
    outsAt V c t.val t.isLt = (VOut.read (Elt F) VOut.junk, carriedReset V c t hr hl) := by
  obtain ⟨n, hn⟩ := t
  cases n with
  | zero => exact rfl
  | succ n => exact (dif_pos hr).trans ((dif_neg hl).trans rfl)
theorem outsAt_mid (c : Dev nD) (t : Fin cfg1.N) (hr : ¬t.val % 8 = 0) (hl : ¬t.val % 8 = 7) :
    outsAt V c t.val t.isLt = (VOut.read (Elt F) VOut.junk, carriedMid V c t hr hl (prevCarried V c t)) := by
  obtain ⟨n, hn⟩ := t
  cases n with
  | zero => exact absurd (Nat.zero_mod _) hr
  | succ n => exact (dif_neg hr).trans ((dif_neg hl).trans rfl)
theorem outsAt_last (c : Dev nD) (t : Fin cfg1.N) (hr : ¬t.val % 8 = 0) (hl : t.val % 8 = 7) :
    outsAt V c t.val t.isLt = (outLast V c t hr hl (prevCarried V c t), carriedLast V c t hr hl (prevCarried V c t)) := by
  obtain ⟨n, hn⟩ := t
  cases n with
  | zero => exact absurd (Nat.zero_mod _) hr
  | succ n => exact (dif_neg hr).trans ((dif_pos hl).trans rfl)

/-! ## The invariant -/

/-- The core's scoped buffers that are neither a staging buffer of this region nor one of its three scratch
    buffers (the second layer's region's), each whole at some contents. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

/-- The class's invariant with this region's three scratch buffers as memrefs owned at some contents. -/
theorem PhiA_eq (c : Dev nD) :
    (Pipeline.ΦA spec1 c : sProp 𝕄)
      = iprop(iprop((∃ d, owns (c : Thread nD τ) scMax fullShare d) ∗ (∃ d, owns (c : Thread nD τ) scSum fullShare d) ∗ (∃ d, owns (c : Thread nD τ) scAcc fullShare d) ∗ otherScoped (F := F) c) ∗ (∃ r, prngReg c r)) := by
  unfold Pipeline.ΦA otherScoped; rw [scopedRest1_eq]; simp only [scMax, scSum, scAcc, owns_whole]
  -- the scoped rest lists the same seventeen buffers, possibly in another order: a bi-entailment is an equality
  first
  | rfl
  | (refine congrArg (fun X : sProp 𝕄 => iprop(X ∗ (∃ r, prngReg c r))) (equiv_iff.mp ⟨?_, ?_⟩) <;>
      (show (_ : sProp 𝕄) ⊢ _; iintro ⟨H1, H2, H3, H4, H5, H6, H7, H8, H9, H10, H11, H12, H13, H14, H15, H16, H17⟩; iframe))

/-- Before position `n`: before the first point the class's invariant (every scratch at anything); afterwards the
    three carried scratch buffers at what the point before left, the other scoped buffers at anything, the
    generator register at some state. -/
def PhiS (c : Dev nD) : (n : ℕ) → n ≤ cfg1.N → sProp 𝕄
  | 0, _ => Pipeline.ΦA spec1 c
  | n + 1, hn => iprop(iprop(owns (c : Thread nD τ) scMax fullShare (outsAt V c n hn).2.1 ∗ owns (c : Thread nD τ) scSum fullShare (outsAt V c n hn).2.2.1
      ∗ owns (c : Thread nD τ) scAcc fullShare (outsAt V c n hn).2.2.2 ∗ otherScoped (F := F) c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) scMax fullShare (outsAt V c n hn).2.1 ∗ owns (c : Thread nD τ) scSum fullShare (outsAt V c n hn).2.2.1
      ∗ owns (c : Thread nD τ) scAcc fullShare (outsAt V c n hn).2.2.2 ∗ otherScoped (F := F) c) ∗ (∃ r, prngReg c r)) := rfl
theorem PhiS_pos (c : Dev nD) (n : ℕ) (h : n ≤ cfg1.N) (hz : n ≠ 0) :
    PhiS V c n h = iprop(iprop(owns (c : Thread nD τ) scMax fullShare (outsAt V c (n - 1) (by omega)).2.1 ∗ owns (c : Thread nD τ) scSum fullShare (outsAt V c (n - 1) (by omega)).2.2.1
      ∗ owns (c : Thread nD τ) scAcc fullShare (outsAt V c (n - 1) (by omega)).2.2.2 ∗ otherScoped (F := F) c) ∗ (∃ r, prngReg c r)) := by
  cases n with
  | zero => exact absurd rfl hz
  | succ n => rfl

/-! ## The proof data -/

/-- The region's proof data on core `c`: the arrays as the region finds them; after the body at point `t` each
    input's buffer at its block and the output's at `outsAt`'s first component; the invariant `PhiS`; nothing owed;
    full shares. -/
def dat0 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

theorem A_eq (c : Dev nD) (w : Fin cfg1.W) : (dat0 V c).A w = V c (Pipeline.arrRef spec1 w) := by dsimp only [dat0]
theorem PhiS_castSucc (c : Dev nD) (t : Fin cfg1.N) : (dat0 V c).Φ t.castSucc = PhiS V c t.val (Nat.le_of_lt t.isLt) := by
  dsimp only [dat0]; simp only [Fin.coe_castSucc]
theorem after_0 (c : Dev nD) (t : Fin cfg1.N) : (dat0 V c).after 0 t = iblk V c 0 t := by dsimp only [dat0]
theorem after_1 (c : Dev nD) (t : Fin cfg1.N) : (dat0 V c).after 1 t = iblk V c 1 t := by dsimp only [dat0]
theorem after_2 (c : Dev nD) (t : Fin cfg1.N) : (dat0 V c).after 2 t = iblk V c 2 t := by dsimp only [dat0]
theorem after_3 (c : Dev nD) (t : Fin cfg1.N) : (dat0 V c).after 3 t = iblk V c 3 t := by dsimp only [dat0]
theorem after_4 (c : Dev nD) (t : Fin cfg1.N) : (dat0 V c).after 4 t = iblk V c 4 t := by dsimp only [dat0]
theorem after_5 (c : Dev nD) (t : Fin cfg1.N) : (dat0 V c).after 5 t = (outsAt V c t.val t.isLt).1 := by dsimp only [dat0]

/-! ## The body obligation -/

/-- Each input window's current staging buffer holds its block at every point. -/
theorem before_0 (c : Dev nD) (t : Fin cfg1.N) (d) : (dat0 V c).before 0 t d = iblk V c 0 t :=
  ((dat0 V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat0 V c).before 1 t d = iblk V c 1 t :=
  ((dat0 V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat0 V c).before 2 t d = iblk V c 2 t :=
  ((dat0 V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat0 V c).before 3 t d = iblk V c 3 t :=
  ((dat0 V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat0 V c).before 4 t d = iblk V c 4 t :=
  ((dat0 V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg1.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d))
    ∗ (∃ d, owns (c : Thread nD τ) (ms5 t) fullShare ((dat0 V c).before 5 t d)))
/-- and what it returns. -/
def bodyPost (c : Dev nD) (t : Fin cfg1.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- The body at any point. The inputs' memrefs hold their blocks; the key tile says which case the point is in;
    the invariant hands the body the carried buffers at what the point before left (at anything before the first
    point, and the reset case does not look), and takes them back at this point's contents, each read back from
    the pieces that cover it; the output's buffer goes back as found away from key tile 7 and at the stored block
    there; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg1.N = 64 from N_1)
  by_cases hr : t.val % 8 = 0
  · by_cases hl : t.val % 8 = 7
    · exfalso; omega
    · rw [show (dat0 V c).leavesExact 0 t = owns (c : Thread nD τ) (ms0 t) fullShare ((dat0 V c).after 0 t) from by
        unfold Dat.leavesExact; rw [live0 t], after_0]
      rw [show (dat0 V c).leavesExact 1 t = owns (c : Thread nD τ) (ms1 t) fullShare ((dat0 V c).after 1 t) from by
        unfold Dat.leavesExact; rw [live1 t], after_1]
      rw [show (dat0 V c).leavesExact 2 t = owns (c : Thread nD τ) (ms2 t) fullShare ((dat0 V c).after 2 t) from by
        unfold Dat.leavesExact; rw [live2 t], after_2]
      rw [show (dat0 V c).leavesExact 3 t = owns (c : Thread nD τ) (ms3 t) fullShare ((dat0 V c).after 3 t) from by
        unfold Dat.leavesExact; rw [live3 t], after_3]
      rw [show (dat0 V c).leavesExact 4 t = owns (c : Thread nD τ) (ms4 t) fullShare ((dat0 V c).after 4 t) from by
        unfold Dat.leavesExact; rw [live4 t], after_4]
      rw [Dat.leavesExact_idle (dat0 V c) 5 t (idle5 t (fun h => hl ((hcondLast t).mp h))) (noFlush5 t (fun h => hl ((hcondLast t).mp h)))]
      rw [outsAt_reset V c t hr hl]
      unfold carriedReset; (try dsimp only)
      by_cases hz : t.val = 0
      · rw [PhiS_castSucc V c t, PhiS_zero V c _ _ hz, PhiA_eq]
        iintro ⟨⟨⟨HM, HS, HA, Hrest⟩, Hg⟩, Ho, ⟨%d0, H0⟩, ⟨%d1, H1⟩, ⟨%d2, H2⟩, ⟨%d3, H3⟩, ⟨%d4, H4⟩, ⟨%d5, H5⟩⟩
        iapply ((resetAt V c t hr hl).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HM]; · iexact HM
        isplitl [HS]; · iexact HS
        isplitl [HA]; · iexact HA
        iintro ⟨H0, H1, H2, H3, H4, H5, ⟨%em, HM⟩, ⟨%es, HS⟩, ⟨%ea, HA⟩⟩
        isplitl [HM HS HA Hrest Hg]
        · isplitl [HM HS HA Hrest]
          · isplitl [HM]
            · unfold owns; iexists _; isplitr; swap; iexact HM; ipureintro; exact View.read_writes_of_cover _ _ _ _ _ (coverReset_max V c t hr hl)
            isplitl [HS]
            · unfold owns; iexists _; isplitr; swap; iexact HS; ipureintro; exact View.read_writes_of_cover _ _ _ _ _ (coverReset_sum V c t hr hl)
            isplitl [HA]
            · unfold owns; iexists _; isplitr; swap; iexact HA; ipureintro; exact View.read_writes_of_cover _ _ _ _ _ (coverReset_acc V c t hr hl)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨HM, HS, HA, Hrest⟩, Hg⟩, Ho, ⟨%d0, H0⟩, ⟨%d1, H1⟩, ⟨%d2, H2⟩, ⟨%d3, H3⟩, ⟨%d4, H4⟩, ⟨%d5, H5⟩⟩
        iapply ((resetAt V c t hr hl).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HM]; · iexists _; iexact HM
        isplitl [HS]; · iexists _; iexact HS
        isplitl [HA]; · iexists _; iexact HA
        iintro ⟨H0, H1, H2, H3, H4, H5, ⟨%em, HM⟩, ⟨%es, HS⟩, ⟨%ea, HA⟩⟩
        isplitl [HM HS HA Hrest Hg]
        · isplitl [HM HS HA Hrest]
          · isplitl [HM]
            · unfold owns; iexists _; isplitr; swap; iexact HM; ipureintro; exact View.read_writes_of_cover _ _ _ _ _ (coverReset_max V c t hr hl)
            isplitl [HS]
            · unfold owns; iexists _; isplitr; swap; iexact HS; ipureintro; exact View.read_writes_of_cover _ _ _ _ _ (coverReset_sum V c t hr hl)
            isplitl [HA]
            · unfold owns; iexists _; isplitr; swap; iexact HA; ipureintro; exact View.read_writes_of_cover _ _ _ _ _ (coverReset_acc V c t hr hl)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun h => hr (by rw [h])
    by_cases hl : t.val % 8 = 7
    · rw [show (dat0 V c).leavesExact 0 t = owns (c : Thread nD τ) (ms0 t) fullShare ((dat0 V c).after 0 t) from by
        unfold Dat.leavesExact; rw [live0 t], after_0]
      rw [show (dat0 V c).leavesExact 1 t = owns (c : Thread nD τ) (ms1 t) fullShare ((dat0 V c).after 1 t) from by
        unfold Dat.leavesExact; rw [live1 t], after_1]
      rw [show (dat0 V c).leavesExact 2 t = owns (c : Thread nD τ) (ms2 t) fullShare ((dat0 V c).after 2 t) from by
        unfold Dat.leavesExact; rw [live2 t], after_2]
      rw [show (dat0 V c).leavesExact 3 t = owns (c : Thread nD τ) (ms3 t) fullShare ((dat0 V c).after 3 t) from by
        unfold Dat.leavesExact; rw [live3 t], after_3]
      rw [show (dat0 V c).leavesExact 4 t = owns (c : Thread nD τ) (ms4 t) fullShare ((dat0 V c).after 4 t) from by
        unfold Dat.leavesExact; rw [live4 t], after_4]
      rw [show (dat0 V c).leavesExact 5 t = owns (c : Thread nD τ) (ms5 t) fullShare ((dat0 V c).after 5 t) from by
        unfold Dat.leavesExact; rw [live5 t ((hcondLast t).mpr hl)], after_5]
      rw [outsAt_last V c t hr hl]
      unfold carriedLast outLast; (try dsimp only)
      rw [PhiS_castSucc V c t, PhiS_pos V c _ _ hz]
      iintro ⟨⟨⟨HM, HS, HA, Hrest⟩, Hg⟩, Ho, ⟨%d0, H0⟩, ⟨%d1, H1⟩, ⟨%d2, H2⟩, ⟨%d3, H3⟩, ⟨%d4, H4⟩, ⟨%d5, H5⟩⟩
      iapply ((lastAt V c t hr hl (prevCarried V c t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HM]; · iexact HM
      isplitl [HS]; · iexact HS
      isplitl [HA]; · iexact HA
      iintro ⟨H0, H1, H2, H3, H4, ⟨%eo, H5⟩, ⟨%em, HM⟩, ⟨%es, HS⟩, ⟨%ea, HA⟩⟩
      isplitl [HM HS HA Hrest Hg]
      · isplitl [HM HS HA Hrest]
        · isplitl [HM]
          · unfold owns; iexists _; isplitr; swap; iexact HM; ipureintro; exact View.read_writes_of_cover _ _ _ _ _ (coverLast_max V c t hr hl _)
          isplitl [HS]
          · unfold owns; iexists _; isplitr; swap; iexact HS; ipureintro; exact View.read_writes_of_cover _ _ _ _ _ (coverLast_sum V c t hr hl _)
          isplitl [HA]
          · unfold owns; iexists _; isplitr; swap; iexact HA; ipureintro; exact View.read_writes_of_cover _ _ _ _ _ (coverLast_acc V c t hr hl _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr; swap; iexact H5; ipureintro; exact View.read_writes_of_cover _ _ _ _ _ (coverLast_out V c t hr hl _)
    · rw [show (dat0 V c).leavesExact 0 t = owns (c : Thread nD τ) (ms0 t) fullShare ((dat0 V c).after 0 t) from by
        unfold Dat.leavesExact; rw [live0 t], after_0]
      rw [show (dat0 V c).leavesExact 1 t = owns (c : Thread nD τ) (ms1 t) fullShare ((dat0 V c).after 1 t) from by
        unfold Dat.leavesExact; rw [live1 t], after_1]
      rw [show (dat0 V c).leavesExact 2 t = owns (c : Thread nD τ) (ms2 t) fullShare ((dat0 V c).after 2 t) from by
        unfold Dat.leavesExact; rw [live2 t], after_2]
      rw [show (dat0 V c).leavesExact 3 t = owns (c : Thread nD τ) (ms3 t) fullShare ((dat0 V c).after 3 t) from by
        unfold Dat.leavesExact; rw [live3 t], after_3]
      rw [show (dat0 V c).leavesExact 4 t = owns (c : Thread nD τ) (ms4 t) fullShare ((dat0 V c).after 4 t) from by
        unfold Dat.leavesExact; rw [live4 t], after_4]
      rw [Dat.leavesExact_idle (dat0 V c) 5 t (idle5 t (fun h => hl ((hcondLast t).mp h))) (noFlush5 t (fun h => hl ((hcondLast t).mp h)))]
      rw [outsAt_mid V c t hr hl]
      unfold carriedMid; (try dsimp only)
      rw [PhiS_castSucc V c t, PhiS_pos V c _ _ hz]
      iintro ⟨⟨⟨HM, HS, HA, Hrest⟩, Hg⟩, Ho, ⟨%d0, H0⟩, ⟨%d1, H1⟩, ⟨%d2, H2⟩, ⟨%d3, H3⟩, ⟨%d4, H4⟩, ⟨%d5, H5⟩⟩
      iapply ((midAt V c t hr hl (prevCarried V c t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HM]; · iexact HM
      isplitl [HS]; · iexact HS
      isplitl [HA]; · iexact HA
      iintro ⟨H0, H1, H2, H3, H4, H5, ⟨%em, HM⟩, ⟨%es, HS⟩, ⟨%ea, HA⟩⟩
      isplitl [HM HS HA Hrest Hg]
      · isplitl [HM HS HA Hrest]
        · isplitl [HM]
          · unfold owns; iexists _; isplitr; swap; iexact HM; ipureintro; exact View.read_writes_of_cover _ _ _ _ _ (coverMid_max V c t hr hl _)
          isplitl [HS]
          · unfold owns; iexists _; isplitr; swap; iexact HS; ipureintro; exact View.read_writes_of_cover _ _ _ _ _ (coverMid_sum V c t hr hl _)
          isplitl [HA]
          · unfold owns; iexists _; isplitr; swap; iexact HA; ipureintro; exact View.read_writes_of_cover _ _ _ _ _ (coverMid_acc V c t hr hl _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation (c : Dev nD) : BodyObligation (dat0 (F := F) V c) (defs₀ (F := F)) Variants.none () Set.univ := fun t => by
  rw [bigSep_W1, bigSep_W1]
  exact sound_body V c t

/-- What the launch hands the region is the invariant before the first point, -/
theorem hin (c : Dev nD) : Pipeline.ΦA spec1 c ⊢ (dat0 V c).Φ 0 := by
  rw [show (dat0 V c).Φ 0 = PhiS V c 0 (Nat.zero_le _) from rfl, PhiS_zero V c 0 _ rfl]
  try exact Idealize.SL.BI.Entails.refl _
/-- and after the last point the invariant gives it back, the carried contents forgotten. -/
theorem Phi_out (c : Dev nD) (t : Fin (cfg1.N + 1)) (ht : t.val ≠ 0) : (dat0 V c).Φ t ⊢ Pipeline.ΦA spec1 c := by
  rw [show (dat0 V c).Φ t = PhiS V c t.val (Nat.le_of_lt_succ t.isLt) from rfl, PhiS_pos V c _ _ ht, PhiA_eq]
  iintro ⟨⟨HM, HS, HA, Hrest⟩, Hg⟩
  isplitl [HM HS HA Hrest]
  · isplitl [HM]; · iexists _; iexact HM
    isplitl [HS]; · iexists _; iexact HS
    isplitl [HA]; · iexists _; iexact HA
    iexact Hrest
  iexact Hg
theorem hout (c : Dev nD) : (dat0 V c).Φ (Fin.last cfg1.N) ⊢ Pipeline.ΦA spec1 c :=
  Phi_out V c _ (by rw [Fin.val_last]; have : cfg1.N = 64 := N_1; omega)

end Cert.Kernel.R1

end
-- ==== Proof.K.Segs.lean ====
/-
  The idealized kernel program from launch to return: two stretches of host operations and the two attention
  layers' kernel regions, in order. Between two of them every unscoped buffer is held at contents named by a fold
  through the program: the launch contents; after the first host stretch; after the first region, whose arrays
  hold what its pipeline leaves (the inputs as entered, the output the blocks written back); after the second host
  stretch; after the second region. Read at the end, the last of these gives the result array as the second
  region's pipeline leaves it, and every argument as launched: no host operation writes one, and the two that are
  staged as inputs of both regions are never written back.
-/
import proofs.«404965_j38543036514339_3_alg».proof.Proof.K.R0Data
import proofs.«404965_j38543036514339_3_alg».proof.Proof.K.R1Data
import proofs.«404965_j38543036514339_3_alg».proof.Proof.Gen.Kernel.Regions
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (R0.dat0 (V1 m) c).arrAt w cfg0.N
theorem W2_arr (c : Dev nD) (w : Fin cfg0.W) :
    W2 m c (Proc.devRef .tc (Pipeline.arrRef spec0 w)) = (R0.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (R0.dat0 (V1 m) c).arrAt w cfg0.N = V2 m c (Pipeline.arrRef spec0 w) := (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (R1.dat0 (V3 m) c).arrAt w cfg1.N
theorem W4_arr (c : Dev nD) (w : Fin cfg1.W) :
    W4 m c (Proc.devRef .tc (Pipeline.arrRef spec1 w)) = (R1.dat0 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (R1.dat0 (V3 m) c).arrAt w cfg1.N = V4 m c (Pipeline.arrRef spec1 w) := (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched, and the result is the second region's output array -/

theorem W4_main_arg0 (c : Dev nD) : W4 m c (Proc.devRef .tc main_arg0) = m ((c.tc : Thread nD τ).loc main_arg0) :=
  (W4_of_ne m c main_arg0 (by decide)).trans <| (StableHlo.after_of_writes_sub hostOps1 _ hostOps1_writes (by decide : main_arg0 ∉ hostOps1_W)).trans <|
    (W2_of_ne m c main_arg0 (by decide)).trans <| (StableHlo.after_of_writes_sub hostOps0 _ hostOps0_writes (by decide : main_arg0 ∉ hostOps0_W)).trans rfl
theorem W4_main_arg1 (c : Dev nD) : W4 m c (Proc.devRef .tc main_arg1) = m ((c.tc : Thread nD τ).loc main_arg1) :=
  (W4_arr m c 3).trans <| ((R1.dat0 (V3 m) c).arrAt_in 3 rfl _).trans <| (R1.A_eq (V3 m) c 3).trans <|
    (StableHlo.after_of_writes_sub hostOps1 _ hostOps1_writes (by decide : main_arg1 ∉ hostOps1_W)).trans <|
    (W2_arr m c 3).trans <| ((R0.dat0 (V1 m) c).arrAt_in 3 rfl _).trans <| (R0.A_eq (V1 m) c 3).trans <|
    (StableHlo.after_of_writes_sub hostOps0 _ hostOps0_writes (by decide : main_arg1 ∉ hostOps0_W)).trans rfl
theorem W4_main_arg2 (c : Dev nD) : W4 m c (Proc.devRef .tc main_arg2) = m ((c.tc : Thread nD τ).loc main_arg2) :=
  (W4_arr m c 2).trans <| ((R1.dat0 (V3 m) c).arrAt_in 2 rfl _).trans <| (R1.A_eq (V3 m) c 2).trans <|
    (StableHlo.after_of_writes_sub hostOps1 _ hostOps1_writes (by decide : main_arg2 ∉ hostOps1_W)).trans <|
    (W2_arr m c 2).trans <| ((R0.dat0 (V1 m) c).arrAt_in 2 rfl _).trans <| (R0.A_eq (V1 m) c 2).trans <|
    (StableHlo.after_of_writes_sub hostOps0 _ hostOps0_writes (by decide : main_arg2 ∉ hostOps0_W)).trans rfl
theorem W4_main_arg3 (c : Dev nD) : W4 m c (Proc.devRef .tc main_arg3) = m ((c.tc : Thread nD τ).loc main_arg3) :=
  (W4_of_ne m c main_arg3 (by decide)).trans <| (StableHlo.after_of_writes_sub hostOps1 _ hostOps1_writes (by decide : main_arg3 ∉ hostOps1_W)).trans <|
    (W2_of_ne m c main_arg3 (by decide)).trans <| (StableHlo.after_of_writes_sub hostOps0 _ hostOps0_writes (by decide : main_arg3 ∉ hostOps0_W)).trans rfl
theorem W4_main_arg4 (c : Dev nD) : W4 m c (Proc.devRef .tc main_arg4) = m ((c.tc : Thread nD τ).loc main_arg4) :=
  (W4_of_ne m c main_arg4 (by decide)).trans <| (StableHlo.after_of_writes_sub hostOps1 _ hostOps1_writes (by decide : main_arg4 ∉ hostOps1_W)).trans <|
    (W2_of_ne m c main_arg4 (by decide)).trans <| (StableHlo.after_of_writes_sub hostOps0 _ hostOps0_writes (by decide : main_arg4 ∉ hostOps0_W)).trans rfl
theorem W4_main_arg5 (c : Dev nD) : W4 m c (Proc.devRef .tc main_arg5) = m ((c.tc : Thread nD τ).loc main_arg5) :=
  (W4_of_ne m c main_arg5 (by decide)).trans <| (StableHlo.after_of_writes_sub hostOps1 _ hostOps1_writes (by decide : main_arg5 ∉ hostOps1_W)).trans <|
    (W2_of_ne m c main_arg5 (by decide)).trans <| (StableHlo.after_of_writes_sub hostOps0 _ hostOps0_writes (by decide : main_arg5 ∉ hostOps0_W)).trans rfl
theorem W4_main_arg6 (c : Dev nD) : W4 m c (Proc.devRef .tc main_arg6) = m ((c.tc : Thread nD τ).loc main_arg6) :=
  (W4_of_ne m c main_arg6 (by decide)).trans <| (StableHlo.after_of_writes_sub hostOps1 _ hostOps1_writes (by decide : main_arg6 ∉ hostOps1_W)).trans <|
    (W2_of_ne m c main_arg6 (by decide)).trans <| (StableHlo.after_of_writes_sub hostOps0 _ hostOps0_writes (by decide : main_arg6 ∉ hostOps0_W)).trans rfl
theorem W4_main_arg7 (c : Dev nD) : W4 m c (Proc.devRef .tc main_arg7) = m ((c.tc : Thread nD τ).loc main_arg7) :=
  (W4_of_ne m c main_arg7 (by decide)).trans <| (StableHlo.after_of_writes_sub hostOps1 _ hostOps1_writes (by decide : main_arg7 ∉ hostOps1_W)).trans <|
    (W2_of_ne m c main_arg7 (by decide)).trans <| (StableHlo.after_of_writes_sub hostOps0 _ hostOps0_writes (by decide : main_arg7 ∉ hostOps0_W)).trans rfl
theorem W4_main_arg8 (c : Dev nD) : W4 m c (Proc.devRef .tc main_arg8) = m ((c.tc : Thread nD τ).loc main_arg8) :=
  (W4_of_ne m c main_arg8 (by decide)).trans <| (StableHlo.after_of_writes_sub hostOps1 _ hostOps1_writes (by decide : main_arg8 ∉ hostOps1_W)).trans <|
    (W2_of_ne m c main_arg8 (by decide)).trans <| (StableHlo.after_of_writes_sub hostOps0 _ hostOps0_writes (by decide : main_arg8 ∉ hostOps0_W)).trans rfl
theorem W4_main_v11 (c : Dev nD) : W4 m c (Proc.devRef .tc main_v11) = (R1.dat0 (V3 m) c).arrAt 5 cfg1.N := W4_arr m c 5

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => R0.dat0 (V1 m) c
  | ⟨1, _⟩ => fun c => R1.dat0 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev Rest (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tlast (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first layer's region over the thread state: entered from every unscoped buffer at `V1`, left at `V2`. Its
    arrays are split out of the unscoped buffers and put back at the exit contents; the generator register goes
    into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m) c).loose
  hwaits := Pipeline.hwaits_of_owed_zero _ _ _ _ L lv 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R0.hin (V1 m) c)
    unfold Pipeline.ΦA
    iintro ⟨Hp, -, Hr⟩
    isplitl [Hr]; · iexact Hr
    iexact Hp
  hout c := by
    rw [Pipeline.ownSems0_none]
    refine (R0.hout (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's region over the thread state: entered from every unscoped buffer at `V3`, left at `V4` — the
    last thread state, grouped as the launch reads it: the buffers and the generator register, beside the core owing
    nothing. Its arrays are split out of the unscoped buffers and put back at the exit contents; the generator
    register goes into the invariant and comes back; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V3 m) c).loose
  hwaits := Pipeline.hwaits_of_owed_zero _ _ _ _ L lv 1 fun _ _ => rfl
  pre c := iprop(StableHlo.held (c : Thread nD τ) (Pipeline.ucRefs τ sig) (W3 m c) ∗ Rest c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R1.hin (V3 m) c)
    unfold Pipeline.ΦA
    iintro ⟨Hp, -, Hr⟩
    isplitl [Hr]; · iexact Hr
    iexact Hp
  hout c := by
    rw [Pipeline.ownSems0_none]
    refine (R1.hout (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The segments and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tlast m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W4_main_arg0 m c), (h c _ (mem_uc main_arg1 (by decide))).trans (W4_main_arg1 m c),
     (h c _ (mem_uc main_arg2 (by decide))).trans (W4_main_arg2 m c), (h c _ (mem_uc main_arg3 (by decide))).trans (W4_main_arg3 m c),
     (h c _ (mem_uc main_arg4 (by decide))).trans (W4_main_arg4 m c), (h c _ (mem_uc main_arg5 (by decide))).trans (W4_main_arg5 m c),
     (h c _ (mem_uc main_arg6 (by decide))).trans (W4_main_arg6 m c), (h c _ (mem_uc main_arg7 (by decide))).trans (W4_main_arg7 m c),
     (h c _ (mem_uc main_arg8 (by decide))).trans (W4_main_arg8 m c)⟩) (run_all m ρ)

end Cert.Kernel.Run

end
-- ==== Proof.KI.R0Base.lean ====
/-
  The first attention layer's kernel region: where on its 8 x 8 grid each of the body's two branches is taken.
  A point `t` is query tile `t / 8` and key tile `t % 8`. The running maximum, running sum and accumulator are reset
  at key tile 0 and the normalised, activated block is stored at key tile 7; the output window is untouched
  (idle) at the other key tiles and written back only after key tile 7.
-/
import proofs.«404965_j38543036514339_3_alg».proof.Proof.Gen.KernelIdeal.Skeleton
import proofs.«404965_j38543036514339_3_alg».proof.Proof.Gen.KernelIdeal.Launch
import proofs.«404965_j38543036514339_3_alg».proof.Proof.Gen.KernelIdeal.Points
import Idealize.ShloMosaic.Lib.Pipeline.Frame
import Idealize.ShloMosaic.Lib.Exec
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The reset branch is taken: the key tile is 0. -/
abbrev condReset (i : grid0.Coords) : Prop :=
  (Scalar.cmpi .ne (Scalar.extui (Scalar.cmpi .eq (BitVec.ofNat 32 (i 1).val) 0#32)) 0#32) = 1#1
/-- The epilogue branch is taken: the key tile is 7. -/
abbrev condLast (i : grid0.Coords) : Prop := k0_cond2 i = 1#1

theorem hcondReset : ∀ t : Fin cfg0.N, condReset (grid0.coords t) ↔ t.val % 8 = 0 :=
  (by decide +kernel : ∀ t : Fin grid0.N, condReset (grid0.coords t) ↔ t.val % 8 = 0)
theorem hcondLast : ∀ t : Fin cfg0.N, condLast (grid0.coords t) ↔ t.val % 8 = 7 :=
  (by decide +kernel : ∀ t : Fin grid0.N, condLast (grid0.coords t) ↔ t.val % 8 = 7)

/-- The five input windows are stored into nowhere and never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- The output window is idle, and not written back, away from key tile 7; live there. -/
theorem idle5 : ∀ t : Fin cfg0.N, ¬condLast (grid0.coords t) → cfg0.idle 5 (grid0.coords t) = true := by decide +kernel
theorem noFlush5 : ∀ t : Fin cfg0.N, ¬condLast (grid0.coords t) → (cfg0.win 5).flush t = false := by decide +kernel
theorem live5 : ∀ t : Fin cfg0.N, condLast (grid0.coords t) → cfg0.idle 5 (grid0.coords t) = false := by decide +kernel

/-- The three scratch buffers the body carries from key tile to key tile. -/
abbrev scMax : Memref sig .tc .vmem S1024x1 .f32 := Memref.whole cc0_scratch0
abbrev scSum : Memref sig .tc .vmem S1024x1 .f32 := Memref.whole cc0_scratch1
abbrev scAcc : Memref sig .tc .vmem S1024x256 .f32 := Memref.whole cc0_scratch2

end Cert.KernelIdeal.R0

end
-- ==== Proof.KI.R0RunReset.lean ====
/-
  The body of the first layer's kernel at key tile 0: the reset branch is taken, so the carried maximum, sum and
  accumulator are first overwritten whole (by the finite sentinel and by zeros) and what they held before is never
  read; the online-softmax step then runs from that start. The output block is not stored.
-/
import proofs.«404965_j38543036514339_3_alg».proof.Proof.KI.R0Base

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
local notation "𝕄" => MT nD τ sig Unit (Elt F) ℕ (UR sig nD τ) ℕ

set_option maxHeartbeats 4000000 in
/-- On whole staging memrefs holding `x0 … x4`, the output's at `xo` (handed back untouched), the three scratch
    buffers at anything: the body runs and leaves each scratch with the pieces its stores wrote (reset, then step). -/
noncomputable def runReset (c : Dev nD) (i : grid0.Coords)
    (arg2 : Memref sig .tc .vmem S1024x1 .f32) (harg2 : arg2.IsWhole) (arg3 : Memref sig .tc .vmem S1x1024 .f32) (harg3 : arg3.IsWhole)
    (arg4 : Memref sig .tc .vmem S1024x1024 .f32) (harg4 : arg4.IsWhole) (arg5 : Memref sig .tc .vmem S1024x1024 .i32) (harg5 : arg5.IsWhole)
    (arg6 : Memref sig .tc .vmem S8192x256 .bf16) (harg6 : arg6.IsWhole) (arg7 : Memref sig .tc .vmem S1024x256 .f32) (harg7 : arg7.IsWhole)
    (hr : condReset i) (hl : ¬condLast i)
    (x0 : Vec F S1024x1 .f32) (x1 : Vec F S1x1024 .f32) (x2 : Vec F S1024x1024 .f32) (x3 : Vec F S1024x1024 .i32) (x4 : Vec F S8192x256 .bf16) :
    Σ' (LM LS : List (View.Piece (Elt F) S1024x1 .f32)), { LA : List (View.Piece (Elt F) S1024x256 .f32) //
      ∀ (xo : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xo
            ∗ (∃ d, owns (c : Thread nD τ) scMax fullShare d) ∗ (∃ d, owns (c : Thread nD τ) scSum fullShare d) ∗ (∃ d, owns (c : Thread nD τ) scAcc fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xo
                ∗ (∃ f, scMax.view.loc (c : Thread nD τ) ↦[scMax.view.set]{fullShare} scMax.view.writes (Elt F) f LM)
                ∗ (∃ f, scSum.view.loc (c : Thread nD τ) ↦[scSum.view.set]{fullShare} scSum.view.writes (Elt F) f LS)
                ∗ (∃ f, scAcc.view.loc (c : Thread nD τ) ↦[scAcc.view.set]{fullShare} scAcc.view.writes (Elt F) f LA)) -∗ K ⟨⟩))
          ⊢ wp frame (wpE (defs₀ (F := F)) Variants.none c none) E
              (cc0__gat_attn_kernel i arg2 harg2 arg3 harg3 arg4 harg4 arg5 harg5 arg6 harg6 arg7 harg7 scMax (Memref.isWhole_whole _) scSum (Memref.isWhole_whole _) scAcc (Memref.isWhole_whole _)) K } := by
  refine ⟨?_, ?_, ?_, fun xo E K => ?run⟩
  case run =>
    simp only [cc0__gat_attn_kernel_eq_skeleton]; unfold cc0__gat_attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dm, %fm, -, HM⟩, ⟨%ds, %fs, -, HS⟩, ⟨%da, %fa, -, HA⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hr | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HM]; · iexists _; iexact HM
    isplitl [HS]; · iexists _; iexact HS
    iexists _; iexact HA

end Cert.KernelIdeal.R0

end
-- ==== Proof.KI.R0RunMid.lean ====
/-
  The body of the first layer's kernel at a key tile that is neither the first nor the last: neither branch is
  taken. It reads the query column, the key row, the coefficient tile, the adjacency tile and the key tile's rows
  of the resident features, and replaces the carried maximum, sum and accumulator by the online-softmax step's.
-/
import proofs.«404965_j38543036514339_3_alg».proof.Proof.KI.R0RunReset

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole staging memrefs holding `x0 … x4`, the output's at `xo` (handed back untouched), the carried scratch
    at `sm`, `sl`, `sa`: the body runs and leaves each scratch with the pieces its stores wrote. -/
noncomputable def runMid (c : Dev nD) (i : grid0.Coords)
    (arg2 : Memref sig .tc .vmem S1024x1 .f32) (harg2 : arg2.IsWhole) (arg3 : Memref sig .tc .vmem S1x1024 .f32) (harg3 : arg3.IsWhole)
    (arg4 : Memref sig .tc .vmem S1024x1024 .f32) (harg4 : arg4.IsWhole) (arg5 : Memref sig .tc .vmem S1024x1024 .i32) (harg5 : arg5.IsWhole)
    (arg6 : Memref sig .tc .vmem S8192x256 .bf16) (harg6 : arg6.IsWhole) (arg7 : Memref sig .tc .vmem S1024x256 .f32) (harg7 : arg7.IsWhole)
    (hr : ¬condReset i) (hl : ¬condLast i)
    (x0 : Vec F S1024x1 .f32) (x1 : Vec F S1x1024 .f32) (x2 : Vec F S1024x1024 .f32) (x3 : Vec F S1024x1024 .i32) (x4 : Vec F S8192x256 .bf16)
    (sm sl : Vec F S1024x1 .f32) (sa : Vec F S1024x256 .f32) :
    Σ' (LM LS : List (View.Piece (Elt F) S1024x1 .f32)), { LA : List (View.Piece (Elt F) S1024x256 .f32) //
      ∀ (xo : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xo
            ∗ owns (c : Thread nD τ) scMax fullShare sm ∗ owns (c : Thread nD τ) scSum fullShare sl ∗ owns (c : Thread nD τ) scAcc fullShare sa
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare xo
                ∗ (∃ f, scMax.view.loc (c : Thread nD τ) ↦[scMax.view.set]{fullShare} scMax.view.writes (Elt F) f LM)
                ∗ (∃ f, scSum.view.loc (c : Thread nD τ) ↦[scSum.view.set]{fullShare} scSum.view.writes (Elt F) f LS)
                ∗ (∃ f, scAcc.view.loc (c : Thread nD τ) ↦[scAcc.view.set]{fullShare} scAcc.view.writes (Elt F) f LA)) -∗ K ⟨⟩))
          ⊢ wp frame (wpE (defs₀ (F := F)) Variants.none c none) E
              (cc0__gat_attn_kernel i arg2 harg2 arg3 harg3 arg4 harg4 arg5 harg5 arg6 harg6 arg7 harg7 scMax (Memref.isWhole_whole _) scSum (Memref.isWhole_whole _) scAcc (Memref.isWhole_whole _)) K } := by
  refine ⟨?_, ?_, ?_, fun xo E K => ?run⟩
  case run =>
    simp only [cc0__gat_attn_kernel_eq_skeleton]; unfold cc0__gat_attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fm, %hfm, HM⟩, ⟨%fs, %hfs, HS⟩, ⟨%fa, %hfa, HA⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := (Memref.isWhole_whole _ : scMax.IsWhole).eq_unread hfm
    obtain rfl := (Memref.isWhole_whole _ : scSum.IsWhole).eq_unread hfs
    obtain rfl := (Memref.isWhole_whole _ : scAcc.IsWhole).eq_unread hfa
    sl_exec (disch := first | exact hr | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HM]; · iexists _; iexact HM
    isplitl [HS]; · iexists _; iexact HS
    iexists _; iexact HA

end Cert.KernelIdeal.R0

end
-- ==== Proof.KI.R0RunLast.lean ====
/-
  The body of the first layer's kernel at key tile 7: the online-softmax step as at every later key tile, then the
  epilogue branch, which divides the accumulator by the sum, applies the exponential linear unit and stores the
  whole output block. What the output's buffer held before is never read.
-/
import proofs.«404965_j38543036514339_3_alg».proof.Proof.KI.R0RunMid

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
local notation "𝕄" => MT nD τ sig Unit (Elt F) ℕ (UR sig nD τ) ℕ

set_option maxHeartbeats 4000000 in
/-- On whole staging memrefs holding `x0 … x4`, the output's at anything, the carried scratch at `sm`, `sl`,
    `sa`: the body runs and leaves each scratch, and the output's buffer, with the pieces its stores wrote. -/
noncomputable def runLast (c : Dev nD) (i : grid0.Coords)
    (arg2 : Memref sig .tc .vmem S1024x1 .f32) (harg2 : arg2.IsWhole) (arg3 : Memref sig .tc .vmem S1x1024 .f32) (harg3 : arg3.IsWhole)
    (arg4 : Memref sig .tc .vmem S1024x1024 .f32) (harg4 : arg4.IsWhole) (arg5 : Memref sig .tc .vmem S1024x1024 .i32) (harg5 : arg5.IsWhole)
    (arg6 : Memref sig .tc .vmem S8192x256 .bf16) (harg6 : arg6.IsWhole) (arg7 : Memref sig .tc .vmem S1024x256 .f32) (harg7 : arg7.IsWhole)
    (hr : ¬condReset i) (hl : condLast i)
    (x0 : Vec F S1024x1 .f32) (x1 : Vec F S1x1024 .f32) (x2 : Vec F S1024x1024 .f32) (x3 : Vec F S1024x1024 .i32) (x4 : Vec F S8192x256 .bf16)
    (sm sl : Vec F S1024x1 .f32) (sa : Vec F S1024x256 .f32) :
    Σ' (LM LS : List (View.Piece (Elt F) S1024x1 .f32)) (LA : List (View.Piece (Elt F) S1024x256 .f32)), { LO : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ owns (c : Thread nD τ) scMax fullShare sm ∗ owns (c : Thread nD τ) scSum fullShare sl ∗ owns (c : Thread nD τ) scAcc fullShare sa
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ (∃ f, arg7.view.loc (c : Thread nD τ) ↦[arg7.view.set]{fullShare} arg7.view.writes (Elt F) f LO)
                ∗ (∃ f, scMax.view.loc (c : Thread nD τ) ↦[scMax.view.set]{fullShare} scMax.view.writes (Elt F) f LM)
                ∗ (∃ f, scSum.view.loc (c : Thread nD τ) ↦[scSum.view.set]{fullShare} scSum.view.writes (Elt F) f LS)
                ∗ (∃ f, scAcc.view.loc (c : Thread nD τ) ↦[scAcc.view.set]{fullShare} scAcc.view.writes (Elt F) f LA)) -∗ K ⟨⟩))
          ⊢ wp frame (wpE (defs₀ (F := F)) Variants.none c none) E
              (cc0__gat_attn_kernel i arg2 harg2 arg3 harg3 arg4 harg4 arg5 harg5 arg6 harg6 arg7 harg7 scMax (Memref.isWhole_whole _) scSum (Memref.isWhole_whole _) scAcc (Memref.isWhole_whole _)) K } := by
  refine ⟨?_, ?_, ?_, ?_, fun E K => ?run⟩
  case run =>
    simp only [cc0__gat_attn_kernel_eq_skeleton]; unfold cc0__gat_attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fm, %hfm, HM⟩, ⟨%fs, %hfs, HS⟩, ⟨%fa, %hfa, HA⟩, Hk⟩
    obtain rfl := harg2.eq_unread hf0; obtain rfl := harg3.eq_unread hf1; obtain rfl := harg4.eq_unread hf2
    obtain rfl := harg5.eq_unread hf3; obtain rfl := harg6.eq_unread hf4
    obtain rfl := (Memref.isWhole_whole _ : scMax.IsWhole).eq_unread hfm
    obtain rfl := (Memref.isWhole_whole _ : scSum.IsWhole).eq_unread hfs
    obtain rfl := (Memref.isWhole_whole _ : scAcc.IsWhole).eq_unread hfa
    sl_exec (disch := first | exact hr | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HM]; · iexists _; iexact HM
    isplitl [HS]; · iexists _; iexact HS
    iexists _; iexact HA

end Cert.KernelIdeal.R0

end
-- ==== Proof.KI.R0Data.lean ====
/-
  The first attention layer's kernel region, point by point. Point `t` of the 8 x 8 grid is query tile `t / 8`
  against key tile `t % 8`. Every input window's staging buffer holds that point's block of its array. The body
  carries three values from key tile to key tile of one query tile — the running maximum and running sum of each
  query row and the accumulated weighted features — in scratch buffers the pipeline does not stage; they are reset
  at key tile 0, so what a query tile starts from is never read. The output block is stored once, at key tile 7.
-/
import proofs.«404965_j38543036514339_3_alg».proof.Proof.KI.R0RunLast
import Idealize.ShloMosaic.Lib.Pipeline.FrameBody
import Idealize.ShloMosaic.Lib.Ring
import Idealize.ShloMosaic.Lib.Writes

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- The unscoped buffers' contents as the region is entered.
variable (V : (c : Dev nD) → (b : Ref sig .tc) → Buf (Elt F) ((c : Thread nD τ).loc b))

/-! ## The windows at a point -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging memref each window is on at point `t`. -/
abbrev ms0 (t : Fin cfg0.N) : Memref sig .tc .vmem S1024x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8192x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x256 .f32 := win0_5.stage (cfg0.slots t 5)
abbrev hs5 (t : Fin cfg0.N) : (ms5 t).IsWhole := hstage0_5 ((cfg0.slots t 5).cast nbuf0_5)

/-! ## What each case leaves, read back from the pieces its stores wrote -/

/-- Fixed whole views to read a scratch's, and the output block's, pieces back through. -/
abbrev VMax : View sig .tc .vmem S1024x1 .f32 := scMax.view
abbrev VSum : View sig .tc .vmem S1024x1 .f32 := scSum.view
abbrev VAcc : View sig .tc .vmem S1024x256 .f32 := scAcc.view
abbrev VOut : View sig .tc .vmem S1024x256 .f32 := (Memref.whole cc0_stg5_0 : Memref sig .tc .vmem S1024x256 .f32).view

/-- The carried triple: running maximum, running sum, accumulator. -/
abbrev Carried (F : FTy → Type) [FloatOps F] : Type := Vec F S1024x1 .f32 × Vec F S1024x1 .f32 × Vec F S1024x256 .f32

section AtPoint

variable (c : Dev nD) (t : Fin cfg0.N)

/-- The reset case's run at point `t`, on that point's memrefs and input blocks. -/
abbrev resetAt (hr : t.val % 8 = 0) (hl : ¬t.val % 8 = 7) :=
  runReset (F := F) c (grid0.coords t) (ms0 t) (hs0 t) (ms1 t) (hs1 t) (ms2 t) (hs2 t) (ms3 t) (hs3 t) (ms4 t) (hs4 t) (ms5 t) (hs5 t)
    ((hcondReset t).mpr hr) (fun h => hl ((hcondLast t).mp h)) (iblk V c 0 t) (iblk V c 1 t) (iblk V c 2 t) (iblk V c 3 t) (iblk V c 4 t)
/-- The middle case's, from what the point before left. -/
abbrev midAt (hr : ¬t.val % 8 = 0) (hl : ¬t.val % 8 = 7) (p : Carried F) :=
  runMid (F := F) c (grid0.coords t) (ms0 t) (hs0 t) (ms1 t) (hs1 t) (ms2 t) (hs2 t) (ms3 t) (hs3 t) (ms4 t) (hs4 t) (ms5 t) (hs5 t)
    (fun h => hr ((hcondReset t).mp h)) (fun h => hl ((hcondLast t).mp h)) (iblk V c 0 t) (iblk V c 1 t) (iblk V c 2 t) (iblk V c 3 t) (iblk V c 4 t) p.1 p.2.1 p.2.2
/-- The last case's, from what the point before left. -/
abbrev lastAt (hr : ¬t.val % 8 = 0) (hl : t.val % 8 = 7) (p : Carried F) :=
  runLast (F := F) c (grid0.coords t) (ms0 t) (hs0 t) (ms1 t) (hs1 t) (ms2 t) (hs2 t) (ms3 t) (hs3 t) (ms4 t) (hs4 t) (ms5 t) (hs5 t)
    (fun h => hr ((hcondReset t).mp h)) ((hcondLast t).mpr hl) (iblk V c 0 t) (iblk V c 1 t) (iblk V c 2 t) (iblk V c 3 t) (iblk V c 4 t) p.1 p.2.1 p.2.2

/-- What the reset case leaves carried: each scratch's pieces read back over junk. -/
def carriedReset (hr : t.val % 8 = 0) (hl : ¬t.val % 8 = 7) : Carried F :=
  (VMax.read (Elt F) (VMax.writes (Elt F) VMax.junk (resetAt V c t hr hl).1),
   VSum.read (Elt F) (VSum.writes (Elt F) VSum.junk (resetAt V c t hr hl).2.1),
   VAcc.read (Elt F) (VAcc.writes (Elt F) VAcc.junk (resetAt V c t hr hl).2.2.1))
def carriedMid (hr : ¬t.val % 8 = 0) (hl : ¬t.val % 8 = 7) (p : Carried F) : Carried F :=
  (VMax.read (Elt F) (VMax.writes (Elt F) VMax.junk (midAt V c t hr hl p).1),
   VSum.read (Elt F) (VSum.writes (Elt F) VSum.junk (midAt V c t hr hl p).2.1),
   VAcc.read (Elt F) (VAcc.writes (Elt F) VAcc.junk (midAt V c t hr hl p).2.2.1))
def carriedLast (hr : ¬t.val % 8 = 0) (hl : t.val % 8 = 7) (p : Carried F) : Carried F :=
  (VMax.read (Elt F) (VMax.writes (Elt F) VMax.junk (lastAt V c t hr hl p).1),
   VSum.read (Elt F) (VSum.writes (Elt F) VSum.junk (lastAt V c t hr hl p).2.1),
   VAcc.read (Elt F) (VAcc.writes (Elt F) VAcc.junk (lastAt V c t hr hl p).2.2.1))
/-- What the last case leaves in the output's staging buffer: the block it stores. -/
def outLast (hr : ¬t.val % 8 = 0) (hl : t.val % 8 = 7) (p : Carried F) : Vec F S1024x256 .f32 :=
  VOut.read (Elt F) (VOut.writes (Elt F) VOut.junk (lastAt V c t hr hl p).2.2.2.1)

/-- Every case's stores cover each scratch whole, and the last case's cover the output block. -/
theorem coverReset_max (hr : t.val % 8 = 0) (hl : ¬t.val % 8 = 7) (y : S1024x1.Idx) : ∃ pc ∈ (resetAt V c t hr hl).1, y ∈ pc.1.set :=
  View.cover_of_tiledL (resetAt V c t hr hl).1 S1024x1.size (by sl_kernel_rfl) y
theorem coverReset_sum (hr : t.val % 8 = 0) (hl : ¬t.val % 8 = 7) (y : S1024x1.Idx) : ∃ pc ∈ (resetAt V c t hr hl).2.1, y ∈ pc.1.set :=
  View.cover_of_tiledL (resetAt V c t hr hl).2.1 S1024x1.size (by sl_kernel_rfl) y
theorem coverReset_acc (hr : t.val % 8 = 0) (hl : ¬t.val % 8 = 7) (y : S1024x256.Idx) : ∃ pc ∈ (resetAt V c t hr hl).2.2.1, y ∈ pc.1.set :=
  View.cover_of_tiledL (resetAt V c t hr hl).2.2.1 S1024x256.size (by sl_kernel_rfl) y
theorem coverMid_max (hr : ¬t.val % 8 = 0) (hl : ¬t.val % 8 = 7) (p : Carried F) (y : S1024x1.Idx) : ∃ pc ∈ (midAt V c t hr hl p).1, y ∈ pc.1.set :=
  View.cover_of_tiledL (midAt V c t hr hl p).1 S1024x1.size (by sl_kernel_rfl) y
theorem coverMid_sum (hr : ¬t.val % 8 = 0) (hl : ¬t.val % 8 = 7) (p : Carried F) (y : S1024x1.Idx) : ∃ pc ∈ (midAt V c t hr hl p).2.1, y ∈ pc.1.set :=
  View.cover_of_tiledL (midAt V c t hr hl p).2.1 S1024x1.size (by sl_kernel_rfl) y
theorem coverMid_acc (hr : ¬t.val % 8 = 0) (hl : ¬t.val % 8 = 7) (p : Carried F) (y : S1024x256.Idx) : ∃ pc ∈ (midAt V c t hr hl p).2.2.1, y ∈ pc.1.set :=
  View.cover_of_tiledL (midAt V c t hr hl p).2.2.1 S1024x256.size (by sl_kernel_rfl) y
theorem coverLast_max (hr : ¬t.val % 8 = 0) (hl : t.val % 8 = 7) (p : Carried F) (y : S1024x1.Idx) : ∃ pc ∈ (lastAt V c t hr hl p).1, y ∈ pc.1.set :=
  View.cover_of_tiledL (lastAt V c t hr hl p).1 S1024x1.size (by sl_kernel_rfl) y
theorem coverLast_sum (hr : ¬t.val % 8 = 0) (hl : t.val % 8 = 7) (p : Carried F) (y : S1024x1.Idx) : ∃ pc ∈ (lastAt V c t hr hl p).2.1, y ∈ pc.1.set :=
  View.cover_of_tiledL (lastAt V c t hr hl p).2.1 S1024x1.size (by sl_kernel_rfl) y
theorem coverLast_acc (hr : ¬t.val % 8 = 0) (hl : t.val % 8 = 7) (p : Carried F) (y : S1024x256.Idx) : ∃ pc ∈ (lastAt V c t hr hl p).2.2.1, y ∈ pc.1.set :=
  View.cover_of_tiledL (lastAt V c t hr hl p).2.2.1 S1024x256.size (by sl_kernel_rfl) y
theorem coverLast_out (hr : ¬t.val % 8 = 0) (hl : t.val % 8 = 7) (p : Carried F) (y : S1024x256.Idx) : ∃ pc ∈ (lastAt V c t hr hl p).2.2.2.1, y ∈ pc.1.set :=
  View.cover_of_tiledL (lastAt V c t hr hl p).2.2.2.1 S1024x256.size (by sl_kernel_rfl) y

end AtPoint

/-! ## What is carried, and what the output's buffer holds, after each point -/

/-- After the body at position `n`: the output block's staging contents and the carried triple. At key tile 0 the
    reset case's, from nothing; at later key tiles the step's over what the point before left; the output block is
    what the last case stores, and at the other points a placeholder nothing consults (the window is idle there and
    not written back). -/
def outsAt (c : Dev nD) : (n : ℕ) → n < cfg0.N → Vec F S1024x256 .f32 × Carried F
  | 0, hn => (VOut.read (Elt F) VOut.junk, carriedReset V c ⟨0, hn⟩ (Nat.zero_mod _) (by show ¬ (0 % 8 = 7); decide))
  | n + 1, hn =>
    if hr : (n + 1) % 8 = 0 then
      if hl : (n + 1) % 8 = 7 then False.elim (by omega)
      else (VOut.read (Elt F) VOut.junk, carriedReset V c ⟨n + 1, hn⟩ hr hl)
    else
      if hl : (n + 1) % 8 = 7 then
        (outLast V c ⟨n + 1, hn⟩ hr hl (outsAt c n (Nat.lt_of_succ_lt hn)).2, carriedLast V c ⟨n + 1, hn⟩ hr hl (outsAt c n (Nat.lt_of_succ_lt hn)).2)
      else
        (VOut.read (Elt F) VOut.junk, carriedMid V c ⟨n + 1, hn⟩ hr hl (outsAt c n (Nat.lt_of_succ_lt hn)).2)

/-- What the point before `t` left carried (for `t` not the first point). -/
abbrev prevCarried (c : Dev nD) (t : Fin cfg0.N) : Carried F :=
  (outsAt V c (t.val - 1) (Nat.lt_of_le_of_lt (Nat.sub_le _ _) t.isLt)).2

theorem outsAt_reset (c : Dev nD) (t : Fin cfg0.N) (hr : t.val % 8 = 0) (hl : ¬t.val % 8 = 7) :
    outsAt V c t.val t.isLt = (VOut.read (Elt F) VOut.junk, carriedReset V c t hr hl) := by
  obtain ⟨n, hn⟩ := t
  cases n with
  | zero => exact rfl
  | succ n => exact (dif_pos hr).trans ((dif_neg hl).trans rfl)
theorem outsAt_mid (c : Dev nD) (t : Fin cfg0.N) (hr : ¬t.val % 8 = 0) (hl : ¬t.val % 8 = 7) :
    outsAt V c t.val t.isLt = (VOut.read (Elt F) VOut.junk, carriedMid V c t hr hl (prevCarried V c t)) := by
  obtain ⟨n, hn⟩ := t
  cases n with
  | zero => exact absurd (Nat.zero_mod _) hr
  | succ n => exact (dif_neg hr).trans ((dif_neg hl).trans rfl)
theorem outsAt_last (c : Dev nD) (t : Fin cfg0.N) (hr : ¬t.val % 8 = 0) (hl : t.val % 8 = 7) :
    outsAt V c t.val t.isLt = (outLast V c t hr hl (prevCarried V c t), carriedLast V c t hr hl (prevCarried V c t)) := by
  obtain ⟨n, hn⟩ := t
  cases n with
  | zero => exact absurd (Nat.zero_mod _) hr
  | succ n => exact (dif_neg hr).trans ((dif_pos hl).trans rfl)

/-! ## The invariant -/

/-- The core's scoped buffers that are neither a staging buffer of this region nor one of its three scratch
    buffers (the second layer's region's), each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

/-- The class's invariant with this region's three scratch buffers as memrefs owned at some contents. -/
theorem PhiA_eq (c : Dev nD) :
    (Pipeline.ΦA spec0 c : sProp 𝕄)
      = iprop(iprop((∃ d, owns (c : Thread nD τ) scMax fullShare d) ∗ (∃ d, owns (c : Thread nD τ) scSum fullShare d) ∗ (∃ d, owns (c : Thread nD τ) scAcc fullShare d) ∗ otherScoped (F := F) c) ∗ (∃ r, prngReg c r)) := by
  unfold Pipeline.ΦA otherScoped; rw [scopedRest0_eq]; simp only [scMax, scSum, scAcc, owns_whole]
  -- the scoped rest lists the same seventeen buffers, possibly in another order: a bi-entailment is an equality
  first
  | rfl
  | (refine congrArg (fun X : sProp 𝕄 => iprop(X ∗ (∃ r, prngReg c r))) (equiv_iff.mp ⟨?_, ?_⟩) <;>
      (show (_ : sProp 𝕄) ⊢ _; iintro ⟨H1, H2, H3, H4, H5, H6, H7, H8, H9, H10, H11, H12, H13, H14, H15, H16, H17⟩; iframe))

/-- Before position `n`: before the first point the class's invariant (every scratch at anything); afterwards the
    three carried scratch buffers at what the point before left, the other scoped buffers at anything, the
    generator register at some state. -/
def PhiS (c : Dev nD) : (n : ℕ) → n ≤ cfg0.N → sProp 𝕄
  | 0, _ => Pipeline.ΦA spec0 c
  | n + 1, hn => iprop(iprop(owns (c : Thread nD τ) scMax fullShare (outsAt V c n hn).2.1 ∗ owns (c : Thread nD τ) scSum fullShare (outsAt V c n hn).2.2.1
      ∗ owns (c : Thread nD τ) scAcc fullShare (outsAt V c n hn).2.2.2 ∗ otherScoped (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scMax fullShare (outsAt V c n hn).2.1 ∗ owns (c : Thread nD τ) scSum fullShare (outsAt V c n hn).2.2.1
      ∗ owns (c : Thread nD τ) scAcc fullShare (outsAt V c n hn).2.2.2 ∗ otherScoped (F := F) c) ∗ (∃ r, prngReg c r)) := rfl
theorem PhiS_pos (c : Dev nD) (n : ℕ) (h : n ≤ cfg0.N) (hz : n ≠ 0) :
    PhiS V c n h = iprop(iprop(owns (c : Thread nD τ) scMax fullShare (outsAt V c (n - 1) (by omega)).2.1 ∗ owns (c : Thread nD τ) scSum fullShare (outsAt V c (n - 1) (by omega)).2.2.1
      ∗ owns (c : Thread nD τ) scAcc fullShare (outsAt V c (n - 1) (by omega)).2.2.2 ∗ otherScoped (F := F) c) ∗ (∃ r, prngReg c r)) := by
  cases n with
  | zero => exact absurd rfl hz
  | succ n => rfl

/-! ## The proof data -/

/-- The region's proof data on core `c`: the arrays as the region finds them; after the body at point `t` each
    input's buffer at its block and the output's at `outsAt`'s first component; the invariant `PhiS`; nothing owed;
    full shares. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

theorem A_eq (c : Dev nD) (w : Fin cfg0.W) : (dat0 V c).A w = V c (Pipeline.arrRef spec0 w) := by dsimp only [dat0]
theorem PhiS_castSucc (c : Dev nD) (t : Fin cfg0.N) : (dat0 V c).Φ t.castSucc = PhiS V c t.val (Nat.le_of_lt t.isLt) := by
  dsimp only [dat0]; simp only [Fin.coe_castSucc]
theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = iblk V c 4 t := by dsimp only [dat0]
theorem after_5 (c : Dev nD) (t : Fin cfg0.N) : (dat0 V c).after 5 t = (outsAt V c t.val t.isLt).1 := by dsimp only [dat0]

/-! ## The body obligation -/

/-- Each input window's current staging buffer holds its block at every point. -/
theorem before_0 (c : Dev nD) (t : Fin cfg0.N) (d) : (dat0 V c).before 0 t d = iblk V c 0 t :=
  ((dat0 V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat0 V c).before 1 t d = iblk V c 1 t :=
  ((dat0 V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat0 V c).before 2 t d = iblk V c 2 t :=
  ((dat0 V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat0 V c).before 3 t d = iblk V c 3 t :=
  ((dat0 V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat0 V c).before 4 t d = iblk V c 4 t :=
  ((dat0 V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d))
    ∗ (∃ d, owns (c : Thread nD τ) (ms5 t) fullShare ((dat0 V c).before 5 t d)))
/-- and what it returns. -/
def bodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- The body at any point. The inputs' memrefs hold their blocks; the key tile says which case the point is in;
    the invariant hands the body the carried buffers at what the point before left (at anything before the first
    point, and the reset case does not look), and takes them back at this point's contents, each read back from
    the pieces that cover it; the output's buffer goes back as found away from key tile 7 and at the stored block
    there; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases hr : t.val % 8 = 0
  · by_cases hl : t.val % 8 = 7
    · exfalso; omega
    · rw [show (dat0 V c).leavesExact 0 t = owns (c : Thread nD τ) (ms0 t) fullShare ((dat0 V c).after 0 t) from by
        unfold Dat.leavesExact; rw [live0 t], after_0]
      rw [show (dat0 V c).leavesExact 1 t = owns (c : Thread nD τ) (ms1 t) fullShare ((dat0 V c).after 1 t) from by
        unfold Dat.leavesExact; rw [live1 t], after_1]
      rw [show (dat0 V c).leavesExact 2 t = owns (c : Thread nD τ) (ms2 t) fullShare ((dat0 V c).after 2 t) from by
        unfold Dat.leavesExact; rw [live2 t], after_2]
      rw [show (dat0 V c).leavesExact 3 t = owns (c : Thread nD τ) (ms3 t) fullShare ((dat0 V c).after 3 t) from by
        unfold Dat.leavesExact; rw [live3 t], after_3]
      rw [show (dat0 V c).leavesExact 4 t = owns (c : Thread nD τ) (ms4 t) fullShare ((dat0 V c).after 4 t) from by
        unfold Dat.leavesExact; rw [live4 t], after_4]
      rw [Dat.leavesExact_idle (dat0 V c) 5 t (idle5 t (fun h => hl ((hcondLast t).mp h))) (noFlush5 t (fun h => hl ((hcondLast t).mp h)))]
      rw [outsAt_reset V c t hr hl]
      unfold carriedReset; (try dsimp only)
      by_cases hz : t.val = 0
      · rw [PhiS_castSucc V c t, PhiS_zero V c _ _ hz, PhiA_eq]
        iintro ⟨⟨⟨HM, HS, HA, Hrest⟩, Hg⟩, Ho, ⟨%d0, H0⟩, ⟨%d1, H1⟩, ⟨%d2, H2⟩, ⟨%d3, H3⟩, ⟨%d4, H4⟩, ⟨%d5, H5⟩⟩
        iapply ((resetAt V c t hr hl).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HM]; · iexact HM
        isplitl [HS]; · iexact HS
        isplitl [HA]; · iexact HA
        iintro ⟨H0, H1, H2, H3, H4, H5, ⟨%em, HM⟩, ⟨%es, HS⟩, ⟨%ea, HA⟩⟩
        isplitl [HM HS HA Hrest Hg]
        · isplitl [HM HS HA Hrest]
          · isplitl [HM]
            · unfold owns; iexists _; isplitr; swap; iexact HM; ipureintro; exact View.read_writes_of_cover _ _ _ _ _ (coverReset_max V c t hr hl)
            isplitl [HS]
            · unfold owns; iexists _; isplitr; swap; iexact HS; ipureintro; exact View.read_writes_of_cover _ _ _ _ _ (coverReset_sum V c t hr hl)
            isplitl [HA]
            · unfold owns; iexists _; isplitr; swap; iexact HA; ipureintro; exact View.read_writes_of_cover _ _ _ _ _ (coverReset_acc V c t hr hl)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨HM, HS, HA, Hrest⟩, Hg⟩, Ho, ⟨%d0, H0⟩, ⟨%d1, H1⟩, ⟨%d2, H2⟩, ⟨%d3, H3⟩, ⟨%d4, H4⟩, ⟨%d5, H5⟩⟩
        iapply ((resetAt V c t hr hl).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HM]; · iexists _; iexact HM
        isplitl [HS]; · iexists _; iexact HS
        isplitl [HA]; · iexists _; iexact HA
        iintro ⟨H0, H1, H2, H3, H4, H5, ⟨%em, HM⟩, ⟨%es, HS⟩, ⟨%ea, HA⟩⟩
        isplitl [HM HS HA Hrest Hg]
        · isplitl [HM HS HA Hrest]
          · isplitl [HM]
            · unfold owns; iexists _; isplitr; swap; iexact HM; ipureintro; exact View.read_writes_of_cover _ _ _ _ _ (coverReset_max V c t hr hl)
            isplitl [HS]
            · unfold owns; iexists _; isplitr; swap; iexact HS; ipureintro; exact View.read_writes_of_cover _ _ _ _ _ (coverReset_sum V c t hr hl)
            isplitl [HA]
            · unfold owns; iexists _; isplitr; swap; iexact HA; ipureintro; exact View.read_writes_of_cover _ _ _ _ _ (coverReset_acc V c t hr hl)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun h => hr (by rw [h])
    by_cases hl : t.val % 8 = 7
    · rw [show (dat0 V c).leavesExact 0 t = owns (c : Thread nD τ) (ms0 t) fullShare ((dat0 V c).after 0 t) from by
        unfold Dat.leavesExact; rw [live0 t], after_0]
      rw [show (dat0 V c).leavesExact 1 t = owns (c : Thread nD τ) (ms1 t) fullShare ((dat0 V c).after 1 t) from by
        unfold Dat.leavesExact; rw [live1 t], after_1]
      rw [show (dat0 V c).leavesExact 2 t = owns (c : Thread nD τ) (ms2 t) fullShare ((dat0 V c).after 2 t) from by
        unfold Dat.leavesExact; rw [live2 t], after_2]
      rw [show (dat0 V c).leavesExact 3 t = owns (c : Thread nD τ) (ms3 t) fullShare ((dat0 V c).after 3 t) from by
        unfold Dat.leavesExact; rw [live3 t], after_3]
      rw [show (dat0 V c).leavesExact 4 t = owns (c : Thread nD τ) (ms4 t) fullShare ((dat0 V c).after 4 t) from by
        unfold Dat.leavesExact; rw [live4 t], after_4]
      rw [show (dat0 V c).leavesExact 5 t = owns (c : Thread nD τ) (ms5 t) fullShare ((dat0 V c).after 5 t) from by
        unfold Dat.leavesExact; rw [live5 t ((hcondLast t).mpr hl)], after_5]
      rw [outsAt_last V c t hr hl]
      unfold carriedLast outLast; (try dsimp only)
      rw [PhiS_castSucc V c t, PhiS_pos V c _ _ hz]
      iintro ⟨⟨⟨HM, HS, HA, Hrest⟩, Hg⟩, Ho, ⟨%d0, H0⟩, ⟨%d1, H1⟩, ⟨%d2, H2⟩, ⟨%d3, H3⟩, ⟨%d4, H4⟩, ⟨%d5, H5⟩⟩
      iapply ((lastAt V c t hr hl (prevCarried V c t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HM]; · iexact HM
      isplitl [HS]; · iexact HS
      isplitl [HA]; · iexact HA
      iintro ⟨H0, H1, H2, H3, H4, ⟨%eo, H5⟩, ⟨%em, HM⟩, ⟨%es, HS⟩, ⟨%ea, HA⟩⟩
      isplitl [HM HS HA Hrest Hg]
      · isplitl [HM HS HA Hrest]
        · isplitl [HM]
          · unfold owns; iexists _; isplitr; swap; iexact HM; ipureintro; exact View.read_writes_of_cover _ _ _ _ _ (coverLast_max V c t hr hl _)
          isplitl [HS]
          · unfold owns; iexists _; isplitr; swap; iexact HS; ipureintro; exact View.read_writes_of_cover _ _ _ _ _ (coverLast_sum V c t hr hl _)
          isplitl [HA]
          · unfold owns; iexists _; isplitr; swap; iexact HA; ipureintro; exact View.read_writes_of_cover _ _ _ _ _ (coverLast_acc V c t hr hl _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr; swap; iexact H5; ipureintro; exact View.read_writes_of_cover _ _ _ _ _ (coverLast_out V c t hr hl _)
    · rw [show (dat0 V c).leavesExact 0 t = owns (c : Thread nD τ) (ms0 t) fullShare ((dat0 V c).after 0 t) from by
        unfold Dat.leavesExact; rw [live0 t], after_0]
      rw [show (dat0 V c).leavesExact 1 t = owns (c : Thread nD τ) (ms1 t) fullShare ((dat0 V c).after 1 t) from by
        unfold Dat.leavesExact; rw [live1 t], after_1]
      rw [show (dat0 V c).leavesExact 2 t = owns (c : Thread nD τ) (ms2 t) fullShare ((dat0 V c).after 2 t) from by
        unfold Dat.leavesExact; rw [live2 t], after_2]
      rw [show (dat0 V c).leavesExact 3 t = owns (c : Thread nD τ) (ms3 t) fullShare ((dat0 V c).after 3 t) from by
        unfold Dat.leavesExact; rw [live3 t], after_3]
      rw [show (dat0 V c).leavesExact 4 t = owns (c : Thread nD τ) (ms4 t) fullShare ((dat0 V c).after 4 t) from by
        unfold Dat.leavesExact; rw [live4 t], after_4]
      rw [Dat.leavesExact_idle (dat0 V c) 5 t (idle5 t (fun h => hl ((hcondLast t).mp h))) (noFlush5 t (fun h => hl ((hcondLast t).mp h)))]
      rw [outsAt_mid V c t hr hl]
      unfold carriedMid; (try dsimp only)
      rw [PhiS_castSucc V c t, PhiS_pos V c _ _ hz]
      iintro ⟨⟨⟨HM, HS, HA, Hrest⟩, Hg⟩, Ho, ⟨%d0, H0⟩, ⟨%d1, H1⟩, ⟨%d2, H2⟩, ⟨%d3, H3⟩, ⟨%d4, H4⟩, ⟨%d5, H5⟩⟩
      iapply ((midAt V c t hr hl (prevCarried V c t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HM]; · iexact HM
      isplitl [HS]; · iexact HS
      isplitl [HA]; · iexact HA
      iintro ⟨H0, H1, H2, H3, H4, H5, ⟨%em, HM⟩, ⟨%es, HS⟩, ⟨%ea, HA⟩⟩
      isplitl [HM HS HA Hrest Hg]
      · isplitl [HM HS HA Hrest]
        · isplitl [HM]
          · unfold owns; iexists _; isplitr; swap; iexact HM; ipureintro; exact View.read_writes_of_cover _ _ _ _ _ (coverMid_max V c t hr hl _)
          isplitl [HS]
          · unfold owns; iexists _; isplitr; swap; iexact HS; ipureintro; exact View.read_writes_of_cover _ _ _ _ _ (coverMid_sum V c t hr hl _)
          isplitl [HA]
          · unfold owns; iexists _; isplitr; swap; iexact HA; ipureintro; exact View.read_writes_of_cover _ _ _ _ _ (coverMid_acc V c t hr hl _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation (c : Dev nD) : BodyObligation (dat0 (F := F) V c) (defs₀ (F := F)) Variants.none () Set.univ := fun t => by
  rw [bigSep_W0, bigSep_W0]
  exact sound_body V c t

/-- What the launch hands the region is the invariant before the first point, -/
theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _
/-- and after the last point the invariant gives it back, the carried contents forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA_eq]
  iintro ⟨⟨HM, HS, HA, Hrest⟩, Hg⟩
  isplitl [HM HS HA Hrest]
  · isplitl [HM]; · iexists _; iexact HM
    isplitl [HS]; · iexists _; iexact HS
    isplitl [HA]; · iexists _; iexact HA
    iexact Hrest
  iexact Hg
theorem hout (c : Dev nD) : (dat0 V c).Φ (Fin.last cfg0.N) ⊢ Pipeline.ΦA spec0 c :=
  Phi_out V c _ (by rw [Fin.val_last]; have : cfg0.N = 64 := N_0; omega)

end Cert.KernelIdeal.R0

end
-- ==== Proof.KI.R1Base.lean ====
/-
  The first attention layer's kernel region: where on its 8 x 8 grid each of the body's two branches is taken.
  A point `t` is query tile `t / 8` and key tile `t % 8`. The running maximum, running sum and accumulator are reset
  at key tile 0 and the normalised, activated block is stored at key tile 7; the output window is untouched
  (idle) at the other key tiles and written back only after key tile 7.
-/
import proofs.«404965_j38543036514339_3_alg».proof.Proof.Gen.KernelIdeal.Skeleton
import proofs.«404965_j38543036514339_3_alg».proof.Proof.Gen.KernelIdeal.Launch
import proofs.«404965_j38543036514339_3_alg».proof.Proof.Gen.KernelIdeal.Points
import Idealize.ShloMosaic.Lib.Pipeline.Frame
import Idealize.ShloMosaic.Lib.Exec
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The reset branch is taken: the key tile is 0. -/
abbrev condReset (i : grid1.Coords) : Prop :=
  (Scalar.cmpi .ne (Scalar.extui (Scalar.cmpi .eq (BitVec.ofNat 32 (i 1).val) 0#32)) 0#32) = 1#1
/-- The epilogue branch is taken: the key tile is 7. -/
abbrev condLast (i : grid1.Coords) : Prop := k1_cond2 i = 1#1

theorem hcondReset : ∀ t : Fin cfg1.N, condReset (grid1.coords t) ↔ t.val % 8 = 0 :=
  (by decide +kernel : ∀ t : Fin grid1.N, condReset (grid1.coords t) ↔ t.val % 8 = 0)
theorem hcondLast : ∀ t : Fin cfg1.N, condLast (grid1.coords t) ↔ t.val % 8 = 7 :=
  (by decide +kernel : ∀ t : Fin grid1.N, condLast (grid1.coords t) ↔ t.val % 8 = 7)

/-- The five input windows are stored into nowhere and never idle. -/
theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
theorem live4 : ∀ t : Fin cfg1.N, cfg1.idle 4 (grid1.coords t) = false := by decide +kernel
/-- The output window is idle, and not written back, away from key tile 7; live there. -/
theorem idle5 : ∀ t : Fin cfg1.N, ¬condLast (grid1.coords t) → cfg1.idle 5 (grid1.coords t) = true := by decide +kernel
theorem noFlush5 : ∀ t : Fin cfg1.N, ¬condLast (grid1.coords t) → (cfg1.win 5).flush t = false := by decide +kernel
theorem live5 : ∀ t : Fin cfg1.N, condLast (grid1.coords t) → cfg1.idle 5 (grid1.coords t) = false := by decide +kernel

/-- The three scratch buffers the body carries from key tile to key tile. -/
abbrev scMax : Memref sig .tc .vmem S1024x1 .f32 := Memref.whole cc1_scratch0
abbrev scSum : Memref sig .tc .vmem S1024x1 .f32 := Memref.whole cc1_scratch1
abbrev scAcc : Memref sig .tc .vmem S1024x64 .f32 := Memref.whole cc1_scratch2

end Cert.KernelIdeal.R1

end
-- ==== Proof.KI.R1RunReset.lean ====
/-
  The body of the first layer's kernel at key tile 0: the reset branch is taken, so the carried maximum, sum and
  accumulator are first overwritten whole (by the finite sentinel and by zeros) and what they held before is never
  read; the online-softmax step then runs from that start. The output block is not stored.
-/
import proofs.«404965_j38543036514339_3_alg».proof.Proof.KI.R1Base

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
local notation "𝕄" => MT nD τ sig Unit (Elt F) ℕ (UR sig nD τ) ℕ

set_option maxHeartbeats 4000000 in
/-- On whole staging memrefs holding `x0 … x4`, the output's at `xo` (handed back untouched), the three scratch
    buffers at anything: the body runs and leaves each scratch with the pieces its stores wrote (reset, then step). -/
noncomputable def runReset (c : Dev nD) (i : grid1.Coords)
    (arg2 : Memref sig .tc .vmem S1024x1 .f32) (harg2 : arg2.IsWhole) (arg3 : Memref sig .tc .vmem S1x1024 .f32) (harg3 : arg3.IsWhole)
    (arg4 : Memref sig .tc .vmem S1024x1024 .f32) (harg4 : arg4.IsWhole) (arg5 : Memref sig .tc .vmem S1024x1024 .i32) (harg5 : arg5.IsWhole)
    (arg6 : Memref sig .tc .vmem S8192x64 .bf16) (harg6 : arg6.IsWhole) (arg7 : Memref sig .tc .vmem S1024x64 .f32) (harg7 : arg7.IsWhole)
    (hr : condReset i) (hl : ¬condLast i)
    (x0 : Vec F S1024x1 .f32) (x1 : Vec F S1x1024 .f32) (x2 : Vec F S1024x1024 .f32) (x3 : Vec F S1024x1024 .i32) (x4 : Vec F S8192x64 .bf16) :
    Σ' (LM LS : List (View.Piece (Elt F) S1024x1 .f32)), { LA : List (View.Piece (Elt F) S1024x64 .f32) //
      ∀ (xo : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xo
            ∗ (∃ d, owns (c : Thread nD τ) scMax fullShare d) ∗ (∃ d, owns (c : Thread nD τ) scSum fullShare d) ∗ (∃ d, owns (c : Thread nD τ) scAcc fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xo
                ∗ (∃ f, scMax.view.loc (c : Thread nD τ) ↦[scMax.view.set]{fullShare} scMax.view.writes (Elt F) f LM)
                ∗ (∃ f, scSum.view.loc (c : Thread nD τ) ↦[scSum.view.set]{fullShare} scSum.view.writes (Elt F) f LS)
                ∗ (∃ f, scAcc.view.loc (c : Thread nD τ) ↦[scAcc.view.set]{fullShare} scAcc.view.writes (Elt F) f LA)) -∗ K ⟨⟩))
          ⊢ wp frame (wpE (defs₀ (F := F)) Variants.none c none) E
              (cc1__gat_attn_kernel i arg2 harg2 arg3 harg3 arg4 harg4 arg5 harg5 arg6 harg6 arg7 harg7 scMax (Memref.isWhole_whole _) scSum (Memref.isWhole_whole _) scAcc (Memref.isWhole_whole _)) K } := by
  refine ⟨?_, ?_, ?_, fun xo E K => ?run⟩
  case run =>
    simp only [cc1__gat_attn_kernel_eq_skeleton]; unfold cc1__gat_attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dm, %fm, -, HM⟩, ⟨%ds, %fs, -, HS⟩, ⟨%da, %fa, -, HA⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hr | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HM]; · iexists _; iexact HM
    isplitl [HS]; · iexists _; iexact HS
    iexists _; iexact HA

end Cert.KernelIdeal.R1

end
-- ==== Proof.KI.R1RunMid.lean ====
/-
  The body of the first layer's kernel at a key tile that is neither the first nor the last: neither branch is
  taken. It reads the query column, the key row, the coefficient tile, the adjacency tile and the key tile's rows
  of the resident features, and replaces the carried maximum, sum and accumulator by the online-softmax step's.
-/
import proofs.«404965_j38543036514339_3_alg».proof.Proof.KI.R1RunReset

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole staging memrefs holding `x0 … x4`, the output's at `xo` (handed back untouched), the carried scratch
    at `sm`, `sl`, `sa`: the body runs and leaves each scratch with the pieces its stores wrote. -/
noncomputable def runMid (c : Dev nD) (i : grid1.Coords)
    (arg2 : Memref sig .tc .vmem S1024x1 .f32) (harg2 : arg2.IsWhole) (arg3 : Memref sig .tc .vmem S1x1024 .f32) (harg3 : arg3.IsWhole)
    (arg4 : Memref sig .tc .vmem S1024x1024 .f32) (harg4 : arg4.IsWhole) (arg5 : Memref sig .tc .vmem S1024x1024 .i32) (harg5 : arg5.IsWhole)
    (arg6 : Memref sig .tc .vmem S8192x64 .bf16) (harg6 : arg6.IsWhole) (arg7 : Memref sig .tc .vmem S1024x64 .f32) (harg7 : arg7.IsWhole)
    (hr : ¬condReset i) (hl : ¬condLast i)
    (x0 : Vec F S1024x1 .f32) (x1 : Vec F S1x1024 .f32) (x2 : Vec F S1024x1024 .f32) (x3 : Vec F S1024x1024 .i32) (x4 : Vec F S8192x64 .bf16)
    (sm sl : Vec F S1024x1 .f32) (sa : Vec F S1024x64 .f32) :
    Σ' (LM LS : List (View.Piece (Elt F) S1024x1 .f32)), { LA : List (View.Piece (Elt F) S1024x64 .f32) //
      ∀ (xo : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xo
            ∗ owns (c : Thread nD τ) scMax fullShare sm ∗ owns (c : Thread nD τ) scSum fullShare sl ∗ owns (c : Thread nD τ) scAcc fullShare sa
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare xo
                ∗ (∃ f, scMax.view.loc (c : Thread nD τ) ↦[scMax.view.set]{fullShare} scMax.view.writes (Elt F) f LM)
                ∗ (∃ f, scSum.view.loc (c : Thread nD τ) ↦[scSum.view.set]{fullShare} scSum.view.writes (Elt F) f LS)
                ∗ (∃ f, scAcc.view.loc (c : Thread nD τ) ↦[scAcc.view.set]{fullShare} scAcc.view.writes (Elt F) f LA)) -∗ K ⟨⟩))
          ⊢ wp frame (wpE (defs₀ (F := F)) Variants.none c none) E
              (cc1__gat_attn_kernel i arg2 harg2 arg3 harg3 arg4 harg4 arg5 harg5 arg6 harg6 arg7 harg7 scMax (Memref.isWhole_whole _) scSum (Memref.isWhole_whole _) scAcc (Memref.isWhole_whole _)) K } := by
  refine ⟨?_, ?_, ?_, fun xo E K => ?run⟩
  case run =>
    simp only [cc1__gat_attn_kernel_eq_skeleton]; unfold cc1__gat_attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fm, %hfm, HM⟩, ⟨%fs, %hfs, HS⟩, ⟨%fa, %hfa, HA⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := (Memref.isWhole_whole _ : scMax.IsWhole).eq_unread hfm
    obtain rfl := (Memref.isWhole_whole _ : scSum.IsWhole).eq_unread hfs
    obtain rfl := (Memref.isWhole_whole _ : scAcc.IsWhole).eq_unread hfa
    sl_exec (disch := first | exact hr | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HM]; · iexists _; iexact HM
    isplitl [HS]; · iexists _; iexact HS
    iexists _; iexact HA

end Cert.KernelIdeal.R1

end
-- ==== Proof.KI.R1RunLast.lean ====
/-
  The body of the first layer's kernel at key tile 7: the online-softmax step as at every later key tile, then the
  epilogue branch, which divides the accumulator by the sum, applies the exponential linear unit and stores the
  whole output block. What the output's buffer held before is never read.
-/
import proofs.«404965_j38543036514339_3_alg».proof.Proof.KI.R1RunMid

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
local notation "𝕄" => MT nD τ sig Unit (Elt F) ℕ (UR sig nD τ) ℕ

set_option maxHeartbeats 4000000 in
/-- On whole staging memrefs holding `x0 … x4`, the output's at anything, the carried scratch at `sm`, `sl`,
    `sa`: the body runs and leaves each scratch, and the output's buffer, with the pieces its stores wrote. -/
noncomputable def runLast (c : Dev nD) (i : grid1.Coords)
    (arg2 : Memref sig .tc .vmem S1024x1 .f32) (harg2 : arg2.IsWhole) (arg3 : Memref sig .tc .vmem S1x1024 .f32) (harg3 : arg3.IsWhole)
    (arg4 : Memref sig .tc .vmem S1024x1024 .f32) (harg4 : arg4.IsWhole) (arg5 : Memref sig .tc .vmem S1024x1024 .i32) (harg5 : arg5.IsWhole)
    (arg6 : Memref sig .tc .vmem S8192x64 .bf16) (harg6 : arg6.IsWhole) (arg7 : Memref sig .tc .vmem S1024x64 .f32) (harg7 : arg7.IsWhole)
    (hr : ¬condReset i) (hl : condLast i)
    (x0 : Vec F S1024x1 .f32) (x1 : Vec F S1x1024 .f32) (x2 : Vec F S1024x1024 .f32) (x3 : Vec F S1024x1024 .i32) (x4 : Vec F S8192x64 .bf16)
    (sm sl : Vec F S1024x1 .f32) (sa : Vec F S1024x64 .f32) :
    Σ' (LM LS : List (View.Piece (Elt F) S1024x1 .f32)) (LA : List (View.Piece (Elt F) S1024x64 .f32)), { LO : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ owns (c : Thread nD τ) scMax fullShare sm ∗ owns (c : Thread nD τ) scSum fullShare sl ∗ owns (c : Thread nD τ) scAcc fullShare sa
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ (∃ f, arg7.view.loc (c : Thread nD τ) ↦[arg7.view.set]{fullShare} arg7.view.writes (Elt F) f LO)
                ∗ (∃ f, scMax.view.loc (c : Thread nD τ) ↦[scMax.view.set]{fullShare} scMax.view.writes (Elt F) f LM)
                ∗ (∃ f, scSum.view.loc (c : Thread nD τ) ↦[scSum.view.set]{fullShare} scSum.view.writes (Elt F) f LS)
                ∗ (∃ f, scAcc.view.loc (c : Thread nD τ) ↦[scAcc.view.set]{fullShare} scAcc.view.writes (Elt F) f LA)) -∗ K ⟨⟩))
          ⊢ wp frame (wpE (defs₀ (F := F)) Variants.none c none) E
              (cc1__gat_attn_kernel i arg2 harg2 arg3 harg3 arg4 harg4 arg5 harg5 arg6 harg6 arg7 harg7 scMax (Memref.isWhole_whole _) scSum (Memref.isWhole_whole _) scAcc (Memref.isWhole_whole _)) K } := by
  refine ⟨?_, ?_, ?_, ?_, fun E K => ?run⟩
  case run =>
    simp only [cc1__gat_attn_kernel_eq_skeleton]; unfold cc1__gat_attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fm, %hfm, HM⟩, ⟨%fs, %hfs, HS⟩, ⟨%fa, %hfa, HA⟩, Hk⟩
    obtain rfl := harg2.eq_unread hf0; obtain rfl := harg3.eq_unread hf1; obtain rfl := harg4.eq_unread hf2
    obtain rfl := harg5.eq_unread hf3; obtain rfl := harg6.eq_unread hf4
    obtain rfl := (Memref.isWhole_whole _ : scMax.IsWhole).eq_unread hfm
    obtain rfl := (Memref.isWhole_whole _ : scSum.IsWhole).eq_unread hfs
    obtain rfl := (Memref.isWhole_whole _ : scAcc.IsWhole).eq_unread hfa
    sl_exec (disch := first | exact hr | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HM]; · iexists _; iexact HM
    isplitl [HS]; · iexists _; iexact HS
    iexists _; iexact HA

end Cert.KernelIdeal.R1

end
-- ==== Proof.KI.R1Data.lean ====
/-
  The first attention layer's kernel region, point by point. Point `t` of the 8 x 8 grid is query tile `t / 8`
  against key tile `t % 8`. Every input window's staging buffer holds that point's block of its array. The body
  carries three values from key tile to key tile of one query tile — the running maximum and running sum of each
  query row and the accumulated weighted features — in scratch buffers the pipeline does not stage; they are reset
  at key tile 0, so what a query tile starts from is never read. The output block is stored once, at key tile 7.
-/
import proofs.«404965_j38543036514339_3_alg».proof.Proof.KI.R1RunLast
import Idealize.ShloMosaic.Lib.Pipeline.FrameBody
import Idealize.ShloMosaic.Lib.Ring
import Idealize.ShloMosaic.Lib.Writes

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- The unscoped buffers' contents as the region is entered.
variable (V : (c : Dev nD) → (b : Ref sig .tc) → Buf (Elt F) ((c : Thread nD τ).loc b))

/-! ## The windows at a point -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging memref each window is on at point `t`. -/
abbrev ms0 (t : Fin cfg1.N) : Memref sig .tc .vmem S1024x1 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x1024 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x1024 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S8192x64 .bf16 := win1_4.stage (cfg1.slots t 4)
abbrev hs4 (t : Fin cfg1.N) : (ms4 t).IsWhole := hstage1_4 ((cfg1.slots t 4).cast nbuf1_4)
abbrev ms5 (t : Fin cfg1.N) : Memref sig .tc .vmem S1024x64 .f32 := win1_5.stage (cfg1.slots t 5)
abbrev hs5 (t : Fin cfg1.N) : (ms5 t).IsWhole := hstage1_5 ((cfg1.slots t 5).cast nbuf1_5)

/-! ## What each case leaves, read back from the pieces its stores wrote -/

/-- Fixed whole views to read a scratch's, and the output block's, pieces back through. -/
abbrev VMax : View sig .tc .vmem S1024x1 .f32 := scMax.view
abbrev VSum : View sig .tc .vmem S1024x1 .f32 := scSum.view
abbrev VAcc : View sig .tc .vmem S1024x64 .f32 := scAcc.view
abbrev VOut : View sig .tc .vmem S1024x64 .f32 := (Memref.whole cc1_stg5_0 : Memref sig .tc .vmem S1024x64 .f32).view

/-- The carried triple: running maximum, running sum, accumulator. -/
abbrev Carried (F : FTy → Type) [FloatOps F] : Type := Vec F S1024x1 .f32 × Vec F S1024x1 .f32 × Vec F S1024x64 .f32

section AtPoint

variable (c : Dev nD) (t : Fin cfg1.N)

/-- The reset case's run at point `t`, on that point's memrefs and input blocks. -/
abbrev resetAt (hr : t.val % 8 = 0) (hl : ¬t.val % 8 = 7) :=
  runReset (F := F) c (grid1.coords t) (ms0 t) (hs0 t) (ms1 t) (hs1 t) (ms2 t) (hs2 t) (ms3 t) (hs3 t) (ms4 t) (hs4 t) (ms5 t) (hs5 t)
    ((hcondReset t).mpr hr) (fun h => hl ((hcondLast t).mp h)) (iblk V c 0 t) (iblk V c 1 t) (iblk V c 2 t) (iblk V c 3 t) (iblk V c 4 t)
/-- The middle case's, from what the point before left. -/
abbrev midAt (hr : ¬t.val % 8 = 0) (hl : ¬t.val % 8 = 7) (p : Carried F) :=
  runMid (F := F) c (grid1.coords t) (ms0 t) (hs0 t) (ms1 t) (hs1 t) (ms2 t) (hs2 t) (ms3 t) (hs3 t) (ms4 t) (hs4 t) (ms5 t) (hs5 t)
    (fun h => hr ((hcondReset t).mp h)) (fun h => hl ((hcondLast t).mp h)) (iblk V c 0 t) (iblk V c 1 t) (iblk V c 2 t) (iblk V c 3 t) (iblk V c 4 t) p.1 p.2.1 p.2.2
/-- The last case's, from what the point before left. -/
abbrev lastAt (hr : ¬t.val % 8 = 0) (hl : t.val % 8 = 7) (p : Carried F) :=
  runLast (F := F) c (grid1.coords t) (ms0 t) (hs0 t) (ms1 t) (hs1 t) (ms2 t) (hs2 t) (ms3 t) (hs3 t) (ms4 t) (hs4 t) (ms5 t) (hs5 t)
    (fun h => hr ((hcondReset t).mp h)) ((hcondLast t).mpr hl) (iblk V c 0 t) (iblk V c 1 t) (iblk V c 2 t) (iblk V c 3 t) (iblk V c 4 t) p.1 p.2.1 p.2.2

/-- What the reset case leaves carried: each scratch's pieces read back over junk. -/
def carriedReset (hr : t.val % 8 = 0) (hl : ¬t.val % 8 = 7) : Carried F :=
  (VMax.read (Elt F) (VMax.writes (Elt F) VMax.junk (resetAt V c t hr hl).1),
   VSum.read (Elt F) (VSum.writes (Elt F) VSum.junk (resetAt V c t hr hl).2.1),
   VAcc.read (Elt F) (VAcc.writes (Elt F) VAcc.junk (resetAt V c t hr hl).2.2.1))
def carriedMid (hr : ¬t.val % 8 = 0) (hl : ¬t.val % 8 = 7) (p : Carried F) : Carried F :=
  (VMax.read (Elt F) (VMax.writes (Elt F) VMax.junk (midAt V c t hr hl p).1),
   VSum.read (Elt F) (VSum.writes (Elt F) VSum.junk (midAt V c t hr hl p).2.1),
   VAcc.read (Elt F) (VAcc.writes (Elt F) VAcc.junk (midAt V c t hr hl p).2.2.1))
def carriedLast (hr : ¬t.val % 8 = 0) (hl : t.val % 8 = 7) (p : Carried F) : Carried F :=
  (VMax.read (Elt F) (VMax.writes (Elt F) VMax.junk (lastAt V c t hr hl p).1),
   VSum.read (Elt F) (VSum.writes (Elt F) VSum.junk (lastAt V c t hr hl p).2.1),
   VAcc.read (Elt F) (VAcc.writes (Elt F) VAcc.junk (lastAt V c t hr hl p).2.2.1))
/-- What the last case leaves in the output's staging buffer: the block it stores. -/
def outLast (hr : ¬t.val % 8 = 0) (hl : t.val % 8 = 7) (p : Carried F) : Vec F S1024x64 .f32 :=
  VOut.read (Elt F) (VOut.writes (Elt F) VOut.junk (lastAt V c t hr hl p).2.2.2.1)

/-- Every case's stores cover each scratch whole, and the last case's cover the output block. -/
theorem coverReset_max (hr : t.val % 8 = 0) (hl : ¬t.val % 8 = 7) (y : S1024x1.Idx) : ∃ pc ∈ (resetAt V c t hr hl).1, y ∈ pc.1.set :=
  View.cover_of_tiledL (resetAt V c t hr hl).1 S1024x1.size (by sl_kernel_rfl) y
theorem coverReset_sum (hr : t.val % 8 = 0) (hl : ¬t.val % 8 = 7) (y : S1024x1.Idx) : ∃ pc ∈ (resetAt V c t hr hl).2.1, y ∈ pc.1.set :=
  View.cover_of_tiledL (resetAt V c t hr hl).2.1 S1024x1.size (by sl_kernel_rfl) y
theorem coverReset_acc (hr : t.val % 8 = 0) (hl : ¬t.val % 8 = 7) (y : S1024x64.Idx) : ∃ pc ∈ (resetAt V c t hr hl).2.2.1, y ∈ pc.1.set :=
  View.cover_of_tiledL (resetAt V c t hr hl).2.2.1 S1024x64.size (by sl_kernel_rfl) y
theorem coverMid_max (hr : ¬t.val % 8 = 0) (hl : ¬t.val % 8 = 7) (p : Carried F) (y : S1024x1.Idx) : ∃ pc ∈ (midAt V c t hr hl p).1, y ∈ pc.1.set :=
  View.cover_of_tiledL (midAt V c t hr hl p).1 S1024x1.size (by sl_kernel_rfl) y
theorem coverMid_sum (hr : ¬t.val % 8 = 0) (hl : ¬t.val % 8 = 7) (p : Carried F) (y : S1024x1.Idx) : ∃ pc ∈ (midAt V c t hr hl p).2.1, y ∈ pc.1.set :=
  View.cover_of_tiledL (midAt V c t hr hl p).2.1 S1024x1.size (by sl_kernel_rfl) y
theorem coverMid_acc (hr : ¬t.val % 8 = 0) (hl : ¬t.val % 8 = 7) (p : Carried F) (y : S1024x64.Idx) : ∃ pc ∈ (midAt V c t hr hl p).2.2.1, y ∈ pc.1.set :=
  View.cover_of_tiledL (midAt V c t hr hl p).2.2.1 S1024x64.size (by sl_kernel_rfl) y
theorem coverLast_max (hr : ¬t.val % 8 = 0) (hl : t.val % 8 = 7) (p : Carried F) (y : S1024x1.Idx) : ∃ pc ∈ (lastAt V c t hr hl p).1, y ∈ pc.1.set :=
  View.cover_of_tiledL (lastAt V c t hr hl p).1 S1024x1.size (by sl_kernel_rfl) y
theorem coverLast_sum (hr : ¬t.val % 8 = 0) (hl : t.val % 8 = 7) (p : Carried F) (y : S1024x1.Idx) : ∃ pc ∈ (lastAt V c t hr hl p).2.1, y ∈ pc.1.set :=
  View.cover_of_tiledL (lastAt V c t hr hl p).2.1 S1024x1.size (by sl_kernel_rfl) y
theorem coverLast_acc (hr : ¬t.val % 8 = 0) (hl : t.val % 8 = 7) (p : Carried F) (y : S1024x64.Idx) : ∃ pc ∈ (lastAt V c t hr hl p).2.2.1, y ∈ pc.1.set :=
  View.cover_of_tiledL (lastAt V c t hr hl p).2.2.1 S1024x64.size (by sl_kernel_rfl) y
theorem coverLast_out (hr : ¬t.val % 8 = 0) (hl : t.val % 8 = 7) (p : Carried F) (y : S1024x64.Idx) : ∃ pc ∈ (lastAt V c t hr hl p).2.2.2.1, y ∈ pc.1.set :=
  View.cover_of_tiledL (lastAt V c t hr hl p).2.2.2.1 S1024x64.size (by sl_kernel_rfl) y

end AtPoint

/-! ## What is carried, and what the output's buffer holds, after each point -/

/-- After the body at position `n`: the output block's staging contents and the carried triple. At key tile 0 the
    reset case's, from nothing; at later key tiles the step's over what the point before left; the output block is
    what the last case stores, and at the other points a placeholder nothing consults (the window is idle there and
    not written back). -/
def outsAt (c : Dev nD) : (n : ℕ) → n < cfg1.N → Vec F S1024x64 .f32 × Carried F
  | 0, hn => (VOut.read (Elt F) VOut.junk, carriedReset V c ⟨0, hn⟩ (Nat.zero_mod _) (by show ¬ (0 % 8 = 7); decide))
  | n + 1, hn =>
    if hr : (n + 1) % 8 = 0 then
      if hl : (n + 1) % 8 = 7 then False.elim (by omega)
      else (VOut.read (Elt F) VOut.junk, carriedReset V c ⟨n + 1, hn⟩ hr hl)
    else
      if hl : (n + 1) % 8 = 7 then
        (outLast V c ⟨n + 1, hn⟩ hr hl (outsAt c n (Nat.lt_of_succ_lt hn)).2, carriedLast V c ⟨n + 1, hn⟩ hr hl (outsAt c n (Nat.lt_of_succ_lt hn)).2)
      else
        (VOut.read (Elt F) VOut.junk, carriedMid V c ⟨n + 1, hn⟩ hr hl (outsAt c n (Nat.lt_of_succ_lt hn)).2)

/-- What the point before `t` left carried (for `t` not the first point). -/
abbrev prevCarried (c : Dev nD) (t : Fin cfg1.N) : Carried F :=
  (outsAt V c (t.val - 1) (Nat.lt_of_le_of_lt (Nat.sub_le _ _) t.isLt)).2

theorem outsAt_reset (c : Dev nD) (t : Fin cfg1.N) (hr : t.val % 8 = 0) (hl : ¬t.val % 8 = 7) :
    outsAt V c t.val t.isLt = (VOut.read (Elt F) VOut.junk, carriedReset V c t hr hl) := by
  obtain ⟨n, hn⟩ := t
  cases n with
  | zero => exact rfl
  | succ n => exact (dif_pos hr).trans ((dif_neg hl).trans rfl)
theorem outsAt_mid (c : Dev nD) (t : Fin cfg1.N) (hr : ¬t.val % 8 = 0) (hl : ¬t.val % 8 = 7) :
    outsAt V c t.val t.isLt = (VOut.read (Elt F) VOut.junk, carriedMid V c t hr hl (prevCarried V c t)) := by
  obtain ⟨n, hn⟩ := t
  cases n with
  | zero => exact absurd (Nat.zero_mod _) hr
  | succ n => exact (dif_neg hr).trans ((dif_neg hl).trans rfl)
theorem outsAt_last (c : Dev nD) (t : Fin cfg1.N) (hr : ¬t.val % 8 = 0) (hl : t.val % 8 = 7) :
    outsAt V c t.val t.isLt = (outLast V c t hr hl (prevCarried V c t), carriedLast V c t hr hl (prevCarried V c t)) := by
  obtain ⟨n, hn⟩ := t
  cases n with
  | zero => exact absurd (Nat.zero_mod _) hr
  | succ n => exact (dif_neg hr).trans ((dif_pos hl).trans rfl)

/-! ## The invariant -/

/-- The core's scoped buffers that are neither a staging buffer of this region nor one of its three scratch
    buffers (the second layer's region's), each whole at some contents. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

/-- The class's invariant with this region's three scratch buffers as memrefs owned at some contents. -/
theorem PhiA_eq (c : Dev nD) :
    (Pipeline.ΦA spec1 c : sProp 𝕄)
      = iprop(iprop((∃ d, owns (c : Thread nD τ) scMax fullShare d) ∗ (∃ d, owns (c : Thread nD τ) scSum fullShare d) ∗ (∃ d, owns (c : Thread nD τ) scAcc fullShare d) ∗ otherScoped (F := F) c) ∗ (∃ r, prngReg c r)) := by
  unfold Pipeline.ΦA otherScoped; rw [scopedRest1_eq]; simp only [scMax, scSum, scAcc, owns_whole]
  -- the scoped rest lists the same seventeen buffers, possibly in another order: a bi-entailment is an equality
  first
  | rfl
  | (refine congrArg (fun X : sProp 𝕄 => iprop(X ∗ (∃ r, prngReg c r))) (equiv_iff.mp ⟨?_, ?_⟩) <;>
      (show (_ : sProp 𝕄) ⊢ _; iintro ⟨H1, H2, H3, H4, H5, H6, H7, H8, H9, H10, H11, H12, H13, H14, H15, H16, H17⟩; iframe))

/-- Before position `n`: before the first point the class's invariant (every scratch at anything); afterwards the
    three carried scratch buffers at what the point before left, the other scoped buffers at anything, the
    generator register at some state. -/
def PhiS (c : Dev nD) : (n : ℕ) → n ≤ cfg1.N → sProp 𝕄
  | 0, _ => Pipeline.ΦA spec1 c
  | n + 1, hn => iprop(iprop(owns (c : Thread nD τ) scMax fullShare (outsAt V c n hn).2.1 ∗ owns (c : Thread nD τ) scSum fullShare (outsAt V c n hn).2.2.1
      ∗ owns (c : Thread nD τ) scAcc fullShare (outsAt V c n hn).2.2.2 ∗ otherScoped (F := F) c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) scMax fullShare (outsAt V c n hn).2.1 ∗ owns (c : Thread nD τ) scSum fullShare (outsAt V c n hn).2.2.1
      ∗ owns (c : Thread nD τ) scAcc fullShare (outsAt V c n hn).2.2.2 ∗ otherScoped (F := F) c) ∗ (∃ r, prngReg c r)) := rfl
theorem PhiS_pos (c : Dev nD) (n : ℕ) (h : n ≤ cfg1.N) (hz : n ≠ 0) :
    PhiS V c n h = iprop(iprop(owns (c : Thread nD τ) scMax fullShare (outsAt V c (n - 1) (by omega)).2.1 ∗ owns (c : Thread nD τ) scSum fullShare (outsAt V c (n - 1) (by omega)).2.2.1
      ∗ owns (c : Thread nD τ) scAcc fullShare (outsAt V c (n - 1) (by omega)).2.2.2 ∗ otherScoped (F := F) c) ∗ (∃ r, prngReg c r)) := by
  cases n with
  | zero => exact absurd rfl hz
  | succ n => rfl

/-! ## The proof data -/

/-- The region's proof data on core `c`: the arrays as the region finds them; after the body at point `t` each
    input's buffer at its block and the output's at `outsAt`'s first component; the invariant `PhiS`; nothing owed;
    full shares. -/
def dat0 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

theorem A_eq (c : Dev nD) (w : Fin cfg1.W) : (dat0 V c).A w = V c (Pipeline.arrRef spec1 w) := by dsimp only [dat0]
theorem PhiS_castSucc (c : Dev nD) (t : Fin cfg1.N) : (dat0 V c).Φ t.castSucc = PhiS V c t.val (Nat.le_of_lt t.isLt) := by
  dsimp only [dat0]; simp only [Fin.coe_castSucc]
theorem after_0 (c : Dev nD) (t : Fin cfg1.N) : (dat0 V c).after 0 t = iblk V c 0 t := by dsimp only [dat0]
theorem after_1 (c : Dev nD) (t : Fin cfg1.N) : (dat0 V c).after 1 t = iblk V c 1 t := by dsimp only [dat0]
theorem after_2 (c : Dev nD) (t : Fin cfg1.N) : (dat0 V c).after 2 t = iblk V c 2 t := by dsimp only [dat0]
theorem after_3 (c : Dev nD) (t : Fin cfg1.N) : (dat0 V c).after 3 t = iblk V c 3 t := by dsimp only [dat0]
theorem after_4 (c : Dev nD) (t : Fin cfg1.N) : (dat0 V c).after 4 t = iblk V c 4 t := by dsimp only [dat0]
theorem after_5 (c : Dev nD) (t : Fin cfg1.N) : (dat0 V c).after 5 t = (outsAt V c t.val t.isLt).1 := by dsimp only [dat0]

/-! ## The body obligation -/

/-- Each input window's current staging buffer holds its block at every point. -/
theorem before_0 (c : Dev nD) (t : Fin cfg1.N) (d) : (dat0 V c).before 0 t d = iblk V c 0 t :=
  ((dat0 V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat0 V c).before 1 t d = iblk V c 1 t :=
  ((dat0 V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat0 V c).before 2 t d = iblk V c 2 t :=
  ((dat0 V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat0 V c).before 3 t d = iblk V c 3 t :=
  ((dat0 V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat0 V c).before 4 t d = iblk V c 4 t :=
  ((dat0 V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg1.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d))
    ∗ (∃ d, owns (c : Thread nD τ) (ms5 t) fullShare ((dat0 V c).before 5 t d)))
/-- and what it returns. -/
def bodyPost (c : Dev nD) (t : Fin cfg1.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- The body at any point. The inputs' memrefs hold their blocks; the key tile says which case the point is in;
    the invariant hands the body the carried buffers at what the point before left (at anything before the first
    point, and the reset case does not look), and takes them back at this point's contents, each read back from
    the pieces that cover it; the output's buffer goes back as found away from key tile 7 and at the stored block
    there; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg1.N = 64 from N_1)
  by_cases hr : t.val % 8 = 0
  · by_cases hl : t.val % 8 = 7
    · exfalso; omega
    · rw [show (dat0 V c).leavesExact 0 t = owns (c : Thread nD τ) (ms0 t) fullShare ((dat0 V c).after 0 t) from by
        unfold Dat.leavesExact; rw [live0 t], after_0]
      rw [show (dat0 V c).leavesExact 1 t = owns (c : Thread nD τ) (ms1 t) fullShare ((dat0 V c).after 1 t) from by
        unfold Dat.leavesExact; rw [live1 t], after_1]
      rw [show (dat0 V c).leavesExact 2 t = owns (c : Thread nD τ) (ms2 t) fullShare ((dat0 V c).after 2 t) from by
        unfold Dat.leavesExact; rw [live2 t], after_2]
      rw [show (dat0 V c).leavesExact 3 t = owns (c : Thread nD τ) (ms3 t) fullShare ((dat0 V c).after 3 t) from by
        unfold Dat.leavesExact; rw [live3 t], after_3]
      rw [show (dat0 V c).leavesExact 4 t = owns (c : Thread nD τ) (ms4 t) fullShare ((dat0 V c).after 4 t) from by
        unfold Dat.leavesExact; rw [live4 t], after_4]
      rw [Dat.leavesExact_idle (dat0 V c) 5 t (idle5 t (fun h => hl ((hcondLast t).mp h))) (noFlush5 t (fun h => hl ((hcondLast t).mp h)))]
      rw [outsAt_reset V c t hr hl]
      unfold carriedReset; (try dsimp only)
      by_cases hz : t.val = 0
      · rw [PhiS_castSucc V c t, PhiS_zero V c _ _ hz, PhiA_eq]
        iintro ⟨⟨⟨HM, HS, HA, Hrest⟩, Hg⟩, Ho, ⟨%d0, H0⟩, ⟨%d1, H1⟩, ⟨%d2, H2⟩, ⟨%d3, H3⟩, ⟨%d4, H4⟩, ⟨%d5, H5⟩⟩
        iapply ((resetAt V c t hr hl).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HM]; · iexact HM
        isplitl [HS]; · iexact HS
        isplitl [HA]; · iexact HA
        iintro ⟨H0, H1, H2, H3, H4, H5, ⟨%em, HM⟩, ⟨%es, HS⟩, ⟨%ea, HA⟩⟩
        isplitl [HM HS HA Hrest Hg]
        · isplitl [HM HS HA Hrest]
          · isplitl [HM]
            · unfold owns; iexists _; isplitr; swap; iexact HM; ipureintro; exact View.read_writes_of_cover _ _ _ _ _ (coverReset_max V c t hr hl)
            isplitl [HS]
            · unfold owns; iexists _; isplitr; swap; iexact HS; ipureintro; exact View.read_writes_of_cover _ _ _ _ _ (coverReset_sum V c t hr hl)
            isplitl [HA]
            · unfold owns; iexists _; isplitr; swap; iexact HA; ipureintro; exact View.read_writes_of_cover _ _ _ _ _ (coverReset_acc V c t hr hl)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨HM, HS, HA, Hrest⟩, Hg⟩, Ho, ⟨%d0, H0⟩, ⟨%d1, H1⟩, ⟨%d2, H2⟩, ⟨%d3, H3⟩, ⟨%d4, H4⟩, ⟨%d5, H5⟩⟩
        iapply ((resetAt V c t hr hl).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HM]; · iexists _; iexact HM
        isplitl [HS]; · iexists _; iexact HS
        isplitl [HA]; · iexists _; iexact HA
        iintro ⟨H0, H1, H2, H3, H4, H5, ⟨%em, HM⟩, ⟨%es, HS⟩, ⟨%ea, HA⟩⟩
        isplitl [HM HS HA Hrest Hg]
        · isplitl [HM HS HA Hrest]
          · isplitl [HM]
            · unfold owns; iexists _; isplitr; swap; iexact HM; ipureintro; exact View.read_writes_of_cover _ _ _ _ _ (coverReset_max V c t hr hl)
            isplitl [HS]
            · unfold owns; iexists _; isplitr; swap; iexact HS; ipureintro; exact View.read_writes_of_cover _ _ _ _ _ (coverReset_sum V c t hr hl)
            isplitl [HA]
            · unfold owns; iexists _; isplitr; swap; iexact HA; ipureintro; exact View.read_writes_of_cover _ _ _ _ _ (coverReset_acc V c t hr hl)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun h => hr (by rw [h])
    by_cases hl : t.val % 8 = 7
    · rw [show (dat0 V c).leavesExact 0 t = owns (c : Thread nD τ) (ms0 t) fullShare ((dat0 V c).after 0 t) from by
        unfold Dat.leavesExact; rw [live0 t], after_0]
      rw [show (dat0 V c).leavesExact 1 t = owns (c : Thread nD τ) (ms1 t) fullShare ((dat0 V c).after 1 t) from by
        unfold Dat.leavesExact; rw [live1 t], after_1]
      rw [show (dat0 V c).leavesExact 2 t = owns (c : Thread nD τ) (ms2 t) fullShare ((dat0 V c).after 2 t) from by
        unfold Dat.leavesExact; rw [live2 t], after_2]
      rw [show (dat0 V c).leavesExact 3 t = owns (c : Thread nD τ) (ms3 t) fullShare ((dat0 V c).after 3 t) from by
        unfold Dat.leavesExact; rw [live3 t], after_3]
      rw [show (dat0 V c).leavesExact 4 t = owns (c : Thread nD τ) (ms4 t) fullShare ((dat0 V c).after 4 t) from by
        unfold Dat.leavesExact; rw [live4 t], after_4]
      rw [show (dat0 V c).leavesExact 5 t = owns (c : Thread nD τ) (ms5 t) fullShare ((dat0 V c).after 5 t) from by
        unfold Dat.leavesExact; rw [live5 t ((hcondLast t).mpr hl)], after_5]
      rw [outsAt_last V c t hr hl]
      unfold carriedLast outLast; (try dsimp only)
      rw [PhiS_castSucc V c t, PhiS_pos V c _ _ hz]
      iintro ⟨⟨⟨HM, HS, HA, Hrest⟩, Hg⟩, Ho, ⟨%d0, H0⟩, ⟨%d1, H1⟩, ⟨%d2, H2⟩, ⟨%d3, H3⟩, ⟨%d4, H4⟩, ⟨%d5, H5⟩⟩
      iapply ((lastAt V c t hr hl (prevCarried V c t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HM]; · iexact HM
      isplitl [HS]; · iexact HS
      isplitl [HA]; · iexact HA
      iintro ⟨H0, H1, H2, H3, H4, ⟨%eo, H5⟩, ⟨%em, HM⟩, ⟨%es, HS⟩, ⟨%ea, HA⟩⟩
      isplitl [HM HS HA Hrest Hg]
      · isplitl [HM HS HA Hrest]
        · isplitl [HM]
          · unfold owns; iexists _; isplitr; swap; iexact HM; ipureintro; exact View.read_writes_of_cover _ _ _ _ _ (coverLast_max V c t hr hl _)
          isplitl [HS]
          · unfold owns; iexists _; isplitr; swap; iexact HS; ipureintro; exact View.read_writes_of_cover _ _ _ _ _ (coverLast_sum V c t hr hl _)
          isplitl [HA]
          · unfold owns; iexists _; isplitr; swap; iexact HA; ipureintro; exact View.read_writes_of_cover _ _ _ _ _ (coverLast_acc V c t hr hl _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr; swap; iexact H5; ipureintro; exact View.read_writes_of_cover _ _ _ _ _ (coverLast_out V c t hr hl _)
    · rw [show (dat0 V c).leavesExact 0 t = owns (c : Thread nD τ) (ms0 t) fullShare ((dat0 V c).after 0 t) from by
        unfold Dat.leavesExact; rw [live0 t], after_0]
      rw [show (dat0 V c).leavesExact 1 t = owns (c : Thread nD τ) (ms1 t) fullShare ((dat0 V c).after 1 t) from by
        unfold Dat.leavesExact; rw [live1 t], after_1]
      rw [show (dat0 V c).leavesExact 2 t = owns (c : Thread nD τ) (ms2 t) fullShare ((dat0 V c).after 2 t) from by
        unfold Dat.leavesExact; rw [live2 t], after_2]
      rw [show (dat0 V c).leavesExact 3 t = owns (c : Thread nD τ) (ms3 t) fullShare ((dat0 V c).after 3 t) from by
        unfold Dat.leavesExact; rw [live3 t], after_3]
      rw [show (dat0 V c).leavesExact 4 t = owns (c : Thread nD τ) (ms4 t) fullShare ((dat0 V c).after 4 t) from by
        unfold Dat.leavesExact; rw [live4 t], after_4]
      rw [Dat.leavesExact_idle (dat0 V c) 5 t (idle5 t (fun h => hl ((hcondLast t).mp h))) (noFlush5 t (fun h => hl ((hcondLast t).mp h)))]
      rw [outsAt_mid V c t hr hl]
      unfold carriedMid; (try dsimp only)
      rw [PhiS_castSucc V c t, PhiS_pos V c _ _ hz]
      iintro ⟨⟨⟨HM, HS, HA, Hrest⟩, Hg⟩, Ho, ⟨%d0, H0⟩, ⟨%d1, H1⟩, ⟨%d2, H2⟩, ⟨%d3, H3⟩, ⟨%d4, H4⟩, ⟨%d5, H5⟩⟩
      iapply ((midAt V c t hr hl (prevCarried V c t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HM]; · iexact HM
      isplitl [HS]; · iexact HS
      isplitl [HA]; · iexact HA
      iintro ⟨H0, H1, H2, H3, H4, H5, ⟨%em, HM⟩, ⟨%es, HS⟩, ⟨%ea, HA⟩⟩
      isplitl [HM HS HA Hrest Hg]
      · isplitl [HM HS HA Hrest]
        · isplitl [HM]
          · unfold owns; iexists _; isplitr; swap; iexact HM; ipureintro; exact View.read_writes_of_cover _ _ _ _ _ (coverMid_max V c t hr hl _)
          isplitl [HS]
          · unfold owns; iexists _; isplitr; swap; iexact HS; ipureintro; exact View.read_writes_of_cover _ _ _ _ _ (coverMid_sum V c t hr hl _)
          isplitl [HA]
          · unfold owns; iexists _; isplitr; swap; iexact HA; ipureintro; exact View.read_writes_of_cover _ _ _ _ _ (coverMid_acc V c t hr hl _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation (c : Dev nD) : BodyObligation (dat0 (F := F) V c) (defs₀ (F := F)) Variants.none () Set.univ := fun t => by
  rw [bigSep_W1, bigSep_W1]
  exact sound_body V c t

/-- What the launch hands the region is the invariant before the first point, -/
theorem hin (c : Dev nD) : Pipeline.ΦA spec1 c ⊢ (dat0 V c).Φ 0 := by
  rw [show (dat0 V c).Φ 0 = PhiS V c 0 (Nat.zero_le _) from rfl, PhiS_zero V c 0 _ rfl]
  try exact Idealize.SL.BI.Entails.refl _
/-- and after the last point the invariant gives it back, the carried contents forgotten. -/
theorem Phi_out (c : Dev nD) (t : Fin (cfg1.N + 1)) (ht : t.val ≠ 0) : (dat0 V c).Φ t ⊢ Pipeline.ΦA spec1 c := by
  rw [show (dat0 V c).Φ t = PhiS V c t.val (Nat.le_of_lt_succ t.isLt) from rfl, PhiS_pos V c _ _ ht, PhiA_eq]
  iintro ⟨⟨HM, HS, HA, Hrest⟩, Hg⟩
  isplitl [HM HS HA Hrest]
  · isplitl [HM]; · iexists _; iexact HM
    isplitl [HS]; · iexists _; iexact HS
    isplitl [HA]; · iexists _; iexact HA
    iexact Hrest
  iexact Hg
theorem hout (c : Dev nD) : (dat0 V c).Φ (Fin.last cfg1.N) ⊢ Pipeline.ΦA spec1 c :=
  Phi_out V c _ (by rw [Fin.val_last]; have : cfg1.N = 64 := N_1; omega)

end Cert.KernelIdeal.R1

end
-- ==== Proof.KI.Segs.lean ====
/-
  The idealized kernel program from launch to return: two stretches of host operations and the two attention
  layers' kernel regions, in order. Between two of them every unscoped buffer is held at contents named by a fold
  through the program: the launch contents; after the first host stretch; after the first region, whose arrays
  hold what its pipeline leaves (the inputs as entered, the output the blocks written back); after the second host
  stretch; after the second region. Read at the end, the last of these gives the result array as the second
  region's pipeline leaves it, and every argument as launched: no host operation writes one, and the two that are
  staged as inputs of both regions are never written back.
-/
import proofs.«404965_j38543036514339_3_alg».proof.Proof.KI.R0Data
import proofs.«404965_j38543036514339_3_alg».proof.Proof.KI.R1Data
import proofs.«404965_j38543036514339_3_alg».proof.Proof.Gen.KernelIdeal.Regions
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (R0.dat0 (V1 m) c).arrAt w cfg0.N
theorem W2_arr (c : Dev nD) (w : Fin cfg0.W) :
    W2 m c (Proc.devRef .tc (Pipeline.arrRef spec0 w)) = (R0.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (R0.dat0 (V1 m) c).arrAt w cfg0.N = V2 m c (Pipeline.arrRef spec0 w) := (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (R1.dat0 (V3 m) c).arrAt w cfg1.N
theorem W4_arr (c : Dev nD) (w : Fin cfg1.W) :
    W4 m c (Proc.devRef .tc (Pipeline.arrRef spec1 w)) = (R1.dat0 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (R1.dat0 (V3 m) c).arrAt w cfg1.N = V4 m c (Pipeline.arrRef spec1 w) := (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched, and the result is the second region's output array -/

theorem W4_main_arg0 (c : Dev nD) : W4 m c (Proc.devRef .tc main_arg0) = m ((c.tc : Thread nD τ).loc main_arg0) :=
  (W4_of_ne m c main_arg0 (by decide)).trans <| (StableHlo.after_of_writes_sub hostOps1 _ hostOps1_writes (by decide : main_arg0 ∉ hostOps1_W)).trans <|
    (W2_of_ne m c main_arg0 (by decide)).trans <| (StableHlo.after_of_writes_sub hostOps0 _ hostOps0_writes (by decide : main_arg0 ∉ hostOps0_W)).trans rfl
theorem W4_main_arg1 (c : Dev nD) : W4 m c (Proc.devRef .tc main_arg1) = m ((c.tc : Thread nD τ).loc main_arg1) :=
  (W4_arr m c 3).trans <| ((R1.dat0 (V3 m) c).arrAt_in 3 rfl _).trans <| (R1.A_eq (V3 m) c 3).trans <|
    (StableHlo.after_of_writes_sub hostOps1 _ hostOps1_writes (by decide : main_arg1 ∉ hostOps1_W)).trans <|
    (W2_arr m c 3).trans <| ((R0.dat0 (V1 m) c).arrAt_in 3 rfl _).trans <| (R0.A_eq (V1 m) c 3).trans <|
    (StableHlo.after_of_writes_sub hostOps0 _ hostOps0_writes (by decide : main_arg1 ∉ hostOps0_W)).trans rfl
theorem W4_main_arg2 (c : Dev nD) : W4 m c (Proc.devRef .tc main_arg2) = m ((c.tc : Thread nD τ).loc main_arg2) :=
  (W4_arr m c 2).trans <| ((R1.dat0 (V3 m) c).arrAt_in 2 rfl _).trans <| (R1.A_eq (V3 m) c 2).trans <|
    (StableHlo.after_of_writes_sub hostOps1 _ hostOps1_writes (by decide : main_arg2 ∉ hostOps1_W)).trans <|
    (W2_arr m c 2).trans <| ((R0.dat0 (V1 m) c).arrAt_in 2 rfl _).trans <| (R0.A_eq (V1 m) c 2).trans <|
    (StableHlo.after_of_writes_sub hostOps0 _ hostOps0_writes (by decide : main_arg2 ∉ hostOps0_W)).trans rfl
theorem W4_main_arg3 (c : Dev nD) : W4 m c (Proc.devRef .tc main_arg3) = m ((c.tc : Thread nD τ).loc main_arg3) :=
  (W4_of_ne m c main_arg3 (by decide)).trans <| (StableHlo.after_of_writes_sub hostOps1 _ hostOps1_writes (by decide : main_arg3 ∉ hostOps1_W)).trans <|
    (W2_of_ne m c main_arg3 (by decide)).trans <| (StableHlo.after_of_writes_sub hostOps0 _ hostOps0_writes (by decide : main_arg3 ∉ hostOps0_W)).trans rfl
theorem W4_main_arg4 (c : Dev nD) : W4 m c (Proc.devRef .tc main_arg4) = m ((c.tc : Thread nD τ).loc main_arg4) :=
  (W4_of_ne m c main_arg4 (by decide)).trans <| (StableHlo.after_of_writes_sub hostOps1 _ hostOps1_writes (by decide : main_arg4 ∉ hostOps1_W)).trans <|
    (W2_of_ne m c main_arg4 (by decide)).trans <| (StableHlo.after_of_writes_sub hostOps0 _ hostOps0_writes (by decide : main_arg4 ∉ hostOps0_W)).trans rfl
theorem W4_main_arg5 (c : Dev nD) : W4 m c (Proc.devRef .tc main_arg5) = m ((c.tc : Thread nD τ).loc main_arg5) :=
  (W4_of_ne m c main_arg5 (by decide)).trans <| (StableHlo.after_of_writes_sub hostOps1 _ hostOps1_writes (by decide : main_arg5 ∉ hostOps1_W)).trans <|
    (W2_of_ne m c main_arg5 (by decide)).trans <| (StableHlo.after_of_writes_sub hostOps0 _ hostOps0_writes (by decide : main_arg5 ∉ hostOps0_W)).trans rfl
theorem W4_main_arg6 (c : Dev nD) : W4 m c (Proc.devRef .tc main_arg6) = m ((c.tc : Thread nD τ).loc main_arg6) :=
  (W4_of_ne m c main_arg6 (by decide)).trans <| (StableHlo.after_of_writes_sub hostOps1 _ hostOps1_writes (by decide : main_arg6 ∉ hostOps1_W)).trans <|
    (W2_of_ne m c main_arg6 (by decide)).trans <| (StableHlo.after_of_writes_sub hostOps0 _ hostOps0_writes (by decide : main_arg6 ∉ hostOps0_W)).trans rfl
theorem W4_main_arg7 (c : Dev nD) : W4 m c (Proc.devRef .tc main_arg7) = m ((c.tc : Thread nD τ).loc main_arg7) :=
  (W4_of_ne m c main_arg7 (by decide)).trans <| (StableHlo.after_of_writes_sub hostOps1 _ hostOps1_writes (by decide : main_arg7 ∉ hostOps1_W)).trans <|
    (W2_of_ne m c main_arg7 (by decide)).trans <| (StableHlo.after_of_writes_sub hostOps0 _ hostOps0_writes (by decide : main_arg7 ∉ hostOps0_W)).trans rfl
theorem W4_main_arg8 (c : Dev nD) : W4 m c (Proc.devRef .tc main_arg8) = m ((c.tc : Thread nD τ).loc main_arg8) :=
  (W4_of_ne m c main_arg8 (by decide)).trans <| (StableHlo.after_of_writes_sub hostOps1 _ hostOps1_writes (by decide : main_arg8 ∉ hostOps1_W)).trans <|
    (W2_of_ne m c main_arg8 (by decide)).trans <| (StableHlo.after_of_writes_sub hostOps0 _ hostOps0_writes (by decide : main_arg8 ∉ hostOps0_W)).trans rfl
theorem W4_main_v11 (c : Dev nD) : W4 m c (Proc.devRef .tc main_v11) = (R1.dat0 (V3 m) c).arrAt 5 cfg1.N := W4_arr m c 5

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => R0.dat0 (V1 m) c
  | ⟨1, _⟩ => fun c => R1.dat0 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev Rest (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tlast (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first layer's region over the thread state: entered from every unscoped buffer at `V1`, left at `V2`. Its
    arrays are split out of the unscoped buffers and put back at the exit contents; the generator register goes
    into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m) c).loose
  hwaits := Pipeline.hwaits_of_owed_zero _ _ _ _ L lv 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R0.hin (V1 m) c)
    unfold Pipeline.ΦA
    iintro ⟨Hp, -, Hr⟩
    isplitl [Hr]; · iexact Hr
    iexact Hp
  hout c := by
    rw [Pipeline.ownSems0_none]
    refine (R0.hout (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's region over the thread state: entered from every unscoped buffer at `V3`, left at `V4` — the
    last thread state, grouped as the launch reads it: the buffers and the generator register, beside the core owing
    nothing. Its arrays are split out of the unscoped buffers and put back at the exit contents; the generator
    register goes into the invariant and comes back; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V3 m) c).loose
  hwaits := Pipeline.hwaits_of_owed_zero _ _ _ _ L lv 1 fun _ _ => rfl
  pre c := iprop(StableHlo.held (c : Thread nD τ) (Pipeline.ucRefs τ sig) (W3 m c) ∗ Rest c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R1.hin (V3 m) c)
    unfold Pipeline.ΦA
    iintro ⟨Hp, -, Hr⟩
    isplitl [Hr]; · iexact Hr
    iexact Hp
  hout c := by
    rw [Pipeline.ownSems0_none]
    refine (R1.hout (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The segments and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tlast m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W4_main_arg0 m c), (h c _ (mem_uc main_arg1 (by decide))).trans (W4_main_arg1 m c),
     (h c _ (mem_uc main_arg2 (by decide))).trans (W4_main_arg2 m c), (h c _ (mem_uc main_arg3 (by decide))).trans (W4_main_arg3 m c),
     (h c _ (mem_uc main_arg4 (by decide))).trans (W4_main_arg4 m c), (h c _ (mem_uc main_arg5 (by decide))).trans (W4_main_arg5 m c),
     (h c _ (mem_uc main_arg6 (by decide))).trans (W4_main_arg6 m c), (h c _ (mem_uc main_arg7 (by decide))).trans (W4_main_arg7 m c),
     (h c _ (mem_uc main_arg8 (by decide))).trans (W4_main_arg8 m c)⟩) (run_all m ρ)

end Cert.KernelIdeal.Run

end
-- ==== Proof.RefRun.lean ====
/-
  The idealized reference program's run, read back.

  The reference's @main is a straight line of host operations in which six calls of module-local functions
  stand (a leaky rectifier and an exponential-linear unit, each selecting through `_where` functions, twice
  over: once per attention layer). A call means its callee's body on the operands, each value of that body in a
  buffer of the call's own record, so @main is ONE line of 103 operations: its own 53, and in each call's place
  the callee's operations over that call's buffers (7 for a leaky rectifier, 3 for the masking select, 15 for an
  exponential-linear unit). A typed builder over literal buffers is the plain builder over the same buffers (the
  transport along a type equation that holds by computation is the identity), so the list is written with the
  plain builders throughout.

  `main_eq`: @main is that line (the functions' definitions unfolded at their calls, sequencing reassociated).
  `run`: every weakly fair execution of @main terminates; the result buffer then holds the line's fold
  (`StableHlo.after ops`) of the launch contents, and each of the nine arguments what it held at launch (no
  operation of the line writes an argument: `ops_writes`).
-/
import proofs.«404965_j38543036514339_3_alg».proof.ReferenceIdeal
import proofs.«404965_j38543036514339_3_alg».proof.Proof.Gen.ReferenceIdeal
import Idealize.ShloMosaic.Lib.StableHlo
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents of a buffer of shape `s` and element type `e`, at the float values `F`. -/
abbrev Cn (F : FTy → Type) (s : Shape) (e : EltTy) : Type := (BufTy.mk s e).Contents (Elt F)

/-- @main's 103 operations in order, each call's operations in the call's place over that call's buffers.
    Layer 1 (operations 1–53): the projection `x · W`, the two score columns and their outer sum, the adjacency
    weighting, the leaky rectifier (record `main_call0`), the mask (`main_call1`), the row softmax (maximum,
    shift, exponential, sum, quotient), the product with the projection, the exponential-linear unit
    (`main_call2`, its two selects `main_call2_call0` and `main_call2_call1`). Layer 2 (54–103): the same over
    the first layer's result, records `main_call3`, `main_call4`, `main_call5`. -/
abbrev ops : List (HloOp τ sig (Elt F)) :=
  [ -- the mask test: the adjacency's entries against zero
    nullary main_c (constantI S_ 32 0#32),
    unary main_c main_v0 (broadcastInDim S8192x8192 ![] bcast_S_S8192x8192 : Cn F S_ .i32 → Cn F S8192x8192 .i32),
    binary main_arg1 main_v0 main_v1 (cmpi .sgt : Cn F S8192x8192 .i32 → Cn F S8192x8192 .i32 → Cn F S8192x8192 .i1),
    -- layer 1: projection, score columns, their outer sum weighted by the edge weights
    binary main_arg0 main_arg3 main_v2 ((fun l r => Host.dotGeneral dot_S8192x512_S512x256_S8192x256_1_0_0_1_n_n none l r) : Cn F S8192x512 .f32 → Cn F S512x256 .f32 → Cn F S8192x256 .f32),
    binary main_v2 main_arg4 main_v3 ((fun l r => Host.dotGeneral dot_S8192x256_S256x1_S8192x1_1_0_0_1_n_n none l r) : Cn F S8192x256 .f32 → Cn F S256x1 .f32 → Cn F S8192x1 .f32),
    binary main_v2 main_arg5 main_v4 ((fun l r => Host.dotGeneral dot_S8192x256_S256x1_S8192x1_1_0_0_1_n_n none l r) : Cn F S8192x256 .f32 → Cn F S256x1 .f32 → Cn F S8192x1 .f32),
    unary main_v4 main_v5 ((transpose S1x8192 [1, 0] · transposes_S8192x1_S1x8192_1_0) : Cn F S8192x1 .f32 → Cn F S1x8192 .f32),
    unary main_v3 main_v6 (broadcastInDim S8192x8192 ![0, 1] bcast_S8192x1_S8192x8192_0_1 : Cn F S8192x1 .f32 → Cn F S8192x8192 .f32),
    unary main_v5 main_v7 (broadcastInDim S8192x8192 ![0, 1] bcast_S1x8192_S8192x8192_0_1 : Cn F S1x8192 .f32 → Cn F S8192x8192 .f32),
    binary main_v6 main_v7 main_v8 (addf : Cn F S8192x8192 .f32 → Cn F S8192x8192 .f32 → Cn F S8192x8192 .f32),
    binary main_v8 main_arg2 main_v9 (mulf : Cn F S8192x8192 .f32 → Cn F S8192x8192 .f32 → Cn F S8192x8192 .f32),
    nullary main_cst (constant S_ .f32 0x3E4CCCCD#32),
    -- the leaky rectifier of the weighted scores at that slope (record main_call0; its select, main_call0_call0)
    nullary main_call0_cst (constant S_ .f32 0x00000000#32),
    unary main_call0_cst main_call0_v0 (broadcastInDim S8192x8192 ![] bcast_S_S8192x8192 : Cn F S_ .f32 → Cn F S8192x8192 .f32),
    binary main_v9 main_call0_v0 main_call0_v1 (cmpf .oge : Cn F S8192x8192 .f32 → Cn F S8192x8192 .f32 → Cn F S8192x8192 .i1),
    unary main_cst main_call0_v2 (id : Cn F S_ .f32 → Cn F S_ .f32),
    unary main_call0_v2 main_call0_v3 (broadcastInDim S8192x8192 ![] bcast_S_S8192x8192 : Cn F S_ .f32 → Cn F S8192x8192 .f32),
    binary main_call0_v3 main_v9 main_call0_v4 (mulf : Cn F S8192x8192 .f32 → Cn F S8192x8192 .f32 → Cn F S8192x8192 .f32),
    ternary main_call0_v1 main_v9 main_call0_v4 main_v10 (select : Cn F S8192x8192 .i1 → Cn F S8192x8192 .f32 → Cn F S8192x8192 .f32 → Cn F S8192x8192 .f32),
    -- the mask: the large negative constant off the edges (record main_call1)
    nullary main_cst_0 (constant S_ .f32 0xD9FFCB9E#32),
    unary main_cst_0 main_call1_v0 (id : Cn F S_ .f32 → Cn F S_ .f32),
    unary main_call1_v0 main_call1_v1 (broadcastInDim S8192x8192 ![] bcast_S_S8192x8192 : Cn F S_ .f32 → Cn F S8192x8192 .f32),
    ternary main_v1 main_v10 main_call1_v1 main_v11 (select : Cn F S8192x8192 .i1 → Cn F S8192x8192 .f32 → Cn F S8192x8192 .f32 → Cn F S8192x8192 .f32),
    -- the row softmax: maximum, shift, exponential, sum, quotient
    nullary main_cst_1 (constant S_ .f32 0xFF800000#32),
    binary main_v11 main_cst_1 main_v12 ((fun x v => Host.reduce FloatOps.maximumf x v reducesTo_S8192x8192_S8192_d1 h_S_) : Cn F S8192x8192 .f32 → Cn F S_ .f32 → Cn F S8192 .f32),
    nullary main_cst_2 (constant S_ .f32 0xFF800000#32),
    unary main_cst_2 main_v13 (broadcastInDim S8192 ![] bcast_S_S8192 : Cn F S_ .f32 → Cn F S8192 .f32),
    binary main_v13 main_v12 main_v14 (maximumf : Cn F S8192 .f32 → Cn F S8192 .f32 → Cn F S8192 .f32),
    unary main_v14 main_v15 (broadcastInDim S8192x1 ![0] bcast_S8192_S8192x1_0 : Cn F S8192 .f32 → Cn F S8192x1 .f32),
    unary main_v15 main_v16 (broadcastInDim S8192x8192 ![0, 1] bcast_S8192x1_S8192x8192_0_1 : Cn F S8192x1 .f32 → Cn F S8192x8192 .f32),
    binary main_v11 main_v16 main_v17 (subf : Cn F S8192x8192 .f32 → Cn F S8192x8192 .f32 → Cn F S8192x8192 .f32),
    unary main_v17 main_v18 (Host.exp : Cn F S8192x8192 .f32 → Cn F S8192x8192 .f32),
    nullary main_cst_3 (constant S_ .f32 0x00000000#32),
    binary main_v18 main_cst_3 main_v19 ((fun x v => Host.reduceAdd x v reducesTo_S8192x8192_S8192_d1 h_S_) : Cn F S8192x8192 .f32 → Cn F S_ .f32 → Cn F S8192 .f32),
    unary main_v19 main_v20 (broadcastInDim S8192x1 ![0] bcast_S8192_S8192x1_0 : Cn F S8192 .f32 → Cn F S8192x1 .f32),
    unary main_v20 main_v21 (broadcastInDim S8192x8192 ![0, 1] bcast_S8192x1_S8192x8192_0_1 : Cn F S8192x1 .f32 → Cn F S8192x8192 .f32),
    binary main_v18 main_v21 main_v22 (Host.divf : Cn F S8192x8192 .f32 → Cn F S8192x8192 .f32 → Cn F S8192x8192 .f32),
    -- the attention weights against the projection
    binary main_v22 main_v2 main_v23 ((fun l r => Host.dotGeneral dot_S8192x8192_S8192x256_S8192x256_1_0_0_1_n_n none l r) : Cn F S8192x8192 .f32 → Cn F S8192x256 .f32 → Cn F S8192x256 .f32),
    -- the exponential-linear unit (record main_call2; its selects main_call2_call0, main_call2_call1)
    nullary main_call2_cst (constant S_ .f32 0x00000000#32),
    unary main_call2_cst main_call2_v0 (broadcastInDim S8192x256 ![] bcast_S_S8192x256 : Cn F S_ .f32 → Cn F S8192x256 .f32),
    binary main_v23 main_call2_v0 main_call2_v1 (cmpf .ogt : Cn F S8192x256 .f32 → Cn F S8192x256 .f32 → Cn F S8192x256 .i1),
    nullary main_call2_cst_0 (constant S_ .f32 0x00000000#32),
    unary main_call2_cst_0 main_call2_v2 (broadcastInDim S8192x256 ![] bcast_S_S8192x256 : Cn F S_ .f32 → Cn F S8192x256 .f32),
    binary main_v23 main_call2_v2 main_call2_v3 (cmpf .ogt : Cn F S8192x256 .f32 → Cn F S8192x256 .f32 → Cn F S8192x256 .i1),
    nullary main_call2_cst_1 (constant S_ .f32 0x00000000#32),
    unary main_call2_cst_1 main_call2_call0_v0 (id : Cn F S_ .f32 → Cn F S_ .f32),
    unary main_call2_call0_v0 main_call2_call0_v1 (broadcastInDim S8192x256 ![] bcast_S_S8192x256 : Cn F S_ .f32 → Cn F S8192x256 .f32),
    ternary main_call2_v3 main_call2_call0_v1 main_v23 main_call2_v4 (select : Cn F S8192x256 .i1 → Cn F S8192x256 .f32 → Cn F S8192x256 .f32 → Cn F S8192x256 .f32),
    unary main_call2_v4 main_call2_v5 (Host.expm1 : Cn F S8192x256 .f32 → Cn F S8192x256 .f32),
    nullary main_call2_cst_2 (constant S_ .f32 0x3F800000#32),
    unary main_call2_cst_2 main_call2_v6 (broadcastInDim S8192x256 ![] bcast_S_S8192x256 : Cn F S_ .f32 → Cn F S8192x256 .f32),
    binary main_call2_v6 main_call2_v5 main_call2_v7 (mulf : Cn F S8192x256 .f32 → Cn F S8192x256 .f32 → Cn F S8192x256 .f32),
    ternary main_call2_v1 main_v23 main_call2_v7 main_v24 (select : Cn F S8192x256 .i1 → Cn F S8192x256 .f32 → Cn F S8192x256 .f32 → Cn F S8192x256 .f32),
    -- layer 2: projection, score columns, their outer sum weighted by the edge weights
    binary main_v24 main_arg6 main_v25 ((fun l r => Host.dotGeneral dot_S8192x256_S256x64_S8192x64_1_0_0_1_n_n none l r) : Cn F S8192x256 .f32 → Cn F S256x64 .f32 → Cn F S8192x64 .f32),
    binary main_v25 main_arg7 main_v26 ((fun l r => Host.dotGeneral dot_S8192x64_S64x1_S8192x1_1_0_0_1_n_n none l r) : Cn F S8192x64 .f32 → Cn F S64x1 .f32 → Cn F S8192x1 .f32),
    binary main_v25 main_arg8 main_v27 ((fun l r => Host.dotGeneral dot_S8192x64_S64x1_S8192x1_1_0_0_1_n_n none l r) : Cn F S8192x64 .f32 → Cn F S64x1 .f32 → Cn F S8192x1 .f32),
    unary main_v27 main_v28 ((transpose S1x8192 [1, 0] · transposes_S8192x1_S1x8192_1_0) : Cn F S8192x1 .f32 → Cn F S1x8192 .f32),
    unary main_v26 main_v29 (broadcastInDim S8192x8192 ![0, 1] bcast_S8192x1_S8192x8192_0_1 : Cn F S8192x1 .f32 → Cn F S8192x8192 .f32),
    unary main_v28 main_v30 (broadcastInDim S8192x8192 ![0, 1] bcast_S1x8192_S8192x8192_0_1 : Cn F S1x8192 .f32 → Cn F S8192x8192 .f32),
    binary main_v29 main_v30 main_v31 (addf : Cn F S8192x8192 .f32 → Cn F S8192x8192 .f32 → Cn F S8192x8192 .f32),
    binary main_v31 main_arg2 main_v32 (mulf : Cn F S8192x8192 .f32 → Cn F S8192x8192 .f32 → Cn F S8192x8192 .f32),
    nullary main_cst_4 (constant S_ .f32 0x3E4CCCCD#32),
    -- the leaky rectifier (record main_call3; its select, main_call3_call0)
    nullary main_call3_cst (constant S_ .f32 0x00000000#32),
    unary main_call3_cst main_call3_v0 (broadcastInDim S8192x8192 ![] bcast_S_S8192x8192 : Cn F S_ .f32 → Cn F S8192x8192 .f32),
    binary main_v32 main_call3_v0 main_call3_v1 (cmpf .oge : Cn F S8192x8192 .f32 → Cn F S8192x8192 .f32 → Cn F S8192x8192 .i1),
    unary main_cst_4 main_call3_v2 (id : Cn F S_ .f32 → Cn F S_ .f32),
    unary main_call3_v2 main_call3_v3 (broadcastInDim S8192x8192 ![] bcast_S_S8192x8192 : Cn F S_ .f32 → Cn F S8192x8192 .f32),
    binary main_call3_v3 main_v32 main_call3_v4 (mulf : Cn F S8192x8192 .f32 → Cn F S8192x8192 .f32 → Cn F S8192x8192 .f32),
    ternary main_call3_v1 main_v32 main_call3_v4 main_v33 (select : Cn F S8192x8192 .i1 → Cn F S8192x8192 .f32 → Cn F S8192x8192 .f32 → Cn F S8192x8192 .f32),
    -- the mask (record main_call4)
    nullary main_cst_5 (constant S_ .f32 0xD9FFCB9E#32),
    unary main_cst_5 main_call4_v0 (id : Cn F S_ .f32 → Cn F S_ .f32),
    unary main_call4_v0 main_call4_v1 (broadcastInDim S8192x8192 ![] bcast_S_S8192x8192 : Cn F S_ .f32 → Cn F S8192x8192 .f32),
    ternary main_v1 main_v33 main_call4_v1 main_v34 (select : Cn F S8192x8192 .i1 → Cn F S8192x8192 .f32 → Cn F S8192x8192 .f32 → Cn F S8192x8192 .f32),
    -- the row softmax
    nullary main_cst_6 (constant S_ .f32 0xFF800000#32),
    binary main_v34 main_cst_6 main_v35 ((fun x v => Host.reduce FloatOps.maximumf x v reducesTo_S8192x8192_S8192_d1 h_S_) : Cn F S8192x8192 .f32 → Cn F S_ .f32 → Cn F S8192 .f32),
    nullary main_cst_7 (constant S_ .f32 0xFF800000#32),
    unary main_cst_7 main_v36 (broadcastInDim S8192 ![] bcast_S_S8192 : Cn F S_ .f32 → Cn F S8192 .f32),
    binary main_v36 main_v35 main_v37 (maximumf : Cn F S8192 .f32 → Cn F S8192 .f32 → Cn F S8192 .f32),
    unary main_v37 main_v38 (broadcastInDim S8192x1 ![0] bcast_S8192_S8192x1_0 : Cn F S8192 .f32 → Cn F S8192x1 .f32),
    unary main_v38 main_v39 (broadcastInDim S8192x8192 ![0, 1] bcast_S8192x1_S8192x8192_0_1 : Cn F S8192x1 .f32 → Cn F S8192x8192 .f32),
    binary main_v34 main_v39 main_v40 (subf : Cn F S8192x8192 .f32 → Cn F S8192x8192 .f32 → Cn F S8192x8192 .f32),
    unary main_v40 main_v41 (Host.exp : Cn F S8192x8192 .f32 → Cn F S8192x8192 .f32),
    nullary main_cst_8 (constant S_ .f32 0x00000000#32),
    binary main_v41 main_cst_8 main_v42 ((fun x v => Host.reduceAdd x v reducesTo_S8192x8192_S8192_d1 h_S_) : Cn F S8192x8192 .f32 → Cn F S_ .f32 → Cn F S8192 .f32),
    unary main_v42 main_v43 (broadcastInDim S8192x1 ![0] bcast_S8192_S8192x1_0 : Cn F S8192 .f32 → Cn F S8192x1 .f32),
    unary main_v43 main_v44 (broadcastInDim S8192x8192 ![0, 1] bcast_S8192x1_S8192x8192_0_1 : Cn F S8192x1 .f32 → Cn F S8192x8192 .f32),
    binary main_v41 main_v44 main_v45 (Host.divf : Cn F S8192x8192 .f32 → Cn F S8192x8192 .f32 → Cn F S8192x8192 .f32),
    -- the attention weights against the projection
    binary main_v45 main_v25 main_v46 ((fun l r => Host.dotGeneral dot_S8192x8192_S8192x64_S8192x64_1_0_0_1_n_n none l r) : Cn F S8192x8192 .f32 → Cn F S8192x64 .f32 → Cn F S8192x64 .f32),
    -- the exponential-linear unit (record main_call5; its selects main_call5_call0, main_call5_call1)
    nullary main_call5_cst (constant S_ .f32 0x00000000#32),
    unary main_call5_cst main_call5_v0 (broadcastInDim S8192x64 ![] bcast_S_S8192x64 : Cn F S_ .f32 → Cn F S8192x64 .f32),
    binary main_v46 main_call5_v0 main_call5_v1 (cmpf .ogt : Cn F S8192x64 .f32 → Cn F S8192x64 .f32 → Cn F S8192x64 .i1),
    nullary main_call5_cst_0 (constant S_ .f32 0x00000000#32),
    unary main_call5_cst_0 main_call5_v2 (broadcastInDim S8192x64 ![] bcast_S_S8192x64 : Cn F S_ .f32 → Cn F S8192x64 .f32),
    binary main_v46 main_call5_v2 main_call5_v3 (cmpf .ogt : Cn F S8192x64 .f32 → Cn F S8192x64 .f32 → Cn F S8192x64 .i1),
    nullary main_call5_cst_1 (constant S_ .f32 0x00000000#32),
    unary main_call5_cst_1 main_call5_call0_v0 (id : Cn F S_ .f32 → Cn F S_ .f32),
    unary main_call5_call0_v0 main_call5_call0_v1 (broadcastInDim S8192x64 ![] bcast_S_S8192x64 : Cn F S_ .f32 → Cn F S8192x64 .f32),
    ternary main_call5_v3 main_call5_call0_v1 main_v46 main_call5_v4 (select : Cn F S8192x64 .i1 → Cn F S8192x64 .f32 → Cn F S8192x64 .f32 → Cn F S8192x64 .f32),
    unary main_call5_v4 main_call5_v5 (Host.expm1 : Cn F S8192x64 .f32 → Cn F S8192x64 .f32),
    nullary main_call5_cst_2 (constant S_ .f32 0x3F800000#32),
    unary main_call5_cst_2 main_call5_v6 (broadcastInDim S8192x64 ![] bcast_S_S8192x64 : Cn F S_ .f32 → Cn F S8192x64 .f32),
    binary main_call5_v6 main_call5_v5 main_call5_v7 (mulf : Cn F S8192x64 .f32 → Cn F S8192x64 .f32 → Cn F S8192x64 .f32),
    ternary main_call5_v1 main_v46 main_call5_v7 main_v47 (select : Cn F S8192x64 .i1 → Cn F S8192x64 .f32 → Cn F S8192x64 .f32 → Cn F S8192x64 .f32) ]

-- both sides reduce to one chain of 103 `hlo` steps: the depth bound is the chain's, and unfolding @main's
-- functions and the list to that chain takes more than the default budget
set_option maxRecDepth 16384 in
set_option maxHeartbeats 2000000 in
/-- @main is that straight line, by computation: sequencing grafts what follows onto a call's last step, so
    @main with the functions' definitions and the calls' records unfolded is the chain of `hlo` steps that
    `seq ops` is. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation of the line touches TensorCore buffers only. -/
theorem ops_sub : (ops : List (HloOp τ sig (Elt F))).Forall fun op => op.bufs ⊆ tcRefs τ sig :=
  ⟨nullary_bufs_sub .., unary_bufs_sub .., binary_bufs_sub .., binary_bufs_sub .., binary_bufs_sub .., binary_bufs_sub .., unary_bufs_sub .., unary_bufs_sub .., unary_bufs_sub .., binary_bufs_sub .., binary_bufs_sub .., nullary_bufs_sub ..,
    nullary_bufs_sub .., unary_bufs_sub .., binary_bufs_sub .., unary_bufs_sub .., unary_bufs_sub .., binary_bufs_sub .., ternary_bufs_sub ..,
    nullary_bufs_sub .., unary_bufs_sub .., unary_bufs_sub .., ternary_bufs_sub ..,
    nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..,
    nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..,
    binary_bufs_sub .., binary_bufs_sub .., binary_bufs_sub .., unary_bufs_sub .., unary_bufs_sub .., unary_bufs_sub .., binary_bufs_sub .., binary_bufs_sub .., nullary_bufs_sub ..,
    nullary_bufs_sub .., unary_bufs_sub .., binary_bufs_sub .., unary_bufs_sub .., unary_bufs_sub .., binary_bufs_sub .., ternary_bufs_sub ..,
    nullary_bufs_sub .., unary_bufs_sub .., unary_bufs_sub .., ternary_bufs_sub ..,
    nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..,
    nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- The buffers the line writes: each operation's one result, in order — every buffer of the signature but the
    nine arguments', each exactly once. -/
abbrev W : List (Ref sig .tc) :=
  [ main_c, main_v0, main_v1, main_v2, main_v3, main_v4, main_v5, main_v6, main_v7, main_v8, main_v9, main_cst,
    main_call0_cst, main_call0_v0, main_call0_v1, main_call0_v2, main_call0_v3, main_call0_v4, main_v10,
    main_cst_0, main_call1_v0, main_call1_v1, main_v11,
    main_cst_1, main_v12, main_cst_2, main_v13, main_v14, main_v15, main_v16, main_v17, main_v18, main_cst_3, main_v19,
    main_v20, main_v21, main_v22, main_v23,
    main_call2_cst, main_call2_v0, main_call2_v1, main_call2_cst_0, main_call2_v2, main_call2_v3, main_call2_cst_1,
    main_call2_call0_v0, main_call2_call0_v1, main_call2_v4, main_call2_v5, main_call2_cst_2, main_call2_v6,
    main_call2_v7, main_v24,
    main_v25, main_v26, main_v27, main_v28, main_v29, main_v30, main_v31, main_v32, main_cst_4,
    main_call3_cst, main_call3_v0, main_call3_v1, main_call3_v2, main_call3_v3, main_call3_v4, main_v33,
    main_cst_5, main_call4_v0, main_call4_v1, main_v34,
    main_cst_6, main_v35, main_cst_7, main_v36, main_v37, main_v38, main_v39, main_v40, main_v41, main_cst_8, main_v42,
    main_v43, main_v44, main_v45, main_v46,
    main_call5_cst, main_call5_v0, main_call5_v1, main_call5_cst_0, main_call5_v2, main_call5_v3, main_call5_cst_1,
    main_call5_call0_v0, main_call5_call0_v1, main_call5_v4, main_call5_v5, main_call5_cst_2, main_call5_v6,
    main_call5_v7, main_v47 ]

/-- One written buffer, among a list's. -/
theorem single_sub_of_mem {L : List (Ref sig .tc)} {y : Ref sig .tc} (h : y ∈ L) :
    ({Proc.devRef .tc y} : Finset (DevRef τ sig)) ⊆ (L.map (Proc.devRef (τ := τ) .tc)).toFinset :=
  Finset.singleton_subset_iff.mpr (List.mem_toFinset.mpr (List.mem_map_of_mem h))

set_option maxRecDepth 8192 in
/-- Each operation writes its one result buffer, which is the list's entry at its place. -/
theorem ops_writes : (ops : List (HloOp τ sig (Elt F))).Forall fun op =>
    op.writes ⊆ (W.map (Proc.devRef (τ := τ) .tc)).toFinset :=
  ⟨single_sub_of_mem (List.getElem_mem (l := W) (n := 0) (by decide)),
    single_sub_of_mem (List.getElem_mem (l := W) (n := 1) (by decide)),
    single_sub_of_mem (List.getElem_mem (l := W) (n := 2) (by decide)),
    single_sub_of_mem (List.getElem_mem (l := W) (n := 3) (by decide)),
    single_sub_of_mem (List.getElem_mem (l := W) (n := 4) (by decide)),
    single_sub_of_mem (List.getElem_mem (l := W) (n := 5) (by decide)),
    single_sub_of_mem (List.getElem_mem (l := W) (n := 6) (by decide)),
    single_sub_of_mem (List.getElem_mem (l := W) (n := 7) (by decide)),
    single_sub_of_mem (List.getElem_mem (l := W) (n := 8) (by decide)),
    single_sub_of_mem (List.getElem_mem (l := W) (n := 9) (by decide)),
    single_sub_of_mem (List.getElem_mem (l := W) (n := 10) (by decide)),
    single_sub_of_mem (List.getElem_mem (l := W) (n := 11) (by decide)),
    single_sub_of_mem (List.getElem_mem (l := W) (n := 12) (by decide)),
    single_sub_of_mem (List.getElem_mem (l := W) (n := 13) (by decide)),
    single_sub_of_mem (List.getElem_mem (l := W) (n := 14) (by decide)),
    single_sub_of_mem (List.getElem_mem (l := W) (n := 15) (by decide)),
    single_sub_of_mem (List.getElem_mem (l := W) (n := 16) (by decide)),
    single_sub_of_mem (List.getElem_mem (l := W) (n := 17) (by decide)),
    single_sub_of_mem (List.getElem_mem (l := W) (n := 18) (by decide)),
    single_sub_of_mem (List.getElem_mem (l := W) (n := 19) (by decide)),
    single_sub_of_mem (List.getElem_mem (l := W) (n := 20) (by decide)),
    single_sub_of_mem (List.getElem_mem (l := W) (n := 21) (by decide)),
    single_sub_of_mem (List.getElem_mem (l := W) (n := 22) (by decide)),
    single_sub_of_mem (List.getElem_mem (l := W) (n := 23) (by decide)),
    single_sub_of_mem (List.getElem_mem (l := W) (n := 24) (by decide)),
    single_sub_of_mem (List.getElem_mem (l := W) (n := 25) (by decide)),
    single_sub_of_mem (List.getElem_mem (l := W) (n := 26) (by decide)),
    single_sub_of_mem (List.getElem_mem (l := W) (n := 27) (by decide)),
    single_sub_of_mem (List.getElem_mem (l := W) (n := 28) (by decide)),
    single_sub_of_mem (List.getElem_mem (l := W) (n := 29) (by decide)),
    single_sub_of_mem (List.getElem_mem (l := W) (n := 30) (by decide)),
    single_sub_of_mem (List.getElem_mem (l := W) (n := 31) (by decide)),
    single_sub_of_mem (List.getElem_mem (l := W) (n := 32) (by decide)),
    single_sub_of_mem (List.getElem_mem (l := W) (n := 33) (by decide)),
    single_sub_of_mem (List.getElem_mem (l := W) (n := 34) (by decide)),
    single_sub_of_mem (List.getElem_mem (l := W) (n := 35) (by decide)),
    single_sub_of_mem (List.getElem_mem (l := W) (n := 36) (by decide)),
    single_sub_of_mem (List.getElem_mem (l := W) (n := 37) (by decide)),
    single_sub_of_mem (List.getElem_mem (l := W) (n := 38) (by decide)),
    single_sub_of_mem (List.getElem_mem (l := W) (n := 39) (by decide)),
    single_sub_of_mem (List.getElem_mem (l := W) (n := 40) (by decide)),
    single_sub_of_mem (List.getElem_mem (l := W) (n := 41) (by decide)),
    single_sub_of_mem (List.getElem_mem (l := W) (n := 42) (by decide)),
    single_sub_of_mem (List.getElem_mem (l := W) (n := 43) (by decide)),
    single_sub_of_mem (List.getElem_mem (l := W) (n := 44) (by decide)),
    single_sub_of_mem (List.getElem_mem (l := W) (n := 45) (by decide)),
    single_sub_of_mem (List.getElem_mem (l := W) (n := 46) (by decide)),
    single_sub_of_mem (List.getElem_mem (l := W) (n := 47) (by decide)),
    single_sub_of_mem (List.getElem_mem (l := W) (n := 48) (by decide)),
    single_sub_of_mem (List.getElem_mem (l := W) (n := 49) (by decide)),
    single_sub_of_mem (List.getElem_mem (l := W) (n := 50) (by decide)),
    single_sub_of_mem (List.getElem_mem (l := W) (n := 51) (by decide)),
    single_sub_of_mem (List.getElem_mem (l := W) (n := 52) (by decide)),
    single_sub_of_mem (List.getElem_mem (l := W) (n := 53) (by decide)),
    single_sub_of_mem (List.getElem_mem (l := W) (n := 54) (by decide)),
    single_sub_of_mem (List.getElem_mem (l := W) (n := 55) (by decide)),
    single_sub_of_mem (List.getElem_mem (l := W) (n := 56) (by decide)),
    single_sub_of_mem (List.getElem_mem (l := W) (n := 57) (by decide)),
    single_sub_of_mem (List.getElem_mem (l := W) (n := 58) (by decide)),
    single_sub_of_mem (List.getElem_mem (l := W) (n := 59) (by decide)),
    single_sub_of_mem (List.getElem_mem (l := W) (n := 60) (by decide)),
    single_sub_of_mem (List.getElem_mem (l := W) (n := 61) (by decide)),
    single_sub_of_mem (List.getElem_mem (l := W) (n := 62) (by decide)),
    single_sub_of_mem (List.getElem_mem (l := W) (n := 63) (by decide)),
    single_sub_of_mem (List.getElem_mem (l := W) (n := 64) (by decide)),
    single_sub_of_mem (List.getElem_mem (l := W) (n := 65) (by decide)),
    single_sub_of_mem (List.getElem_mem (l := W) (n := 66) (by decide)),
    single_sub_of_mem (List.getElem_mem (l := W) (n := 67) (by decide)),
    single_sub_of_mem (List.getElem_mem (l := W) (n := 68) (by decide)),
    single_sub_of_mem (List.getElem_mem (l := W) (n := 69) (by decide)),
    single_sub_of_mem (List.getElem_mem (l := W) (n := 70) (by decide)),
    single_sub_of_mem (List.getElem_mem (l := W) (n := 71) (by decide)),
    single_sub_of_mem (List.getElem_mem (l := W) (n := 72) (by decide)),
    single_sub_of_mem (List.getElem_mem (l := W) (n := 73) (by decide)),
    single_sub_of_mem (List.getElem_mem (l := W) (n := 74) (by decide)),
    single_sub_of_mem (List.getElem_mem (l := W) (n := 75) (by decide)),
    single_sub_of_mem (List.getElem_mem (l := W) (n := 76) (by decide)),
    single_sub_of_mem (List.getElem_mem (l := W) (n := 77) (by decide)),
    single_sub_of_mem (List.getElem_mem (l := W) (n := 78) (by decide)),
    single_sub_of_mem (List.getElem_mem (l := W) (n := 79) (by decide)),
    single_sub_of_mem (List.getElem_mem (l := W) (n := 80) (by decide)),
    single_sub_of_mem (List.getElem_mem (l := W) (n := 81) (by decide)),
    single_sub_of_mem (List.getElem_mem (l := W) (n := 82) (by decide)),
    single_sub_of_mem (List.getElem_mem (l := W) (n := 83) (by decide)),
    single_sub_of_mem (List.getElem_mem (l := W) (n := 84) (by decide)),
    single_sub_of_mem (List.getElem_mem (l := W) (n := 85) (by decide)),
    single_sub_of_mem (List.getElem_mem (l := W) (n := 86) (by decide)),
    single_sub_of_mem (List.getElem_mem (l := W) (n := 87) (by decide)),
    single_sub_of_mem (List.getElem_mem (l := W) (n := 88) (by decide)),
    single_sub_of_mem (List.getElem_mem (l := W) (n := 89) (by decide)),
    single_sub_of_mem (List.getElem_mem (l := W) (n := 90) (by decide)),
    single_sub_of_mem (List.getElem_mem (l := W) (n := 91) (by decide)),
    single_sub_of_mem (List.getElem_mem (l := W) (n := 92) (by decide)),
    single_sub_of_mem (List.getElem_mem (l := W) (n := 93) (by decide)),
    single_sub_of_mem (List.getElem_mem (l := W) (n := 94) (by decide)),
    single_sub_of_mem (List.getElem_mem (l := W) (n := 95) (by decide)),
    single_sub_of_mem (List.getElem_mem (l := W) (n := 96) (by decide)),
    single_sub_of_mem (List.getElem_mem (l := W) (n := 97) (by decide)),
    single_sub_of_mem (List.getElem_mem (l := W) (n := 98) (by decide)),
    single_sub_of_mem (List.getElem_mem (l := W) (n := 99) (by decide)),
    single_sub_of_mem (List.getElem_mem (l := W) (n := 100) (by decide)),
    single_sub_of_mem (List.getElem_mem (l := W) (n := 101) (by decide)),
    single_sub_of_mem (List.getElem_mem (l := W) (n := 102) (by decide))⟩

/-- A buffer the line does not write keeps its contents through it. -/
theorem keep (V : Valuation τ sig (Elt F)) {r : Ref sig .tc} (h : r ∉ W) :
    after ops V (Proc.devRef .tc r) = V (Proc.devRef .tc r) :=
  after_of_writes_sub ops V ops_writes h

set_option maxRecDepth 8192 in
/-- On every device, for any float values, from any memory with zero counters: every weakly fair execution of
    @main terminates with the result buffer at the line's fold over the launch contents and the nine arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47) = after ops (launchContents m c) (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨h c main_v47,
      (h c main_arg0).trans (keep _ (by decide)),
      (h c main_arg1).trans (keep _ (by decide)),
      (h c main_arg2).trans (keep _ (by decide)),
      (h c main_arg3).trans (keep _ (by decide)),
      (h c main_arg4).trans (keep _ (by decide)),
      (h c main_arg5).trans (keep _ (by decide)),
      (h c main_arg6).trans (keep _ (by decide)),
      (h c main_arg7).trans (keep _ (by decide)),
      (h c main_arg8).trans (keep _ (by decide))⟩)
    (run_seq scopedRefs_eq scopedSems_eq defs main (fun _ => ops) main_eq (fun _ => ops_sub) m ρ)

end Cert.ReferenceIdeal.RefRun

end
-- ==== Proof.KI.RealArgs.lean ====
/-
  The kernel program's nine arguments as real arrays: what "every float input is finite" gives at the ideal
  instance, where an input otherwise ranges over the extended reals. The integer adjacency matrix has no such
  reading and stays as it is.
-/
import proofs.«404965_j38543036514339_3_alg».proof.KernelIdeal
import Idealize.ShloMosaic.PureOps.Ideal
import Idealize.ShloMosaic.Lib.ValueIdx

noncomputable section

namespace Cert.KernelIdeal.HostV

open Idealize.ShloMosaic Idealize.ShloMosaic.TcCoe Idealize.ShloMosaic.ValueIdx
open Idealize.SL.Sem
open Cert.KernelIdeal

/-- The nine arguments on core `c` as real arrays (the integer adjacency matrix stays as it is). -/
structure RealArgs (m : (ℓ : Loc nD τ sig) → Buf (Elt Ideal) ℓ) (c : Dev nD) where
  xR : Fin 8192 → Fin 512 → ℝ
  MR : Fin 8192 → Fin 8192 → ℝ
  W0R : Fin 512 → Fin 256 → ℝ
  aS0R : Fin 256 → ℝ
  aN0R : Fin 256 → ℝ
  W1R : Fin 256 → Fin 64 → ℝ
  aS1R : Fin 64 → ℝ
  aN1R : Fin 64 → ℝ
  hx : ∀ i k, (m ((c.tc : Thread nD τ).loc main_arg0) : S8192x512.Idx → EReal) (ix2 i k) = (xR i k : EReal)
  hM : ∀ i j, (m ((c.tc : Thread nD τ).loc main_arg2) : S8192x8192.Idx → EReal) (ix2 i j) = (MR i j : EReal)
  hW0 : ∀ k d, (m ((c.tc : Thread nD τ).loc main_arg3) : S512x256.Idx → EReal) (ix2 k d) = (W0R k d : EReal)
  haS0 : ∀ d, (m ((c.tc : Thread nD τ).loc main_arg4) : S256x1.Idx → EReal) (ix2 d 0) = (aS0R d : EReal)
  haN0 : ∀ d, (m ((c.tc : Thread nD τ).loc main_arg5) : S256x1.Idx → EReal) (ix2 d 0) = (aN0R d : EReal)
  hW1 : ∀ k d, (m ((c.tc : Thread nD τ).loc main_arg6) : S256x64.Idx → EReal) (ix2 k d) = (W1R k d : EReal)
  haS1 : ∀ d, (m ((c.tc : Thread nD τ).loc main_arg7) : S64x1.Idx → EReal) (ix2 d 0) = (aS1R d : EReal)
  haN1 : ∀ d, (m ((c.tc : Thread nD τ).loc main_arg8) : S64x1.Idx → EReal) (ix2 d 0) = (aN1R d : EReal)

end Cert.KernelIdeal.HostV

end
-- ==== Proof.Finite.lean ====
/-
  "Every float input is finite" at the ideal instance says that each entry of the eight float arguments is a real
  number: the precondition is the conjunction, argument by argument, of "every entry's absolute value is below
  plus infinity", and an extended real whose absolute value is below the top is neither infinity.
-/
import proofs.«404965_j38543036514339_3_alg».proof.Defs
import proofs.«404965_j38543036514339_3_alg».proof.Proof.Gen.Pre_finite_inputs
import proofs.«404965_j38543036514339_3_alg».proof.Proof.KI.RealArgs
import Idealize.ShloMosaic.Lib.ReduceAll
import Idealize.ShloMosaic.Lib.ValueIdx

noncomputable section

namespace Cert.Finite

open Idealize.ShloMosaic Idealize.ShloMosaic.TcCoe Idealize.ShloMosaic.ValueIdx
open Idealize.SL.Sem

/-- An extended real whose absolute value is strictly below plus infinity is a real. -/
theorem real_of_abs_lt_top (x : EReal) (h : max x (-x) < (⊤ : EReal)) : ∃ r : ℝ, x = (r : EReal) := by
  induction x using EReal.rec with
  | bot => simp at h
  | top => simp at h
  | coe r => exact ⟨r, rfl⟩

/-- The single-precision pattern of plus infinity denotes the top of the extended reals. -/
theorem ofBits_inf : (FloatOps.ofBits .f32 0x7F800000#32 : Ideal .f32) = (⊤ : EReal) := by
  show Ideal.ofBits .f32 0x7F800000#32 = ⊤
  simp [Ideal.ofBits, Ideal.ieee]

/-- The rank-zero shape has exactly one index. -/
instance subsingleton_scalarIdx : Subsingleton (⟨0, ![]⟩ : Shape).Idx := ⟨fun a b => funext fun d => d.elim0⟩

/-- "All entries have absolute value below plus infinity", in the form the precondition takes (the conjunction over
    all indices of the comparison of the absolute value with the broadcast infinity, equal to one), says that every
    entry is a real number. Generic in the array's shape. -/
theorem all_real {s t u v : Shape} [Subsingleton t.Idx] {axes : List (Fin s.rank)} {dims : Fin u.rank → Fin s.rank}
    (x : FVec Ideal s .f32) (hb : u.BroadcastsInDim s dims) (hr : s.ReducesTo axes t) (hv : 0 < v.numel) (j : t.Idx)
    (h : Host.reduce IntOp.andi (cmpf .olt (Host.absf x) (broadcastInDim s dims hb (constant u .f32 0x7F800000#32)))
          (constantI v 1 1#1) hr hv j = 1#1) :
    ∀ i : s.Idx, ∃ r : ℝ, x i = (r : EReal) := by
  intro i
  have e := Host.reduce_andi_all _ _ hr hv j h i
  refine real_of_abs_lt_top (x i) ?_
  have e' : Ideal.cmp .olt (max (x i) (-(x i))) (Ideal.ofBits .f32 0x7F800000#32) = 1#1 := e
  rw [show Ideal.ofBits .f32 0x7F800000#32 = (⊤ : EReal) from ofBits_inf] at e'
  unfold Ideal.cmp at e'
  by_contra hn
  simp [hn] at e'

/-- Under the precondition the idealized kernel program's float arguments are real arrays, on every core. -/
theorem realArgs_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Nonempty (Cert.KernelIdeal.HostV.RealArgs m c) := by
  have h0 := congrFun (h c) ValueIdx.ix0
  dsimp only [Cert.Pre_finite_inputs.fn, Cert.Pre_finite_inputs.fn_part1, Cert.Pre_finite_inputs.fn_part2] at h0
  -- the eight flags are conjoined from the left: peel them off from the last to the first
  obtain ⟨h0, a8⟩ := IntOp.andi_eq_one.1 h0
  obtain ⟨h0, a7⟩ := IntOp.andi_eq_one.1 h0
  obtain ⟨h0, a6⟩ := IntOp.andi_eq_one.1 h0
  obtain ⟨h0, a5⟩ := IntOp.andi_eq_one.1 h0
  obtain ⟨h0, a4⟩ := IntOp.andi_eq_one.1 h0
  obtain ⟨h0, a3⟩ := IntOp.andi_eq_one.1 h0
  obtain ⟨a0, a2⟩ := IntOp.andi_eq_one.1 h0
  choose xR hxR using all_real _ _ _ _ _ a0
  choose MR hMR using all_real _ _ _ _ _ a2
  choose W0R hW0R using all_real _ _ _ _ _ a3
  choose aS0R haS0R using all_real _ _ _ _ _ a4
  choose aN0R haN0R using all_real _ _ _ _ _ a5
  choose W1R hW1R using all_real _ _ _ _ _ a6
  choose aS1R haS1R using all_real _ _ _ _ _ a7
  choose aN1R haN1R using all_real _ _ _ _ _ a8
  exact ⟨{ xR := fun i k => xR (ix2 i k), MR := fun i j => MR (ix2 i j), W0R := fun k d => W0R (ix2 k d),
           aS0R := fun d => aS0R (ix2 d 0), aN0R := fun d => aN0R (ix2 d 0), W1R := fun k d => W1R (ix2 k d),
           aS1R := fun d => aS1R (ix2 d 0), aN1R := fun d => aN1R (ix2 d 0),
           hx := fun i k => hxR (ix2 i k), hM := fun i j => hMR (ix2 i j), hW0 := fun k d => hW0R (ix2 k d),
           haS0 := fun d => haS0R (ix2 d 0), haN0 := fun d => haN0R (ix2 d 0), hW1 := fun k d => hW1R (ix2 k d),
           haS1 := fun d => haS1R (ix2 d 0), haN1 := fun d => haN1R (ix2 d 0) }⟩

end Cert.Finite

end
-- ==== Proof.KI.R0Pieces.lean ====
/-
  What the first layer's kernel leaves carried after a point, as the body's own arithmetic. The pieces a case's
  stores wrote, read back, are the stored values themselves: every store covers its buffer whole, so what is read
  back is the last stored value. At key tile 0 the step starts from the reset values (the finite sentinel, zero,
  zero), which the body stores first and then reads; at later key tiles from what the point before left. The key
  tile's rows of the resident features are the rows `1024 * (t % 8) …` of that block.
-/
import proofs.«404965_j38543036514339_3_alg».proof.Proof.KI.R0Data
import Idealize.ShloMosaic.Lib.Pipeline.Value

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-- The rows of the resident features the body loads at grid point `i`: those of the point's key tile. -/
def keyRows (i : grid0.Coords) (hb : Vec F S8192x256 .bf16) : Vec F S1024x256 .bf16 :=
  View.ld hb (Rect.unit (s := S8192x256) (k0_off1 i) S1024x256.size (k0_off1_inb i))

/-- One online-softmax step on the point's blocks from a carried triple `p`, as the body computes it. -/
def stepOf (x0 : Vec F S1024x1 .f32) (x1 : Vec F S1x1024 .f32) (x2 : Vec F S1024x1024 .f32) (x3 : Vec F S1024x1024 .i32) (hk : Vec F S1024x256 .bf16)
    (p : Carried F) : Carried F :=
  (k0_pay3 (k0_pay9 x0 x1 x2 x3 p.1),
   k0_pay1 (k0_pay12 x0 x1 x2 x3 p.1 p.1 p.2.1),
   k0_pay2 (k0_pay10 x0 x1 x2 x3 p.1 p.1) (k0_pay11 x0 x1 x2 x3 p.1) hk p.2.2)

/-- The step at point `t`, on that point's blocks. -/
abbrev stepAt (c : Dev nD) (t : Fin cfg0.N) (p : Carried F) : Carried F :=
  stepOf (iblk V c 0 t) (iblk V c 1 t) (iblk V c 2 t) (iblk V c 3 t) (keyRows (grid0.coords t) (iblk V c 4 t)) p

/-- The offsets of a whole-buffer rectangle are zero, however the zeros are spelt. -/
theorem zeroOff2 : (![0, 0] : Fin 2 → Nat) = fun _ => 0 := funext fun a => by fin_cases a <;> rfl

/-- A carried buffer's contents, read back through the buffer's own whole view. -/
theorem read_scMax (h : scMax.IsWhole) (X : Vec F S1024x1 .f32) :
    View.read (Elt F) (View.whole cc0_scratch0) (h.unread X) = X := h.read_unread X
theorem read_scSum (h : scSum.IsWhole) (X : Vec F S1024x1 .f32) :
    View.read (Elt F) (View.whole cc0_scratch1) (h.unread X) = X := h.read_unread X
theorem read_scAcc (h : scAcc.IsWhole) (X : Vec F S1024x256 .f32) :
    View.read (Elt F) (View.whole cc0_scratch2) (h.unread X) = X := h.read_unread X

/-- Every load through a whole-buffer rectangle reads the buffer's contents, and a load of what one covering store
    left reads that store's payload. -/
local macro "read_loads" : tactic => `(tactic| simp only [View.readCov_unit_zero (S := S1024x1) _ zeroOff2, View.readCov_unit_zero (S := S1024x256) _ zeroOff2,
    View.readAt_eq_ld, Memref.IsWhole.read_unread, read_scMax, read_scSum, read_scAcc,
    View.ld_unit_zero (S := S1024x1) zeroOff2, View.ld_unit_zero (S := S1x1024) zeroOff2, View.ld_unit_zero (S := S1024x1024) zeroOff2, View.ld_unit_zero (S := S1024x256) zeroOff2])

/-! ## What each case's stores leave in each buffer

Over variable memrefs and blocks of the literal types. A buffer's writes read back over junk are their canonical
contents; the last write covers the buffer whole, so that is its payload; every load the payload was computed from
went through a whole-buffer rectangle (the key tile's rows apart) and reads the contents themselves. In the reset
case the step's loads of the carried buffers read back the reset values stored just before. -/

section Pieces

variable (c : Dev nD) (i : grid0.Coords)
  (arg2 : Memref sig .tc .vmem S1024x1 .f32) (harg2 : arg2.IsWhole) (arg3 : Memref sig .tc .vmem S1x1024 .f32) (harg3 : arg3.IsWhole)
  (arg4 : Memref sig .tc .vmem S1024x1024 .f32) (harg4 : arg4.IsWhole) (arg5 : Memref sig .tc .vmem S1024x1024 .i32) (harg5 : arg5.IsWhole)
  (arg6 : Memref sig .tc .vmem S8192x256 .bf16) (harg6 : arg6.IsWhole) (arg7 : Memref sig .tc .vmem S1024x256 .f32) (harg7 : arg7.IsWhole)
  (x0 : Vec F S1024x1 .f32) (x1 : Vec F S1x1024 .f32) (x2 : Vec F S1024x1024 .f32) (x3 : Vec F S1024x1024 .i32) (x4 : Vec F S8192x256 .bf16)

local notation "RunR" => runReset (F := F) c i arg2 harg2 arg3 harg3 arg4 harg4 arg5 harg5 arg6 harg6 arg7 harg7
local notation "RunM" => runMid (F := F) c i arg2 harg2 arg3 harg3 arg4 harg4 arg5 harg5 arg6 harg6 arg7 harg7
local notation "RunL" => runLast (F := F) c i arg2 harg2 arg3 harg3 arg4 harg4 arg5 harg5 arg6 harg6 arg7 harg7

/-- The reset case: the step from the reset values, which its loads of the carried buffers read back. -/
theorem reset_max (hr : condReset i) (hl : ¬condLast i) :
    VMax.read (Elt F) (VMax.writes (Elt F) VMax.junk (RunR hr hl x0 x1 x2 x3 x4).1)
      = k0_pay3 (k0_pay9 x0 x1 x2 x3 k0_pay5) := by
  rw [View.read_writes_junk_eq_canon]
  unfold runReset
  dsimp only
  sl_unfold_words
  rw [View.canon_cons_unit_zero (S := S1024x1) zeroOff2]
  read_loads

theorem reset_sum (hr : condReset i) (hl : ¬condLast i) :
    VSum.read (Elt F) (VSum.writes (Elt F) VSum.junk (RunR hr hl x0 x1 x2 x3 x4).2.1)
      = k0_pay1 (k0_pay12 x0 x1 x2 x3 k0_pay5 k0_pay5 k0_pay6) := by
  rw [View.read_writes_junk_eq_canon]
  unfold runReset
  dsimp only
  sl_unfold_words
  rw [View.canon_cons_unit_zero (S := S1024x1) zeroOff2]
  read_loads

theorem reset_acc (hr : condReset i) (hl : ¬condLast i) :
    VAcc.read (Elt F) (VAcc.writes (Elt F) VAcc.junk (RunR hr hl x0 x1 x2 x3 x4).2.2.1)
      = k0_pay2 (k0_pay10 x0 x1 x2 x3 k0_pay5 k0_pay5) (k0_pay11 x0 x1 x2 x3 k0_pay5) (keyRows i x4) k0_pay7 := by
  rw [View.read_writes_junk_eq_canon]
  unfold runReset keyRows
  dsimp only
  sl_unfold_words
  rw [View.canon_cons_unit_zero (S := S1024x256) zeroOff2]
  read_loads

/-- The middle case: the step from the carried contents. -/
theorem mid_max (hr : ¬condReset i) (hl : ¬condLast i) (sm sl : Vec F S1024x1 .f32) (sa : Vec F S1024x256 .f32) :
    VMax.read (Elt F) (VMax.writes (Elt F) VMax.junk (RunM hr hl x0 x1 x2 x3 x4 sm sl sa).1)
      = k0_pay3 (k0_pay9 x0 x1 x2 x3 sm) := by
  rw [View.read_writes_junk_eq_canon]
  unfold runMid
  dsimp only
  sl_unfold_words
  rw [View.canon_unit_zero (S := S1024x1) zeroOff2]
  read_loads

theorem mid_sum (hr : ¬condReset i) (hl : ¬condLast i) (sm sl : Vec F S1024x1 .f32) (sa : Vec F S1024x256 .f32) :
    VSum.read (Elt F) (VSum.writes (Elt F) VSum.junk (RunM hr hl x0 x1 x2 x3 x4 sm sl sa).2.1)
      = k0_pay1 (k0_pay12 x0 x1 x2 x3 sm sm sl) := by
  rw [View.read_writes_junk_eq_canon]
  unfold runMid
  dsimp only
  sl_unfold_words
  rw [View.canon_unit_zero (S := S1024x1) zeroOff2]
  read_loads

theorem mid_acc (hr : ¬condReset i) (hl : ¬condLast i) (sm sl : Vec F S1024x1 .f32) (sa : Vec F S1024x256 .f32) :
    VAcc.read (Elt F) (VAcc.writes (Elt F) VAcc.junk (RunM hr hl x0 x1 x2 x3 x4 sm sl sa).2.2.1)
      = k0_pay2 (k0_pay10 x0 x1 x2 x3 sm sm) (k0_pay11 x0 x1 x2 x3 sm) (keyRows i x4) sa := by
  rw [View.read_writes_junk_eq_canon]
  unfold runMid keyRows
  dsimp only
  sl_unfold_words
  rw [View.canon_unit_zero (S := S1024x256) zeroOff2]
  read_loads

/-- The last case: the same step, and the epilogue of the accumulator and the sum it has just stored. -/
theorem last_max (hr : ¬condReset i) (hl : condLast i) (sm sl : Vec F S1024x1 .f32) (sa : Vec F S1024x256 .f32) :
    VMax.read (Elt F) (VMax.writes (Elt F) VMax.junk (RunL hr hl x0 x1 x2 x3 x4 sm sl sa).1)
      = k0_pay3 (k0_pay9 x0 x1 x2 x3 sm) := by
  rw [View.read_writes_junk_eq_canon]
  unfold runLast
  dsimp only
  sl_unfold_words
  rw [View.canon_unit_zero (S := S1024x1) zeroOff2]
  read_loads

theorem last_sum (hr : ¬condReset i) (hl : condLast i) (sm sl : Vec F S1024x1 .f32) (sa : Vec F S1024x256 .f32) :
    VSum.read (Elt F) (VSum.writes (Elt F) VSum.junk (RunL hr hl x0 x1 x2 x3 x4 sm sl sa).2.1)
      = k0_pay1 (k0_pay12 x0 x1 x2 x3 sm sm sl) := by
  rw [View.read_writes_junk_eq_canon]
  unfold runLast
  dsimp only
  sl_unfold_words
  rw [View.canon_unit_zero (S := S1024x1) zeroOff2]
  read_loads

theorem last_acc (hr : ¬condReset i) (hl : condLast i) (sm sl : Vec F S1024x1 .f32) (sa : Vec F S1024x256 .f32) :
    VAcc.read (Elt F) (VAcc.writes (Elt F) VAcc.junk (RunL hr hl x0 x1 x2 x3 x4 sm sl sa).2.2.1)
      = k0_pay2 (k0_pay10 x0 x1 x2 x3 sm sm) (k0_pay11 x0 x1 x2 x3 sm) (keyRows i x4) sa := by
  rw [View.read_writes_junk_eq_canon]
  unfold runLast keyRows
  dsimp only
  sl_unfold_words
  rw [View.canon_unit_zero (S := S1024x256) zeroOff2]
  read_loads

theorem last_out (hr : ¬condReset i) (hl : condLast i) (sm sl : Vec F S1024x1 .f32) (sa : Vec F S1024x256 .f32) :
    VOut.read (Elt F) (VOut.writes (Elt F) VOut.junk (RunL hr hl x0 x1 x2 x3 x4 sm sl sa).2.2.2.1)
      = k0_pay4 (k0_pay2 (k0_pay10 x0 x1 x2 x3 sm sm) (k0_pay11 x0 x1 x2 x3 sm) (keyRows i x4) sa) (k0_pay1 (k0_pay12 x0 x1 x2 x3 sm sm sl)) := by
  rw [View.read_writes_junk_eq_canon]
  unfold runLast keyRows
  dsimp only
  sl_unfold_words
  rw [View.canon_unit_zero (S := S1024x256) zeroOff2]
  read_loads

end Pieces

/-- At key tile 0 the carried triple is the step from the reset values. -/
theorem carriedReset_eq (c : Dev nD) (t : Fin cfg0.N) (hr : t.val % 8 = 0) (hl : ¬t.val % 8 = 7) :
    carriedReset V c t hr hl = stepAt V c t (k0_pay5, k0_pay6, k0_pay7) := by
  have h1 := reset_max c (grid0.coords t) (ms0 t) (hs0 t) (ms1 t) (hs1 t) (ms2 t) (hs2 t) (ms3 t) (hs3 t) (ms4 t) (hs4 t) (ms5 t) (hs5 t)
      (iblk V c 0 t) (iblk V c 1 t) (iblk V c 2 t) (iblk V c 3 t) (iblk V c 4 t) ((hcondReset t).mpr hr) (fun h => hl ((hcondLast t).mp h))
  have h2 := reset_sum c (grid0.coords t) (ms0 t) (hs0 t) (ms1 t) (hs1 t) (ms2 t) (hs2 t) (ms3 t) (hs3 t) (ms4 t) (hs4 t) (ms5 t) (hs5 t)
      (iblk V c 0 t) (iblk V c 1 t) (iblk V c 2 t) (iblk V c 3 t) (iblk V c 4 t) ((hcondReset t).mpr hr) (fun h => hl ((hcondLast t).mp h))
  have h3 := reset_acc c (grid0.coords t) (ms0 t) (hs0 t) (ms1 t) (hs1 t) (ms2 t) (hs2 t) (ms3 t) (hs3 t) (ms4 t) (hs4 t) (ms5 t) (hs5 t)
      (iblk V c 0 t) (iblk V c 1 t) (iblk V c 2 t) (iblk V c 3 t) (iblk V c 4 t) ((hcondReset t).mpr hr) (fun h => hl ((hcondLast t).mp h))
  unfold carriedReset stepAt stepOf
  exact congrArg₂ Prod.mk h1 (congrArg₂ Prod.mk h2 h3)

/-- At a middle key tile, the step from what the point before left. -/
theorem carriedMid_eq (c : Dev nD) (t : Fin cfg0.N) (hr : ¬t.val % 8 = 0) (hl : ¬t.val % 8 = 7) (p : Carried F) :
    carriedMid V c t hr hl p = stepAt V c t p := by
  have h1 := mid_max c (grid0.coords t) (ms0 t) (hs0 t) (ms1 t) (hs1 t) (ms2 t) (hs2 t) (ms3 t) (hs3 t) (ms4 t) (hs4 t) (ms5 t) (hs5 t)
      (iblk V c 0 t) (iblk V c 1 t) (iblk V c 2 t) (iblk V c 3 t) (iblk V c 4 t) (fun h => hr ((hcondReset t).mp h)) (fun h => hl ((hcondLast t).mp h)) p.1 p.2.1 p.2.2
  have h2 := mid_sum c (grid0.coords t) (ms0 t) (hs0 t) (ms1 t) (hs1 t) (ms2 t) (hs2 t) (ms3 t) (hs3 t) (ms4 t) (hs4 t) (ms5 t) (hs5 t)
      (iblk V c 0 t) (iblk V c 1 t) (iblk V c 2 t) (iblk V c 3 t) (iblk V c 4 t) (fun h => hr ((hcondReset t).mp h)) (fun h => hl ((hcondLast t).mp h)) p.1 p.2.1 p.2.2
  have h3 := mid_acc c (grid0.coords t) (ms0 t) (hs0 t) (ms1 t) (hs1 t) (ms2 t) (hs2 t) (ms3 t) (hs3 t) (ms4 t) (hs4 t) (ms5 t) (hs5 t)
      (iblk V c 0 t) (iblk V c 1 t) (iblk V c 2 t) (iblk V c 3 t) (iblk V c 4 t) (fun h => hr ((hcondReset t).mp h)) (fun h => hl ((hcondLast t).mp h)) p.1 p.2.1 p.2.2
  unfold carriedMid stepAt stepOf
  exact congrArg₂ Prod.mk h1 (congrArg₂ Prod.mk h2 h3)

/-- At key tile 7 the same step, -/
theorem carriedLast_eq (c : Dev nD) (t : Fin cfg0.N) (hr : ¬t.val % 8 = 0) (hl : t.val % 8 = 7) (p : Carried F) :
    carriedLast V c t hr hl p = stepAt V c t p := by
  have h1 := last_max c (grid0.coords t) (ms0 t) (hs0 t) (ms1 t) (hs1 t) (ms2 t) (hs2 t) (ms3 t) (hs3 t) (ms4 t) (hs4 t) (ms5 t) (hs5 t)
      (iblk V c 0 t) (iblk V c 1 t) (iblk V c 2 t) (iblk V c 3 t) (iblk V c 4 t) (fun h => hr ((hcondReset t).mp h)) ((hcondLast t).mpr hl) p.1 p.2.1 p.2.2
  have h2 := last_sum c (grid0.coords t) (ms0 t) (hs0 t) (ms1 t) (hs1 t) (ms2 t) (hs2 t) (ms3 t) (hs3 t) (ms4 t) (hs4 t) (ms5 t) (hs5 t)
      (iblk V c 0 t) (iblk V c 1 t) (iblk V c 2 t) (iblk V c 3 t) (iblk V c 4 t) (fun h => hr ((hcondReset t).mp h)) ((hcondLast t).mpr hl) p.1 p.2.1 p.2.2
  have h3 := last_acc c (grid0.coords t) (ms0 t) (hs0 t) (ms1 t) (hs1 t) (ms2 t) (hs2 t) (ms3 t) (hs3 t) (ms4 t) (hs4 t) (ms5 t) (hs5 t)
      (iblk V c 0 t) (iblk V c 1 t) (iblk V c 2 t) (iblk V c 3 t) (iblk V c 4 t) (fun h => hr ((hcondReset t).mp h)) ((hcondLast t).mpr hl) p.1 p.2.1 p.2.2
  unfold carriedLast stepAt stepOf
  exact congrArg₂ Prod.mk h1 (congrArg₂ Prod.mk h2 h3)

/-- and the stored output block is the epilogue of the step's accumulator and sum. -/
theorem outLast_eq (c : Dev nD) (t : Fin cfg0.N) (hr : ¬t.val % 8 = 0) (hl : t.val % 8 = 7) (p : Carried F) :
    outLast V c t hr hl p = k0_pay4 (stepAt V c t p).2.2 (stepAt V c t p).2.1 := by
  unfold outLast stepAt stepOf
  exact last_out c (grid0.coords t) (ms0 t) (hs0 t) (ms1 t) (hs1 t) (ms2 t) (hs2 t) (ms3 t) (hs3 t) (ms4 t) (hs4 t) (ms5 t) (hs5 t)
      (iblk V c 0 t) (iblk V c 1 t) (iblk V c 2 t) (iblk V c 3 t) (iblk V c 4 t) (fun h => hr ((hcondReset t).mp h)) ((hcondLast t).mpr hl) p.1 p.2.1 p.2.2

end Cert.KernelIdeal.R0

end
-- ==== Proof.LibColumn.lean ====
/-
  Two layout facts about a column kept as a trailing unit axis (`keepdims`): a vector `[a]` cast to a
  column `[a, 1]` reads, at `(i, u)`, the vector at `i`; a column `[a, 1]` broadcast along its unit axis to
  `[a, b]` reads, at `(i, j)`, the column at `(i, 0)`.  Together: a per-row quantity spread over the row.
-/
import Idealize.ShloMosaic.Lib.Pipeline.Value
import Idealize.ShloMosaic.Lib.ValueIdx

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.Column
-- ==== Proof.KI.PayIdx.lean ====
/-
  The first layer's kernel body, read one entry at a time on the extended reals. For a query row `r`, a key lane
  `j` and a feature column `d` of the point's blocks:
  * the masked score is `max e (α e)` with `e = (s r + n j) * M r j` where the adjacency entry is positive, and the
    finite sentinel elsewhere;
  * the new running maximum is the larger of the old one and the row's largest masked score;
  * the rescaling factor is `exp (old maximum - new maximum)`, each lane's weight `exp (score - new maximum)`;
  * the new running sum is the rescaled old sum plus the row's weights; the new accumulator the rescaled old one
    plus the weights against the key tile's feature rows (a change of float format is the identity here);
  * the stored output is the exponential linear unit of accumulator / sum.
  Nothing here needs the entries to be finite.
-/
import proofs.«404965_j38543036514339_3_alg».proof.Proof.Gen.KernelIdeal.Skeleton
import proofs.«404965_j38543036514339_3_alg».proof.Proof.LibColumn
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayIdx

open Idealize.ShloMosaic Idealize.ShloMosaic.ValueIdx
open Cert.KernelIdeal Cert.KernelIdeal.Gen

/-! ## The carried values pass through a cast of a shape to itself -/

/-- A column cast to its own shape is the column. -/
theorem pay1_eq {F : FTy → Type} [FloatOps F] (v : FVec F S1024x1 .f32) : k0_pay1 v = v :=
  shapeCast_self v shapeCasts_S1024x1_S1024x1
theorem pay3_eq {F : FTy → Type} [FloatOps F] (v : FVec F S1024x1 .f32) : k0_pay3 v = v :=
  shapeCast_self v shapeCasts_S1024x1_S1024x1

/-! ## Layout: a column or a row spread over the square, a row reduced to a column entry -/

/-- The word of `-∞` denotes the least extended real. -/
theorem ofBits_negInf : Ideal.ofBits .f32 0xFF800000#32 = (⊥ : EReal) := by
  simp [Ideal.ofBits, Ideal.ieee]

/-- A column (cast to its own shape) spread along the lanes reads, at `(r, j)`, the column's entry of row `r`. -/
theorem col_spread (v : FVec Ideal S1024x1 .f32) (r j : Fin 1024) :
    broadcastTo S1024x1024 (shapeCast S1024x1 v shapeCasts_S1024x1_S1024x1) broadcasts_S1024x1_S1024x1024 (ix2 r j)
      = v (ix2 r 0) := by
  refine (Cert.Column.broadcastTo_a1_ab_apply _ broadcasts_S1024x1_S1024x1024 r j).trans ?_
  exact congrFun (shapeCast_self v shapeCasts_S1024x1_S1024x1) (ix2 r 0)

/-- A row (cast to its own shape) spread down the rows reads, at `(r, j)`, the row's entry of lane `j`. -/
theorem row_spread (v : FVec Ideal S1x1024 .f32) (r j : Fin 1024) :
    broadcastTo S1024x1024 (shapeCast S1x1024 v shapeCasts_S1x1024_S1x1024) broadcasts_S1x1024_S1024x1024 (ix2 r j)
      = v (ix2 0 j) := by
  refine (broadcastTo_1b_ab_apply _ broadcasts_S1x1024_S1024x1024 r j).trans ?_
  exact congrFun (shapeCast_self v shapeCasts_S1x1024_S1x1024) (ix2 0 j)

/-- The square's index over row `r` with lane `k` inserted is `(r, k)`. -/
theorem lift_lane (r k : Fin 1024) : reduces_S1024x1024_S1024.lift (ix1 r) k = ix2 r k := by
  funext c
  apply Fin.ext
  match c with
  | ⟨0, _⟩ => rfl
  | ⟨1, _⟩ => rfl

/-- A row's largest entry, kept as a column entry: the fold of `max` from `⊥` over the row's 1024 lanes. -/
theorem laneMax_apply (src : FVec Ideal S1024x1024 .f32) (r : Fin 1024) (u : Fin 1) :
    shapeCast S1024x1 (multiReduction (F := Ideal) .maximumf [1] S1024 src 0xFF800000#32 reduces_S1024x1024_S1024 (.inl rfl) rfl)
        shapeCasts_S1024_S1024x1 (ix2 r u)
      = Finset.univ.fold max (⊥ : EReal) fun j : Fin 1024 => src (ix2 r j) := by
  refine (Cert.Column.shapeCast_a_a1_apply _ shapeCasts_S1024_S1024x1 r u).trans ?_
  refine (Ideal.multiReduction_maximumf_single src _ reduces_S1024x1024_S1024 (.inl rfl) rfl (ix1 r)).trans ?_
  have e : (src ∘ reduces_S1024x1024_S1024.lift (ix1 r)) = fun j : Fin 1024 => src (ix2 r j) :=
    funext fun j => congrArg src (lift_lane r j)
  exact congrArg₂ (fun (b : EReal) (f : Fin 1024 → EReal) => Finset.univ.fold max b f) ofBits_negInf e

/-- A row's sum, kept as a column entry: the sum over the row's 1024 lanes. -/
theorem laneSum_apply (src : FVec Ideal S1024x1024 .f32) (r : Fin 1024) (u : Fin 1) :
    shapeCast S1024x1 (multiReduction (F := Ideal) .add [1] S1024 src 0x00000000#32 reduces_S1024x1024_S1024 (.inl rfl) rfl)
        shapeCasts_S1024_S1024x1 (ix2 r u)
      = ∑ j : Fin 1024, src (ix2 r j) := by
  refine (Cert.Column.shapeCast_a_a1_apply _ shapeCasts_S1024_S1024x1 r u).trans ?_
  refine (Ideal.multiReduction_add_single src _ reduces_S1024x1024_S1024 (.inl rfl) rfl (ix1 r)).trans ?_
  exact Finset.sum_congr rfl fun j _ => congrArg src (lift_lane r j)

/-! ## The product of the weights with the key tile's features, at an entry -/

/-- Left operand, row axis: the output's row. -/
theorem lhs_0 (j : S1024x256.Idx) (k : dot_S1024x1024_S1024x256_S1024x256_1_0_0_1_n_n.contr.Idx) :
    (dot_S1024x1024_S1024x256_S1024x256_1_0_0_1_n_n.lhsIdx j k 0).val = (j 0).val := by
  unfold DotDims.lhsIdx
  rw [dif_neg (show ¬(0 : Fin S1024x1024.rank) ∈ dot_S1024x1024_S1024x256_S1024x256_1_0_0_1_n_n.lhsBatch by decide),
    dif_pos (show (0 : Fin S1024x1024.rank) ∈ dot_S1024x1024_S1024x256_S1024x256_1_0_0_1_n_n.lhsNonContracting by decide)]
  rfl
/-- Left operand, lane axis: the contracted coordinate. -/
theorem lhs_1 (j : S1024x256.Idx) (k : dot_S1024x1024_S1024x256_S1024x256_1_0_0_1_n_n.contr.Idx) :
    (dot_S1024x1024_S1024x256_S1024x256_1_0_0_1_n_n.lhsIdx j k 1).val = (k ⟨0, by decide⟩).val :=
  dot_S1024x1024_S1024x256_S1024x256_1_0_0_1_n_n.lhsIdx_val_of_single rfl j k
/-- Right operand, row axis: the contracted coordinate. -/
theorem rhs_0 (j : S1024x256.Idx) (k : dot_S1024x1024_S1024x256_S1024x256_1_0_0_1_n_n.contr.Idx) :
    (dot_S1024x1024_S1024x256_S1024x256_1_0_0_1_n_n.rhsIdx j k 0).val = (k ⟨0, by decide⟩).val :=
  dot_S1024x1024_S1024x256_S1024x256_1_0_0_1_n_n.rhsIdx_val_of_single rfl j k
/-- Right operand, column axis: the output's column. -/
theorem rhs_1 (j : S1024x256.Idx) (k : dot_S1024x1024_S1024x256_S1024x256_1_0_0_1_n_n.contr.Idx) :
    (dot_S1024x1024_S1024x256_S1024x256_1_0_0_1_n_n.rhsIdx j k 1).val = (j 1).val := by
  unfold DotDims.rhsIdx
  rw [dif_neg (show ¬(1 : Fin S1024x256.rank) ∈ dot_S1024x1024_S1024x256_S1024x256_1_0_0_1_n_n.rhsBatch by decide),
    dif_pos (show (1 : Fin S1024x256.rank) ∈ dot_S1024x1024_S1024x256_S1024x256_1_0_0_1_n_n.rhsNonContracting by decide)]
  rfl

/-- A [1024,1024] by [1024,256] product into the zero accumulator, at `(r, d)`: the sum over the 1024 contracted lanes. -/
theorem mm_apply (A : FVec Ideal S1024x1024 .bf16) (B : FVec Ideal S1024x256 .bf16) (r : Fin 1024) (d : Fin 256) :
    matmul (F := Ideal) dot_S1024x1024_S1024x256_S1024x256_1_0_0_1_n_n none A B (constant (F := Ideal) S1024x256 .f32 0x00000000#32) (ix2 r d)
      = ∑ j : Fin 1024, A (ix2 r j) * B (ix2 j d) := by
  refine (Ideal.matmul_constant_zero_apply dot_S1024x1024_S1024x256_S1024x256_1_0_0_1_n_n none A B (ix2 r d)).trans ?_
  rw [← Equiv.sum_comp (contrEquiv1 dot_S1024x1024_S1024x256_S1024x256_1_0_0_1_n_n 1024 rfl rfl).symm]
  refine Finset.sum_congr rfl fun c _ => ?_
  have c2 := contrEquiv1_symm_val dot_S1024x1024_S1024x256_S1024x256_1_0_0_1_n_n 1024 rfl rfl c
  have l2 : dot_S1024x1024_S1024x256_S1024x256_1_0_0_1_n_n.lhsIdx (ix2 r d)
      ((contrEquiv1 dot_S1024x1024_S1024x256_S1024x256_1_0_0_1_n_n 1024 rfl rfl).symm c) = ix2 r c := by
    funext ax
    apply Fin.ext
    match ax with
    | ⟨0, _⟩ => exact lhs_0 _ _
    | ⟨1, _⟩ => exact (lhs_1 _ _).trans c2
  have r2 : dot_S1024x1024_S1024x256_S1024x256_1_0_0_1_n_n.rhsIdx (ix2 r d)
      ((contrEquiv1 dot_S1024x1024_S1024x256_S1024x256_1_0_0_1_n_n 1024 rfl rfl).symm c) = ix2 c d := by
    funext ax
    apply Fin.ext
    match ax with
    | ⟨0, _⟩ => exact (rhs_0 _ _).trans c2
    | ⟨1, _⟩ => exact rhs_1 _ _
  rw [l2, r2]

/-! ## The payloads at an entry -/

/-- The leaky slope and the finite sentinel, as the extended reals their words denote (never evaluated here). -/
abbrev slope : EReal := Ideal.ofBits .f32 0x3E4CCCCD#32
abbrev sentinel : EReal := Ideal.ofBits .f32 0xD9FFCB9E#32

variable (x0 : Vec Ideal S1024x1 .f32) (x1 : Vec Ideal S1x1024 .f32) (x2 : Vec Ideal S1024x1024 .f32) (x3 : Vec Ideal S1024x1024 .i32)

/-- The pre-activation of entry `(r, j)`. -/
def pre (r j : Fin 1024) : EReal := (x0 (ix2 r 0) + x1 (ix2 0 j)) * x2 (ix2 r j)

/-- The pre-activation as the body computes it: the column and the row spread over the square, added, times the
    adjacency weight. -/
theorem pre_eq (r j : Fin 1024) :
    mulf (F := Ideal) (φ := .f32)
        (addf (F := Ideal) (φ := .f32) (broadcastTo S1024x1024 (shapeCast S1024x1 x0 shapeCasts_S1024x1_S1024x1) broadcasts_S1024x1_S1024x1024)
          (broadcastTo S1024x1024 (shapeCast S1x1024 x1 shapeCasts_S1x1024_S1x1024) broadcasts_S1x1024_S1024x1024)) x2 (ix2 r j)
      = pre x0 x1 x2 r j :=
  congrArg₂ (fun (a b : EReal) => (a + b) * x2 (ix2 r j)) (col_spread x0 r j) (row_spread x1 r j)

/-- The masked score at `(r, j)`. -/
theorem score_apply (r j : Fin 1024) :
    k0_pay8 (F := Ideal) x0 x1 x2 x3 (ix2 r j)
      = Scalar.select (cmpi .sgt x3 (broadcast S1024x1024 (0#32 : BitVec 32)) (ix2 r j)) (max (pre x0 x1 x2 r j) (slope * pre x0 x1 x2 r j)) sentinel :=
  congrArg (fun (t : EReal) => Scalar.select (cmpi .sgt x3 (broadcast S1024x1024 (0#32 : BitVec 32)) (ix2 r j)) (max t (slope * t)) sentinel)
    (pre_eq x0 x1 x2 r j)

/-- The new running maximum of row `r`: the old one against the largest masked score of the row's 1024 lanes. -/
theorem newMax_apply (m : Vec Ideal S1024x1 .f32) (r : Fin 1024) :
    k0_pay9 (F := Ideal) x0 x1 x2 x3 m (ix2 r 0)
      = max (m (ix2 r 0)) (Finset.univ.fold max (⊥ : EReal) fun j : Fin 1024 => k0_pay8 (F := Ideal) x0 x1 x2 x3 (ix2 r j)) :=
  congrArg (fun (t : EReal) => max (m (ix2 r 0)) t) (laneMax_apply (k0_pay8 (F := Ideal) x0 x1 x2 x3) r 0)

/-- The rescaling factor of row `r`. -/
theorem corr_apply (m m' : Vec Ideal S1024x1 .f32) (r : Fin 1024) :
    k0_pay10 (F := Ideal) x0 x1 x2 x3 m m' (ix2 r 0) = Ideal.exp (m' (ix2 r 0) - k0_pay9 (F := Ideal) x0 x1 x2 x3 m (ix2 r 0)) :=
  rfl

/-- Lane `j`'s weight in row `r`. -/
theorem weight_apply (m : Vec Ideal S1024x1 .f32) (r j : Fin 1024) :
    k0_pay11 (F := Ideal) x0 x1 x2 x3 m (ix2 r j)
      = Ideal.exp (k0_pay8 (F := Ideal) x0 x1 x2 x3 (ix2 r j) - k0_pay9 (F := Ideal) x0 x1 x2 x3 m (ix2 r 0)) :=
  congrArg (fun (t : EReal) => Ideal.exp (k0_pay8 (F := Ideal) x0 x1 x2 x3 (ix2 r j) - t))
    (Cert.Column.broadcastTo_a1_ab_apply (k0_pay9 (F := Ideal) x0 x1 x2 x3 m) broadcasts_S1024x1_S1024x1024 r j)

/-- The new running sum of row `r`. -/
theorem newSum_apply (m m' l : Vec Ideal S1024x1 .f32) (r : Fin 1024) :
    k0_pay12 (F := Ideal) x0 x1 x2 x3 m m' l (ix2 r 0)
      = k0_pay10 (F := Ideal) x0 x1 x2 x3 m m' (ix2 r 0) * l (ix2 r 0)
        + (Ideal.ofBits .f32 0x00000000#32 + ∑ j : Fin 1024, k0_pay11 (F := Ideal) x0 x1 x2 x3 m (ix2 r j)) := by
  rw [Ideal.ofBits_zero_f32, zero_add]
  exact congrArg (fun (t : EReal) => k0_pay10 (F := Ideal) x0 x1 x2 x3 m m' (ix2 r 0) * l (ix2 r 0) + t)
    (laneSum_apply (k0_pay11 (F := Ideal) x0 x1 x2 x3 m) r 0)

/-- The new accumulator at `(r, d)`: the rescaled old one plus the row's weights against the key tile's features. -/
theorem newAcc_apply (corr : FVec Ideal S1024x1 .f32) (p : FVec Ideal S1024x1024 .f32) (hk : Vec Ideal S1024x256 .bf16) (acc : Vec Ideal S1024x256 .f32)
    (r : Fin 1024) (d : Fin 256) :
    k0_pay2 (F := Ideal) corr p hk acc (ix2 r d) = corr (ix2 r 0) * acc (ix2 r d) + ∑ j : Fin 1024, p (ix2 r j) * hk (ix2 j d) := by
  have hB : shapeCast S1024x256 hk shapeCasts_S1024x256_S1024x256 = hk := shapeCast_self hk shapeCasts_S1024x256_S1024x256
  have e1 := Cert.Column.broadcastTo_a1_ab_apply corr broadcasts_S1024x1_S1024x256 r d
  have e2 : matmul (F := Ideal) (φ₁ := .bf16) (φ₂ := .bf16) dot_S1024x1024_S1024x256_S1024x256_1_0_0_1_n_n none (truncf .bf16 p bitsLt_bf16_f32)
        (shapeCast S1024x256 hk shapeCasts_S1024x256_S1024x256) (constant (F := Ideal) S1024x256 .f32 0x00000000#32) (ix2 r d)
      = ∑ j : Fin 1024, p (ix2 r j) * hk (ix2 j d) := by
    refine (mm_apply (truncf .bf16 p bitsLt_bf16_f32) (shapeCast S1024x256 hk shapeCasts_S1024x256_S1024x256) r d).trans ?_
    refine Finset.sum_congr rfl fun j _ => ?_
    exact congrArg (fun (t : EReal) => p (ix2 r j) * t) (congrFun hB (ix2 j d))
  unfold k0_pay2
  refine (congrFun (shapeCast_self _ shapeCasts_S1024x256_S1024x256) (ix2 r d)).trans ?_
  exact congrArg₂ (fun (a b : EReal) => a * acc (ix2 r d) + b) e1 e2

/-- The stored output at `(r, d)`: the exponential linear unit of accumulator / sum. -/
theorem out_apply (acc : Vec Ideal S1024x256 .f32) (l : Vec Ideal S1024x1 .f32) (r : Fin 1024) (d : Fin 256) :
    k0_pay4 (F := Ideal) acc l (ix2 r d)
      = Scalar.select (Ideal.cmp .ogt (Ideal.div (acc (ix2 r d)) (l (ix2 r 0))) (Ideal.ofBits .f32 0x00000000#32))
          (Ideal.div (acc (ix2 r d)) (l (ix2 r 0)))
          (Ideal.exp (Ideal.div (acc (ix2 r d)) (l (ix2 r 0))) - Ideal.ofBits .f32 0x3F800000#32) :=
  congrArg (fun (t : EReal) => Scalar.select (Ideal.cmp .ogt (Ideal.div (acc (ix2 r d)) t) (Ideal.ofBits .f32 0x00000000#32))
      (Ideal.div (acc (ix2 r d)) t) (Ideal.exp (Ideal.div (acc (ix2 r d)) t) - Ideal.ofBits .f32 0x3F800000#32))
    (Cert.Column.broadcastTo_a1_ab_apply l broadcasts_S1024x1_S1024x256 r d)

/-- The reset values: the sentinel, zero, zero. -/
theorem resetMax_apply (y : S1024x1.Idx) : k0_pay5 (F := Ideal) y = sentinel :=
  congrFun (shapeCast_self (broadcast S1024x1 (Scalar.ofBits (F := Ideal) .f32 0xD9FFCB9E#32)) shapeCasts_S1024x1_S1024x1) y
theorem resetSum_apply (y : S1024x1.Idx) : k0_pay6 (F := Ideal) y = Ideal.ofBits .f32 0x00000000#32 :=
  congrFun (shapeCast_self (broadcast S1024x1 (Scalar.ofBits (F := Ideal) .f32 0x00000000#32)) shapeCasts_S1024x1_S1024x1) y
theorem resetAcc_apply (y : S1024x256.Idx) : k0_pay7 (F := Ideal) y = Ideal.ofBits .f32 0x00000000#32 :=
  congrFun (shapeCast_self (broadcast S1024x256 (Scalar.ofBits (F := Ideal) .f32 0x00000000#32)) shapeCasts_S1024x256_S1024x256) y

end Cert.KernelIdeal.PayIdx

end
-- ==== Proof.Spec.lean ====
/-
  The mathematics of one attention layer, with no program in sight.

  A row of scores `s : κ × ι → ℝ` (κ key tiles of ι lanes each) and values `h : κ × ι → ℝ` are reduced in two ways.
  * Tile by tile, carrying a running maximum `m`, a running sum `l` and an accumulator `a`: from a finite start
    `m₀` and `l = a = 0`, a tile with maximum `c` moves `m` to `m' = max m c`, rescales `l` and `a` by
    `exp (m - m')` and adds the tile's `∑ exp (s - m')` and `∑ exp (s - m') * h`. The result is `a / l`.
  * At once: `exp (s - M)` normalised by its sum over the whole row, then summed against `h`.
  Both are `(∑ exp s * h) / (∑ exp s)`: the carried pair is always `(exp (-m) * ∑ exp s, exp (-m) * ∑ exp s * h)`
  over the tiles seen so far, whatever finite `m` is, because `exp (m - m') * exp (-m) = exp (-m')`; and a common
  positive factor cancels in the quotient. Nothing depends on the start `m₀` beyond its being a real number.
-/
import Mathlib.Analysis.SpecialFunctions.Exp
import Mathlib.Algebra.BigOperators.Group.Finset.Basic
import Mathlib.Algebra.Order.BigOperators.Ring.Finset
import Mathlib.Algebra.BigOperators.Field

noncomputable section

namespace Cert.Spec

open Finset

/-- The carried state after some tiles: running maximum, running sum, accumulator. -/
structure St where
  m : ℝ
  l : ℝ
  a : ℝ

/-- One tile's step, from its lane scores `s`, lane values `h` and the tile's own maximum `c`. -/
def step {ι : Type} [Fintype ι] (st : St) (c : ℝ) (s h : ι → ℝ) : St :=
  let m' := max st.m c
  { m := m'
    l := Real.exp (st.m - m') * st.l + ∑ j, Real.exp (s j - m')
    a := Real.exp (st.m - m') * st.a + ∑ j, Real.exp (s j - m') * h j }

/-- The state after the first `n` tiles of a row of `K` tiles, started at `m₀`. -/
def run {ι : Type} [Fintype ι] {K : Nat} (m₀ : ℝ) (c : Fin K → ℝ) (s h : Fin K → ι → ℝ) : (n : Nat) → n ≤ K → St
  | 0, _ => ⟨m₀, 0, 0⟩
  | n + 1, hn => step (run m₀ c s h n (Nat.le_of_succ_le hn)) (c ⟨n, hn⟩) (s ⟨n, hn⟩) (h ⟨n, hn⟩)

/-- What is carried is the plain sums over the tiles seen, scaled by `exp (-m)`. -/
theorem run_closed {ι : Type} [Fintype ι] {K : Nat} (m₀ : ℝ) (c : Fin K → ℝ) (s h : Fin K → ι → ℝ) (n : Nat) (hn : n ≤ K) :
    (run m₀ c s h n hn).l = Real.exp (-(run m₀ c s h n hn).m) * ∑ k : Fin n, ∑ j, Real.exp (s ⟨k.val, lt_of_lt_of_le k.isLt hn⟩ j)
    ∧ (run m₀ c s h n hn).a = Real.exp (-(run m₀ c s h n hn).m) * ∑ k : Fin n, ∑ j, Real.exp (s ⟨k.val, lt_of_lt_of_le k.isLt hn⟩ j) * h ⟨k.val, lt_of_lt_of_le k.isLt hn⟩ j := by
  -- one step keeps the invariant: `exp (m - m') * exp (-m) = exp (-m')` and `exp (x - m') = exp (-m') * exp x`
  have key : ∀ (st : St) (d : ℝ) (t g : ι → ℝ) (S A : ℝ),
      st.l = Real.exp (-st.m) * S → st.a = Real.exp (-st.m) * A →
      (step st d t g).l = Real.exp (-(step st d t g).m) * (S + ∑ j, Real.exp (t j))
      ∧ (step st d t g).a = Real.exp (-(step st d t g).m) * (A + ∑ j, Real.exp (t j) * g j) := by
    intro st d t g S A hl ha
    have e1 : Real.exp (st.m - max st.m d) * Real.exp (-st.m) = Real.exp (-(max st.m d)) := by
      rw [← Real.exp_add]; congr 1; ring
    have e2 : ∀ x : ℝ, Real.exp (x - max st.m d) = Real.exp (-(max st.m d)) * Real.exp x := by
      intro x; rw [← Real.exp_add]; congr 1; ring
    refine ⟨?_, ?_⟩
    · show Real.exp (st.m - max st.m d) * st.l + ∑ j, Real.exp (t j - max st.m d)
          = Real.exp (-(max st.m d)) * (S + ∑ j, Real.exp (t j))
      rw [hl, ← mul_assoc, e1, mul_add, Finset.mul_sum]
      simp only [e2]
    · show Real.exp (st.m - max st.m d) * st.a + ∑ j, Real.exp (t j - max st.m d) * g j
          = Real.exp (-(max st.m d)) * (A + ∑ j, Real.exp (t j) * g j)
      rw [ha, ← mul_assoc, e1, mul_add, Finset.mul_sum]
      simp only [e2, mul_assoc]
  induction n with
  | zero => simp [run]
  | succ n ih =>
    obtain ⟨ihl, iha⟩ := ih (Nat.le_of_succ_le hn)
    have hstep := key _ (c ⟨n, hn⟩) (s ⟨n, hn⟩) (h ⟨n, hn⟩) _ _ ihl iha
    -- the sum over `Fin (n + 1)` is the sum over the first `n` tiles plus the last tile
    rw [Fin.sum_univ_castSucc, Fin.sum_univ_castSucc]
    exact hstep

/-- After at least one tile the carried sum is positive: `exp (-m) > 0` times a non-empty sum of exponentials. -/
theorem run_l_pos {ι : Type} [Fintype ι] [Nonempty ι] {K : Nat} (m₀ : ℝ) (c : Fin K → ℝ) (s h : Fin K → ι → ℝ) (n : Nat) (hn : n ≤ K) (hpos : 0 < n) : 0 < (run m₀ c s h n hn).l := by
  rw [(run_closed m₀ c s h n hn).1]
  haveI : Nonempty (Fin n) := ⟨⟨0, hpos⟩⟩
  exact mul_pos (Real.exp_pos _)
    (Finset.sum_pos (fun k _ => Finset.sum_pos (fun j _ => Real.exp_pos _) Finset.univ_nonempty) Finset.univ_nonempty)

/-- The tile-by-tile quotient is the quotient of the plain sums. -/
theorem run_quot {ι : Type} [Fintype ι] [Nonempty ι] {K : Nat} (hK : 0 < K) (m₀ : ℝ) (c : Fin K → ℝ) (s h : Fin K → ι → ℝ) :
    (run m₀ c s h K le_rfl).a / (run m₀ c s h K le_rfl).l
      = (∑ k : Fin K, ∑ j, Real.exp (s k j) * h k j) / (∑ k : Fin K, ∑ j, Real.exp (s k j)) := by
  obtain ⟨hl, ha⟩ := run_closed m₀ c s h K le_rfl
  -- the common factor `exp (-m)` is non-zero and cancels
  rw [ha, hl, mul_div_mul_left _ _ (Real.exp_ne_zero _)]

/-- Normalising first and summing against the values afterwards is the same quotient, for any shift `M`. -/
theorem softmax_dot {α : Type} [Fintype α] [Nonempty α] (M : ℝ) (s h : α → ℝ) :
    ∑ j, (Real.exp (s j - M) / ∑ i, Real.exp (s i - M)) * h j = (∑ j, Real.exp (s j) * h j) / (∑ j, Real.exp (s j)) := by
  have e : ∀ x : ℝ, Real.exp (x - M) = Real.exp (-M) * Real.exp x := by
    intro x; rw [← Real.exp_add]; congr 1; ring
  simp only [e, div_mul_eq_mul_div, ← Finset.sum_div, ← Finset.mul_sum, mul_assoc]
  rw [mul_div_mul_left _ _ (Real.exp_ne_zero _)]

/-- For a slope strictly between 0 and 1 the larger of `x` and `α x` is `x` on the non-negatives and `α x` below. -/
theorem leaky {α x : ℝ} (h0 : 0 < α) (h1 : α < 1) : max x (α * x) = if 0 ≤ x then x else α * x := by
  split_ifs with hx
  · exact max_eq_left (by nlinarith [mul_nonneg (sub_nonneg.2 h1.le) hx])
  · exact max_eq_right (by nlinarith [mul_pos (sub_pos.2 h1) (neg_pos.2 (not_le.1 hx))])

end Cert.Spec

end
-- ==== Proof.Layer.lean ====
/-
  One attention layer as a function of real arrays, and the two stacked.

  From features `x : N × Din`, weights `W : Din × D`, attention vectors `aS aN : D`, a coefficient matrix
  `M : N × N` and an adjacency predicate on `N × N`:
      h = x W,   s i = h i · aS,   n j = h j · aN,   e i j = (s i + n j) * M i j,
      score i j = leaky e i j on the edges, the sentinel elsewhere,
      out i d = elu ((∑ j, exp (score i j) * h j d) / (∑ j, exp (score i j))).
  Every row has at least one lane and every weight `exp _` is positive, so the quotient is a quotient by a
  positive number: whatever common finite shift a program subtracts from a row's scores before exponentiating
  cancels, and so does the order in which it accumulates the two sums. This file only names the function; that each
  program computes it is proved beside that program.
-/
import Mathlib.Analysis.SpecialFunctions.Exp
import Mathlib.Algebra.BigOperators.Group.Finset.Basic

noncomputable section

namespace Cert.Layer

open Finset

variable {N Din D : Nat}

/-- The dense product. -/
def dense (x : Fin N → Fin Din → ℝ) (W : Fin Din → Fin D → ℝ) : Fin N → Fin D → ℝ := fun i d => ∑ k, x i k * W k d

/-- A row of `h` against an attention vector. -/
def proj (h : Fin N → Fin D → ℝ) (a : Fin D → ℝ) : Fin N → ℝ := fun i => ∑ d, h i d * a d

/-- The leaky rectifier of slope `α`. -/
def leaky (α e : ℝ) : ℝ := if 0 ≤ e then e else α * e

/-- The exponential linear unit. -/
def elu (v : ℝ) : ℝ := if 0 < v then v else Real.exp v - 1

/-- The masked score of query `i` against key `j`. -/
def score (α sentinel : ℝ) (edge : Fin N → Fin N → Prop) [∀ i j, Decidable (edge i j)]
    (s n : Fin N → ℝ) (M : Fin N → Fin N → ℝ) : Fin N → Fin N → ℝ :=
  fun i j => if edge i j then leaky α ((s i + n j) * M i j) else sentinel

/-- One layer's output from its features `h` and scores. -/
def attend (sc : Fin N → Fin N → ℝ) (h : Fin N → Fin D → ℝ) : Fin N → Fin D → ℝ :=
  fun i d => elu ((∑ j, Real.exp (sc i j) * h j d) / (∑ j, Real.exp (sc i j)))

/-- One layer. -/
def layer (α sentinel : ℝ) (edge : Fin N → Fin N → Prop) [∀ i j, Decidable (edge i j)]
    (x : Fin N → Fin Din → ℝ) (M : Fin N → Fin N → ℝ) (W : Fin Din → Fin D → ℝ) (aS aN : Fin D → ℝ) : Fin N → Fin D → ℝ :=
  let h := dense x W
  attend (score α sentinel edge (proj h aS) (proj h aN) M) h

/-- Everything the two stacked layers are a function of: the node features, the coefficient matrix, each layer's
    weights and attention vectors, the leaky slope, the masking sentinel and the adjacency predicate. -/
structure Params where
  x : Fin 8192 → Fin 512 → ℝ
  M : Fin 8192 → Fin 8192 → ℝ
  W0 : Fin 512 → Fin 256 → ℝ
  aS0 : Fin 256 → ℝ
  aN0 : Fin 256 → ℝ
  W1 : Fin 256 → Fin 64 → ℝ
  aS1 : Fin 64 → ℝ
  aN1 : Fin 64 → ℝ
  α : ℝ
  σ : ℝ
  edge : Fin 8192 → Fin 8192 → Prop
  dec : ∀ i j, Decidable (edge i j)

attribute [instance] Params.dec

/-- The first layer's output, and the encoder's: the second layer on the first's output with the same graph. -/
def Params.hidden (P : Params) : Fin 8192 → Fin 256 → ℝ := layer P.α P.σ P.edge P.x P.M P.W0 P.aS0 P.aN0
def Params.final (P : Params) : Fin 8192 → Fin 64 → ℝ := layer P.α P.σ P.edge P.hidden P.M P.W1 P.aS1 P.aN1

end Cert.Layer

end
-- ==== Proof.Consts.lean ====
/-
  The float words the two programs share, as extended reals: zero and one exactly; the leaky slope a real strictly
  between 0 and 1 (its value is never needed beyond that); the masking sentinel a real (its value is never needed
  at all: a common finite shift cancels in a softmax); the reduction's start, minus infinity.

  A single-precision word is a sign bit, eight exponent bits `E` and twenty-three fraction bits `T`. With `E` neither
  0 nor 255 it denotes `± (2^23 + T) · 2^(E - 150)`; with `E = 255` and `T = 0` the infinity of its sign; the all-zero
  word denotes 0.
-/
import Idealize.ShloMosaic.PureOps.Ideal
import Idealize.ShloMosaic.PureOps.Ideal.Laws

noncomputable section

namespace Cert.Consts

open Idealize.ShloMosaic

theorem ofBits_zero : Ideal.ofBits .f32 0x00000000#32 = (0 : EReal) := Ideal.ofBits_zero_f32

/-- `0x3F800000`: sign 0, `E = 127`, `T = 0`, so `2^23 · 2^(-23) = 1`. -/
theorem ofBits_one : Ideal.ofBits .f32 0x3F800000#32 = (1 : EReal) := by
  simp [Ideal.ofBits, Ideal.ieee, -EReal.coe_mul]
  norm_num

/-- `0xFF800000`: sign 1, `E = 255`, `T = 0`: minus infinity. -/
theorem ofBits_negInf : Ideal.ofBits .f32 0xFF800000#32 = (⊥ : EReal) := by
  simp [Ideal.ofBits, Ideal.ieee]

/-- The slope `0x3E4CCCCD` (the float nearest 0.2) is a real strictly between 0 and 1: sign 0, `E = 124`,
    `T = 5033165`, so `(2^23 + 5033165) · 2^(-26) = 13421773 / 67108864`. -/
theorem slope_real : ∃ α : ℝ, Ideal.ofBits .f32 0x3E4CCCCD#32 = (α : EReal) ∧ 0 < α ∧ α < 1 := by
  refine ⟨13421773 / 67108864, ?_, by norm_num, by norm_num⟩
  simp [Ideal.ofBits, Ideal.ieee, -EReal.coe_mul]
  norm_num

/-- The sentinel `0xD9FFCB9E` (the float nearest -9e15) is a real: sign 1, `E = 179`, `T = 8375198`, so
    `-(2^23 + 8375198) · 2^29`. -/
theorem sentinel_real : ∃ σ : ℝ, Ideal.ofBits .f32 0xD9FFCB9E#32 = (σ : EReal) := by
  refine ⟨-(16763806 * 2 ^ 29), ?_⟩
  simp [Ideal.ofBits, Ideal.ieee, -EReal.coe_mul]

end Cert.Consts

end
-- ==== Proof.KI.RowReal.lean ====
/-
  Coercions of reals into the extended reals, pushed through the operations one row of an online softmax uses:
  finite sums, the fold of `max` from `⊥` over a non-empty finite type, the exponential, division by a non-zero
  real, the leaky rectifier written as a maximum, the masked score written as a selection, and the exponential
  linear unit written as a selection. With them one tile's step on coercions is the coercion of the real step.
  Last, the sum over the 8192 keys split into 8 tiles of 1024 lanes.
-/
import Mathlib.Data.EReal.Inv
import Mathlib.Analysis.SpecialFunctions.Exp
import Mathlib.Algebra.BigOperators.Group.Finset.Basic
import Mathlib.Data.Fintype.BigOperators
import Mathlib.Data.Finset.Fold
import Mathlib.Data.Finset.Lattice.Fold
import Mathlib.Logic.Equiv.Fin.Basic
import Idealize.ShloMosaic.PureOps.Ideal
import Idealize.ShloMosaic.PureOps.Ideal.Laws
import Idealize.ShloMosaic.Lib.ValueIdx
import proofs.«404965_j38543036514339_3_alg».proof.Proof.Spec
import proofs.«404965_j38543036514339_3_alg».proof.Proof.Layer
import proofs.«404965_j38543036514339_3_alg».proof.Proof.Consts

noncomputable section

namespace Cert.KernelIdeal.RowReal

open Idealize.ShloMosaic Idealize.ShloMosaic.ValueIdx

/-! ## Coercions through sums, maxima, exponentials and quotients -/

/-- A finite sum of coercions is the coercion of the sum. -/
theorem coe_sum {ι : Type} (s : Finset ι) (f : ι → ℝ) :
    ∑ j ∈ s, ((f j : ℝ) : EReal) = ((∑ j ∈ s, f j : ℝ) : EReal) := by
  classical
  refine Finset.induction_on s ?_ ?_
  · rw [Finset.sum_empty, Finset.sum_empty, EReal.coe_zero]
  · intro a t ha ih
    rw [Finset.sum_insert ha, Finset.sum_insert ha, ih, EReal.coe_add]

/-- The larger of two coercions is the coercion of the larger. -/
theorem coe_max (x y : ℝ) : max ((x : ℝ) : EReal) ((y : ℝ) : EReal) = ((max x y : ℝ) : EReal) :=
  (EReal.coe_strictMono.monotone.map_max).symm

/-- The fold of `max` from `⊥` over the coercions of a non-empty family is the coercion of its largest member. -/
theorem fold_max_coe {ι : Type} [Fintype ι] [Nonempty ι] (f : ι → ℝ) :
    Finset.univ.fold max (⊥ : EReal) (fun j => ((f j : ℝ) : EReal))
      = ((Finset.univ.sup' Finset.univ_nonempty f : ℝ) : EReal) := by
  apply le_antisymm
  · rw [Finset.fold_max_le]
    exact ⟨bot_le, fun x hx => EReal.coe_le_coe_iff.2 (Finset.le_sup' f hx)⟩
  · obtain ⟨x, hx, hxe⟩ := Finset.exists_mem_eq_sup' (Finset.univ_nonempty (α := ι)) f
    rw [Finset.le_fold_max]
    exact Or.inr ⟨x, hx, by rw [hxe]⟩

/-- The exponential of a coercion. -/
theorem exp_coe (x : ℝ) : Ideal.exp ((x : ℝ) : EReal) = ((Real.exp x : ℝ) : EReal) := rfl

/-- The exponential of a difference of coercions. -/
theorem exp_sub_coe (x y : ℝ) : Ideal.exp (((x : ℝ) : EReal) - ((y : ℝ) : EReal)) = ((Real.exp (x - y) : ℝ) : EReal) := by
  rw [← EReal.coe_sub]; rfl

/-- A quotient of coercions by a non-zero real. -/
theorem div_coe_pos (a l : ℝ) (hl : l ≠ 0) : Ideal.div ((a : ℝ) : EReal) ((l : ℝ) : EReal) = ((a / l : ℝ) : EReal) := by
  have hne : ((l : ℝ) : EReal) ≠ 0 := by
    intro h
    exact hl (EReal.coe_eq_zero.1 h)
  rw [Ideal.div, if_neg hne, ← EReal.coe_inv, ← EReal.coe_mul, div_eq_mul_inv]

/-! ## The activations -/

/-- For a slope strictly between 0 and 1 the larger of `e` and `α e` is the leaky rectifier. -/
theorem leaky_max {α e : ℝ} (h0 : 0 < α) (h1 : α < 1) :
    max ((e : ℝ) : EReal) (((α : ℝ) : EReal) * ((e : ℝ) : EReal)) = ((Layer.leaky α e : ℝ) : EReal) := by
  rw [← EReal.coe_mul, coe_max, Spec.leaky h0 h1]
  rfl

/-- The masked score: the leaky rectifier of `(s + n) * M` where the adjacency bit is set, the sentinel elsewhere. -/
theorem score_coe {α σ s n M : ℝ} (h0 : 0 < α) (h1 : α < 1) (b : BitVec 1) :
    Scalar.select b (max ((((s : ℝ) : EReal) + ((n : ℝ) : EReal)) * ((M : ℝ) : EReal))
        (((α : ℝ) : EReal) * ((((s : ℝ) : EReal) + ((n : ℝ) : EReal)) * ((M : ℝ) : EReal)))) ((σ : ℝ) : EReal)
      = (((if b = 1#1 then Layer.leaky α ((s + n) * M) else σ) : ℝ) : EReal) := by
  rw [← EReal.coe_add, ← EReal.coe_mul, leaky_max h0 h1]
  by_cases hb : b = 1#1
  · rw [if_pos hb, hb]; exact select_one _ _
  · rw [if_neg hb]; exact if_neg hb

/-- The comparison of a coercion with zero. -/
theorem cmp_ogt_zero_coe (v : ℝ) : Ideal.cmp .ogt ((v : ℝ) : EReal) (0 : EReal) = if 0 < v then 1#1 else 0#1 := by
  by_cases hv : 0 < v
  · have h : (0 : EReal) < ((v : ℝ) : EReal) := EReal.coe_pos.2 hv
    rw [if_pos hv]
    show BitVec.ofBool (decide ((0 : EReal) < ((v : ℝ) : EReal))) = 1#1
    rw [decide_eq_true h]; rfl
  · have h : ¬ (0 : EReal) < ((v : ℝ) : EReal) := fun h => hv (EReal.coe_pos.1 h)
    rw [if_neg hv]
    show BitVec.ofBool (decide ((0 : EReal) < ((v : ℝ) : EReal))) = 0#1
    rw [decide_eq_false h]; rfl

/-- The exponential linear unit as the body writes it, a selection between `v` and `exp v - 1` on `v > 0`, at a
    coercion. -/
theorem elu_coe (v : ℝ) :
    Scalar.select (Ideal.cmp .ogt ((v : ℝ) : EReal) (Ideal.ofBits .f32 0x00000000#32)) ((v : ℝ) : EReal)
        (Ideal.exp ((v : ℝ) : EReal) - Ideal.ofBits .f32 0x3F800000#32)
      = ((Layer.elu v : ℝ) : EReal) := by
  rw [Consts.ofBits_zero, Consts.ofBits_one, cmp_ogt_zero_coe]
  unfold Layer.elu
  by_cases hv : 0 < v
  · rw [if_pos hv, if_pos hv]; exact select_one _ _
  · rw [if_neg hv, if_neg hv, select_zero, exp_coe, ← EReal.coe_one, ← EReal.coe_sub]

/-! ## One tile's step on coercions -/

section Step
variable {ι : Type} [Fintype ι] [Nonempty ι]

/-- The new running maximum. -/
theorem step_m (st : Spec.St) (s h : ι → ℝ) :
    max ((st.m : ℝ) : EReal) (Finset.univ.fold max (⊥ : EReal) (fun j => ((s j : ℝ) : EReal)))
      = (((Spec.step st (Finset.univ.sup' Finset.univ_nonempty s) s h).m : ℝ) : EReal) := by
  rw [fold_max_coe, coe_max]; rfl

/-- The new running sum, from the rescaled old one and the tile's weights. -/
theorem step_l (st : Spec.St) (c : ℝ) (s h : ι → ℝ) :
    Ideal.exp (((st.m : ℝ) : EReal) - (((Spec.step st c s h).m : ℝ) : EReal)) * ((st.l : ℝ) : EReal)
        + ∑ j, Ideal.exp (((s j : ℝ) : EReal) - (((Spec.step st c s h).m : ℝ) : EReal))
      = (((Spec.step st c s h).l : ℝ) : EReal) := by
  simp only [exp_sub_coe]
  rw [coe_sum, ← EReal.coe_mul, ← EReal.coe_add]
  rfl

/-- The new accumulator, from the rescaled old one and the tile's weights against its values. -/
theorem step_a (st : Spec.St) (c : ℝ) (s h : ι → ℝ) :
    Ideal.exp (((st.m : ℝ) : EReal) - (((Spec.step st c s h).m : ℝ) : EReal)) * ((st.a : ℝ) : EReal)
        + ∑ j, Ideal.exp (((s j : ℝ) : EReal) - (((Spec.step st c s h).m : ℝ) : EReal)) * ((h j : ℝ) : EReal)
      = (((Spec.step st c s h).a : ℝ) : EReal) := by
  simp only [exp_sub_coe, ← EReal.coe_mul]
  rw [coe_sum, ← EReal.coe_add]
  rfl

end Step

/-! ## The 8192 keys as 8 tiles of 1024 lanes -/

/-- Lane `j` of key tile `κ`. -/
def key (κ : Fin 8) (j : Fin 1024) : Fin 8192 := ⟨1024 * κ.val + j.val, by omega⟩

/-- A sum over the keys, tile by tile. -/
theorem sum_tiles {M : Type} [AddCommMonoid M] (f : Fin 8192 → M) :
    ∑ κ : Fin 8, ∑ j : Fin 1024, f (key κ j) = ∑ i : Fin 8192, f i := by
  have h1 : ∑ κ : Fin 8, ∑ j : Fin 1024, f (key κ j) = ∑ p : Fin 8 × Fin 1024, f (key p.1 p.2) :=
    (Fintype.sum_prod_type' (fun κ j => f (key κ j))).symm
  rw [h1]
  refine Fintype.sum_equiv (finProdFinEquiv (m := 8) (n := 1024)) _ _ ?_
  rintro ⟨κ, j⟩
  refine congrArg f (Fin.ext ?_)
  show 1024 * κ.val + j.val = j.val + 1024 * κ.val
  omega

end Cert.KernelIdeal.RowReal

end
-- ==== Proof.KI.R0Row.lean ====
/-
  The first layer's kernel on the extended reals, row by row. When the region's arrays are real — the query
  column `s`, the key row `n`, the coefficients `M`, the features `h` — the three carried values of query row `r`
  of query tile `q` after key tile `k` are the real online-softmax state after `k + 1` tiles of that row's masked
  scores: the running maximum (started at the sentinel), the running sum and, for each feature column, the
  accumulator. The proof is an induction on the key tile: tile 0 starts from the reset values, a later tile from
  what the point before left, and one step on reals is one step of the body read entry by entry.
-/
import proofs.«404965_j38543036514339_3_alg».proof.Proof.KI.R0Pieces
import proofs.«404965_j38543036514339_3_alg».proof.Proof.KI.PayIdx
import proofs.«404965_j38543036514339_3_alg».proof.Proof.KI.RowReal
import proofs.«404965_j38543036514339_3_alg».proof.Proof.Spec
import proofs.«404965_j38543036514339_3_alg».proof.Proof.Layer
import proofs.«404965_j38543036514339_3_alg».proof.Proof.Consts

set_option maxRecDepth 16384

noncomputable section

namespace Cert.KernelIdeal.R0

open Idealize.ShloMosaic Idealize.ShloMosaic.TcCoe Idealize.ShloMosaic.ValueIdx
open Idealize.SL.Sem
open Cert.KernelIdeal Cert.KernelIdeal.Gen

/-- Row `r` of query tile `q`, and lane `j` of key tile `κ`, as indices of the 8192 nodes. -/
def row (q : Fin 8) (r : Fin 1024) : Fin 8192 := ⟨1024 * q.val + r.val, by omega⟩
def key (κ : Fin 8) (j : Fin 1024) : Fin 8192 := ⟨1024 * κ.val + j.val, by omega⟩
/-- Point `8 q + k` of the grid. -/
def pt (q k : Fin 8) : Fin cfg0.N := ⟨8 * q.val + k.val, by have : cfg0.N = 64 := N_0; omega⟩

/-- The region's arrays as real arrays, with the leaky slope and the sentinel as reals. -/
structure RealEntry (V : (c : Dev nD) → (b : Ref sig .tc) → Buf (Elt Ideal) ((c : Thread nD τ).loc b)) (c : Dev nD) where
  sR : Fin 8192 → ℝ
  nR : Fin 8192 → ℝ
  MR : Fin 8192 → Fin 8192 → ℝ
  hR : Fin 8192 → Fin 256 → ℝ
  α : ℝ
  σ : ℝ
  hs : ∀ i, (V c main_v1 : S8192x1.Idx → EReal) (ix2 i 0) = (sR i : EReal)
  hn : ∀ j, (V c main_v3 : S1x8192.Idx → EReal) (ix2 0 j) = (nR j : EReal)
  hM : ∀ i j, (V c main_arg2 : S8192x8192.Idx → EReal) (ix2 i j) = (MR i j : EReal)
  hh : ∀ j d, (V c main_v4 : S8192x256.Idx → EReal) (ix2 j d) = (hR j d : EReal)
  hα : PayIdx.slope = (α : EReal)
  hα0 : 0 < α
  hα1 : α < 1
  hσ : PayIdx.sentinel = (σ : EReal)

theorem pt_div (q k : Fin 8) : (pt q k).val / 8 = q.val := by show (8 * q.val + k.val) / 8 = q.val; omega
theorem pt_mod (q k : Fin 8) : (pt q k).val % 8 = k.val := by show (8 * q.val + k.val) % 8 = k.val; omega

/-! ## Where each window's block sits in its array -/

/-- The printed index maps over the grid: point `t` is query tile `t / 8` against key tile `t % 8`; the column
    `s` and the output move with the query tile, the row `n` with the key tile, the coefficients and the adjacency
    with both, and the features stay whole. -/
theorem idx_facts : ∀ t : Fin cfg0.N,
    win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = t.val / 8 ∧ win0_2.index t (1 : Fin 2) = t.val % 8
    ∧ win0_3.index t (0 : Fin 2) = t.val / 8 ∧ win0_3.index t (1 : Fin 2) = t.val % 8
    ∧ win0_4.index t (0 : Fin 2) = 0 ∧ win0_4.index t (1 : Fin 2) = 0
    ∧ win0_5.index t (0 : Fin 2) = t.val / 8 ∧ win0_5.index t (1 : Fin 2) = 0
    ∧ ((grid0.coords t) (1 : Fin 2)).val = t.val % 8 :=
  (by decide +kernel : ∀ t : Fin grid0.N, _)

section Blocks

variable (V : (c : Dev nD) → (b : Ref sig .tc) → Buf (Elt Ideal) ((c : Thread nD τ).loc b)) (c : Dev nD)

/-- The column's block at a point: the query tile's rows. -/
theorem blk_s (t : Fin cfg0.N) (q : Fin 8) (hq : t.val / 8 = q.val) (r : Fin 1024) :
    (iblk V c 0 t : S1024x1.Idx → EReal) (ix2 r 0) = (V c main_v1 : S8192x1.Idx → EReal) (ix2 (row q r) 0) := by
  obtain ⟨e0, e1, -⟩ := idx_facts t
  show (V c main_v1 : S8192x1.Idx → EReal) (((cfg0.win 0).blk t).view.emb (ix2 r 0)) = _
  refine congrArg (V c main_v1 : S8192x1.Idx → EReal) ?_
  funext a; apply Fin.ext
  match a with
  | ⟨0, _⟩ => show win0_0.index t (0 : Fin 2) * 1024 + 1 * r.val = 1024 * q.val + r.val; omega
  | ⟨1, _⟩ => show win0_0.index t (1 : Fin 2) * 1 + 1 * (0 : Fin 1).val = (0 : Fin 1).val; omega

/-- The row's block at a point: the key tile's lanes. -/
theorem blk_n (t : Fin cfg0.N) (k : Fin 8) (hk : t.val % 8 = k.val) (j : Fin 1024) :
    (iblk V c 1 t : S1x1024.Idx → EReal) (ix2 0 j) = (V c main_v3 : S1x8192.Idx → EReal) (ix2 0 (key k j)) := by
  obtain ⟨-, -, e0, e1, -⟩ := idx_facts t
  show (V c main_v3 : S1x8192.Idx → EReal) (((cfg0.win 1).blk t).view.emb (ix2 0 j)) = _
  refine congrArg (V c main_v3 : S1x8192.Idx → EReal) ?_
  funext a; apply Fin.ext
  match a with
  | ⟨0, _⟩ => show win0_1.index t (0 : Fin 2) * 1 + 1 * (0 : Fin 1).val = (0 : Fin 1).val; omega
  | ⟨1, _⟩ => show win0_1.index t (1 : Fin 2) * 1024 + 1 * j.val = 1024 * k.val + j.val; omega

/-- The coefficients' block at a point: the query tile's rows against the key tile's lanes. -/
theorem blk_M (t : Fin cfg0.N) (q k : Fin 8) (hq : t.val / 8 = q.val) (hk : t.val % 8 = k.val) (r j : Fin 1024) :
    (iblk V c 2 t : S1024x1024.Idx → EReal) (ix2 r j) = (V c main_arg2 : S8192x8192.Idx → EReal) (ix2 (row q r) (key k j)) := by
  obtain ⟨-, -, -, -, e0, e1, -⟩ := idx_facts t
  show (V c main_arg2 : S8192x8192.Idx → EReal) (((cfg0.win 2).blk t).view.emb (ix2 r j)) = _
  refine congrArg (V c main_arg2 : S8192x8192.Idx → EReal) ?_
  funext a; apply Fin.ext
  match a with
  | ⟨0, _⟩ => show win0_2.index t (0 : Fin 2) * 1024 + 1 * r.val = 1024 * q.val + r.val; omega
  | ⟨1, _⟩ => show win0_2.index t (1 : Fin 2) * 1024 + 1 * j.val = 1024 * k.val + j.val; omega

/-- The adjacency's block at a point, likewise. -/
theorem blk_A (t : Fin cfg0.N) (q k : Fin 8) (hq : t.val / 8 = q.val) (hk : t.val % 8 = k.val) (r j : Fin 1024) :
    (iblk V c 3 t : S1024x1024.Idx → BitVec 32) (ix2 r j) = (V c main_arg1 : S8192x8192.Idx → BitVec 32) (ix2 (row q r) (key k j)) := by
  obtain ⟨-, -, -, -, -, -, e0, e1, -⟩ := idx_facts t
  show (V c main_arg1 : S8192x8192.Idx → BitVec 32) (((cfg0.win 3).blk t).view.emb (ix2 r j)) = _
  refine congrArg (V c main_arg1 : S8192x8192.Idx → BitVec 32) ?_
  funext a; apply Fin.ext
  match a with
  | ⟨0, _⟩ => show win0_3.index t (0 : Fin 2) * 1024 + 1 * r.val = 1024 * q.val + r.val; omega
  | ⟨1, _⟩ => show win0_3.index t (1 : Fin 2) * 1024 + 1 * j.val = 1024 * k.val + j.val; omega

/-- The rows of the resident features the body loads at a point: the key tile's. -/
theorem blk_h (t : Fin cfg0.N) (k : Fin 8) (hk : t.val % 8 = k.val) (j : Fin 1024) (d : Fin 256) :
    (keyRows (grid0.coords t) (iblk V c 4 t) : S1024x256.Idx → EReal) (ix2 j d)
      = (V c main_v4 : S8192x256.Idx → EReal) (ix2 (key k j) d) := by
  obtain ⟨-, -, -, -, -, -, -, -, e0, e1, -, -, ek⟩ := idx_facts t
  have eo := k0_off1_eq (grid0.coords t)
  have o0 : k0_off1 (grid0.coords t) (0 : Fin 2) = 1024 * ((grid0.coords t) (1 : Fin 2)).val := by rw [eo]; rfl
  have o1 : k0_off1 (grid0.coords t) (1 : Fin 2) = 0 := by rw [eo]; rfl
  show (V c main_v4 : S8192x256.Idx → EReal) (((cfg0.win 4).blk t).view.emb
      ((Rect.unit (s := S8192x256) (k0_off1 (grid0.coords t)) S1024x256.size (k0_off1_inb (grid0.coords t))).idx (ix2 j d))) = _
  refine congrArg (V c main_v4 : S8192x256.Idx → EReal) ?_
  funext a; apply Fin.ext
  match a with
  | ⟨0, _⟩ =>
    show win0_4.index t (0 : Fin 2) * 8192 + 1 * (k0_off1 (grid0.coords t) (0 : Fin 2) + 1 * j.val) = 1024 * k.val + j.val
    omega
  | ⟨1, _⟩ =>
    show win0_4.index t (1 : Fin 2) * 256 + 1 * (k0_off1 (grid0.coords t) (1 : Fin 2) + 1 * d.val) = d.val
    omega

end Blocks

/-! ## One step of the body on blocks whose entries are reals -/

section OnReals

variable (x0 : Vec Ideal S1024x1 .f32) (x1 : Vec Ideal S1x1024 .f32) (x2 : Vec Ideal S1024x1024 .f32) (x3 : Vec Ideal S1024x1024 .i32)

/-- The masked score of an entry whose three operands are reals: the leaky rectifier of `(s + n) * M` where the
    adjacency word is positive, the sentinel elsewhere. -/
theorem score_real {α σ : ℝ} (hα : PayIdx.slope = (α : EReal)) (h0 : 0 < α) (h1 : α < 1) (hσ : PayIdx.sentinel = (σ : EReal))
    (r j : Fin 1024) (s n M : ℝ) (w : BitVec 32)
    (hx0 : x0 (ix2 r 0) = (s : EReal)) (hx1 : x1 (ix2 0 j) = (n : EReal)) (hx2 : x2 (ix2 r j) = (M : EReal))
    (hx3 : x3 (ix2 r j) = w) :
    k0_pay8 (F := Ideal) x0 x1 x2 x3 (ix2 r j)
      = (((if Scalar.cmpi .sgt w 0#32 = 1#1 then Layer.leaky α ((s + n) * M) else σ) : ℝ) : EReal) := by
  refine (PayIdx.score_apply x0 x1 x2 x3 r j).trans ?_
  have hpre : PayIdx.pre x0 x1 x2 r j = (((s : ℝ) : EReal) + ((n : ℝ) : EReal)) * ((M : ℝ) : EReal) := by
    unfold PayIdx.pre; rw [hx0, hx1, hx2]
  have hbit : cmpi .sgt x3 (broadcast S1024x1024 (0#32 : BitVec 32)) (ix2 r j) = Scalar.cmpi .sgt w 0#32 :=
    congrArg (fun v : BitVec 32 => Scalar.cmpi .sgt v 0#32) hx3
  rw [hpre, hα, hσ, hbit]
  exact RowReal.score_coe h0 h1 _

/-- One step from a carried triple whose row `r` holds a real state, on a row of real scores `sc` and a column of
    real feature values `hv`: the new triple's row `r` holds the real step. -/
theorem stepOf_real (hk : Vec Ideal S1024x256 .bf16) (p : Carried Ideal) (r : Fin 1024) (d : Fin 256)
    (sc hv : Fin 1024 → ℝ) (st : Spec.St)
    (hsc : ∀ j, k0_pay8 (F := Ideal) x0 x1 x2 x3 (ix2 r j) = ((sc j : ℝ) : EReal))
    (hh : ∀ j, hk (ix2 j d) = ((hv j : ℝ) : EReal))
    (hm : p.1 (ix2 r 0) = ((st.m : ℝ) : EReal)) (hl : p.2.1 (ix2 r 0) = ((st.l : ℝ) : EReal))
    (ha : p.2.2 (ix2 r d) = ((st.a : ℝ) : EReal)) :
    (stepOf x0 x1 x2 x3 hk p).1 (ix2 r 0)
        = (((Spec.step st (Finset.univ.sup' Finset.univ_nonempty sc) sc hv).m : ℝ) : EReal)
    ∧ (stepOf x0 x1 x2 x3 hk p).2.1 (ix2 r 0)
        = (((Spec.step st (Finset.univ.sup' Finset.univ_nonempty sc) sc hv).l : ℝ) : EReal)
    ∧ (stepOf x0 x1 x2 x3 hk p).2.2 (ix2 r d)
        = (((Spec.step st (Finset.univ.sup' Finset.univ_nonempty sc) sc hv).a : ℝ) : EReal) := by
  have hfun : (fun j : Fin 1024 => k0_pay8 (F := Ideal) x0 x1 x2 x3 (ix2 r j)) = fun j => ((sc j : ℝ) : EReal) := funext hsc
  -- the new running maximum
  have hM : k0_pay9 (F := Ideal) x0 x1 x2 x3 p.1 (ix2 r 0)
      = (((Spec.step st (Finset.univ.sup' Finset.univ_nonempty sc) sc hv).m : ℝ) : EReal) := by
    refine (PayIdx.newMax_apply x0 x1 x2 x3 p.1 r).trans ?_
    exact (congrArg₂ (fun (a : EReal) (f : Fin 1024 → EReal) => max a (Finset.univ.fold max (⊥ : EReal) f)) hm hfun).trans
      (RowReal.step_m st sc hv)
  -- the rescaling factor and the weights
  have hC : k0_pay10 (F := Ideal) x0 x1 x2 x3 p.1 p.1 (ix2 r 0)
      = Ideal.exp (((st.m : ℝ) : EReal) - (((Spec.step st (Finset.univ.sup' Finset.univ_nonempty sc) sc hv).m : ℝ) : EReal)) := by
    refine (PayIdx.corr_apply x0 x1 x2 x3 p.1 p.1 r).trans ?_
    rw [hM, hm]
  have hW : ∀ j, k0_pay11 (F := Ideal) x0 x1 x2 x3 p.1 (ix2 r j)
      = Ideal.exp (((sc j : ℝ) : EReal) - (((Spec.step st (Finset.univ.sup' Finset.univ_nonempty sc) sc hv).m : ℝ) : EReal)) := by
    intro j
    refine (PayIdx.weight_apply x0 x1 x2 x3 p.1 r j).trans ?_
    rw [hM, hsc j]
  have hWfun : (fun j : Fin 1024 => k0_pay11 (F := Ideal) x0 x1 x2 x3 p.1 (ix2 r j))
      = fun j => Ideal.exp (((sc j : ℝ) : EReal) - (((Spec.step st (Finset.univ.sup' Finset.univ_nonempty sc) sc hv).m : ℝ) : EReal)) :=
    funext hW
  refine ⟨?_, ?_, ?_⟩
  · show k0_pay3 (k0_pay9 (F := Ideal) x0 x1 x2 x3 p.1) (ix2 r 0) = _
    rw [PayIdx.pay3_eq]
    exact hM
  · show k0_pay1 (k0_pay12 (F := Ideal) x0 x1 x2 x3 p.1 p.1 p.2.1) (ix2 r 0) = _
    rw [PayIdx.pay1_eq]
    refine (PayIdx.newSum_apply x0 x1 x2 x3 p.1 p.1 p.2.1 r).trans ?_
    rw [Ideal.ofBits_zero_f32, zero_add, hC, hl]
    have hS : (∑ j : Fin 1024, k0_pay11 (F := Ideal) x0 x1 x2 x3 p.1 (ix2 r j))
        = ∑ j : Fin 1024, Ideal.exp (((sc j : ℝ) : EReal) - (((Spec.step st (Finset.univ.sup' Finset.univ_nonempty sc) sc hv).m : ℝ) : EReal)) :=
      Finset.sum_congr rfl fun j _ => hW j
    rw [hS]
    exact RowReal.step_l st _ sc hv
  · show k0_pay2 (F := Ideal) (k0_pay10 (F := Ideal) x0 x1 x2 x3 p.1 p.1) (k0_pay11 (F := Ideal) x0 x1 x2 x3 p.1) hk p.2.2 (ix2 r d) = _
    refine (PayIdx.newAcc_apply (k0_pay10 (F := Ideal) x0 x1 x2 x3 p.1 p.1) (k0_pay11 (F := Ideal) x0 x1 x2 x3 p.1) hk p.2.2 r d).trans ?_
    rw [hC, ha]
    have hS : (∑ j : Fin 1024, k0_pay11 (F := Ideal) x0 x1 x2 x3 p.1 (ix2 r j) * hk (ix2 j d))
        = ∑ j : Fin 1024, Ideal.exp (((sc j : ℝ) : EReal) - (((Spec.step st (Finset.univ.sup' Finset.univ_nonempty sc) sc hv).m : ℝ) : EReal)) * ((hv j : ℝ) : EReal) :=
      Finset.sum_congr rfl fun j _ => by rw [hW j, hh j]
    rw [hS]
    exact RowReal.step_a st _ sc hv

end OnReals

/-! ## What a point leaves, as steps -/

section Carried

variable (V : (c : Dev nD) → (b : Ref sig .tc) → Buf (Elt Ideal) ((c : Thread nD τ).loc b)) (c : Dev nD)

/-- The same point named by two equal numbers. -/
theorem outsAt_congr {n n' : ℕ} (h : n = n') (hn : n < cfg0.N) (hn' : n' < cfg0.N) : outsAt V c n hn = outsAt V c n' hn' := by
  subst h; rfl

/-- What a point leaves carried: at key tile 0 the step from the reset values, later the step from what the point
    before left. -/
theorem carried_reset (t : Fin cfg0.N) (hr : t.val % 8 = 0) :
    (outsAt V c t.val t.isLt).2 = stepAt V c t (k0_pay5 (F := Ideal), k0_pay6 (F := Ideal), k0_pay7 (F := Ideal)) := by
  have hl : ¬t.val % 8 = 7 := by omega
  rw [outsAt_reset V c t hr hl]
  exact carriedReset_eq V c t hr hl
theorem carried_step (t : Fin cfg0.N) (hr : ¬t.val % 8 = 0) :
    (outsAt V c t.val t.isLt).2 = stepAt V c t (prevCarried V c t) := by
  by_cases hl : t.val % 8 = 7
  · rw [outsAt_last V c t hr hl]
    exact carriedLast_eq V c t hr hl (prevCarried V c t)
  · rw [outsAt_mid V c t hr hl]
    exact carriedMid_eq V c t hr hl (prevCarried V c t)
/-- At key tile 7 the stored block is the epilogue of what the point leaves carried. -/
theorem out_eq (t : Fin cfg0.N) (hr : ¬t.val % 8 = 0) (hl : t.val % 8 = 7) :
    (outsAt V c t.val t.isLt).1 = k0_pay4 (stepAt V c t (prevCarried V c t)).2.2 (stepAt V c t (prevCarried V c t)).2.1 := by
  rw [outsAt_last V c t hr hl]
  dsimp only
  exact outLast_eq V c t hr hl (prevCarried V c t)

/-- Every row of the output array is in the block some flushing point writes back: row `i` lies in query tile
    `i / 1024`, written back after that tile's key tile 7. -/
theorem covered (y : S8192x256.Idx) :
    ∃ t : Fin cfg0.N, (cfg0.win 5).flush t = true ∧ y ∈ ((cfg0.win 5).blk t).view.set := by
  have h0 : (y 0).val < 8192 := (y 0).isLt
  have h1 : (y 1).val < 256 := (y 1).isLt
  have hq8 : (y 0).val / 1024 < 8 := by omega
  obtain ⟨e0, e1⟩ : win0_5.index (pt ⟨(y 0).val / 1024, hq8⟩ 7) (0 : Fin 2) = (y 0).val / 1024
      ∧ win0_5.index (pt ⟨(y 0).val / 1024, hq8⟩ 7) (1 : Fin 2) = 0 := by
    obtain ⟨-, -, -, -, -, -, -, -, -, -, e0, e1, -⟩ := idx_facts (pt ⟨(y 0).val / 1024, hq8⟩ 7)
    exact ⟨e0.trans (pt_div _ 7), e1⟩
  refine ⟨pt ⟨(y 0).val / 1024, hq8⟩ 7, (flush0_5 _).mpr (pt_mod _ 7), ?_⟩
  show y ∈ ((View.whole main_v5).slice (win0_5.rect (pt ⟨(y 0).val / 1024, hq8⟩ 7))).set
  rw [View.set_slice_whole, Rect.mem_set_unit]
  intro a
  match a with
  | ⟨0, _⟩ =>
    show win0_5.index (pt ⟨(y 0).val / 1024, hq8⟩ 7) (0 : Fin 2) * 1024 ≤ (y 0).val
      ∧ (y 0).val < win0_5.index (pt ⟨(y 0).val / 1024, hq8⟩ 7) (0 : Fin 2) * 1024 + 1024
    omega
  | ⟨1, _⟩ =>
    show win0_5.index (pt ⟨(y 0).val / 1024, hq8⟩ 7) (1 : Fin 2) * 256 ≤ (y 1).val
      ∧ (y 1).val < win0_5.index (pt ⟨(y 0).val / 1024, hq8⟩ 7) (1 : Fin 2) * 256 + 256
    omega

end Carried

variable {V : (c : Dev nD) → (b : Ref sig .tc) → Buf (Elt Ideal) ((c : Thread nD τ).loc b)} {c : Dev nD} (R : RealEntry V c)

/-- The adjacency test both programs make, entry by entry: the word is positive as a signed integer. -/
def edge (V : (c : Dev nD) → (b : Ref sig .tc) → Buf (Elt Ideal) ((c : Thread nD τ).loc b)) (c : Dev nD) (i j : Fin 8192) : Prop :=
  Scalar.cmpi .sgt ((V c main_arg1 : S8192x8192.Idx → BitVec 32) (ix2 i j)) 0#32 = 1#1
instance (i j : Fin 8192) : Decidable (edge V c i j) := by unfold edge; infer_instance

/-- The real masked scores of the whole graph. -/
def scoreR : Fin 8192 → Fin 8192 → ℝ := Layer.score R.α R.σ (edge V c) R.sR R.nR R.MR

/-- Key tile `κ`'s scores and feature column `d` for query row `row q r`, and the tile's largest score. -/
def tileS (q : Fin 8) (r : Fin 1024) : Fin 8 → Fin 1024 → ℝ := fun κ j => scoreR R (row q r) (key κ j)
def tileH (d : Fin 256) : Fin 8 → Fin 1024 → ℝ := fun κ j => R.hR (key κ j) d
def tileMax (q : Fin 8) (r : Fin 1024) : Fin 8 → ℝ := fun κ => Finset.univ.sup' Finset.univ_nonempty (tileS R q r κ)

/-- The online-softmax state of row `row q r` and feature column `d` after key tiles `0 … k`. -/
def stateAt (q k : Fin 8) (r : Fin 1024) (d : Fin 256) : Spec.St :=
  Spec.run R.σ (tileMax R q r) (tileS R q r) (tileH R d) (k.val + 1) (by omega)

/-- A tile's masked score, with the adjacency test written out. -/
theorem tileS_eq (q : Fin 8) (r : Fin 1024) (κ : Fin 8) (j : Fin 1024) :
    tileS R q r κ j
      = if Scalar.cmpi .sgt ((V c main_arg1 : S8192x8192.Idx → BitVec 32) (ix2 (row q r) (key κ j))) 0#32 = 1#1
        then Layer.leaky R.α ((R.sR (row q r) + R.nR (key κ j)) * R.MR (row q r) (key κ j)) else R.σ := by
  unfold tileS scoreR Layer.score
  by_cases h : edge V c (row q r) (key κ j)
  · rw [if_pos h, if_pos (show Scalar.cmpi .sgt ((V c main_arg1 : S8192x8192.Idx → BitVec 32) (ix2 (row q r) (key κ j))) 0#32 = 1#1 from h)]
  · rw [if_neg h, if_neg (show ¬Scalar.cmpi .sgt ((V c main_arg1 : S8192x8192.Idx → BitVec 32) (ix2 (row q r) (key κ j))) 0#32 = 1#1 from h)]

/-- The state after one more tile is one step from the state before. -/
theorem stateAt_zero (q : Fin 8) (r : Fin 1024) (d : Fin 256) (h0 : 0 < 8) :
    stateAt R q ⟨0, h0⟩ r d
      = Spec.step ⟨R.σ, 0, 0⟩ (tileMax R q r ⟨0, h0⟩) (tileS R q r ⟨0, h0⟩) (tileH R d ⟨0, h0⟩) := rfl
theorem stateAt_succ (q : Fin 8) (r : Fin 1024) (d : Fin 256) (n : ℕ) (hn : n + 1 < 8) :
    stateAt R q ⟨n + 1, hn⟩ r d
      = Spec.step (stateAt R q ⟨n, Nat.lt_of_succ_lt hn⟩ r d) (tileMax R q r ⟨n + 1, hn⟩) (tileS R q r ⟨n + 1, hn⟩) (tileH R d ⟨n + 1, hn⟩) := rfl

/-- The step at a point, on a carried triple whose row `r` holds a real state: the real step over the point's key
    tile. -/
theorem stepAt_real (t : Fin cfg0.N) (q k : Fin 8) (hq : t.val / 8 = q.val) (hk : t.val % 8 = k.val) (r : Fin 1024) (d : Fin 256)
    (p : Carried Ideal) (st : Spec.St)
    (hm : p.1 (ix2 r 0) = ((st.m : ℝ) : EReal)) (hl : p.2.1 (ix2 r 0) = ((st.l : ℝ) : EReal))
    (ha : p.2.2 (ix2 r d) = ((st.a : ℝ) : EReal)) :
    (stepAt V c t p).1 (ix2 r 0) = (((Spec.step st (tileMax R q r k) (tileS R q r k) (tileH R d k)).m : ℝ) : EReal)
    ∧ (stepAt V c t p).2.1 (ix2 r 0) = (((Spec.step st (tileMax R q r k) (tileS R q r k) (tileH R d k)).l : ℝ) : EReal)
    ∧ (stepAt V c t p).2.2 (ix2 r d) = (((Spec.step st (tileMax R q r k) (tileS R q r k) (tileH R d k)).a : ℝ) : EReal) := by
  have hsc : ∀ j, k0_pay8 (F := Ideal) (iblk V c 0 t) (iblk V c 1 t) (iblk V c 2 t) (iblk V c 3 t) (ix2 r j)
      = ((tileS R q r k j : ℝ) : EReal) := by
    intro j
    rw [tileS_eq R q r k j]
    exact score_real (iblk V c 0 t) (iblk V c 1 t) (iblk V c 2 t) (iblk V c 3 t) R.hα R.hα0 R.hα1 R.hσ r j
      (R.sR (row q r)) (R.nR (key k j)) (R.MR (row q r) (key k j))
      ((V c main_arg1 : S8192x8192.Idx → BitVec 32) (ix2 (row q r) (key k j)))
      ((blk_s V c t q hq r).trans (R.hs (row q r))) ((blk_n V c t k hk j).trans (R.hn (key k j)))
      ((blk_M V c t q k hq hk r j).trans (R.hM (row q r) (key k j))) (blk_A V c t q k hq hk r j)
  have hh : ∀ j, (keyRows (grid0.coords t) (iblk V c 4 t) : S1024x256.Idx → EReal) (ix2 j d) = ((tileH R d k j : ℝ) : EReal) :=
    fun j => (blk_h V c t k hk j d).trans (R.hh (key k j) d)
  exact stepOf_real (iblk V c 0 t) (iblk V c 1 t) (iblk V c 2 t) (iblk V c 3 t) (keyRows (grid0.coords t) (iblk V c 4 t)) p r d
    (tileS R q r k) (tileH R d k) st hsc hh hm hl ha

/-- THE ROW INVARIANT: after point `8 q + k` the carried buffers hold, in row `r`, that state. -/
theorem carried_row (q k : Fin 8) (r : Fin 1024) (d : Fin 256) :
    (outsAt V c (pt q k).val (pt q k).isLt).2.1 (ix2 r 0) = ((stateAt R q k r d).m : EReal)
    ∧ (outsAt V c (pt q k).val (pt q k).isLt).2.2.1 (ix2 r 0) = ((stateAt R q k r d).l : EReal)
    ∧ (outsAt V c (pt q k).val (pt q k).isLt).2.2.2 (ix2 r d) = ((stateAt R q k r d).a : EReal) := by
  obtain ⟨kv, hkv⟩ := k
  induction kv with
  | zero =>
    -- key tile 0: one step from the sentinel, zero, zero
    have hq := pt_div q ⟨0, hkv⟩
    have hk := pt_mod q ⟨0, hkv⟩
    rw [carried_reset V c (pt q ⟨0, hkv⟩) hk, stateAt_zero R q r d hkv]
    exact stepAt_real R (pt q ⟨0, hkv⟩) q ⟨0, hkv⟩ hq hk r d (k0_pay5 (F := Ideal), k0_pay6 (F := Ideal), k0_pay7 (F := Ideal)) ⟨R.σ, 0, 0⟩
      ((PayIdx.resetMax_apply (ix2 r 0)).trans R.hσ)
      ((PayIdx.resetSum_apply (ix2 r 0)).trans (Ideal.ofBits_zero_f32.trans EReal.coe_zero.symm))
      ((PayIdx.resetAcc_apply (ix2 r d)).trans (Ideal.ofBits_zero_f32.trans EReal.coe_zero.symm))
  | succ n ih =>
    -- a later key tile: one step from what the point before left, which holds the state before
    have hq := pt_div q ⟨n + 1, hkv⟩
    have hk := pt_mod q ⟨n + 1, hkv⟩
    have hr : ¬(pt q ⟨n + 1, hkv⟩).val % 8 = 0 := by rw [hk]; exact Nat.succ_ne_zero n
    obtain ⟨im, il, ia⟩ := ih (Nat.lt_of_succ_lt hkv)
    have hval : (pt q ⟨n + 1, hkv⟩).val - 1 = (pt q ⟨n, Nat.lt_of_succ_lt hkv⟩).val := by
      show 8 * q.val + (n + 1) - 1 = 8 * q.val + n; omega
    have hprev : prevCarried V c (pt q ⟨n + 1, hkv⟩)
        = (outsAt V c (pt q ⟨n, Nat.lt_of_succ_lt hkv⟩).val (pt q ⟨n, Nat.lt_of_succ_lt hkv⟩).isLt).2 :=
      congrArg Prod.snd (outsAt_congr V c hval _ _)
    rw [carried_step V c (pt q ⟨n + 1, hkv⟩) hr, stateAt_succ R q r d n hkv]
    exact stepAt_real R (pt q ⟨n + 1, hkv⟩) q ⟨n + 1, hkv⟩ hq hk r d (prevCarried V c (pt q ⟨n + 1, hkv⟩))
      (stateAt R q ⟨n, Nat.lt_of_succ_lt hkv⟩ r d)
      (by rw [hprev]; exact im) (by rw [hprev]; exact il) (by rw [hprev]; exact ia)

/-- The sums over the eight tiles of a row are the sums over the 8192 keys. -/
theorem tiles_num (q : Fin 8) (r : Fin 1024) (d : Fin 256) :
    (∑ κ : Fin 8, ∑ j : Fin 1024, Real.exp (tileS R q r κ j) * tileH R d κ j)
      = ∑ i : Fin 8192, Real.exp (scoreR R (row q r) i) * R.hR i d :=
  RowReal.sum_tiles (fun i : Fin 8192 => Real.exp (scoreR R (row q r) i) * R.hR i d)
theorem tiles_den (q : Fin 8) (r : Fin 1024) :
    (∑ κ : Fin 8, ∑ j : Fin 1024, Real.exp (tileS R q r κ j))
      = ∑ i : Fin 8192, Real.exp (scoreR R (row q r) i) :=
  RowReal.sum_tiles (fun i : Fin 8192 => Real.exp (scoreR R (row q r) i))

/-- After the eighth tile the quotient of accumulator by sum is the quotient of the whole row's plain sums, and the
    sum is positive. -/
theorem state_last (q : Fin 8) (r : Fin 1024) (d : Fin 256) :
    0 < (stateAt R q 7 r d).l
    ∧ Layer.elu ((stateAt R q 7 r d).a / (stateAt R q 7 r d).l) = Layer.attend (scoreR R) R.hR (row q r) d := by
  have h8 : stateAt R q 7 r d = Spec.run R.σ (tileMax R q r) (tileS R q r) (tileH R d) 8 le_rfl := rfl
  rw [h8]
  refine ⟨Spec.run_l_pos R.σ (tileMax R q r) (tileS R q r) (tileH R d) 8 le_rfl (by decide), ?_⟩
  have e := Spec.run_quot (K := 8) (by decide) R.σ (tileMax R q r) (tileS R q r) (tileH R d)
  rw [tiles_num R q r d, tiles_den R q r] at e
  exact congrArg Layer.elu e

/-- The block stored at key tile 7 is the layer's output on the query tile's rows. -/
theorem out_block (q : Fin 8) (r : Fin 1024) (d : Fin 256) :
    (outsAt V c (pt q 7).val (pt q 7).isLt).1 (ix2 r d) = ((Layer.attend (scoreR R) R.hR (row q r) d : ℝ) : EReal) := by
  have hk := pt_mod q 7
  have hr : ¬(pt q 7).val % 8 = 0 := by rw [hk]; decide
  have hl : (pt q 7).val % 8 = 7 := hk
  obtain ⟨-, cl, ca⟩ := carried_row R q 7 r d
  rw [carried_step V c (pt q 7) hr] at cl ca
  obtain ⟨hpos, hquot⟩ := state_last R q r d
  rw [out_eq V c (pt q 7) hr hl]
  refine (PayIdx.out_apply (stepAt V c (pt q 7) (prevCarried V c (pt q 7))).2.2 (stepAt V c (pt q 7) (prevCarried V c (pt q 7))).2.1 r d).trans ?_
  rw [ca, cl, RowReal.div_coe_pos _ _ (ne_of_gt hpos), RowReal.elu_coe, hquot]

/-- The same at any index of the block. -/
theorem out_block_idx (q : Fin 8) (y : S1024x256.Idx) :
    (outsAt V c (pt q 7).val (pt q 7).isLt).1 y = ((Layer.attend (scoreR R) R.hR (row q (y 0)) (y 1) : ℝ) : EReal) := by
  exact (congrArg (fun z : S1024x256.Idx => (outsAt V c (pt q 7).val (pt q 7).isLt).1 z) (eq_ix2 y)).trans
    (out_block R q (y 0) (y 1))

/-- The layer's output as contents of the output array. -/
def outG : S8192x256.Idx → EReal := fun y => ((Layer.attend (scoreR R) R.hR (y 0) (y 1) : ℝ) : EReal)

/-- What a flushing point writes back is its block of the layer's output. -/
theorem flushed_eq (t : Fin cfg0.N) (hf : (cfg0.win 5).flush t = true) :
    (dat0 V c).flushed 5 t = ((cfg0.win 5).blk t).view.read (Elt Ideal) (outG R) := by
  have h7 : t.val % 8 = 7 := (flush0_5 t).mp hf
  have hN : t.val < 64 := lt_of_lt_of_eq t.isLt (show cfg0.N = 64 from N_0)
  obtain ⟨q, rfl⟩ : ∃ q : Fin 8, t = pt q 7 :=
    ⟨⟨t.val / 8, by omega⟩, Fin.ext (show t.val = 8 * (t.val / 8) + 7 by omega)⟩
  obtain ⟨-, -, -, -, -, -, -, -, -, -, e0, e1, -⟩ := idx_facts (pt q 7)
  have hq := pt_div q 7
  show (cfg0.win 5).cut (grid0.coords (pt q 7)) ((dat0 V c).after 5 (pt q 7)) = _
  rw [after_5]
  funext y
  show (outsAt V c (pt q 7).val (pt q 7).isLt).1 y = outG R (((cfg0.win 5).blk (pt q 7)).view.emb y)
  rw [out_block_idx R q y]
  show _ = ((Layer.attend (scoreR R) R.hR ((((cfg0.win 5).blk (pt q 7)).view.emb y) 0) ((((cfg0.win 5).blk (pt q 7)).view.emb y) 1) : ℝ) : EReal)
  have a0 : ((((cfg0.win 5).blk (pt q 7)).view.emb y) 0 : Fin 8192) = row q (y 0) :=
    Fin.ext (show win0_5.index (pt q 7) (0 : Fin 2) * 1024 + 1 * (y 0).val = 1024 * q.val + (y 0).val by omega)
  have a1 : ((((cfg0.win 5).blk (pt q 7)).view.emb y) 1 : Fin 256) = y 1 :=
    Fin.ext (show win0_5.index (pt q 7) (1 : Fin 2) * 256 + 1 * (y 1).val = (y 1).val by omega)
  rw [a0, a1]

/-- What the region leaves in its output array: the layer's output, entry by entry (the eight blocks written back
    after key tile 7 of each query tile cover the array's rows). -/
theorem out_array (i : Fin 8192) (d : Fin 256) :
    ((dat0 V c).arrAt 5 cfg0.N : S8192x256.Idx → EReal) (ix2 i d) = ((Layer.attend (scoreR R) R.hR i d : ℝ) : EReal) :=
  congrFun ((dat0 V c).arrAt_eq_of_cover 5 (outG R) (fun t hf => flushed_eq R t hf) covered) (ix2 i d)

end Cert.KernelIdeal.R0

end
-- ==== Proof.KI.HostDot.lean ====
/-
  A matrix product of real arrays on the extended reals. At the ideal instance the host's product of an `a × k` by a
  `k × b` array is, entry by entry, the sum over the contracted coordinate of the products of the entries; when both
  arrays hold coercions of reals, that sum is the coercion of the real sum.
-/
import proofs.«404965_j38543036514339_3_alg».proof.Proof.KI.RowReal
import Idealize.ShloMosaic.Lib.StackMember
import Idealize.ShloMosaic.Lib.ValueIdx
import Idealize.ShloMosaic.PureOps.Ideal.Laws

noncomputable section

namespace Cert.KernelIdeal.HostV

open Idealize.ShloMosaic Idealize.ShloMosaic.ValueIdx

/-- An `a × k` by `k × b` matrix product of arrays of coercions of reals, read at an index, is the coercion of the
    real sum over the contracted coordinate. Stated for any record contracting the left operand's second axis with
    the right operand's first: two such records differ only in the proof of their well-formedness. -/
theorem dot_coe {a k b : ℕ} (w : DotDims.WF (⟨2, ![a, k]⟩ : Shape) ⟨2, ![k, b]⟩ ⟨2, ![a, b]⟩ [1] [0] [0] [1] [] [])
    (L : FVec Ideal ⟨2, ![a, k]⟩ .f32) (R : FVec Ideal ⟨2, ![k, b]⟩ .f32)
    (l : Fin a → Fin k → ℝ) (r : Fin k → Fin b → ℝ)
    (hl : ∀ i q, L (ix2 i q) = (l i q : EReal)) (hr : ∀ q j, R (ix2 q j) = (r q j : EReal)) (i : Fin a) (j : Fin b) :
    Host.dotGeneral (F := Ideal) (⟨[1], [0], [0], [1], [], [], w⟩ : DotDims _ _ _) none L R (ix2 i j)
      = ((∑ q, l i q * r q j : ℝ) : EReal) := by
  refine (StackMember.dotGeneral_plain_apply none L R i j).trans ?_
  rw [← RowReal.coe_sum]
  refine Finset.sum_congr rfl fun q _ => ?_
  rw [hl, hr, EReal.coe_mul]

end Cert.KernelIdeal.HostV

end
-- ==== Proof.KI.Host.lean ====
/-
  The kernel program's host operations on the extended reals. When the nine arguments are real arrays, the first
  stretch of host operations leaves in the first region's input arrays the reals the layer is a function of:
  `h = x W0` (and, a change of float format being the identity, the same `h` in the array the kernel keeps
  resident), its column `s = h aS0`, and `n = h aN0` laid out as a row. The second stretch, which does the same to the first
  region's output with the second layer's parameters, is read in the module beside this one.
-/
import proofs.«404965_j38543036514339_3_alg».proof.Proof.KI.R0Row
import proofs.«404965_j38543036514339_3_alg».proof.Proof.KI.RealArgs
import proofs.«404965_j38543036514339_3_alg».proof.Proof.KI.RowReal
import proofs.«404965_j38543036514339_3_alg».proof.Proof.KI.HostDot
import proofs.«404965_j38543036514339_3_alg».proof.Proof.Consts
import proofs.«404965_j38543036514339_3_alg».proof.Proof.Gen.KernelIdeal.Regions
import Idealize.ShloMosaic.Lib.StableHlo.Run
import Idealize.ShloMosaic.Lib.StackMember
import Idealize.ShloMosaic.Lib.ValueLayout
import Idealize.ShloMosaic.Lib.ValueIdx
import Idealize.ShloMosaic.PureOps.Ideal.Laws

set_option maxRecDepth 16384

noncomputable section

namespace Cert.KernelIdeal.HostV

open Idealize.ShloMosaic Idealize.ShloMosaic.TcCoe Idealize.ShloMosaic.ValueIdx Idealize.ShloMosaic.StableHlo
open Idealize.SL.Sem
open Cert.KernelIdeal Cert.KernelIdeal.Gen

variable {m : (ℓ : Loc nD τ sig) → Buf (Elt Ideal) ℓ} {c : Dev nD} (A : RealArgs m c)

/-- The unscoped buffers as the first region is entered. -/
abbrev Ventry0 (m : (ℓ : Loc nD τ sig) → Buf (Elt Ideal) ℓ) : (c : Dev nD) → (b : Ref sig .tc) → Buf (Elt Ideal) ((c : Thread nD τ).loc b) :=
  fun c b => V1 (F := Ideal) m c (Proc.devRef .tc b)

/-! ## The first stretch's results as terms over the launch contents -/

/-- The dense product the first host operation computes from the launch contents. -/
def H0 (m : (ℓ : Loc nD τ sig) → Buf (Elt Ideal) ℓ) (c : Dev nD) : S8192x256.Idx → EReal :=
  Host.dotGeneral (F := Ideal) (φ₁ := .f32) (φ₂ := .f32) dot_S8192x512_S512x256_S8192x256_1_0_0_1_n_n none
    (m ((c.tc : Thread nD τ).loc main_arg0) : S8192x512.Idx → EReal) (m ((c.tc : Thread nD τ).loc main_arg3) : S512x256.Idx → EReal)

/-- The features' array holds the dense product … -/
theorem v0_eq : (Ventry0 m c main_v0 : S8192x256.Idx → EReal) = H0 m c := by
  dsimp only [Ventry0, V1, V0, hostOps0]; after_results; rfl
/-- … the column its product with the first attention vector … -/
theorem v1_eq : (Ventry0 m c main_v1 : S8192x1.Idx → EReal)
    = Host.dotGeneral (F := Ideal) (φ₁ := .f32) (φ₂ := .f32) dot_S8192x256_S256x1_S8192x1_1_0_0_1_n_n none (H0 m c)
        (m ((c.tc : Thread nD τ).loc main_arg4) : S256x1.Idx → EReal) := by
  dsimp only [Ventry0, V1, V0, hostOps0]; after_results; rfl
/-- … the row its product with the second attention vector, transposed … -/
theorem v3_eq : (Ventry0 m c main_v3 : S1x8192.Idx → EReal)
    = transpose S1x8192 [1, 0] (Host.dotGeneral (F := Ideal) (φ₁ := .f32) (φ₂ := .f32) dot_S8192x256_S256x1_S8192x1_1_0_0_1_n_n none (H0 m c)
        (m ((c.tc : Thread nD τ).loc main_arg5) : S256x1.Idx → EReal)) Facts₀.transposes_S8192x1_S1x8192_1_0 := by
  dsimp only [Ventry0, V1, V0, hostOps0]; after_results; rfl
/-- … and the resident copy, a change of float format being the identity on extended reals, the dense product again. -/
theorem v4_eq : (Ventry0 m c main_v4 : S8192x256.Idx → EReal) = H0 m c := by
  dsimp only [Ventry0, V1, V0, hostOps0]; after_results; rfl

/-! ## The results at an index, over real arguments -/

/-- The first layer's features, and their two projections, as reals. -/
def h0R : Fin 8192 → Fin 256 → ℝ := Layer.dense A.xR A.W0R

theorem H0_apply (i : Fin 8192) (d : Fin 256) : H0 m c (ix2 i d) = (h0R A i d : EReal) :=
  dot_coe _ _ _ A.xR A.W0R A.hx A.hW0 i d

theorem v0_apply (i : Fin 8192) (d : Fin 256) : (Ventry0 m c main_v0 : S8192x256.Idx → EReal) (ix2 i d) = (h0R A i d : EReal) := by
  rw [v0_eq]; exact H0_apply A i d
theorem v1_apply (i : Fin 8192) : (Ventry0 m c main_v1 : S8192x1.Idx → EReal) (ix2 i 0) = (Layer.proj (h0R A) A.aS0R i : EReal) := by
  rw [v1_eq]
  exact dot_coe _ _ _ (h0R A) (fun d _ => A.aS0R d) (H0_apply A)
    (fun d u => by rw [Subsingleton.elim u 0]; exact A.haS0 d) i 0
theorem v3_apply (j : Fin 8192) : (Ventry0 m c main_v3 : S1x8192.Idx → EReal) (ix2 0 j) = (Layer.proj (h0R A) A.aN0R j : EReal) := by
  rw [v3_eq]
  refine (transpose_ix2_apply (a := 8192) (b := 1) _ Facts₀.transposes_S8192x1_S1x8192_1_0 0 j).trans ?_
  exact dot_coe _ _ _ (h0R A) (fun d _ => A.aN0R d) (H0_apply A)
    (fun d u => by rw [Subsingleton.elim u 0]; exact A.haN0 d) j 0
theorem v4_apply (j : Fin 8192) (d : Fin 256) : (Ventry0 m c main_v4 : S8192x256.Idx → EReal) (ix2 j d) = (h0R A j d : EReal) := by
  rw [v4_eq]; exact H0_apply A j d

/-- The arguments the region reads directly are as launched: the host stretch writes neither. -/
theorem arg2_eq : Ventry0 m c main_arg2 = m ((c.tc : Thread nD τ).loc main_arg2) :=
  V1_of (F := Ideal) m c main_arg2 (by decide)
theorem arg2_apply (i j : Fin 8192) : (Ventry0 m c main_arg2 : S8192x8192.Idx → EReal) (ix2 i j) = (A.MR i j : EReal) := by
  rw [arg2_eq]; exact A.hM i j
theorem arg1_eq : Ventry0 m c main_arg1 = m ((c.tc : Thread nD τ).loc main_arg1) :=
  V1_of (F := Ideal) m c main_arg1 (by decide)

/-- The first region is entered at real arrays: the column and the row are the features' projections, the slope
    and the sentinel the reals their words denote. -/
def entry0 : R0.RealEntry (Ventry0 m) c where
  sR := Layer.proj (h0R A) A.aS0R
  nR := Layer.proj (h0R A) A.aN0R
  MR := A.MR
  hR := h0R A
  α := Classical.choose Consts.slope_real
  σ := Classical.choose Consts.sentinel_real
  hs := v1_apply A
  hn := v3_apply A
  hM := arg2_apply A
  hh := v4_apply A
  hα := (Classical.choose_spec Consts.slope_real).1
  hα0 := (Classical.choose_spec Consts.slope_real).2.1
  hα1 := (Classical.choose_spec Consts.slope_real).2.2
  hσ := Classical.choose_spec Consts.sentinel_real

end Cert.KernelIdeal.HostV

end
-- ==== Proof.KI.Host1.lean ====
/-
  The kernel program's second stretch of host operations on the extended reals. Whatever real array `H` the first
  region leaves as its output, the second stretch leaves in the second region's input arrays the reals the second
  layer is a function of: `h = H W1` (and, a change of float format being the identity, the same `h` in the array
  the kernel keeps resident), its column `s = h aS1`, and `n = h aN1` laid out as a row. The second layer's
  parameters are still as launched when the stretch starts: no window of the first region holds them and the first
  stretch writes none. The coefficient matrix and the adjacency matrix, inputs of both regions, are still as
  launched after it: an input window's array is left as it was entered, and neither stretch writes them.
-/
import proofs.«404965_j38543036514339_3_alg».proof.Proof.KI.Segs
import proofs.«404965_j38543036514339_3_alg».proof.Proof.KI.RealArgs
import proofs.«404965_j38543036514339_3_alg».proof.Proof.KI.RowReal
import proofs.«404965_j38543036514339_3_alg».proof.Proof.KI.HostDot
import proofs.«404965_j38543036514339_3_alg».proof.Proof.Layer
import proofs.«404965_j38543036514339_3_alg».proof.Proof.Consts
import proofs.«404965_j38543036514339_3_alg».proof.Proof.Gen.KernelIdeal.Regions
import Idealize.ShloMosaic.Lib.StableHlo.Run
import Idealize.ShloMosaic.Lib.StackMember
import Idealize.ShloMosaic.Lib.ValueLayout
import Idealize.ShloMosaic.Lib.ValueIdx
import Idealize.ShloMosaic.PureOps.Ideal.Laws

set_option maxRecDepth 16384

noncomputable section

namespace Cert.KernelIdeal.HostV

open Idealize.ShloMosaic Idealize.ShloMosaic.TcCoe Idealize.ShloMosaic.ValueIdx Idealize.ShloMosaic.StableHlo
open Idealize.SL.Sem
open Cert.KernelIdeal Cert.KernelIdeal.Gen

/-! ## The second stretch over any contents `W` of the unscoped buffers -/

section General

variable (W : Valuation τ sig (Elt Ideal))

/-- The dense product the second stretch's first operation computes from the first layer's output and the second
    layer's weights. -/
def H1 (W : Valuation τ sig (Elt Ideal)) : S8192x64.Idx → EReal :=
  Host.dotGeneral (F := Ideal) (φ₁ := .f32) (φ₂ := .f32) dot_S8192x256_S256x64_S8192x64_1_0_0_1_n_n none
    (W (Proc.devRef .tc main_v5) : S8192x256.Idx → EReal) (W (Proc.devRef .tc main_arg6) : S256x64.Idx → EReal)

/-- The features' array holds the dense product … -/
theorem after1_v6 : (StableHlo.after hostOps1 W (Proc.devRef .tc main_v6) : S8192x64.Idx → EReal) = H1 W := by
  dsimp only [hostOps1]; after_results; rfl
/-- … the column its product with the first attention vector … -/
theorem after1_v7 : (StableHlo.after hostOps1 W (Proc.devRef .tc main_v7) : S8192x1.Idx → EReal)
    = Host.dotGeneral (F := Ideal) (φ₁ := .f32) (φ₂ := .f32) dot_S8192x64_S64x1_S8192x1_1_0_0_1_n_n none (H1 W)
        (W (Proc.devRef .tc main_arg7) : S64x1.Idx → EReal) := by
  dsimp only [hostOps1]; after_results; rfl
/-- … the row its product with the second attention vector, transposed … -/
theorem after1_v9 : (StableHlo.after hostOps1 W (Proc.devRef .tc main_v9) : S1x8192.Idx → EReal)
    = transpose S1x8192 [1, 0] (Host.dotGeneral (F := Ideal) (φ₁ := .f32) (φ₂ := .f32) dot_S8192x64_S64x1_S8192x1_1_0_0_1_n_n none (H1 W)
        (W (Proc.devRef .tc main_arg8) : S64x1.Idx → EReal)) Facts₀.transposes_S8192x1_S1x8192_1_0 := by
  dsimp only [hostOps1]; after_results; rfl
/-- … and the resident copy, a change of float format being the identity on extended reals, the dense product again. -/
theorem after1_v10 : (StableHlo.after hostOps1 W (Proc.devRef .tc main_v10) : S8192x64.Idx → EReal) = H1 W := by
  dsimp only [hostOps1]; after_results; rfl

variable (H : Fin 8192 → Fin 256 → ℝ) (W1R : Fin 256 → Fin 64 → ℝ) (aS1R aN1R : Fin 64 → ℝ)
  (hH : ∀ i d, (W (Proc.devRef .tc main_v5) : S8192x256.Idx → EReal) (ix2 i d) = (H i d : EReal))
  (h6 : ∀ k d, (W (Proc.devRef .tc main_arg6) : S256x64.Idx → EReal) (ix2 k d) = (W1R k d : EReal))
  (h7 : ∀ d, (W (Proc.devRef .tc main_arg7) : S64x1.Idx → EReal) (ix2 d 0) = (aS1R d : EReal))
  (h8 : ∀ d, (W (Proc.devRef .tc main_arg8) : S64x1.Idx → EReal) (ix2 d 0) = (aN1R d : EReal))

include hH h6 in
theorem H1_apply (i : Fin 8192) (d : Fin 64) : H1 W (ix2 i d) = (Layer.dense H W1R i d : EReal) :=
  dot_coe _ _ _ H W1R hH h6 i d

include hH h6 in
theorem after1_v6_apply (i : Fin 8192) (d : Fin 64) :
    (StableHlo.after hostOps1 W (Proc.devRef .tc main_v6) : S8192x64.Idx → EReal) (ix2 i d) = (Layer.dense H W1R i d : EReal) := by
  rw [after1_v6]; exact H1_apply W H W1R hH h6 i d
include hH h6 h7 in
theorem after1_v7_apply (i : Fin 8192) :
    (StableHlo.after hostOps1 W (Proc.devRef .tc main_v7) : S8192x1.Idx → EReal) (ix2 i 0)
      = (Layer.proj (Layer.dense H W1R) aS1R i : EReal) := by
  rw [after1_v7]
  exact dot_coe _ _ _ (Layer.dense H W1R) (fun d _ => aS1R d) (H1_apply W H W1R hH h6)
    (fun d u => by rw [Subsingleton.elim u 0]; exact h7 d) i 0
include hH h6 h8 in
theorem after1_v9_apply (j : Fin 8192) :
    (StableHlo.after hostOps1 W (Proc.devRef .tc main_v9) : S1x8192.Idx → EReal) (ix2 0 j)
      = (Layer.proj (Layer.dense H W1R) aN1R j : EReal) := by
  rw [after1_v9]
  refine (transpose_ix2_apply (a := 8192) (b := 1) _ Facts₀.transposes_S8192x1_S1x8192_1_0 0 j).trans ?_
  exact dot_coe _ _ _ (Layer.dense H W1R) (fun d _ => aN1R d) (H1_apply W H W1R hH h6)
    (fun d u => by rw [Subsingleton.elim u 0]; exact h8 d) j 0
include hH h6 in
theorem after1_v10_apply (j : Fin 8192) (d : Fin 64) :
    (StableHlo.after hostOps1 W (Proc.devRef .tc main_v10) : S8192x64.Idx → EReal) (ix2 j d) = (Layer.dense H W1R j d : EReal) := by
  rw [after1_v10]; exact H1_apply W H W1R hH h6 j d

end General

/-! ## The stretch between the two regions -/

variable {m : (ℓ : Loc nD τ sig) → Buf (Elt Ideal) ℓ} {c : Dev nD} (A : RealArgs m c)

/-- The second layer's parameters are as launched when the second stretch starts. -/
theorem W2_arg6 : Run.W2 (F := Ideal) m c (Proc.devRef .tc main_arg6) = m ((c.tc : Thread nD τ).loc main_arg6) :=
  (Run.W2_of_ne m c main_arg6 (by decide)).trans <|
    (StableHlo.after_of_writes_sub hostOps0 _ hostOps0_writes (by decide : main_arg6 ∉ hostOps0_W)).trans rfl
theorem W2_arg7 : Run.W2 (F := Ideal) m c (Proc.devRef .tc main_arg7) = m ((c.tc : Thread nD τ).loc main_arg7) :=
  (Run.W2_of_ne m c main_arg7 (by decide)).trans <|
    (StableHlo.after_of_writes_sub hostOps0 _ hostOps0_writes (by decide : main_arg7 ∉ hostOps0_W)).trans rfl
theorem W2_arg8 : Run.W2 (F := Ideal) m c (Proc.devRef .tc main_arg8) = m ((c.tc : Thread nD τ).loc main_arg8) :=
  (Run.W2_of_ne m c main_arg8 (by decide)).trans <|
    (StableHlo.after_of_writes_sub hostOps0 _ hostOps0_writes (by decide : main_arg8 ∉ hostOps0_W)).trans rfl

/-- The two arrays both regions read directly are as launched after the second stretch: the stretch writes neither,
    the first region leaves an input window's array as it was entered, and the first stretch writes neither. -/
theorem W3_arg2 : Run.W3 (F := Ideal) m c (Proc.devRef .tc main_arg2) = m ((c.tc : Thread nD τ).loc main_arg2) :=
  (StableHlo.after_of_writes_sub hostOps1 _ hostOps1_writes (by decide : main_arg2 ∉ hostOps1_W)).trans <|
    (Run.W2_arr m c 2).trans <| ((R0.dat0 (Run.V1 m) c).arrAt_in 2 rfl _).trans <| (R0.A_eq (Run.V1 m) c 2).trans <|
    (StableHlo.after_of_writes_sub hostOps0 _ hostOps0_writes (by decide : main_arg2 ∉ hostOps0_W)).trans rfl
theorem W3_arg1 : Run.W3 (F := Ideal) m c (Proc.devRef .tc main_arg1) = m ((c.tc : Thread nD τ).loc main_arg1) :=
  (StableHlo.after_of_writes_sub hostOps1 _ hostOps1_writes (by decide : main_arg1 ∉ hostOps1_W)).trans <|
    (Run.W2_arr m c 3).trans <| ((R0.dat0 (Run.V1 m) c).arrAt_in 3 rfl _).trans <| (R0.A_eq (Run.V1 m) c 3).trans <|
    (StableHlo.after_of_writes_sub hostOps0 _ hostOps0_writes (by decide : main_arg1 ∉ hostOps0_W)).trans rfl

section Stretch2

variable (H : Fin 8192 → Fin 256 → ℝ)
  (hH : ∀ i d, (Run.W2 (F := Ideal) m c (Proc.devRef .tc main_v5) : S8192x256.Idx → EReal) (ix2 i d) = (H i d : EReal))

include hH in
theorem v6_apply (i : Fin 8192) (d : Fin 64) :
    (Run.W3 (F := Ideal) m c (Proc.devRef .tc main_v6) : S8192x64.Idx → EReal) (ix2 i d) = (Layer.dense H A.W1R i d : EReal) :=
  after1_v6_apply (Run.W2 m c) H A.W1R hH (fun k d => by rw [W2_arg6]; exact A.hW1 k d) i d
include hH in
theorem v7_apply (i : Fin 8192) :
    (Run.W3 (F := Ideal) m c (Proc.devRef .tc main_v7) : S8192x1.Idx → EReal) (ix2 i 0) = (Layer.proj (Layer.dense H A.W1R) A.aS1R i : EReal) :=
  after1_v7_apply (Run.W2 m c) H A.W1R A.aS1R hH (fun k d => by rw [W2_arg6]; exact A.hW1 k d)
    (fun d => by rw [W2_arg7]; exact A.haS1 d) i
include hH in
theorem v9_apply (j : Fin 8192) :
    (Run.W3 (F := Ideal) m c (Proc.devRef .tc main_v9) : S1x8192.Idx → EReal) (ix2 0 j) = (Layer.proj (Layer.dense H A.W1R) A.aN1R j : EReal) :=
  after1_v9_apply (Run.W2 m c) H A.W1R A.aN1R hH (fun k d => by rw [W2_arg6]; exact A.hW1 k d)
    (fun d => by rw [W2_arg8]; exact A.haN1 d) j
include hH in
theorem v10_apply (j : Fin 8192) (d : Fin 64) :
    (Run.W3 (F := Ideal) m c (Proc.devRef .tc main_v10) : S8192x64.Idx → EReal) (ix2 j d) = (Layer.dense H A.W1R j d : EReal) :=
  after1_v10_apply (Run.W2 m c) H A.W1R hH (fun k d => by rw [W2_arg6]; exact A.hW1 k d) j d
theorem arg2_apply3 (i j : Fin 8192) :
    (Run.W3 (F := Ideal) m c (Proc.devRef .tc main_arg2) : S8192x8192.Idx → EReal) (ix2 i j) = (A.MR i j : EReal) := by
  rw [W3_arg2]; exact A.hM i j
theorem arg1_eq3 : Run.W3 (F := Ideal) m c (Proc.devRef .tc main_arg1) = m ((c.tc : Thread nD τ).loc main_arg1) :=
  W3_arg1

end Stretch2

end Cert.KernelIdeal.HostV

end
-- ==== Proof.KI.R1Pieces.lean ====
/-
  What the first layer's kernel leaves carried after a point, as the body's own arithmetic. The pieces a case's
  stores wrote, read back, are the stored values themselves: every store covers its buffer whole, so what is read
  back is the last stored value. At key tile 0 the step starts from the reset values (the finite sentinel, zero,
  zero), which the body stores first and then reads; at later key tiles from what the point before left. The key
  tile's rows of the resident features are the rows `1024 * (t % 8) …` of that block.
-/
import proofs.«404965_j38543036514339_3_alg».proof.Proof.KI.R1Data
import Idealize.ShloMosaic.Lib.Pipeline.Value

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-- The rows of the resident features the body loads at grid point `i`: those of the point's key tile. -/
def keyRows (i : grid1.Coords) (hb : Vec F S8192x64 .bf16) : Vec F S1024x64 .bf16 :=
  View.ld hb (Rect.unit (s := S8192x64) (k1_off1 i) S1024x64.size (k1_off1_inb i))

/-- One online-softmax step on the point's blocks from a carried triple `p`, as the body computes it. -/
def stepOf (x0 : Vec F S1024x1 .f32) (x1 : Vec F S1x1024 .f32) (x2 : Vec F S1024x1024 .f32) (x3 : Vec F S1024x1024 .i32) (hk : Vec F S1024x64 .bf16)
    (p : Carried F) : Carried F :=
  (k1_pay3 (k1_pay9 x0 x1 x2 x3 p.1),
   k1_pay1 (k1_pay12 x0 x1 x2 x3 p.1 p.1 p.2.1),
   k1_pay2 (k1_pay10 x0 x1 x2 x3 p.1 p.1) (k1_pay11 x0 x1 x2 x3 p.1) hk p.2.2)

/-- The step at point `t`, on that point's blocks. -/
abbrev stepAt (c : Dev nD) (t : Fin cfg1.N) (p : Carried F) : Carried F :=
  stepOf (iblk V c 0 t) (iblk V c 1 t) (iblk V c 2 t) (iblk V c 3 t) (keyRows (grid1.coords t) (iblk V c 4 t)) p

/-- The offsets of a whole-buffer rectangle are zero, however the zeros are spelt. -/
theorem zeroOff2 : (![0, 0] : Fin 2 → Nat) = fun _ => 0 := funext fun a => by fin_cases a <;> rfl

/-- A carried buffer's contents, read back through the buffer's own whole view. -/
theorem read_scMax (h : scMax.IsWhole) (X : Vec F S1024x1 .f32) :
    View.read (Elt F) (View.whole cc1_scratch0) (h.unread X) = X := h.read_unread X
theorem read_scSum (h : scSum.IsWhole) (X : Vec F S1024x1 .f32) :
    View.read (Elt F) (View.whole cc1_scratch1) (h.unread X) = X := h.read_unread X
theorem read_scAcc (h : scAcc.IsWhole) (X : Vec F S1024x64 .f32) :
    View.read (Elt F) (View.whole cc1_scratch2) (h.unread X) = X := h.read_unread X

/-- Every load through a whole-buffer rectangle reads the buffer's contents, and a load of what one covering store
    left reads that store's payload. -/
local macro "read_loads" : tactic => `(tactic| simp only [View.readCov_unit_zero (S := S1024x1) _ zeroOff2, View.readCov_unit_zero (S := S1024x64) _ zeroOff2,
    View.readAt_eq_ld, Memref.IsWhole.read_unread, read_scMax, read_scSum, read_scAcc,
    View.ld_unit_zero (S := S1024x1) zeroOff2, View.ld_unit_zero (S := S1x1024) zeroOff2, View.ld_unit_zero (S := S1024x1024) zeroOff2, View.ld_unit_zero (S := S1024x64) zeroOff2])

/-! ## What each case's stores leave in each buffer

Over variable memrefs and blocks of the literal types. A buffer's writes read back over junk are their canonical
contents; the last write covers the buffer whole, so that is its payload; every load the payload was computed from
went through a whole-buffer rectangle (the key tile's rows apart) and reads the contents themselves. In the reset
case the step's loads of the carried buffers read back the reset values stored just before. -/

section Pieces

variable (c : Dev nD) (i : grid1.Coords)
  (arg2 : Memref sig .tc .vmem S1024x1 .f32) (harg2 : arg2.IsWhole) (arg3 : Memref sig .tc .vmem S1x1024 .f32) (harg3 : arg3.IsWhole)
  (arg4 : Memref sig .tc .vmem S1024x1024 .f32) (harg4 : arg4.IsWhole) (arg5 : Memref sig .tc .vmem S1024x1024 .i32) (harg5 : arg5.IsWhole)
  (arg6 : Memref sig .tc .vmem S8192x64 .bf16) (harg6 : arg6.IsWhole) (arg7 : Memref sig .tc .vmem S1024x64 .f32) (harg7 : arg7.IsWhole)
  (x0 : Vec F S1024x1 .f32) (x1 : Vec F S1x1024 .f32) (x2 : Vec F S1024x1024 .f32) (x3 : Vec F S1024x1024 .i32) (x4 : Vec F S8192x64 .bf16)

local notation "RunR" => runReset (F := F) c i arg2 harg2 arg3 harg3 arg4 harg4 arg5 harg5 arg6 harg6 arg7 harg7
local notation "RunM" => runMid (F := F) c i arg2 harg2 arg3 harg3 arg4 harg4 arg5 harg5 arg6 harg6 arg7 harg7
local notation "RunL" => runLast (F := F) c i arg2 harg2 arg3 harg3 arg4 harg4 arg5 harg5 arg6 harg6 arg7 harg7

/-- The reset case: the step from the reset values, which its loads of the carried buffers read back. -/
theorem reset_max (hr : condReset i) (hl : ¬condLast i) :
    VMax.read (Elt F) (VMax.writes (Elt F) VMax.junk (RunR hr hl x0 x1 x2 x3 x4).1)
      = k1_pay3 (k1_pay9 x0 x1 x2 x3 k1_pay5) := by
  rw [View.read_writes_junk_eq_canon]
  unfold runReset
  dsimp only
  sl_unfold_words
  rw [View.canon_cons_unit_zero (S := S1024x1) zeroOff2]
  read_loads

theorem reset_sum (hr : condReset i) (hl : ¬condLast i) :
    VSum.read (Elt F) (VSum.writes (Elt F) VSum.junk (RunR hr hl x0 x1 x2 x3 x4).2.1)
      = k1_pay1 (k1_pay12 x0 x1 x2 x3 k1_pay5 k1_pay5 k1_pay6) := by
  rw [View.read_writes_junk_eq_canon]
  unfold runReset
  dsimp only
  sl_unfold_words
  rw [View.canon_cons_unit_zero (S := S1024x1) zeroOff2]
  read_loads

theorem reset_acc (hr : condReset i) (hl : ¬condLast i) :
    VAcc.read (Elt F) (VAcc.writes (Elt F) VAcc.junk (RunR hr hl x0 x1 x2 x3 x4).2.2.1)
      = k1_pay2 (k1_pay10 x0 x1 x2 x3 k1_pay5 k1_pay5) (k1_pay11 x0 x1 x2 x3 k1_pay5) (keyRows i x4) k1_pay7 := by
  rw [View.read_writes_junk_eq_canon]
  unfold runReset keyRows
  dsimp only
  sl_unfold_words
  rw [View.canon_cons_unit_zero (S := S1024x64) zeroOff2]
  read_loads

/-- The middle case: the step from the carried contents. -/
theorem mid_max (hr : ¬condReset i) (hl : ¬condLast i) (sm sl : Vec F S1024x1 .f32) (sa : Vec F S1024x64 .f32) :
    VMax.read (Elt F) (VMax.writes (Elt F) VMax.junk (RunM hr hl x0 x1 x2 x3 x4 sm sl sa).1)
      = k1_pay3 (k1_pay9 x0 x1 x2 x3 sm) := by
  rw [View.read_writes_junk_eq_canon]
  unfold runMid
  dsimp only
  sl_unfold_words
  rw [View.canon_unit_zero (S := S1024x1) zeroOff2]
  read_loads

theorem mid_sum (hr : ¬condReset i) (hl : ¬condLast i) (sm sl : Vec F S1024x1 .f32) (sa : Vec F S1024x64 .f32) :
    VSum.read (Elt F) (VSum.writes (Elt F) VSum.junk (RunM hr hl x0 x1 x2 x3 x4 sm sl sa).2.1)
      = k1_pay1 (k1_pay12 x0 x1 x2 x3 sm sm sl) := by
  rw [View.read_writes_junk_eq_canon]
  unfold runMid
  dsimp only
  sl_unfold_words
  rw [View.canon_unit_zero (S := S1024x1) zeroOff2]
  read_loads

theorem mid_acc (hr : ¬condReset i) (hl : ¬condLast i) (sm sl : Vec F S1024x1 .f32) (sa : Vec F S1024x64 .f32) :
    VAcc.read (Elt F) (VAcc.writes (Elt F) VAcc.junk (RunM hr hl x0 x1 x2 x3 x4 sm sl sa).2.2.1)
      = k1_pay2 (k1_pay10 x0 x1 x2 x3 sm sm) (k1_pay11 x0 x1 x2 x3 sm) (keyRows i x4) sa := by
  rw [View.read_writes_junk_eq_canon]
  unfold runMid keyRows
  dsimp only
  sl_unfold_words
  rw [View.canon_unit_zero (S := S1024x64) zeroOff2]
  read_loads

/-- The last case: the same step, and the epilogue of the accumulator and the sum it has just stored. -/
theorem last_max (hr : ¬condReset i) (hl : condLast i) (sm sl : Vec F S1024x1 .f32) (sa : Vec F S1024x64 .f32) :
    VMax.read (Elt F) (VMax.writes (Elt F) VMax.junk (RunL hr hl x0 x1 x2 x3 x4 sm sl sa).1)
      = k1_pay3 (k1_pay9 x0 x1 x2 x3 sm) := by
  rw [View.read_writes_junk_eq_canon]
  unfold runLast
  dsimp only
  sl_unfold_words
  rw [View.canon_unit_zero (S := S1024x1) zeroOff2]
  read_loads

theorem last_sum (hr : ¬condReset i) (hl : condLast i) (sm sl : Vec F S1024x1 .f32) (sa : Vec F S1024x64 .f32) :
    VSum.read (Elt F) (VSum.writes (Elt F) VSum.junk (RunL hr hl x0 x1 x2 x3 x4 sm sl sa).2.1)
      = k1_pay1 (k1_pay12 x0 x1 x2 x3 sm sm sl) := by
  rw [View.read_writes_junk_eq_canon]
  unfold runLast
  dsimp only
  sl_unfold_words
  rw [View.canon_unit_zero (S := S1024x1) zeroOff2]
  read_loads

theorem last_acc (hr : ¬condReset i) (hl : condLast i) (sm sl : Vec F S1024x1 .f32) (sa : Vec F S1024x64 .f32) :
    VAcc.read (Elt F) (VAcc.writes (Elt F) VAcc.junk (RunL hr hl x0 x1 x2 x3 x4 sm sl sa).2.2.1)
      = k1_pay2 (k1_pay10 x0 x1 x2 x3 sm sm) (k1_pay11 x0 x1 x2 x3 sm) (keyRows i x4) sa := by
  rw [View.read_writes_junk_eq_canon]
  unfold runLast keyRows
  dsimp only
  sl_unfold_words
  rw [View.canon_unit_zero (S := S1024x64) zeroOff2]
  read_loads

theorem last_out (hr : ¬condReset i) (hl : condLast i) (sm sl : Vec F S1024x1 .f32) (sa : Vec F S1024x64 .f32) :
    VOut.read (Elt F) (VOut.writes (Elt F) VOut.junk (RunL hr hl x0 x1 x2 x3 x4 sm sl sa).2.2.2.1)
      = k1_pay4 (k1_pay2 (k1_pay10 x0 x1 x2 x3 sm sm) (k1_pay11 x0 x1 x2 x3 sm) (keyRows i x4) sa) (k1_pay1 (k1_pay12 x0 x1 x2 x3 sm sm sl)) := by
  rw [View.read_writes_junk_eq_canon]
  unfold runLast keyRows
  dsimp only
  sl_unfold_words
  rw [View.canon_unit_zero (S := S1024x64) zeroOff2]
  read_loads

end Pieces

/-- At key tile 0 the carried triple is the step from the reset values. -/
theorem carriedReset_eq (c : Dev nD) (t : Fin cfg1.N) (hr : t.val % 8 = 0) (hl : ¬t.val % 8 = 7) :
    carriedReset V c t hr hl = stepAt V c t (k1_pay5, k1_pay6, k1_pay7) := by
  have h1 := reset_max c (grid1.coords t) (ms0 t) (hs0 t) (ms1 t) (hs1 t) (ms2 t) (hs2 t) (ms3 t) (hs3 t) (ms4 t) (hs4 t) (ms5 t) (hs5 t)
      (iblk V c 0 t) (iblk V c 1 t) (iblk V c 2 t) (iblk V c 3 t) (iblk V c 4 t) ((hcondReset t).mpr hr) (fun h => hl ((hcondLast t).mp h))
  have h2 := reset_sum c (grid1.coords t) (ms0 t) (hs0 t) (ms1 t) (hs1 t) (ms2 t) (hs2 t) (ms3 t) (hs3 t) (ms4 t) (hs4 t) (ms5 t) (hs5 t)
      (iblk V c 0 t) (iblk V c 1 t) (iblk V c 2 t) (iblk V c 3 t) (iblk V c 4 t) ((hcondReset t).mpr hr) (fun h => hl ((hcondLast t).mp h))
  have h3 := reset_acc c (grid1.coords t) (ms0 t) (hs0 t) (ms1 t) (hs1 t) (ms2 t) (hs2 t) (ms3 t) (hs3 t) (ms4 t) (hs4 t) (ms5 t) (hs5 t)
      (iblk V c 0 t) (iblk V c 1 t) (iblk V c 2 t) (iblk V c 3 t) (iblk V c 4 t) ((hcondReset t).mpr hr) (fun h => hl ((hcondLast t).mp h))
  unfold carriedReset stepAt stepOf
  exact congrArg₂ Prod.mk h1 (congrArg₂ Prod.mk h2 h3)

/-- At a middle key tile, the step from what the point before left. -/
theorem carriedMid_eq (c : Dev nD) (t : Fin cfg1.N) (hr : ¬t.val % 8 = 0) (hl : ¬t.val % 8 = 7) (p : Carried F) :
    carriedMid V c t hr hl p = stepAt V c t p := by
  have h1 := mid_max c (grid1.coords t) (ms0 t) (hs0 t) (ms1 t) (hs1 t) (ms2 t) (hs2 t) (ms3 t) (hs3 t) (ms4 t) (hs4 t) (ms5 t) (hs5 t)
      (iblk V c 0 t) (iblk V c 1 t) (iblk V c 2 t) (iblk V c 3 t) (iblk V c 4 t) (fun h => hr ((hcondReset t).mp h)) (fun h => hl ((hcondLast t).mp h)) p.1 p.2.1 p.2.2
  have h2 := mid_sum c (grid1.coords t) (ms0 t) (hs0 t) (ms1 t) (hs1 t) (ms2 t) (hs2 t) (ms3 t) (hs3 t) (ms4 t) (hs4 t) (ms5 t) (hs5 t)
      (iblk V c 0 t) (iblk V c 1 t) (iblk V c 2 t) (iblk V c 3 t) (iblk V c 4 t) (fun h => hr ((hcondReset t).mp h)) (fun h => hl ((hcondLast t).mp h)) p.1 p.2.1 p.2.2
  have h3 := mid_acc c (grid1.coords t) (ms0 t) (hs0 t) (ms1 t) (hs1 t) (ms2 t) (hs2 t) (ms3 t) (hs3 t) (ms4 t) (hs4 t) (ms5 t) (hs5 t)
      (iblk V c 0 t) (iblk V c 1 t) (iblk V c 2 t) (iblk V c 3 t) (iblk V c 4 t) (fun h => hr ((hcondReset t).mp h)) (fun h => hl ((hcondLast t).mp h)) p.1 p.2.1 p.2.2
  unfold carriedMid stepAt stepOf
  exact congrArg₂ Prod.mk h1 (congrArg₂ Prod.mk h2 h3)

/-- At key tile 7 the same step, -/
theorem carriedLast_eq (c : Dev nD) (t : Fin cfg1.N) (hr : ¬t.val % 8 = 0) (hl : t.val % 8 = 7) (p : Carried F) :
    carriedLast V c t hr hl p = stepAt V c t p := by
  have h1 := last_max c (grid1.coords t) (ms0 t) (hs0 t) (ms1 t) (hs1 t) (ms2 t) (hs2 t) (ms3 t) (hs3 t) (ms4 t) (hs4 t) (ms5 t) (hs5 t)
      (iblk V c 0 t) (iblk V c 1 t) (iblk V c 2 t) (iblk V c 3 t) (iblk V c 4 t) (fun h => hr ((hcondReset t).mp h)) ((hcondLast t).mpr hl) p.1 p.2.1 p.2.2
  have h2 := last_sum c (grid1.coords t) (ms0 t) (hs0 t) (ms1 t) (hs1 t) (ms2 t) (hs2 t) (ms3 t) (hs3 t) (ms4 t) (hs4 t) (ms5 t) (hs5 t)
      (iblk V c 0 t) (iblk V c 1 t) (iblk V c 2 t) (iblk V c 3 t) (iblk V c 4 t) (fun h => hr ((hcondReset t).mp h)) ((hcondLast t).mpr hl) p.1 p.2.1 p.2.2
  have h3 := last_acc c (grid1.coords t) (ms0 t) (hs0 t) (ms1 t) (hs1 t) (ms2 t) (hs2 t) (ms3 t) (hs3 t) (ms4 t) (hs4 t) (ms5 t) (hs5 t)
      (iblk V c 0 t) (iblk V c 1 t) (iblk V c 2 t) (iblk V c 3 t) (iblk V c 4 t) (fun h => hr ((hcondReset t).mp h)) ((hcondLast t).mpr hl) p.1 p.2.1 p.2.2
  unfold carriedLast stepAt stepOf
  exact congrArg₂ Prod.mk h1 (congrArg₂ Prod.mk h2 h3)

/-- and the stored output block is the epilogue of the step's accumulator and sum. -/
theorem outLast_eq (c : Dev nD) (t : Fin cfg1.N) (hr : ¬t.val % 8 = 0) (hl : t.val % 8 = 7) (p : Carried F) :
    outLast V c t hr hl p = k1_pay4 (stepAt V c t p).2.2 (stepAt V c t p).2.1 := by
  unfold outLast stepAt stepOf
  exact last_out c (grid1.coords t) (ms0 t) (hs0 t) (ms1 t) (hs1 t) (ms2 t) (hs2 t) (ms3 t) (hs3 t) (ms4 t) (hs4 t) (ms5 t) (hs5 t)
      (iblk V c 0 t) (iblk V c 1 t) (iblk V c 2 t) (iblk V c 3 t) (iblk V c 4 t) (fun h => hr ((hcondReset t).mp h)) ((hcondLast t).mpr hl) p.1 p.2.1 p.2.2

end Cert.KernelIdeal.R1

end
-- ==== Proof.KI.PayIdx1.lean ====
/-
  The first layer's kernel body, read one entry at a time on the extended reals. For a query row `r`, a key lane
  `j` and a feature column `d` of the point's blocks:
  * the masked score is `max e (α e)` with `e = (s r + n j) * M r j` where the adjacency entry is positive, and the
    finite sentinel elsewhere;
  * the new running maximum is the larger of the old one and the row's largest masked score;
  * the rescaling factor is `exp (old maximum - new maximum)`, each lane's weight `exp (score - new maximum)`;
  * the new running sum is the rescaled old sum plus the row's weights; the new accumulator the rescaled old one
    plus the weights against the key tile's feature rows (a change of float format is the identity here);
  * the stored output is the exponential linear unit of accumulator / sum.
  Nothing here needs the entries to be finite.
-/
import proofs.«404965_j38543036514339_3_alg».proof.Proof.Gen.KernelIdeal.Skeleton
import proofs.«404965_j38543036514339_3_alg».proof.Proof.LibColumn
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayIdx1

open Idealize.ShloMosaic Idealize.ShloMosaic.ValueIdx
open Cert.KernelIdeal Cert.KernelIdeal.Gen

/-! ## The carried values pass through a cast of a shape to itself -/

/-- A column cast to its own shape is the column. -/
theorem pay1_eq {F : FTy → Type} [FloatOps F] (v : FVec F S1024x1 .f32) : k1_pay1 v = v :=
  shapeCast_self v shapeCasts_S1024x1_S1024x1
theorem pay3_eq {F : FTy → Type} [FloatOps F] (v : FVec F S1024x1 .f32) : k1_pay3 v = v :=
  shapeCast_self v shapeCasts_S1024x1_S1024x1

/-! ## Layout: a column or a row spread over the square, a row reduced to a column entry -/

/-- The word of `-∞` denotes the least extended real. -/
theorem ofBits_negInf : Ideal.ofBits .f32 0xFF800000#32 = (⊥ : EReal) := by
  simp [Ideal.ofBits, Ideal.ieee]

/-- A column (cast to its own shape) spread along the lanes reads, at `(r, j)`, the column's entry of row `r`. -/
theorem col_spread (v : FVec Ideal S1024x1 .f32) (r j : Fin 1024) :
    broadcastTo S1024x1024 (shapeCast S1024x1 v shapeCasts_S1024x1_S1024x1) broadcasts_S1024x1_S1024x1024 (ix2 r j)
      = v (ix2 r 0) := by
  refine (Cert.Column.broadcastTo_a1_ab_apply _ broadcasts_S1024x1_S1024x1024 r j).trans ?_
  exact congrFun (shapeCast_self v shapeCasts_S1024x1_S1024x1) (ix2 r 0)

/-- A row (cast to its own shape) spread down the rows reads, at `(r, j)`, the row's entry of lane `j`. -/
theorem row_spread (v : FVec Ideal S1x1024 .f32) (r j : Fin 1024) :
    broadcastTo S1024x1024 (shapeCast S1x1024 v shapeCasts_S1x1024_S1x1024) broadcasts_S1x1024_S1024x1024 (ix2 r j)
      = v (ix2 0 j) := by
  refine (broadcastTo_1b_ab_apply _ broadcasts_S1x1024_S1024x1024 r j).trans ?_
  exact congrFun (shapeCast_self v shapeCasts_S1x1024_S1x1024) (ix2 0 j)

/-- The square's index over row `r` with lane `k` inserted is `(r, k)`. -/
theorem lift_lane (r k : Fin 1024) : reduces_S1024x1024_S1024.lift (ix1 r) k = ix2 r k := by
  funext c
  apply Fin.ext
  match c with
  | ⟨0, _⟩ => rfl
  | ⟨1, _⟩ => rfl

/-- A row's largest entry, kept as a column entry: the fold of `max` from `⊥` over the row's 1024 lanes. -/
theorem laneMax_apply (src : FVec Ideal S1024x1024 .f32) (r : Fin 1024) (u : Fin 1) :
    shapeCast S1024x1 (multiReduction (F := Ideal) .maximumf [1] S1024 src 0xFF800000#32 reduces_S1024x1024_S1024 (.inl rfl) rfl)
        shapeCasts_S1024_S1024x1 (ix2 r u)
      = Finset.univ.fold max (⊥ : EReal) fun j : Fin 1024 => src (ix2 r j) := by
  refine (Cert.Column.shapeCast_a_a1_apply _ shapeCasts_S1024_S1024x1 r u).trans ?_
  refine (Ideal.multiReduction_maximumf_single src _ reduces_S1024x1024_S1024 (.inl rfl) rfl (ix1 r)).trans ?_
  have e : (src ∘ reduces_S1024x1024_S1024.lift (ix1 r)) = fun j : Fin 1024 => src (ix2 r j) :=
    funext fun j => congrArg src (lift_lane r j)
  exact congrArg₂ (fun (b : EReal) (f : Fin 1024 → EReal) => Finset.univ.fold max b f) ofBits_negInf e

/-- A row's sum, kept as a column entry: the sum over the row's 1024 lanes. -/
theorem laneSum_apply (src : FVec Ideal S1024x1024 .f32) (r : Fin 1024) (u : Fin 1) :
    shapeCast S1024x1 (multiReduction (F := Ideal) .add [1] S1024 src 0x00000000#32 reduces_S1024x1024_S1024 (.inl rfl) rfl)
        shapeCasts_S1024_S1024x1 (ix2 r u)
      = ∑ j : Fin 1024, src (ix2 r j) := by
  refine (Cert.Column.shapeCast_a_a1_apply _ shapeCasts_S1024_S1024x1 r u).trans ?_
  refine (Ideal.multiReduction_add_single src _ reduces_S1024x1024_S1024 (.inl rfl) rfl (ix1 r)).trans ?_
  exact Finset.sum_congr rfl fun j _ => congrArg src (lift_lane r j)

/-! ## The product of the weights with the key tile's features, at an entry -/

/-- Left operand, row axis: the output's row. -/
theorem lhs_0 (j : S1024x64.Idx) (k : dot_S1024x1024_S1024x64_S1024x64_1_0_0_1_n_n.contr.Idx) :
    (dot_S1024x1024_S1024x64_S1024x64_1_0_0_1_n_n.lhsIdx j k 0).val = (j 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl
/-- Left operand, lane axis: the contracted coordinate. -/
theorem lhs_1 (j : S1024x64.Idx) (k : dot_S1024x1024_S1024x64_S1024x64_1_0_0_1_n_n.contr.Idx) :
    (dot_S1024x1024_S1024x64_S1024x64_1_0_0_1_n_n.lhsIdx j k 1).val = (k ⟨0, by decide⟩).val :=
  dot_S1024x1024_S1024x64_S1024x64_1_0_0_1_n_n.lhsIdx_val_of_single rfl j k
/-- Right operand, row axis: the contracted coordinate. -/
theorem rhs_0 (j : S1024x64.Idx) (k : dot_S1024x1024_S1024x64_S1024x64_1_0_0_1_n_n.contr.Idx) :
    (dot_S1024x1024_S1024x64_S1024x64_1_0_0_1_n_n.rhsIdx j k 0).val = (k ⟨0, by decide⟩).val :=
  dot_S1024x1024_S1024x64_S1024x64_1_0_0_1_n_n.rhsIdx_val_of_single rfl j k
/-- Right operand, column axis: the output's column. -/
theorem rhs_1 (j : S1024x64.Idx) (k : dot_S1024x1024_S1024x64_S1024x64_1_0_0_1_n_n.contr.Idx) :
    (dot_S1024x1024_S1024x64_S1024x64_1_0_0_1_n_n.rhsIdx j k 1).val = (j 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-- A [1024,1024] by [1024,64] product into the zero accumulator, at `(r, d)`: the sum over the 1024 contracted lanes. -/
theorem mm_apply (A : FVec Ideal S1024x1024 .bf16) (B : FVec Ideal S1024x64 .bf16) (r : Fin 1024) (d : Fin 64) :
    matmul (F := Ideal) dot_S1024x1024_S1024x64_S1024x64_1_0_0_1_n_n none A B (constant (F := Ideal) S1024x64 .f32 0x00000000#32) (ix2 r d)
      = ∑ j : Fin 1024, A (ix2 r j) * B (ix2 j d) := by
  refine (Ideal.matmul_constant_zero_apply dot_S1024x1024_S1024x64_S1024x64_1_0_0_1_n_n none A B (ix2 r d)).trans ?_
  rw [← Equiv.sum_comp (contrEquiv1 dot_S1024x1024_S1024x64_S1024x64_1_0_0_1_n_n 1024 rfl rfl).symm]
  refine Finset.sum_congr rfl fun c _ => ?_
  have c2 := contrEquiv1_symm_val dot_S1024x1024_S1024x64_S1024x64_1_0_0_1_n_n 1024 rfl rfl c
  have l2 : dot_S1024x1024_S1024x64_S1024x64_1_0_0_1_n_n.lhsIdx (ix2 r d)
      ((contrEquiv1 dot_S1024x1024_S1024x64_S1024x64_1_0_0_1_n_n 1024 rfl rfl).symm c) = ix2 r c := by
    funext ax
    apply Fin.ext
    match ax with
    | ⟨0, _⟩ => exact lhs_0 _ _
    | ⟨1, _⟩ => exact (lhs_1 _ _).trans c2
  have r2 : dot_S1024x1024_S1024x64_S1024x64_1_0_0_1_n_n.rhsIdx (ix2 r d)
      ((contrEquiv1 dot_S1024x1024_S1024x64_S1024x64_1_0_0_1_n_n 1024 rfl rfl).symm c) = ix2 c d := by
    funext ax
    apply Fin.ext
    match ax with
    | ⟨0, _⟩ => exact (rhs_0 _ _).trans c2
    | ⟨1, _⟩ => exact rhs_1 _ _
  rw [l2, r2]

/-! ## The payloads at an entry -/

/-- The leaky slope and the finite sentinel, as the extended reals their words denote (never evaluated here). -/
abbrev slope : EReal := Ideal.ofBits .f32 0x3E4CCCCD#32
abbrev sentinel : EReal := Ideal.ofBits .f32 0xD9FFCB9E#32

variable (x0 : Vec Ideal S1024x1 .f32) (x1 : Vec Ideal S1x1024 .f32) (x2 : Vec Ideal S1024x1024 .f32) (x3 : Vec Ideal S1024x1024 .i32)

/-- The pre-activation of entry `(r, j)`. -/
def pre (r j : Fin 1024) : EReal := (x0 (ix2 r 0) + x1 (ix2 0 j)) * x2 (ix2 r j)

/-- The pre-activation as the body computes it: the column and the row spread over the square, added, times the
    adjacency weight. -/
theorem pre_eq (r j : Fin 1024) :
    mulf (F := Ideal) (φ := .f32)
        (addf (F := Ideal) (φ := .f32) (broadcastTo S1024x1024 (shapeCast S1024x1 x0 shapeCasts_S1024x1_S1024x1) broadcasts_S1024x1_S1024x1024)
          (broadcastTo S1024x1024 (shapeCast S1x1024 x1 shapeCasts_S1x1024_S1x1024) broadcasts_S1x1024_S1024x1024)) x2 (ix2 r j)
      = pre x0 x1 x2 r j :=
  congrArg₂ (fun (a b : EReal) => (a + b) * x2 (ix2 r j)) (col_spread x0 r j) (row_spread x1 r j)

/-- The masked score at `(r, j)`. -/
theorem score_apply (r j : Fin 1024) :
    k1_pay8 (F := Ideal) x0 x1 x2 x3 (ix2 r j)
      = Scalar.select (cmpi .sgt x3 (broadcast S1024x1024 (0#32 : BitVec 32)) (ix2 r j)) (max (pre x0 x1 x2 r j) (slope * pre x0 x1 x2 r j)) sentinel :=
  congrArg (fun (t : EReal) => Scalar.select (cmpi .sgt x3 (broadcast S1024x1024 (0#32 : BitVec 32)) (ix2 r j)) (max t (slope * t)) sentinel)
    (pre_eq x0 x1 x2 r j)

/-- The new running maximum of row `r`: the old one against the largest masked score of the row's 1024 lanes. -/
theorem newMax_apply (m : Vec Ideal S1024x1 .f32) (r : Fin 1024) :
    k1_pay9 (F := Ideal) x0 x1 x2 x3 m (ix2 r 0)
      = max (m (ix2 r 0)) (Finset.univ.fold max (⊥ : EReal) fun j : Fin 1024 => k1_pay8 (F := Ideal) x0 x1 x2 x3 (ix2 r j)) :=
  congrArg (fun (t : EReal) => max (m (ix2 r 0)) t) (laneMax_apply (k1_pay8 (F := Ideal) x0 x1 x2 x3) r 0)

/-- The rescaling factor of row `r`. -/
theorem corr_apply (m m' : Vec Ideal S1024x1 .f32) (r : Fin 1024) :
    k1_pay10 (F := Ideal) x0 x1 x2 x3 m m' (ix2 r 0) = Ideal.exp (m' (ix2 r 0) - k1_pay9 (F := Ideal) x0 x1 x2 x3 m (ix2 r 0)) :=
  rfl

/-- Lane `j`'s weight in row `r`. -/
theorem weight_apply (m : Vec Ideal S1024x1 .f32) (r j : Fin 1024) :
    k1_pay11 (F := Ideal) x0 x1 x2 x3 m (ix2 r j)
      = Ideal.exp (k1_pay8 (F := Ideal) x0 x1 x2 x3 (ix2 r j) - k1_pay9 (F := Ideal) x0 x1 x2 x3 m (ix2 r 0)) :=
  congrArg (fun (t : EReal) => Ideal.exp (k1_pay8 (F := Ideal) x0 x1 x2 x3 (ix2 r j) - t))
    (Cert.Column.broadcastTo_a1_ab_apply (k1_pay9 (F := Ideal) x0 x1 x2 x3 m) broadcasts_S1024x1_S1024x1024 r j)

/-- The new running sum of row `r`. -/
theorem newSum_apply (m m' l : Vec Ideal S1024x1 .f32) (r : Fin 1024) :
    k1_pay12 (F := Ideal) x0 x1 x2 x3 m m' l (ix2 r 0)
      = k1_pay10 (F := Ideal) x0 x1 x2 x3 m m' (ix2 r 0) * l (ix2 r 0)
        + (Ideal.ofBits .f32 0x00000000#32 + ∑ j : Fin 1024, k1_pay11 (F := Ideal) x0 x1 x2 x3 m (ix2 r j)) := by
  rw [Ideal.ofBits_zero_f32, zero_add]
  exact congrArg (fun (t : EReal) => k1_pay10 (F := Ideal) x0 x1 x2 x3 m m' (ix2 r 0) * l (ix2 r 0) + t)
    (laneSum_apply (k1_pay11 (F := Ideal) x0 x1 x2 x3 m) r 0)

/-- The new accumulator at `(r, d)`: the rescaled old one plus the row's weights against the key tile's features. -/
theorem newAcc_apply (corr : FVec Ideal S1024x1 .f32) (p : FVec Ideal S1024x1024 .f32) (hk : Vec Ideal S1024x64 .bf16) (acc : Vec Ideal S1024x64 .f32)
    (r : Fin 1024) (d : Fin 64) :
    k1_pay2 (F := Ideal) corr p hk acc (ix2 r d) = corr (ix2 r 0) * acc (ix2 r d) + ∑ j : Fin 1024, p (ix2 r j) * hk (ix2 j d) := by
  have hB : shapeCast S1024x64 hk shapeCasts_S1024x64_S1024x64 = hk := shapeCast_self hk shapeCasts_S1024x64_S1024x64
  have e1 := Cert.Column.broadcastTo_a1_ab_apply corr broadcasts_S1024x1_S1024x64 r d
  have e2 : matmul (F := Ideal) (φ₁ := .bf16) (φ₂ := .bf16) dot_S1024x1024_S1024x64_S1024x64_1_0_0_1_n_n none (truncf .bf16 p bitsLt_bf16_f32)
        (shapeCast S1024x64 hk shapeCasts_S1024x64_S1024x64) (constant (F := Ideal) S1024x64 .f32 0x00000000#32) (ix2 r d)
      = ∑ j : Fin 1024, p (ix2 r j) * hk (ix2 j d) := by
    refine (mm_apply (truncf .bf16 p bitsLt_bf16_f32) (shapeCast S1024x64 hk shapeCasts_S1024x64_S1024x64) r d).trans ?_
    refine Finset.sum_congr rfl fun j _ => ?_
    exact congrArg (fun (t : EReal) => p (ix2 r j) * t) (congrFun hB (ix2 j d))
  unfold k1_pay2
  refine (congrFun (shapeCast_self _ shapeCasts_S1024x64_S1024x64) (ix2 r d)).trans ?_
  exact congrArg₂ (fun (a b : EReal) => a * acc (ix2 r d) + b) e1 e2

/-- The stored output at `(r, d)`: the exponential linear unit of accumulator / sum. -/
theorem out_apply (acc : Vec Ideal S1024x64 .f32) (l : Vec Ideal S1024x1 .f32) (r : Fin 1024) (d : Fin 64) :
    k1_pay4 (F := Ideal) acc l (ix2 r d)
      = Scalar.select (Ideal.cmp .ogt (Ideal.div (acc (ix2 r d)) (l (ix2 r 0))) (Ideal.ofBits .f32 0x00000000#32))
          (Ideal.div (acc (ix2 r d)) (l (ix2 r 0)))
          (Ideal.exp (Ideal.div (acc (ix2 r d)) (l (ix2 r 0))) - Ideal.ofBits .f32 0x3F800000#32) :=
  congrArg (fun (t : EReal) => Scalar.select (Ideal.cmp .ogt (Ideal.div (acc (ix2 r d)) t) (Ideal.ofBits .f32 0x00000000#32))
      (Ideal.div (acc (ix2 r d)) t) (Ideal.exp (Ideal.div (acc (ix2 r d)) t) - Ideal.ofBits .f32 0x3F800000#32))
    (Cert.Column.broadcastTo_a1_ab_apply l broadcasts_S1024x1_S1024x64 r d)

/-- The reset values: the sentinel, zero, zero. -/
theorem resetMax_apply (y : S1024x1.Idx) : k1_pay5 (F := Ideal) y = sentinel :=
  congrFun (shapeCast_self (broadcast S1024x1 (Scalar.ofBits (F := Ideal) .f32 0xD9FFCB9E#32)) shapeCasts_S1024x1_S1024x1) y
theorem resetSum_apply (y : S1024x1.Idx) : k1_pay6 (F := Ideal) y = Ideal.ofBits .f32 0x00000000#32 :=
  congrFun (shapeCast_self (broadcast S1024x1 (Scalar.ofBits (F := Ideal) .f32 0x00000000#32)) shapeCasts_S1024x1_S1024x1) y
theorem resetAcc_apply (y : S1024x64.Idx) : k1_pay7 (F := Ideal) y = Ideal.ofBits .f32 0x00000000#32 :=
  congrFun (shapeCast_self (broadcast S1024x64 (Scalar.ofBits (F := Ideal) .f32 0x00000000#32)) shapeCasts_S1024x64_S1024x64) y

end Cert.KernelIdeal.PayIdx1

end
-- ==== Proof.KI.R1Row.lean ====
/-
  The first layer's kernel on the extended reals, row by row. When the region's arrays are real — the query
  column `s`, the key row `n`, the coefficients `M`, the features `h` — the three carried values of query row `r`
  of query tile `q` after key tile `k` are the real online-softmax state after `k + 1` tiles of that row's masked
  scores: the running maximum (started at the sentinel), the running sum and, for each feature column, the
  accumulator. The proof is an induction on the key tile: tile 0 starts from the reset values, a later tile from
  what the point before left, and one step on reals is one step of the body read entry by entry.
-/
import proofs.«404965_j38543036514339_3_alg».proof.Proof.KI.R1Pieces
import proofs.«404965_j38543036514339_3_alg».proof.Proof.KI.PayIdx1
import proofs.«404965_j38543036514339_3_alg».proof.Proof.KI.RowReal
import proofs.«404965_j38543036514339_3_alg».proof.Proof.Spec
import proofs.«404965_j38543036514339_3_alg».proof.Proof.Layer
import proofs.«404965_j38543036514339_3_alg».proof.Proof.Consts

set_option maxRecDepth 16384

noncomputable section

namespace Cert.KernelIdeal.R1

open Idealize.ShloMosaic Idealize.ShloMosaic.TcCoe Idealize.ShloMosaic.ValueIdx
open Idealize.SL.Sem
open Cert.KernelIdeal Cert.KernelIdeal.Gen

/-- Row `r` of query tile `q`, and lane `j` of key tile `κ`, as indices of the 8192 nodes. -/
def row (q : Fin 8) (r : Fin 1024) : Fin 8192 := ⟨1024 * q.val + r.val, by omega⟩
def key (κ : Fin 8) (j : Fin 1024) : Fin 8192 := ⟨1024 * κ.val + j.val, by omega⟩
/-- Point `8 q + k` of the grid. -/
def pt (q k : Fin 8) : Fin cfg1.N := ⟨8 * q.val + k.val, by have : cfg1.N = 64 := N_1; omega⟩

/-- The region's arrays as real arrays, with the leaky slope and the sentinel as reals. -/
structure RealEntry (V : (c : Dev nD) → (b : Ref sig .tc) → Buf (Elt Ideal) ((c : Thread nD τ).loc b)) (c : Dev nD) where
  sR : Fin 8192 → ℝ
  nR : Fin 8192 → ℝ
  MR : Fin 8192 → Fin 8192 → ℝ
  hR : Fin 8192 → Fin 64 → ℝ
  α : ℝ
  σ : ℝ
  hs : ∀ i, (V c main_v7 : S8192x1.Idx → EReal) (ix2 i 0) = (sR i : EReal)
  hn : ∀ j, (V c main_v9 : S1x8192.Idx → EReal) (ix2 0 j) = (nR j : EReal)
  hM : ∀ i j, (V c main_arg2 : S8192x8192.Idx → EReal) (ix2 i j) = (MR i j : EReal)
  hh : ∀ j d, (V c main_v10 : S8192x64.Idx → EReal) (ix2 j d) = (hR j d : EReal)
  hα : PayIdx1.slope = (α : EReal)
  hα0 : 0 < α
  hα1 : α < 1
  hσ : PayIdx1.sentinel = (σ : EReal)

theorem pt_div (q k : Fin 8) : (pt q k).val / 8 = q.val := by show (8 * q.val + k.val) / 8 = q.val; omega
theorem pt_mod (q k : Fin 8) : (pt q k).val % 8 = k.val := by show (8 * q.val + k.val) % 8 = k.val; omega

/-! ## Where each window's block sits in its array -/

/-- The printed index maps over the grid: point `t` is query tile `t / 8` against key tile `t % 8`; the column
    `s` and the output move with the query tile, the row `n` with the key tile, the coefficients and the adjacency
    with both, and the features stay whole. -/
theorem idx_facts : ∀ t : Fin cfg1.N,
    win1_0.index t (0 : Fin 2) = t.val / 8 ∧ win1_0.index t (1 : Fin 2) = 0
    ∧ win1_1.index t (0 : Fin 2) = 0 ∧ win1_1.index t (1 : Fin 2) = t.val % 8
    ∧ win1_2.index t (0 : Fin 2) = t.val / 8 ∧ win1_2.index t (1 : Fin 2) = t.val % 8
    ∧ win1_3.index t (0 : Fin 2) = t.val / 8 ∧ win1_3.index t (1 : Fin 2) = t.val % 8
    ∧ win1_4.index t (0 : Fin 2) = 0 ∧ win1_4.index t (1 : Fin 2) = 0
    ∧ win1_5.index t (0 : Fin 2) = t.val / 8 ∧ win1_5.index t (1 : Fin 2) = 0
    ∧ ((grid1.coords t) (1 : Fin 2)).val = t.val % 8 :=
  (by decide +kernel : ∀ t : Fin grid1.N, _)

section Blocks

variable (V : (c : Dev nD) → (b : Ref sig .tc) → Buf (Elt Ideal) ((c : Thread nD τ).loc b)) (c : Dev nD)

/-- The column's block at a point: the query tile's rows. -/
theorem blk_s (t : Fin cfg1.N) (q : Fin 8) (hq : t.val / 8 = q.val) (r : Fin 1024) :
    (iblk V c 0 t : S1024x1.Idx → EReal) (ix2 r 0) = (V c main_v7 : S8192x1.Idx → EReal) (ix2 (row q r) 0) := by
  obtain ⟨e0, e1, -⟩ := idx_facts t
  show (V c main_v7 : S8192x1.Idx → EReal) (((cfg1.win 0).blk t).view.emb (ix2 r 0)) = _
  refine congrArg (V c main_v7 : S8192x1.Idx → EReal) ?_
  funext a; apply Fin.ext
  match a with
  | ⟨0, _⟩ => show win1_0.index t (0 : Fin 2) * 1024 + 1 * r.val = 1024 * q.val + r.val; omega
  | ⟨1, _⟩ => show win1_0.index t (1 : Fin 2) * 1 + 1 * (0 : Fin 1).val = (0 : Fin 1).val; omega

/-- The row's block at a point: the key tile's lanes. -/
theorem blk_n (t : Fin cfg1.N) (k : Fin 8) (hk : t.val % 8 = k.val) (j : Fin 1024) :
    (iblk V c 1 t : S1x1024.Idx → EReal) (ix2 0 j) = (V c main_v9 : S1x8192.Idx → EReal) (ix2 0 (key k j)) := by
  obtain ⟨-, -, e0, e1, -⟩ := idx_facts t
  show (V c main_v9 : S1x8192.Idx → EReal) (((cfg1.win 1).blk t).view.emb (ix2 0 j)) = _
  refine congrArg (V c main_v9 : S1x8192.Idx → EReal) ?_
  funext a; apply Fin.ext
  match a with
  | ⟨0, _⟩ => show win1_1.index t (0 : Fin 2) * 1 + 1 * (0 : Fin 1).val = (0 : Fin 1).val; omega
  | ⟨1, _⟩ => show win1_1.index t (1 : Fin 2) * 1024 + 1 * j.val = 1024 * k.val + j.val; omega

/-- The coefficients' block at a point: the query tile's rows against the key tile's lanes. -/
theorem blk_M (t : Fin cfg1.N) (q k : Fin 8) (hq : t.val / 8 = q.val) (hk : t.val % 8 = k.val) (r j : Fin 1024) :
    (iblk V c 2 t : S1024x1024.Idx → EReal) (ix2 r j) = (V c main_arg2 : S8192x8192.Idx → EReal) (ix2 (row q r) (key k j)) := by
  obtain ⟨-, -, -, -, e0, e1, -⟩ := idx_facts t
  show (V c main_arg2 : S8192x8192.Idx → EReal) (((cfg1.win 2).blk t).view.emb (ix2 r j)) = _
  refine congrArg (V c main_arg2 : S8192x8192.Idx → EReal) ?_
  funext a; apply Fin.ext
  match a with
  | ⟨0, _⟩ => show win1_2.index t (0 : Fin 2) * 1024 + 1 * r.val = 1024 * q.val + r.val; omega
  | ⟨1, _⟩ => show win1_2.index t (1 : Fin 2) * 1024 + 1 * j.val = 1024 * k.val + j.val; omega

/-- The adjacency's block at a point, likewise. -/
theorem blk_A (t : Fin cfg1.N) (q k : Fin 8) (hq : t.val / 8 = q.val) (hk : t.val % 8 = k.val) (r j : Fin 1024) :
    (iblk V c 3 t : S1024x1024.Idx → BitVec 32) (ix2 r j) = (V c main_arg1 : S8192x8192.Idx → BitVec 32) (ix2 (row q r) (key k j)) := by
  obtain ⟨-, -, -, -, -, -, e0, e1, -⟩ := idx_facts t
  show (V c main_arg1 : S8192x8192.Idx → BitVec 32) (((cfg1.win 3).blk t).view.emb (ix2 r j)) = _
  refine congrArg (V c main_arg1 : S8192x8192.Idx → BitVec 32) ?_
  funext a; apply Fin.ext
  match a with
  | ⟨0, _⟩ => show win1_3.index t (0 : Fin 2) * 1024 + 1 * r.val = 1024 * q.val + r.val; omega
  | ⟨1, _⟩ => show win1_3.index t (1 : Fin 2) * 1024 + 1 * j.val = 1024 * k.val + j.val; omega

/-- The rows of the resident features the body loads at a point: the key tile's. -/
theorem blk_h (t : Fin cfg1.N) (k : Fin 8) (hk : t.val % 8 = k.val) (j : Fin 1024) (d : Fin 64) :
    (keyRows (grid1.coords t) (iblk V c 4 t) : S1024x64.Idx → EReal) (ix2 j d)
      = (V c main_v10 : S8192x64.Idx → EReal) (ix2 (key k j) d) := by
  obtain ⟨-, -, -, -, -, -, -, -, e0, e1, -, -, ek⟩ := idx_facts t
  have eo := k1_off1_eq (grid1.coords t)
  have o0 : k1_off1 (grid1.coords t) (0 : Fin 2) = 1024 * ((grid1.coords t) (1 : Fin 2)).val := by rw [eo]; rfl
  have o1 : k1_off1 (grid1.coords t) (1 : Fin 2) = 0 := by rw [eo]; rfl
  show (V c main_v10 : S8192x64.Idx → EReal) (((cfg1.win 4).blk t).view.emb
      ((Rect.unit (s := S8192x64) (k1_off1 (grid1.coords t)) S1024x64.size (k1_off1_inb (grid1.coords t))).idx (ix2 j d))) = _
  refine congrArg (V c main_v10 : S8192x64.Idx → EReal) ?_
  funext a; apply Fin.ext
  match a with
  | ⟨0, _⟩ =>
    show win1_4.index t (0 : Fin 2) * 8192 + 1 * (k1_off1 (grid1.coords t) (0 : Fin 2) + 1 * j.val) = 1024 * k.val + j.val
    omega
  | ⟨1, _⟩ =>
    show win1_4.index t (1 : Fin 2) * 64 + 1 * (k1_off1 (grid1.coords t) (1 : Fin 2) + 1 * d.val) = d.val
    omega

end Blocks

/-! ## One step of the body on blocks whose entries are reals -/

section OnReals

variable (x0 : Vec Ideal S1024x1 .f32) (x1 : Vec Ideal S1x1024 .f32) (x2 : Vec Ideal S1024x1024 .f32) (x3 : Vec Ideal S1024x1024 .i32)

/-- The masked score of an entry whose three operands are reals: the leaky rectifier of `(s + n) * M` where the
    adjacency word is positive, the sentinel elsewhere. -/
theorem score_real {α σ : ℝ} (hα : PayIdx1.slope = (α : EReal)) (h0 : 0 < α) (h1 : α < 1) (hσ : PayIdx1.sentinel = (σ : EReal))
    (r j : Fin 1024) (s n M : ℝ) (w : BitVec 32)
    (hx0 : x0 (ix2 r 0) = (s : EReal)) (hx1 : x1 (ix2 0 j) = (n : EReal)) (hx2 : x2 (ix2 r j) = (M : EReal))
    (hx3 : x3 (ix2 r j) = w) :
    k1_pay8 (F := Ideal) x0 x1 x2 x3 (ix2 r j)
      = (((if Scalar.cmpi .sgt w 0#32 = 1#1 then Layer.leaky α ((s + n) * M) else σ) : ℝ) : EReal) := by
  refine (PayIdx1.score_apply x0 x1 x2 x3 r j).trans ?_
  have hpre : PayIdx1.pre x0 x1 x2 r j = (((s : ℝ) : EReal) + ((n : ℝ) : EReal)) * ((M : ℝ) : EReal) := by
    unfold PayIdx1.pre; rw [hx0, hx1, hx2]
  have hbit : cmpi .sgt x3 (broadcast S1024x1024 (0#32 : BitVec 32)) (ix2 r j) = Scalar.cmpi .sgt w 0#32 :=
    congrArg (fun v : BitVec 32 => Scalar.cmpi .sgt v 0#32) hx3
  rw [hpre, hα, hσ, hbit]
  exact RowReal.score_coe h0 h1 _

/-- One step from a carried triple whose row `r` holds a real state, on a row of real scores `sc` and a column of
    real feature values `hv`: the new triple's row `r` holds the real step. -/
theorem stepOf_real (hk : Vec Ideal S1024x64 .bf16) (p : Carried Ideal) (r : Fin 1024) (d : Fin 64)
    (sc hv : Fin 1024 → ℝ) (st : Spec.St)
    (hsc : ∀ j, k1_pay8 (F := Ideal) x0 x1 x2 x3 (ix2 r j) = ((sc j : ℝ) : EReal))
    (hh : ∀ j, hk (ix2 j d) = ((hv j : ℝ) : EReal))
    (hm : p.1 (ix2 r 0) = ((st.m : ℝ) : EReal)) (hl : p.2.1 (ix2 r 0) = ((st.l : ℝ) : EReal))
    (ha : p.2.2 (ix2 r d) = ((st.a : ℝ) : EReal)) :
    (stepOf x0 x1 x2 x3 hk p).1 (ix2 r 0)
        = (((Spec.step st (Finset.univ.sup' Finset.univ_nonempty sc) sc hv).m : ℝ) : EReal)
    ∧ (stepOf x0 x1 x2 x3 hk p).2.1 (ix2 r 0)
        = (((Spec.step st (Finset.univ.sup' Finset.univ_nonempty sc) sc hv).l : ℝ) : EReal)
    ∧ (stepOf x0 x1 x2 x3 hk p).2.2 (ix2 r d)
        = (((Spec.step st (Finset.univ.sup' Finset.univ_nonempty sc) sc hv).a : ℝ) : EReal) := by
  have hfun : (fun j : Fin 1024 => k1_pay8 (F := Ideal) x0 x1 x2 x3 (ix2 r j)) = fun j => ((sc j : ℝ) : EReal) := funext hsc
  -- the new running maximum
  have hM : k1_pay9 (F := Ideal) x0 x1 x2 x3 p.1 (ix2 r 0)
      = (((Spec.step st (Finset.univ.sup' Finset.univ_nonempty sc) sc hv).m : ℝ) : EReal) := by
    refine (PayIdx1.newMax_apply x0 x1 x2 x3 p.1 r).trans ?_
    exact (congrArg₂ (fun (a : EReal) (f : Fin 1024 → EReal) => max a (Finset.univ.fold max (⊥ : EReal) f)) hm hfun).trans
      (RowReal.step_m st sc hv)
  -- the rescaling factor and the weights
  have hC : k1_pay10 (F := Ideal) x0 x1 x2 x3 p.1 p.1 (ix2 r 0)
      = Ideal.exp (((st.m : ℝ) : EReal) - (((Spec.step st (Finset.univ.sup' Finset.univ_nonempty sc) sc hv).m : ℝ) : EReal)) := by
    refine (PayIdx1.corr_apply x0 x1 x2 x3 p.1 p.1 r).trans ?_
    rw [hM, hm]
  have hW : ∀ j, k1_pay11 (F := Ideal) x0 x1 x2 x3 p.1 (ix2 r j)
      = Ideal.exp (((sc j : ℝ) : EReal) - (((Spec.step st (Finset.univ.sup' Finset.univ_nonempty sc) sc hv).m : ℝ) : EReal)) := by
    intro j
    refine (PayIdx1.weight_apply x0 x1 x2 x3 p.1 r j).trans ?_
    rw [hM, hsc j]
  have hWfun : (fun j : Fin 1024 => k1_pay11 (F := Ideal) x0 x1 x2 x3 p.1 (ix2 r j))
      = fun j => Ideal.exp (((sc j : ℝ) : EReal) - (((Spec.step st (Finset.univ.sup' Finset.univ_nonempty sc) sc hv).m : ℝ) : EReal)) :=
    funext hW
  refine ⟨?_, ?_, ?_⟩
  · show k1_pay3 (k1_pay9 (F := Ideal) x0 x1 x2 x3 p.1) (ix2 r 0) = _
    rw [PayIdx1.pay3_eq]
    exact hM
  · show k1_pay1 (k1_pay12 (F := Ideal) x0 x1 x2 x3 p.1 p.1 p.2.1) (ix2 r 0) = _
    rw [PayIdx1.pay1_eq]
    refine (PayIdx1.newSum_apply x0 x1 x2 x3 p.1 p.1 p.2.1 r).trans ?_
    rw [Ideal.ofBits_zero_f32, zero_add, hC, hl]
    have hS : (∑ j : Fin 1024, k1_pay11 (F := Ideal) x0 x1 x2 x3 p.1 (ix2 r j))
        = ∑ j : Fin 1024, Ideal.exp (((sc j : ℝ) : EReal) - (((Spec.step st (Finset.univ.sup' Finset.univ_nonempty sc) sc hv).m : ℝ) : EReal)) :=
      Finset.sum_congr rfl fun j _ => hW j
    rw [hS]
    exact RowReal.step_l st _ sc hv
  · show k1_pay2 (F := Ideal) (k1_pay10 (F := Ideal) x0 x1 x2 x3 p.1 p.1) (k1_pay11 (F := Ideal) x0 x1 x2 x3 p.1) hk p.2.2 (ix2 r d) = _
    refine (PayIdx1.newAcc_apply (k1_pay10 (F := Ideal) x0 x1 x2 x3 p.1 p.1) (k1_pay11 (F := Ideal) x0 x1 x2 x3 p.1) hk p.2.2 r d).trans ?_
    rw [hC, ha]
    have hS : (∑ j : Fin 1024, k1_pay11 (F := Ideal) x0 x1 x2 x3 p.1 (ix2 r j) * hk (ix2 j d))
        = ∑ j : Fin 1024, Ideal.exp (((sc j : ℝ) : EReal) - (((Spec.step st (Finset.univ.sup' Finset.univ_nonempty sc) sc hv).m : ℝ) : EReal)) * ((hv j : ℝ) : EReal) :=
      Finset.sum_congr rfl fun j _ => by rw [hW j, hh j]
    rw [hS]
    exact RowReal.step_a st _ sc hv

end OnReals

/-! ## What a point leaves, as steps -/

section Carried

variable (V : (c : Dev nD) → (b : Ref sig .tc) → Buf (Elt Ideal) ((c : Thread nD τ).loc b)) (c : Dev nD)

/-- The same point named by two equal numbers. -/
theorem outsAt_congr {n n' : ℕ} (h : n = n') (hn : n < cfg1.N) (hn' : n' < cfg1.N) : outsAt V c n hn = outsAt V c n' hn' := by
  subst h; rfl

/-- What a point leaves carried: at key tile 0 the step from the reset values, later the step from what the point
    before left. -/
theorem carried_reset (t : Fin cfg1.N) (hr : t.val % 8 = 0) :
    (outsAt V c t.val t.isLt).2 = stepAt V c t (k1_pay5 (F := Ideal), k1_pay6 (F := Ideal), k1_pay7 (F := Ideal)) := by
  have hl : ¬t.val % 8 = 7 := by omega
  rw [outsAt_reset V c t hr hl]
  exact carriedReset_eq V c t hr hl
theorem carried_step (t : Fin cfg1.N) (hr : ¬t.val % 8 = 0) :
    (outsAt V c t.val t.isLt).2 = stepAt V c t (prevCarried V c t) := by
  by_cases hl : t.val % 8 = 7
  · rw [outsAt_last V c t hr hl]
    exact carriedLast_eq V c t hr hl (prevCarried V c t)
  · rw [outsAt_mid V c t hr hl]
    exact carriedMid_eq V c t hr hl (prevCarried V c t)
/-- At key tile 7 the stored block is the epilogue of what the point leaves carried. -/
theorem out_eq (t : Fin cfg1.N) (hr : ¬t.val % 8 = 0) (hl : t.val % 8 = 7) :
    (outsAt V c t.val t.isLt).1 = k1_pay4 (stepAt V c t (prevCarried V c t)).2.2 (stepAt V c t (prevCarried V c t)).2.1 := by
  rw [outsAt_last V c t hr hl]
  dsimp only
  exact outLast_eq V c t hr hl (prevCarried V c t)

/-- Every row of the output array is in the block some flushing point writes back: row `i` lies in query tile
    `i / 1024`, written back after that tile's key tile 7. -/
theorem covered (y : S8192x64.Idx) :
    ∃ t : Fin cfg1.N, (cfg1.win 5).flush t = true ∧ y ∈ ((cfg1.win 5).blk t).view.set := by
  have h0 : (y 0).val < 8192 := (y 0).isLt
  have h1 : (y 1).val < 64 := (y 1).isLt
  have hq8 : (y 0).val / 1024 < 8 := by omega
  obtain ⟨e0, e1⟩ : win1_5.index (pt ⟨(y 0).val / 1024, hq8⟩ 7) (0 : Fin 2) = (y 0).val / 1024
      ∧ win1_5.index (pt ⟨(y 0).val / 1024, hq8⟩ 7) (1 : Fin 2) = 0 := by
    obtain ⟨-, -, -, -, -, -, -, -, -, -, e0, e1, -⟩ := idx_facts (pt ⟨(y 0).val / 1024, hq8⟩ 7)
    exact ⟨e0.trans (pt_div _ 7), e1⟩
  refine ⟨pt ⟨(y 0).val / 1024, hq8⟩ 7, (flush0_5 _).mpr (pt_mod _ 7), ?_⟩
  show y ∈ ((View.whole main_v11).slice (win1_5.rect (pt ⟨(y 0).val / 1024, hq8⟩ 7))).set
  rw [View.set_slice_whole, Rect.mem_set_unit]
  intro a
  match a with
  | ⟨0, _⟩ =>
    show win1_5.index (pt ⟨(y 0).val / 1024, hq8⟩ 7) (0 : Fin 2) * 1024 ≤ (y 0).val
      ∧ (y 0).val < win1_5.index (pt ⟨(y 0).val / 1024, hq8⟩ 7) (0 : Fin 2) * 1024 + 1024
    omega
  | ⟨1, _⟩ =>
    show win1_5.index (pt ⟨(y 0).val / 1024, hq8⟩ 7) (1 : Fin 2) * 64 ≤ (y 1).val
      ∧ (y 1).val < win1_5.index (pt ⟨(y 0).val / 1024, hq8⟩ 7) (1 : Fin 2) * 64 + 64
    omega

end Carried

variable {V : (c : Dev nD) → (b : Ref sig .tc) → Buf (Elt Ideal) ((c : Thread nD τ).loc b)} {c : Dev nD} (R : RealEntry V c)

/-- The adjacency test both programs make, entry by entry: the word is positive as a signed integer. -/
def edge (V : (c : Dev nD) → (b : Ref sig .tc) → Buf (Elt Ideal) ((c : Thread nD τ).loc b)) (c : Dev nD) (i j : Fin 8192) : Prop :=
  Scalar.cmpi .sgt ((V c main_arg1 : S8192x8192.Idx → BitVec 32) (ix2 i j)) 0#32 = 1#1
instance (i j : Fin 8192) : Decidable (edge V c i j) := by unfold edge; infer_instance

/-- The real masked scores of the whole graph. -/
def scoreR : Fin 8192 → Fin 8192 → ℝ := Layer.score R.α R.σ (edge V c) R.sR R.nR R.MR

/-- Key tile `κ`'s scores and feature column `d` for query row `row q r`, and the tile's largest score. -/
def tileS (q : Fin 8) (r : Fin 1024) : Fin 8 → Fin 1024 → ℝ := fun κ j => scoreR R (row q r) (key κ j)
def tileH (d : Fin 64) : Fin 8 → Fin 1024 → ℝ := fun κ j => R.hR (key κ j) d
def tileMax (q : Fin 8) (r : Fin 1024) : Fin 8 → ℝ := fun κ => Finset.univ.sup' Finset.univ_nonempty (tileS R q r κ)

/-- The online-softmax state of row `row q r` and feature column `d` after key tiles `0 … k`. -/
def stateAt (q k : Fin 8) (r : Fin 1024) (d : Fin 64) : Spec.St :=
  Spec.run R.σ (tileMax R q r) (tileS R q r) (tileH R d) (k.val + 1) (by omega)

/-- A tile's masked score, with the adjacency test written out. -/
theorem tileS_eq (q : Fin 8) (r : Fin 1024) (κ : Fin 8) (j : Fin 1024) :
    tileS R q r κ j
      = if Scalar.cmpi .sgt ((V c main_arg1 : S8192x8192.Idx → BitVec 32) (ix2 (row q r) (key κ j))) 0#32 = 1#1
        then Layer.leaky R.α ((R.sR (row q r) + R.nR (key κ j)) * R.MR (row q r) (key κ j)) else R.σ := by
  unfold tileS scoreR Layer.score
  by_cases h : edge V c (row q r) (key κ j)
  · rw [if_pos h, if_pos (show Scalar.cmpi .sgt ((V c main_arg1 : S8192x8192.Idx → BitVec 32) (ix2 (row q r) (key κ j))) 0#32 = 1#1 from h)]
  · rw [if_neg h, if_neg (show ¬Scalar.cmpi .sgt ((V c main_arg1 : S8192x8192.Idx → BitVec 32) (ix2 (row q r) (key κ j))) 0#32 = 1#1 from h)]

/-- The state after one more tile is one step from the state before. -/
theorem stateAt_zero (q : Fin 8) (r : Fin 1024) (d : Fin 64) (h0 : 0 < 8) :
    stateAt R q ⟨0, h0⟩ r d
      = Spec.step ⟨R.σ, 0, 0⟩ (tileMax R q r ⟨0, h0⟩) (tileS R q r ⟨0, h0⟩) (tileH R d ⟨0, h0⟩) := rfl
theorem stateAt_succ (q : Fin 8) (r : Fin 1024) (d : Fin 64) (n : ℕ) (hn : n + 1 < 8) :
    stateAt R q ⟨n + 1, hn⟩ r d
      = Spec.step (stateAt R q ⟨n, Nat.lt_of_succ_lt hn⟩ r d) (tileMax R q r ⟨n + 1, hn⟩) (tileS R q r ⟨n + 1, hn⟩) (tileH R d ⟨n + 1, hn⟩) := rfl

/-- The step at a point, on a carried triple whose row `r` holds a real state: the real step over the point's key
    tile. -/
theorem stepAt_real (t : Fin cfg1.N) (q k : Fin 8) (hq : t.val / 8 = q.val) (hk : t.val % 8 = k.val) (r : Fin 1024) (d : Fin 64)
    (p : Carried Ideal) (st : Spec.St)
    (hm : p.1 (ix2 r 0) = ((st.m : ℝ) : EReal)) (hl : p.2.1 (ix2 r 0) = ((st.l : ℝ) : EReal))
    (ha : p.2.2 (ix2 r d) = ((st.a : ℝ) : EReal)) :
    (stepAt V c t p).1 (ix2 r 0) = (((Spec.step st (tileMax R q r k) (tileS R q r k) (tileH R d k)).m : ℝ) : EReal)
    ∧ (stepAt V c t p).2.1 (ix2 r 0) = (((Spec.step st (tileMax R q r k) (tileS R q r k) (tileH R d k)).l : ℝ) : EReal)
    ∧ (stepAt V c t p).2.2 (ix2 r d) = (((Spec.step st (tileMax R q r k) (tileS R q r k) (tileH R d k)).a : ℝ) : EReal) := by
  have hsc : ∀ j, k1_pay8 (F := Ideal) (iblk V c 0 t) (iblk V c 1 t) (iblk V c 2 t) (iblk V c 3 t) (ix2 r j)
      = ((tileS R q r k j : ℝ) : EReal) := by
    intro j
    rw [tileS_eq R q r k j]
    exact score_real (iblk V c 0 t) (iblk V c 1 t) (iblk V c 2 t) (iblk V c 3 t) R.hα R.hα0 R.hα1 R.hσ r j
      (R.sR (row q r)) (R.nR (key k j)) (R.MR (row q r) (key k j))
      ((V c main_arg1 : S8192x8192.Idx → BitVec 32) (ix2 (row q r) (key k j)))
      ((blk_s V c t q hq r).trans (R.hs (row q r))) ((blk_n V c t k hk j).trans (R.hn (key k j)))
      ((blk_M V c t q k hq hk r j).trans (R.hM (row q r) (key k j))) (blk_A V c t q k hq hk r j)
  have hh : ∀ j, (keyRows (grid1.coords t) (iblk V c 4 t) : S1024x64.Idx → EReal) (ix2 j d) = ((tileH R d k j : ℝ) : EReal) :=
    fun j => (blk_h V c t k hk j d).trans (R.hh (key k j) d)
  exact stepOf_real (iblk V c 0 t) (iblk V c 1 t) (iblk V c 2 t) (iblk V c 3 t) (keyRows (grid1.coords t) (iblk V c 4 t)) p r d
    (tileS R q r k) (tileH R d k) st hsc hh hm hl ha

/-- THE ROW INVARIANT: after point `8 q + k` the carried buffers hold, in row `r`, that state. -/
theorem carried_row (q k : Fin 8) (r : Fin 1024) (d : Fin 64) :
    (outsAt V c (pt q k).val (pt q k).isLt).2.1 (ix2 r 0) = ((stateAt R q k r d).m : EReal)
    ∧ (outsAt V c (pt q k).val (pt q k).isLt).2.2.1 (ix2 r 0) = ((stateAt R q k r d).l : EReal)
    ∧ (outsAt V c (pt q k).val (pt q k).isLt).2.2.2 (ix2 r d) = ((stateAt R q k r d).a : EReal) := by
  obtain ⟨kv, hkv⟩ := k
  induction kv with
  | zero =>
    -- key tile 0: one step from the sentinel, zero, zero
    have hq := pt_div q ⟨0, hkv⟩
    have hk := pt_mod q ⟨0, hkv⟩
    rw [carried_reset V c (pt q ⟨0, hkv⟩) hk, stateAt_zero R q r d hkv]
    exact stepAt_real R (pt q ⟨0, hkv⟩) q ⟨0, hkv⟩ hq hk r d (k1_pay5 (F := Ideal), k1_pay6 (F := Ideal), k1_pay7 (F := Ideal)) ⟨R.σ, 0, 0⟩
      ((PayIdx1.resetMax_apply (ix2 r 0)).trans R.hσ)
      ((PayIdx1.resetSum_apply (ix2 r 0)).trans (Ideal.ofBits_zero_f32.trans EReal.coe_zero.symm))
      ((PayIdx1.resetAcc_apply (ix2 r d)).trans (Ideal.ofBits_zero_f32.trans EReal.coe_zero.symm))
  | succ n ih =>
    -- a later key tile: one step from what the point before left, which holds the state before
    have hq := pt_div q ⟨n + 1, hkv⟩
    have hk := pt_mod q ⟨n + 1, hkv⟩
    have hr : ¬(pt q ⟨n + 1, hkv⟩).val % 8 = 0 := by rw [hk]; exact Nat.succ_ne_zero n
    obtain ⟨im, il, ia⟩ := ih (Nat.lt_of_succ_lt hkv)
    have hval : (pt q ⟨n + 1, hkv⟩).val - 1 = (pt q ⟨n, Nat.lt_of_succ_lt hkv⟩).val := by
      show 8 * q.val + (n + 1) - 1 = 8 * q.val + n; omega
    have hprev : prevCarried V c (pt q ⟨n + 1, hkv⟩)
        = (outsAt V c (pt q ⟨n, Nat.lt_of_succ_lt hkv⟩).val (pt q ⟨n, Nat.lt_of_succ_lt hkv⟩).isLt).2 :=
      congrArg Prod.snd (outsAt_congr V c hval _ _)
    rw [carried_step V c (pt q ⟨n + 1, hkv⟩) hr, stateAt_succ R q r d n hkv]
    exact stepAt_real R (pt q ⟨n + 1, hkv⟩) q ⟨n + 1, hkv⟩ hq hk r d (prevCarried V c (pt q ⟨n + 1, hkv⟩))
      (stateAt R q ⟨n, Nat.lt_of_succ_lt hkv⟩ r d)
      (by rw [hprev]; exact im) (by rw [hprev]; exact il) (by rw [hprev]; exact ia)

/-- The sums over the eight tiles of a row are the sums over the 8192 keys. -/
theorem tiles_num (q : Fin 8) (r : Fin 1024) (d : Fin 64) :
    (∑ κ : Fin 8, ∑ j : Fin 1024, Real.exp (tileS R q r κ j) * tileH R d κ j)
      = ∑ i : Fin 8192, Real.exp (scoreR R (row q r) i) * R.hR i d :=
  RowReal.sum_tiles (fun i : Fin 8192 => Real.exp (scoreR R (row q r) i) * R.hR i d)
theorem tiles_den (q : Fin 8) (r : Fin 1024) :
    (∑ κ : Fin 8, ∑ j : Fin 1024, Real.exp (tileS R q r κ j))
      = ∑ i : Fin 8192, Real.exp (scoreR R (row q r) i) :=
  RowReal.sum_tiles (fun i : Fin 8192 => Real.exp (scoreR R (row q r) i))

/-- After the eighth tile the quotient of accumulator by sum is the quotient of the whole row's plain sums, and the
    sum is positive. -/
theorem state_last (q : Fin 8) (r : Fin 1024) (d : Fin 64) :
    0 < (stateAt R q 7 r d).l
    ∧ Layer.elu ((stateAt R q 7 r d).a / (stateAt R q 7 r d).l) = Layer.attend (scoreR R) R.hR (row q r) d := by
  have h8 : stateAt R q 7 r d = Spec.run R.σ (tileMax R q r) (tileS R q r) (tileH R d) 8 le_rfl := rfl
  rw [h8]
  refine ⟨Spec.run_l_pos R.σ (tileMax R q r) (tileS R q r) (tileH R d) 8 le_rfl (by decide), ?_⟩
  have e := Spec.run_quot (K := 8) (by decide) R.σ (tileMax R q r) (tileS R q r) (tileH R d)
  rw [tiles_num R q r d, tiles_den R q r] at e
  exact congrArg Layer.elu e

/-- The block stored at key tile 7 is the layer's output on the query tile's rows. -/
theorem out_block (q : Fin 8) (r : Fin 1024) (d : Fin 64) :
    (outsAt V c (pt q 7).val (pt q 7).isLt).1 (ix2 r d) = ((Layer.attend (scoreR R) R.hR (row q r) d : ℝ) : EReal) := by
  have hk := pt_mod q 7
  have hr : ¬(pt q 7).val % 8 = 0 := by rw [hk]; decide
  have hl : (pt q 7).val % 8 = 7 := hk
  obtain ⟨-, cl, ca⟩ := carried_row R q 7 r d
  rw [carried_step V c (pt q 7) hr] at cl ca
  obtain ⟨hpos, hquot⟩ := state_last R q r d
  rw [out_eq V c (pt q 7) hr hl]
  refine (PayIdx1.out_apply (stepAt V c (pt q 7) (prevCarried V c (pt q 7))).2.2 (stepAt V c (pt q 7) (prevCarried V c (pt q 7))).2.1 r d).trans ?_
  rw [ca, cl, RowReal.div_coe_pos _ _ (ne_of_gt hpos), RowReal.elu_coe, hquot]

/-- The same at any index of the block. -/
theorem out_block_idx (q : Fin 8) (y : S1024x64.Idx) :
    (outsAt V c (pt q 7).val (pt q 7).isLt).1 y = ((Layer.attend (scoreR R) R.hR (row q (y 0)) (y 1) : ℝ) : EReal) := by
  exact (congrArg (fun z : S1024x64.Idx => (outsAt V c (pt q 7).val (pt q 7).isLt).1 z) (eq_ix2 y)).trans
    (out_block R q (y 0) (y 1))

/-- The layer's output as contents of the output array. -/
def outG : S8192x64.Idx → EReal := fun y => ((Layer.attend (scoreR R) R.hR (y 0) (y 1) : ℝ) : EReal)

/-- What a flushing point writes back is its block of the layer's output. -/
theorem flushed_eq (t : Fin cfg1.N) (hf : (cfg1.win 5).flush t = true) :
    (dat0 V c).flushed 5 t = ((cfg1.win 5).blk t).view.read (Elt Ideal) (outG R) := by
  have h7 : t.val % 8 = 7 := (flush0_5 t).mp hf
  have hN : t.val < 64 := lt_of_lt_of_eq t.isLt (show cfg1.N = 64 from N_1)
  obtain ⟨q, rfl⟩ : ∃ q : Fin 8, t = pt q 7 :=
    ⟨⟨t.val / 8, by omega⟩, Fin.ext (show t.val = 8 * (t.val / 8) + 7 by omega)⟩
  obtain ⟨-, -, -, -, -, -, -, -, -, -, e0, e1, -⟩ := idx_facts (pt q 7)
  have hq := pt_div q 7
  show (cfg1.win 5).cut (grid1.coords (pt q 7)) ((dat0 V c).after 5 (pt q 7)) = _
  rw [after_5]
  funext y
  show (outsAt V c (pt q 7).val (pt q 7).isLt).1 y = outG R (((cfg1.win 5).blk (pt q 7)).view.emb y)
  rw [out_block_idx R q y]
  show _ = ((Layer.attend (scoreR R) R.hR ((((cfg1.win 5).blk (pt q 7)).view.emb y) 0) ((((cfg1.win 5).blk (pt q 7)).view.emb y) 1) : ℝ) : EReal)
  have a0 : ((((cfg1.win 5).blk (pt q 7)).view.emb y) 0 : Fin 8192) = row q (y 0) :=
    Fin.ext (show win1_5.index (pt q 7) (0 : Fin 2) * 1024 + 1 * (y 0).val = 1024 * q.val + (y 0).val by omega)
  have a1 : ((((cfg1.win 5).blk (pt q 7)).view.emb y) 1 : Fin 64) = y 1 :=
    Fin.ext (show win1_5.index (pt q 7) (1 : Fin 2) * 64 + 1 * (y 1).val = (y 1).val by omega)
  rw [a0, a1]

/-- What the region leaves in its output array: the layer's output, entry by entry (the eight blocks written back
    after key tile 7 of each query tile cover the array's rows). -/
theorem out_array (i : Fin 8192) (d : Fin 64) :
    ((dat0 V c).arrAt 5 cfg1.N : S8192x64.Idx → EReal) (ix2 i d) = ((Layer.attend (scoreR R) R.hR i d : ℝ) : EReal) :=
  congrFun ((dat0 V c).arrAt_eq_of_cover 5 (outG R) (fun t hf => flushed_eq R t hf) covered) (ix2 i d)

end Cert.KernelIdeal.R1

end
-- ==== Proof.KI.Value.lean ====
/-
  What the idealized kernel program leaves in its result array, on the extended reals. With the arguments real,
  the first region's output array holds the first layer (the row invariant of its kernel and the cover by its
  eight written-back blocks); the second stretch of host operations turns that into the second layer's features,
  column and row exactly as the first stretch did for the first layer; and the second region's output array, which
  is the result, holds the second layer on the first's output: the two stacked layers.
-/
import proofs.«404965_j38543036514339_3_alg».proof.Proof.KI.Segs
import proofs.«404965_j38543036514339_3_alg».proof.Proof.KI.Host
import proofs.«404965_j38543036514339_3_alg».proof.Proof.KI.Host1
import proofs.«404965_j38543036514339_3_alg».proof.Proof.KI.R0Row
import proofs.«404965_j38543036514339_3_alg».proof.Proof.KI.R1Row
import proofs.«404965_j38543036514339_3_alg».proof.Proof.Consts

set_option maxRecDepth 16384

noncomputable section

namespace Cert.KernelIdeal.Value

open Idealize.ShloMosaic Idealize.ShloMosaic.TcCoe Idealize.ShloMosaic.ValueIdx
open Idealize.SL.Sem
open Cert.KernelIdeal Cert.KernelIdeal.Gen

variable {m : (ℓ : Loc nD τ sig) → Buf (Elt Ideal) ℓ} {c : Dev nD} (A : HostV.RealArgs m c)

/-- The adjacency test on the launch contents' words. -/
def edgeOf (m : (ℓ : Loc nD τ sig) → Buf (Elt Ideal) ℓ) (c : Dev nD) (i j : Fin 8192) : Prop :=
  Scalar.cmpi .sgt ((m ((c.tc : Thread nD τ).loc main_arg1) : S8192x8192.Idx → BitVec 32) (ix2 i j)) 0#32 = 1#1
instance (i j : Fin 8192) : Decidable (edgeOf m c i j) := by unfold edgeOf; infer_instance

/-- The parameters the arguments are. -/
def paramsOf : Layer.Params where
  x := A.xR
  M := A.MR
  W0 := A.W0R
  aS0 := A.aS0R
  aN0 := A.aN0R
  W1 := A.W1R
  aS1 := A.aS1R
  aN1 := A.aN1R
  α := Classical.choose Consts.slope_real
  σ := Classical.choose Consts.sentinel_real
  edge := edgeOf m c
  dec := fun _ _ => inferInstance

/-- The masked scores depend on the adjacency predicate only through its truth values: two predicates that hold
    at the same pairs give the same scores, whatever procedures decide them. -/
theorem score_congr {N : ℕ} (α σ : ℝ) (e e' : Fin N → Fin N → Prop) [∀ i j, Decidable (e i j)] [∀ i j, Decidable (e' i j)]
    (h : ∀ i j, e i j ↔ e' i j) (s n : Fin N → ℝ) (M : Fin N → Fin N → ℝ) :
    Layer.score α σ e s n M = Layer.score α σ e' s n M := by
  funext i j
  unfold Layer.score
  exact if_congr (h i j) rfl rfl

/-- The first region reads the adjacency words as launched: no host operation of the first stretch writes them. -/
theorem edge0_iff (i j : Fin 8192) : R0.edge (HostV.Ventry0 m) c i j ↔ edgeOf m c i j :=
  Iff.of_eq (congrArg (fun b : S8192x8192.Idx → BitVec 32 => Scalar.cmpi .sgt (b (ix2 i j)) 0#32 = 1#1) HostV.arg1_eq)

/-- The first region's output array is the first layer. -/
theorem hidden_value (i : Fin 8192) (d : Fin 256) :
    (Run.W2 (F := Ideal) m c (Proc.devRef .tc main_v5) : S8192x256.Idx → EReal) (ix2 i d) = ((paramsOf A).hidden i d : EReal) := by
  have e : Run.W2 (F := Ideal) m c (Proc.devRef .tc main_v5) = (R0.dat0 (HostV.Ventry0 m) c).arrAt 5 cfg0.N := Run.W2_arr m c 5
  rw [e]
  refine (R0.out_array (HostV.entry0 A) i d).trans ?_
  -- the region's scores are the layer's: the column and the row are the features' projections, and the adjacency
  -- test is the launch contents'
  have hs : R0.scoreR (HostV.entry0 A)
      = Layer.score (paramsOf A).α (paramsOf A).σ (edgeOf m c) (Layer.proj (Layer.dense A.xR A.W0R) A.aS0R)
          (Layer.proj (Layer.dense A.xR A.W0R) A.aN0R) A.MR :=
    score_congr _ _ _ _ edge0_iff _ _ _
  rw [hs]
  rfl

/-- The second region reads the adjacency words as launched too: neither host stretch writes them and the first
    region only stages them in. -/
theorem edge1_iff (i j : Fin 8192) : R1.edge (Run.V3 (F := Ideal) m) c i j ↔ edgeOf m c i j :=
  Iff.of_eq (congrArg (fun b : S8192x8192.Idx → BitVec 32 => Scalar.cmpi .sgt (b (ix2 i j)) 0#32 = 1#1) HostV.arg1_eq3)

/-- The second region is entered at real arrays: the second stretch of host operations on the first layer's output
    gives the second layer's features, their column and their row; the coefficient matrix is the argument's. -/
def entry1 : R1.RealEntry (Run.V3 (F := Ideal) m) c where
  sR := Layer.proj (Layer.dense (paramsOf A).hidden A.W1R) A.aS1R
  nR := Layer.proj (Layer.dense (paramsOf A).hidden A.W1R) A.aN1R
  MR := A.MR
  hR := Layer.dense (paramsOf A).hidden A.W1R
  α := Classical.choose Consts.slope_real
  σ := Classical.choose Consts.sentinel_real
  hs := HostV.v7_apply A (paramsOf A).hidden (hidden_value A)
  hn := HostV.v9_apply A (paramsOf A).hidden (hidden_value A)
  hM := HostV.arg2_apply3 A
  hh := HostV.v10_apply A (paramsOf A).hidden (hidden_value A)
  hα := (Classical.choose_spec Consts.slope_real).1
  hα0 := (Classical.choose_spec Consts.slope_real).2.1
  hα1 := (Classical.choose_spec Consts.slope_real).2.2
  hσ := Classical.choose_spec Consts.sentinel_real

/-- THE KERNEL'S VALUE: the result array, entry by entry, is the two stacked layers of the real arguments. -/
theorem kernel_value (i : Fin 8192) (d : Fin 64) :
    (Run.W4 (F := Ideal) m c (Proc.devRef .tc main_v11) : S8192x64.Idx → EReal) (ix2 i d) = ((paramsOf A).final i d : EReal) := by
  rw [Run.W4_main_v11]
  refine (R1.out_array (entry1 A) i d).trans ?_
  have hs : R1.scoreR (entry1 A)
      = Layer.score (paramsOf A).α (paramsOf A).σ (edgeOf m c) (Layer.proj (Layer.dense (paramsOf A).hidden A.W1R) A.aS1R)
          (Layer.proj (Layer.dense (paramsOf A).hidden A.W1R) A.aN1R) A.MR :=
    score_congr _ _ _ _ edge1_iff _ _ _
  rw [hs]
  rfl

end Cert.KernelIdeal.Value

end
-- ==== Proof.RefRead.lean ====
/-
  The idealized reference read at an index. Its run leaves in the result array the composition of its host
  operations applied to the launch contents; when the eight float arguments are real arrays this is, entry by
  entry, the two stacked attention layers of those reals: each layer's dense product and two projections, the
  scores `leaky ((s i + n j) * M i j)` on the edges and the sentinel elsewhere, a softmax along each row (the row's
  largest score subtracted first: a finite shift, which cancels), the weights against the features, and the
  exponential linear unit (spelt with `exp x - 1` on the non-positive side, guarded by a select that never changes
  its value there).

  First the operations one at a time, read at an index over variables of the literal vector types: a column laid
  along the rows, a vector stood up as a column, a row's maximum and sum, the shifted exponential, the quotient by
  the row's sum, a plain matrix product, the rectifier, the mask and the unit. Every entry met is the coercion of a
  real, so each lemma carries the coercion outwards. Then, for each layer, each buffer of the line as its operation
  applied to the buffers before it, and the chain of readings from the arguments to the layer's result.
-/
import proofs.«404965_j38543036514339_3_alg».proof.Proof.RefRun
import proofs.«404965_j38543036514339_3_alg».proof.Proof.Layer
import proofs.«404965_j38543036514339_3_alg».proof.Proof.Spec
import proofs.«404965_j38543036514339_3_alg».proof.Proof.Consts
import proofs.«404965_j38543036514339_3_alg».proof.Proof.KI.RowReal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost
import Idealize.ShloMosaic.Lib.KernelVsHost
import Idealize.ShloMosaic.Lib.StackMember

set_option maxRecDepth 16384

noncomputable section

namespace Cert.ReferenceIdeal.RefRead

open Idealize.ShloMosaic Idealize.ShloMosaic.TcCoe Idealize.ShloMosaic.ValueIdx Idealize.ShloMosaic.StableHlo
open Idealize.SL.Sem
open Cert.ReferenceIdeal Cert.ReferenceIdeal.Gen Cert.ReferenceIdeal.RefRun

/-- The reference's memory on core `c` read as the parameters `P`: each float argument the coercion of `P`'s
    array, the adjacency predicate the signed-positive test on the integer argument's words, the two shared float
    words the coercions of `P`'s slope (strictly between 0 and 1) and sentinel. -/
structure Reads (m : (ℓ : Loc nD τ sig) → Buf (Elt Ideal) ℓ) (c : Dev nD) (P : Layer.Params) : Prop where
  hx : ∀ i k, (m ((c.tc : Thread nD τ).loc main_arg0) : S8192x512.Idx → EReal) (ix2 i k) = (P.x i k : EReal)
  hM : ∀ i j, (m ((c.tc : Thread nD τ).loc main_arg2) : S8192x8192.Idx → EReal) (ix2 i j) = (P.M i j : EReal)
  hW0 : ∀ k d, (m ((c.tc : Thread nD τ).loc main_arg3) : S512x256.Idx → EReal) (ix2 k d) = (P.W0 k d : EReal)
  haS0 : ∀ d, (m ((c.tc : Thread nD τ).loc main_arg4) : S256x1.Idx → EReal) (ix2 d 0) = (P.aS0 d : EReal)
  haN0 : ∀ d, (m ((c.tc : Thread nD τ).loc main_arg5) : S256x1.Idx → EReal) (ix2 d 0) = (P.aN0 d : EReal)
  hW1 : ∀ k d, (m ((c.tc : Thread nD τ).loc main_arg6) : S256x64.Idx → EReal) (ix2 k d) = (P.W1 k d : EReal)
  haS1 : ∀ d, (m ((c.tc : Thread nD τ).loc main_arg7) : S64x1.Idx → EReal) (ix2 d 0) = (P.aS1 d : EReal)
  haN1 : ∀ d, (m ((c.tc : Thread nD τ).loc main_arg8) : S64x1.Idx → EReal) (ix2 d 0) = (P.aN1 d : EReal)
  hedge : ∀ i j, P.edge i j ↔ Scalar.cmpi .sgt ((m ((c.tc : Thread nD τ).loc main_arg1) : S8192x8192.Idx → BitVec 32) (ix2 i j)) 0#32 = 1#1
  hα : Ideal.ofBits .f32 0x3E4CCCCD#32 = (P.α : EReal)
  hα0 : 0 < P.α
  hα1 : P.α < 1
  hσ : Ideal.ofBits .f32 0xD9FFCB9E#32 = (P.σ : EReal)

/-! ## The operations read at an index -/

section Generic
variable {α : Type}

/-- A column laid along every row reads, at `(i, j)`, the column's entry `i`. -/
theorem bcast_col_apply {N M : Nat} (h : (⟨2, ![N, 1]⟩ : Shape).BroadcastsInDim ⟨2, ![N, M]⟩ ![0, 1])
    (x : (⟨2, ![N, 1]⟩ : Shape).Idx → α) (i : Fin N) (j : Fin M) :
    broadcastInDim ⟨2, ![N, M]⟩ ![0, 1] h x (ix2 i j) = x (ix2 i (0 : Fin 1)) := by
  refine broadcastInDim_apply ![0, 1] h x (ix2 i j) (ix2 i (0 : Fin 1)) ?_
  intro a
  fin_cases a
  · show i.val = if N = 1 then 0 else i.val
    split_ifs with hn
    · have := i.isLt; omega
    · rfl
  · show (0 : ℕ) = if (1 : ℕ) = 1 then 0 else _
    simp

/-- A vector stood up as a column reads, at `(i, 0)`, the vector's entry `i`. -/
theorem bcast_vec_col_apply {N : Nat} (h : (⟨1, ![N]⟩ : Shape).BroadcastsInDim ⟨2, ![N, 1]⟩ ![0])
    (x : (⟨1, ![N]⟩ : Shape).Idx → α) (i : Fin N) :
    broadcastInDim ⟨2, ![N, 1]⟩ ![0] h x (ix2 i (0 : Fin 1)) = x (ix1 i) := by
  refine broadcastInDim_apply ![0] h x (ix2 i (0 : Fin 1)) (ix1 i) ?_
  intro a
  fin_cases a
  show i.val = if N = 1 then 0 else i.val
  split_ifs with hn
  · have := i.isLt; omega
  · rfl

/-- The row index `i` with column `k` put back is `(i, k)`. -/
theorem lift_row {N M : Nat} (h : (⟨2, ![N, M]⟩ : Shape).Reduces [1] (⟨1, ![N]⟩ : Shape)) (i : Fin N)
    (k : Fin ((⟨2, ![N, M]⟩ : Shape).size 1)) : h.lift (ix1 i) k = ix2 i (⟨k.val, k.isLt⟩ : Fin M) := by
  funext c; apply Fin.ext
  fin_cases c <;> rfl

/-- The comparison `≥ 0` of a coercion. -/
theorem cmp_oge_zero_coe (v : ℝ) : Ideal.cmp .oge ((v : ℝ) : EReal) (0 : EReal) = if 0 ≤ v then 1#1 else 0#1 := by
  by_cases hv : 0 ≤ v
  · have h : (0 : EReal) ≤ ((v : ℝ) : EReal) := EReal.coe_nonneg.2 hv
    rw [if_pos hv]
    show BitVec.ofBool (decide ((0 : EReal) ≤ ((v : ℝ) : EReal))) = 1#1
    rw [decide_eq_true h]; rfl
  · have h : ¬ (0 : EReal) ≤ ((v : ℝ) : EReal) := fun h => hv (EReal.coe_nonneg.1 h)
    rw [if_neg hv]
    show BitVec.ofBool (decide ((0 : EReal) ≤ ((v : ℝ) : EReal))) = 0#1
    rw [decide_eq_false h]; rfl

end Generic

/-- A plain matrix product of coercions, read at `(i, j)`, is the coercion of the real sum of products. -/
theorem dot_apply {m k n : Nat} (A : FVec Ideal ⟨2, ![m, k]⟩ .f32) (B : FVec Ideal ⟨2, ![k, n]⟩ .f32)
    (a : Fin m → Fin k → ℝ) (b : Fin k → Fin n → ℝ) (i : Fin m) (j : Fin n)
    (hA : ∀ c, A (ix2 i c) = ((a i c : ℝ) : EReal)) (hB : ∀ c, B (ix2 c j) = ((b c j : ℝ) : EReal)) :
    Host.dotGeneral (F := Ideal) (DotDims.plain m k n) none A B (ix2 i j) = ((∑ c, a i c * b c j : ℝ) : EReal) := by
  rw [StackMember.dotGeneral_plain_apply]
  simp only [hA, hB, ← EReal.coe_mul]
  exact KernelIdeal.RowReal.coe_sum Finset.univ (fun c => a i c * b c j)

/-- The pre-activation at `(i, j)`: the query column's entry `i` plus the key column's entry `j` (the key column
    transposed to a row and laid down the rows), times the coefficient. -/
theorem pre_apply {N : Nat} (ht : (⟨2, ![N, 1]⟩ : Shape).Transposes [1, 0] ⟨2, ![1, N]⟩)
    (hc : (⟨2, ![N, 1]⟩ : Shape).BroadcastsInDim ⟨2, ![N, N]⟩ ![0, 1])
    (hr : (⟨2, ![1, N]⟩ : Shape).BroadcastsInDim ⟨2, ![N, N]⟩ ![0, 1])
    (S T : FVec Ideal ⟨2, ![N, 1]⟩ .f32) (Mw : FVec Ideal ⟨2, ![N, N]⟩ .f32) (i j : Fin N) (s n w : ℝ)
    (hS : S (ix2 i (0 : Fin 1)) = ((s : ℝ) : EReal)) (hT : T (ix2 j (0 : Fin 1)) = ((n : ℝ) : EReal))
    (hM : Mw (ix2 i j) = ((w : ℝ) : EReal)) :
    mulf (F := Ideal) (addf (F := Ideal) (broadcastInDim ⟨2, ![N, N]⟩ ![0, 1] hc S)
        (broadcastInDim ⟨2, ![N, N]⟩ ![0, 1] hr (transpose ⟨2, ![1, N]⟩ [1, 0] T ht))) Mw (ix2 i j)
      = (((s + n) * w : ℝ) : EReal) := by
  rw [mulf_apply, addf_apply, bcast_col_apply, broadcastInDim_oneRow_apply, transpose_ix2_apply, hS, hT, hM,
    ← EReal.coe_add, ← EReal.coe_mul]

/-- The leaky rectifier as the line writes it — a selection on `e ≥ 0` between `e` and the slope times `e` — at a
    coercion. -/
theorem leaky_apply {T : Shape} (hb : S_.BroadcastsInDim T ![]) (E : FVec Ideal T .f32) (idx : T.Idx) (e α : ℝ)
    (hα : Ideal.ofBits .f32 0x3E4CCCCD#32 = ((α : ℝ) : EReal)) (hE : E idx = ((e : ℝ) : EReal)) :
    select (cmpf (F := Ideal) .oge E (broadcastInDim T ![] hb (constant (F := Ideal) S_ .f32 0x00000000#32))) E
        (mulf (F := Ideal) (broadcastInDim T ![] hb (id (constant (F := Ideal) S_ .f32 0x3E4CCCCD#32))) E) idx
      = ((Layer.leaky α e : ℝ) : EReal) := by
  show Scalar.select (Ideal.cmp .oge (E idx) (Ideal.ofBits .f32 0x00000000#32)) (E idx)
      (Ideal.ofBits .f32 0x3E4CCCCD#32 * E idx) = _
  rw [hE, hα, Ideal.ofBits_zero_f32, cmp_oge_zero_coe, ← EReal.coe_mul]
  unfold Layer.leaky
  by_cases h0 : 0 ≤ e
  · rw [if_pos h0, if_pos h0]; exact select_one _ _
  · rw [if_neg h0, if_neg h0]; exact select_zero _ _

/-- The mask: the rectified value where the adjacency bit is set, the sentinel elsewhere. -/
theorem mask_apply {T : Shape} (hb : S_.BroadcastsInDim T ![]) (Adj : IVec T 1) (L : FVec Ideal T .f32) (idx : T.Idx)
    (l σ : ℝ) (p : Prop) [Decidable p] (hσ : Ideal.ofBits .f32 0xD9FFCB9E#32 = ((σ : ℝ) : EReal))
    (hL : L idx = ((l : ℝ) : EReal)) (hA : p ↔ Adj idx = 1#1) :
    select Adj L (broadcastInDim T ![] hb (id (constant (F := Ideal) S_ .f32 0xD9FFCB9E#32))) idx = (((if p then l else σ) : ℝ) : EReal) := by
  show Scalar.select (Adj idx) (L idx) (Ideal.ofBits .f32 0xD9FFCB9E#32) = _
  rw [hL, hσ]
  by_cases hp : p
  · rw [if_pos hp, hA.1 hp]; exact select_one _ _
  · rw [if_neg hp]; exact if_neg (fun h => hp (hA.2 h))

/-- A row's largest entry, folded from minus infinity and taken once more against minus infinity: when the row is
    coercions of reals it is the coercion of SOME real (the row is not empty). -/
theorem rowmax_apply {N M : Nat} (hM : 0 < M) (h' : (⟨2, ![N, M]⟩ : Shape).ReducesTo [1] (⟨1, ![N]⟩ : Shape))
    (h : (⟨2, ![N, M]⟩ : Shape).Reduces [1] (⟨1, ![N]⟩ : Shape)) (hu : 0 < S_.numel)
    (hb : S_.BroadcastsInDim (⟨1, ![N]⟩ : Shape) ![]) (x : FVec Ideal ⟨2, ![N, M]⟩ .f32) (i : Fin N) (sc : Fin M → ℝ)
    (hx : ∀ j, x (ix2 i j) = ((sc j : ℝ) : EReal)) :
    ∃ Mx : ℝ, maximumf (F := Ideal) (broadcastInDim (⟨1, ![N]⟩ : Shape) ![] hb (constant (F := Ideal) S_ .f32 0xFF800000#32))
        (Host.reduce (FloatOps.maximumf (F := Ideal) (φ := .f32)) x (constant (F := Ideal) S_ .f32 0xFF800000#32) h' hu) (ix1 i) = ((Mx : ℝ) : EReal) := by
  haveI : Nonempty (Fin M) := ⟨⟨0, hM⟩⟩
  refine ⟨Finset.univ.sup' Finset.univ_nonempty sc, ?_⟩
  have hf : (x ∘ h.lift (ix1 i)) = fun k : Fin M => ((sc k : ℝ) : EReal) := funext fun k => by
    show x (h.lift (ix1 i) k) = _
    rw [lift_row h i k]; exact hx _
  have hr : Host.reduce (FloatOps.maximumf (F := Ideal) (φ := .f32)) x (constant (F := Ideal) S_ .f32 0xFF800000#32) h' hu (ix1 i)
      = ((Finset.univ.sup' Finset.univ_nonempty sc : ℝ) : EReal) := by
    rw [Host.reduce_eq_fold_single (FloatOps.maximumf (F := Ideal) (φ := .f32)) x _ h' h hu (ix1 i), hf]
    show (Finset.univ : Finset (Fin M)).fold max (Ideal.ofBits .f32 0xFF800000#32) (fun k => ((sc k : ℝ) : EReal)) = _
    rw [Consts.ofBits_negInf]
    exact KernelIdeal.RowReal.fold_max_coe sc
  show max (Ideal.ofBits .f32 0xFF800000#32)
      (Host.reduce (FloatOps.maximumf (F := Ideal) (φ := .f32)) x (constant (F := Ideal) S_ .f32 0xFF800000#32) h' hu (ix1 i)) = _
  rw [hr, Consts.ofBits_negInf]
  exact max_eq_right bot_le

/-- The weight at `(i, j)`: the exponential of the score less the row's shift (a vector stood up as a column and
    laid along the rows). -/
theorem expshift_apply {N M : Nat} (hb1 : (⟨1, ![N]⟩ : Shape).BroadcastsInDim ⟨2, ![N, 1]⟩ ![0])
    (hb2 : (⟨2, ![N, 1]⟩ : Shape).BroadcastsInDim ⟨2, ![N, M]⟩ ![0, 1]) (x : FVec Ideal ⟨2, ![N, M]⟩ .f32)
    (mx : FVec Ideal ⟨1, ![N]⟩ .f32) (i : Fin N) (j : Fin M) (s Mx : ℝ) (hx : x (ix2 i j) = ((s : ℝ) : EReal))
    (hm : mx (ix1 i) = ((Mx : ℝ) : EReal)) :
    Host.exp (F := Ideal) (subf (F := Ideal) x
        (broadcastInDim ⟨2, ![N, M]⟩ ![0, 1] hb2 (broadcastInDim ⟨2, ![N, 1]⟩ ![0] hb1 mx))) (ix2 i j)
      = ((Real.exp (s - Mx) : ℝ) : EReal) := by
  show Ideal.exp (x (ix2 i j)
      - broadcastInDim ⟨2, ![N, M]⟩ ![0, 1] hb2 (broadcastInDim ⟨2, ![N, 1]⟩ ![0] hb1 mx) (ix2 i j)) = _
  rw [bcast_col_apply, bcast_vec_col_apply, hx, hm]
  exact KernelIdeal.RowReal.exp_sub_coe s Mx

/-- A row's sum from zero: when the row is coercions of reals, the coercion of their sum. -/
theorem rowsum_apply {N M : Nat} (h' : (⟨2, ![N, M]⟩ : Shape).ReducesTo [1] (⟨1, ![N]⟩ : Shape))
    (h : (⟨2, ![N, M]⟩ : Shape).Reduces [1] (⟨1, ![N]⟩ : Shape)) (hu : 0 < S_.numel)
    (x : FVec Ideal ⟨2, ![N, M]⟩ .f32) (i : Fin N) (w : Fin M → ℝ) (hx : ∀ j, x (ix2 i j) = ((w j : ℝ) : EReal)) :
    Host.reduceAdd (F := Ideal) x (constant (F := Ideal) S_ .f32 0x00000000#32) h' hu (ix1 i) = ((∑ j, w j : ℝ) : EReal) := by
  rw [hostReduceAdd_apply, constant_apply, Ideal.hostReduceAdd_single h' h, Ideal.ofBits_zero_f32, zero_add]
  have hk : ∀ k : Fin M, x (h.lift (ix1 i) k) = ((w k : ℝ) : EReal) := fun k => by
    rw [lift_row h i k]; exact hx _
  exact (Finset.sum_congr rfl fun k _ => hk k).trans (KernelIdeal.RowReal.coe_sum Finset.univ w)

/-- The normalised weight at `(i, j)`: the weight over its row's sum, which is positive. -/
theorem norm_apply {N M : Nat} (hM : 0 < M) (h' : (⟨2, ![N, M]⟩ : Shape).ReducesTo [1] (⟨1, ![N]⟩ : Shape))
    (h : (⟨2, ![N, M]⟩ : Shape).Reduces [1] (⟨1, ![N]⟩ : Shape)) (hu : 0 < S_.numel)
    (hb1 : (⟨1, ![N]⟩ : Shape).BroadcastsInDim ⟨2, ![N, 1]⟩ ![0])
    (hb2 : (⟨2, ![N, 1]⟩ : Shape).BroadcastsInDim ⟨2, ![N, M]⟩ ![0, 1]) (x : FVec Ideal ⟨2, ![N, M]⟩ .f32) (i : Fin N)
    (w : Fin M → ℝ) (hw : ∀ j, 0 < w j) (hx : ∀ j, x (ix2 i j) = ((w j : ℝ) : EReal)) (j : Fin M) :
    Host.divf (F := Ideal) x (broadcastInDim ⟨2, ![N, M]⟩ ![0, 1] hb2 (broadcastInDim ⟨2, ![N, 1]⟩ ![0] hb1
        (Host.reduceAdd (F := Ideal) x (constant (F := Ideal) S_ .f32 0x00000000#32) h' hu))) (ix2 i j)
      = ((w j / ∑ j', w j' : ℝ) : EReal) := by
  rw [hostDivf_apply, bcast_col_apply, bcast_vec_col_apply, rowsum_apply h' h hu x i w hx, hx j]
  exact KernelIdeal.RowReal.div_coe_pos _ _
    (ne_of_gt (Finset.sum_pos (fun j _ => hw j) ⟨⟨0, hM⟩, Finset.mem_univ _⟩))

/-- The exponential linear unit as the line writes it — `x` where `x > 0`, else one times `exp y - 1` with `y` a
    second selection that is `x` there — at a coercion. -/
theorem elu_apply {T : Shape} (hb : S_.BroadcastsInDim T ![]) (X : FVec Ideal T .f32) (idx : T.Idx) (v : ℝ)
    (hX : X idx = ((v : ℝ) : EReal)) :
    select (cmpf (F := Ideal) .ogt X (broadcastInDim T ![] hb (constant (F := Ideal) S_ .f32 0x00000000#32))) X
        (mulf (F := Ideal) (broadcastInDim T ![] hb (constant (F := Ideal) S_ .f32 0x3F800000#32))
          (Host.expm1 (F := Ideal) (select (cmpf (F := Ideal) .ogt X (broadcastInDim T ![] hb (constant (F := Ideal) S_ .f32 0x00000000#32)))
            (broadcastInDim T ![] hb (id (constant (F := Ideal) S_ .f32 0x00000000#32))) X))) idx
      = ((Layer.elu v : ℝ) : EReal) := by
  show Scalar.select (Ideal.cmp .ogt (X idx) (Ideal.ofBits .f32 0x00000000#32)) (X idx)
      (Ideal.ofBits .f32 0x3F800000#32
        * (Ideal.exp (Scalar.select (Ideal.cmp .ogt (X idx) (Ideal.ofBits .f32 0x00000000#32))
            (Ideal.ofBits .f32 0x00000000#32) (X idx)) - 1)) = _
  rw [hX, Ideal.ofBits_zero_f32, Consts.ofBits_one, KernelIdeal.RowReal.cmp_ogt_zero_coe]
  unfold Layer.elu
  by_cases hv : 0 < v
  · rw [if_pos hv, if_pos hv]; exact select_one _ _
  · rw [if_neg hv, if_neg hv, select_zero, select_zero, one_mul, KernelIdeal.RowReal.exp_coe, ← EReal.coe_one,
      ← EReal.coe_sub]

/-- The 8192 × 8192 score matrix reduces along its rows. -/
theorem reduces_row : S8192x8192.Reduces [1] S8192 := by decide

/-! ## Each buffer of the line as its operation applied to the buffers before it

Both sides are folds of the same literal line over the same contents: unfolding each operation's result at its own
buffer, and passing over it at any other, leaves the same term on both sides. -/

/-- A float buffer's contents, typed at its literal shape. -/
abbrev asF (S : Shape) (x : FVec Ideal S .f32) : FVec Ideal S .f32 := x
/-- An integer buffer's contents, typed at its literal shape and width. -/
abbrev asI (S : Shape) (w : Nat) (x : IVec S w) : IVec S w := x

section Vals
variable (V : Valuation τ sig (Elt Ideal))

/-! ### Layer 1: each buffer as its operation applied to the buffers before it -/

set_option maxHeartbeats 1600000 in
/-- The features: the input against the weights. -/
theorem val_h1 : (asF S8192x256 (after (ops (F := Ideal)) V (Proc.devRef .tc main_v2)))
    = Host.dotGeneral (F := Ideal) dot_S8192x512_S512x256_S8192x256_1_0_0_1_n_n none (asF S8192x512 (V (Proc.devRef .tc main_arg0))) (asF S512x256 (V (Proc.devRef .tc main_arg3))) := by
  after_results_simp <;> rfl

set_option maxHeartbeats 1600000 in
/-- The query column: the features against the first attention vector. -/
theorem val_s1 : (asF S8192x1 (after (ops (F := Ideal)) V (Proc.devRef .tc main_v3)))
    = Host.dotGeneral (F := Ideal) dot_S8192x256_S256x1_S8192x1_1_0_0_1_n_n none (asF S8192x256 (after (ops (F := Ideal)) V (Proc.devRef .tc main_v2))) (asF S256x1 (V (Proc.devRef .tc main_arg4))) := by
  after_results_simp <;> rfl

set_option maxHeartbeats 1600000 in
/-- The key column: the features against the second attention vector. -/
theorem val_n1 : (asF S8192x1 (after (ops (F := Ideal)) V (Proc.devRef .tc main_v4)))
    = Host.dotGeneral (F := Ideal) dot_S8192x256_S256x1_S8192x1_1_0_0_1_n_n none (asF S8192x256 (after (ops (F := Ideal)) V (Proc.devRef .tc main_v2))) (asF S256x1 (V (Proc.devRef .tc main_arg5))) := by
  after_results_simp <;> rfl

set_option maxHeartbeats 1600000 in
/-- The pre-activation: the outer sum of the two columns, times the coefficient matrix. -/
theorem val_pre1 : (asF S8192x8192 (after (ops (F := Ideal)) V (Proc.devRef .tc main_v9)))
    = mulf (F := Ideal) (addf (F := Ideal) (broadcastInDim S8192x8192 ![0, 1] bcast_S8192x1_S8192x8192_0_1 (asF S8192x1 (after (ops (F := Ideal)) V (Proc.devRef .tc main_v3))))
        (broadcastInDim S8192x8192 ![0, 1] bcast_S1x8192_S8192x8192_0_1 (transpose S1x8192 [1, 0] (asF S8192x1 (after (ops (F := Ideal)) V (Proc.devRef .tc main_v4))) transposes_S8192x1_S1x8192_1_0)))
      (asF S8192x8192 (V (Proc.devRef .tc main_arg2))) := by
  after_results_simp <;> rfl

set_option maxHeartbeats 1600000 in
/-- The leaky rectifier, written as a selection on the sign. -/
theorem val_lk1 : (asF S8192x8192 (after (ops (F := Ideal)) V (Proc.devRef .tc main_v10)))
    = select (cmpf (F := Ideal) .oge (asF S8192x8192 (after (ops (F := Ideal)) V (Proc.devRef .tc main_v9))) (broadcastInDim S8192x8192 ![] bcast_S_S8192x8192 (constant (F := Ideal) S_ .f32 0x00000000#32))) (asF S8192x8192 (after (ops (F := Ideal)) V (Proc.devRef .tc main_v9)))
        (mulf (F := Ideal) (broadcastInDim S8192x8192 ![] bcast_S_S8192x8192 (id (constant (F := Ideal) S_ .f32 0x3E4CCCCD#32))) (asF S8192x8192 (after (ops (F := Ideal)) V (Proc.devRef .tc main_v9)))) := by
  after_results_simp <;> rfl

set_option maxHeartbeats 1600000 in
/-- The adjacency test: the integer argument's words against zero. -/
theorem val_adj : (after (ops (F := Ideal)) V (Proc.devRef .tc main_v1) : IVec S8192x8192 1)
    = cmpi .sgt (V (Proc.devRef .tc main_arg1) : IVec S8192x8192 32)
        (broadcastInDim S8192x8192 ![] bcast_S_S8192x8192 (constantI S_ 32 0#32)) := by
  after_results_simp <;> rfl

set_option maxHeartbeats 1600000 in
/-- The masked scores: the rectified pre-activation on the edges, the sentinel elsewhere. -/
theorem val_sc1 : (asF S8192x8192 (after (ops (F := Ideal)) V (Proc.devRef .tc main_v11)))
    = select (after (ops (F := Ideal)) V (Proc.devRef .tc main_v1) : IVec S8192x8192 1) (asF S8192x8192 (after (ops (F := Ideal)) V (Proc.devRef .tc main_v10))) (broadcastInDim S8192x8192 ![] bcast_S_S8192x8192 (id (constant (F := Ideal) S_ .f32 0xD9FFCB9E#32))) := by
  after_results_simp <;> rfl

set_option maxHeartbeats 1600000 in
/-- Each row's largest score (folded from minus infinity, then once more against minus infinity). -/
theorem val_mx1 : (asF S8192 (after (ops (F := Ideal)) V (Proc.devRef .tc main_v14)))
    = maximumf (F := Ideal) (broadcastInDim S8192 ![] bcast_S_S8192 (constant (F := Ideal) S_ .f32 0xFF800000#32))
        (Host.reduce (FloatOps.maximumf (F := Ideal) (φ := .f32)) (asF S8192x8192 (after (ops (F := Ideal)) V (Proc.devRef .tc main_v11))) (constant (F := Ideal) S_ .f32 0xFF800000#32) reducesTo_S8192x8192_S8192_d1 h_S_) := by
  after_results_simp <;> rfl

set_option maxHeartbeats 1600000 in
/-- The weights: the exponential of each score less its row's largest. -/
theorem val_w1 : (asF S8192x8192 (after (ops (F := Ideal)) V (Proc.devRef .tc main_v18)))
    = Host.exp (F := Ideal) (subf (F := Ideal) (asF S8192x8192 (after (ops (F := Ideal)) V (Proc.devRef .tc main_v11))) (broadcastInDim S8192x8192 ![0, 1] bcast_S8192x1_S8192x8192_0_1 (broadcastInDim S8192x1 ![0] bcast_S8192_S8192x1_0 (asF S8192 (after (ops (F := Ideal)) V (Proc.devRef .tc main_v14)))))) := by
  after_results_simp <;> rfl

set_option maxHeartbeats 1600000 in
/-- The normalised weights: each weight over its row's sum. -/
theorem val_nw1 : (asF S8192x8192 (after (ops (F := Ideal)) V (Proc.devRef .tc main_v22)))
    = Host.divf (F := Ideal) (asF S8192x8192 (after (ops (F := Ideal)) V (Proc.devRef .tc main_v18)))
        (broadcastInDim S8192x8192 ![0, 1] bcast_S8192x1_S8192x8192_0_1 (broadcastInDim S8192x1 ![0] bcast_S8192_S8192x1_0 (Host.reduceAdd (F := Ideal) (asF S8192x8192 (after (ops (F := Ideal)) V (Proc.devRef .tc main_v18))) (constant (F := Ideal) S_ .f32 0x00000000#32) reducesTo_S8192x8192_S8192_d1 h_S_))) := by
  after_results_simp <;> rfl

set_option maxHeartbeats 1600000 in
/-- The attended features: the normalised weights against the features. -/
theorem val_at1 : (asF S8192x256 (after (ops (F := Ideal)) V (Proc.devRef .tc main_v23)))
    = Host.dotGeneral (F := Ideal) dot_S8192x8192_S8192x256_S8192x256_1_0_0_1_n_n none (asF S8192x8192 (after (ops (F := Ideal)) V (Proc.devRef .tc main_v22))) (asF S8192x256 (after (ops (F := Ideal)) V (Proc.devRef .tc main_v2))) := by
  after_results_simp <;> rfl

set_option maxHeartbeats 1600000 in
/-- The exponential linear unit, written as two selections on the sign around `exp x - 1`. -/
theorem val_out1 : (asF S8192x256 (after (ops (F := Ideal)) V (Proc.devRef .tc main_v24)))
    = select (cmpf (F := Ideal) .ogt (asF S8192x256 (after (ops (F := Ideal)) V (Proc.devRef .tc main_v23))) (broadcastInDim S8192x256 ![] bcast_S_S8192x256 (constant (F := Ideal) S_ .f32 0x00000000#32))) (asF S8192x256 (after (ops (F := Ideal)) V (Proc.devRef .tc main_v23)))
        (mulf (F := Ideal) (broadcastInDim S8192x256 ![] bcast_S_S8192x256 (constant (F := Ideal) S_ .f32 0x3F800000#32))
          (Host.expm1 (F := Ideal) (select (cmpf (F := Ideal) .ogt (asF S8192x256 (after (ops (F := Ideal)) V (Proc.devRef .tc main_v23))) (broadcastInDim S8192x256 ![] bcast_S_S8192x256 (constant (F := Ideal) S_ .f32 0x00000000#32))) (broadcastInDim S8192x256 ![] bcast_S_S8192x256 (id (constant (F := Ideal) S_ .f32 0x00000000#32))) (asF S8192x256 (after (ops (F := Ideal)) V (Proc.devRef .tc main_v23)))))) := by
  after_results_simp <;> rfl

/-! ### Layer 2: each buffer as its operation applied to the buffers before it -/

set_option maxHeartbeats 1600000 in
/-- The features: the input against the weights. -/
theorem val_h2 : (asF S8192x64 (after (ops (F := Ideal)) V (Proc.devRef .tc main_v25)))
    = Host.dotGeneral (F := Ideal) dot_S8192x256_S256x64_S8192x64_1_0_0_1_n_n none (asF S8192x256 (after (ops (F := Ideal)) V (Proc.devRef .tc main_v24))) (asF S256x64 (V (Proc.devRef .tc main_arg6))) := by
  after_results_simp <;> rfl

set_option maxHeartbeats 1600000 in
/-- The query column: the features against the first attention vector. -/
theorem val_s2 : (asF S8192x1 (after (ops (F := Ideal)) V (Proc.devRef .tc main_v26)))
    = Host.dotGeneral (F := Ideal) dot_S8192x64_S64x1_S8192x1_1_0_0_1_n_n none (asF S8192x64 (after (ops (F := Ideal)) V (Proc.devRef .tc main_v25))) (asF S64x1 (V (Proc.devRef .tc main_arg7))) := by
  after_results_simp <;> rfl

set_option maxHeartbeats 1600000 in
/-- The key column: the features against the second attention vector. -/
theorem val_n2 : (asF S8192x1 (after (ops (F := Ideal)) V (Proc.devRef .tc main_v27)))
    = Host.dotGeneral (F := Ideal) dot_S8192x64_S64x1_S8192x1_1_0_0_1_n_n none (asF S8192x64 (after (ops (F := Ideal)) V (Proc.devRef .tc main_v25))) (asF S64x1 (V (Proc.devRef .tc main_arg8))) := by
  after_results_simp <;> rfl

set_option maxHeartbeats 1600000 in
/-- The pre-activation: the outer sum of the two columns, times the coefficient matrix. -/
theorem val_pre2 : (asF S8192x8192 (after (ops (F := Ideal)) V (Proc.devRef .tc main_v32)))
    = mulf (F := Ideal) (addf (F := Ideal) (broadcastInDim S8192x8192 ![0, 1] bcast_S8192x1_S8192x8192_0_1 (asF S8192x1 (after (ops (F := Ideal)) V (Proc.devRef .tc main_v26))))
        (broadcastInDim S8192x8192 ![0, 1] bcast_S1x8192_S8192x8192_0_1 (transpose S1x8192 [1, 0] (asF S8192x1 (after (ops (F := Ideal)) V (Proc.devRef .tc main_v27))) transposes_S8192x1_S1x8192_1_0)))
      (asF S8192x8192 (V (Proc.devRef .tc main_arg2))) := by
  after_results_simp <;> rfl

set_option maxHeartbeats 1600000 in
/-- The leaky rectifier, written as a selection on the sign. -/
theorem val_lk2 : (asF S8192x8192 (after (ops (F := Ideal)) V (Proc.devRef .tc main_v33)))
    = select (cmpf (F := Ideal) .oge (asF S8192x8192 (after (ops (F := Ideal)) V (Proc.devRef .tc main_v32))) (broadcastInDim S8192x8192 ![] bcast_S_S8192x8192 (constant (F := Ideal) S_ .f32 0x00000000#32))) (asF S8192x8192 (after (ops (F := Ideal)) V (Proc.devRef .tc main_v32)))
        (mulf (F := Ideal) (broadcastInDim S8192x8192 ![] bcast_S_S8192x8192 (id (constant (F := Ideal) S_ .f32 0x3E4CCCCD#32))) (asF S8192x8192 (after (ops (F := Ideal)) V (Proc.devRef .tc main_v32)))) := by
  after_results_simp <;> rfl

set_option maxHeartbeats 1600000 in
/-- The masked scores: the rectified pre-activation on the edges, the sentinel elsewhere. -/
theorem val_sc2 : (asF S8192x8192 (after (ops (F := Ideal)) V (Proc.devRef .tc main_v34)))
    = select (after (ops (F := Ideal)) V (Proc.devRef .tc main_v1) : IVec S8192x8192 1) (asF S8192x8192 (after (ops (F := Ideal)) V (Proc.devRef .tc main_v33))) (broadcastInDim S8192x8192 ![] bcast_S_S8192x8192 (id (constant (F := Ideal) S_ .f32 0xD9FFCB9E#32))) := by
  after_results_simp <;> rfl

set_option maxHeartbeats 1600000 in
/-- Each row's largest score (folded from minus infinity, then once more against minus infinity). -/
theorem val_mx2 : (asF S8192 (after (ops (F := Ideal)) V (Proc.devRef .tc main_v37)))
    = maximumf (F := Ideal) (broadcastInDim S8192 ![] bcast_S_S8192 (constant (F := Ideal) S_ .f32 0xFF800000#32))
        (Host.reduce (FloatOps.maximumf (F := Ideal) (φ := .f32)) (asF S8192x8192 (after (ops (F := Ideal)) V (Proc.devRef .tc main_v34))) (constant (F := Ideal) S_ .f32 0xFF800000#32) reducesTo_S8192x8192_S8192_d1 h_S_) := by
  after_results_simp <;> rfl

set_option maxHeartbeats 1600000 in
/-- The weights: the exponential of each score less its row's largest. -/
theorem val_w2 : (asF S8192x8192 (after (ops (F := Ideal)) V (Proc.devRef .tc main_v41)))
    = Host.exp (F := Ideal) (subf (F := Ideal) (asF S8192x8192 (after (ops (F := Ideal)) V (Proc.devRef .tc main_v34))) (broadcastInDim S8192x8192 ![0, 1] bcast_S8192x1_S8192x8192_0_1 (broadcastInDim S8192x1 ![0] bcast_S8192_S8192x1_0 (asF S8192 (after (ops (F := Ideal)) V (Proc.devRef .tc main_v37)))))) := by
  after_results_simp <;> rfl

set_option maxHeartbeats 1600000 in
/-- The normalised weights: each weight over its row's sum. -/
theorem val_nw2 : (asF S8192x8192 (after (ops (F := Ideal)) V (Proc.devRef .tc main_v45)))
    = Host.divf (F := Ideal) (asF S8192x8192 (after (ops (F := Ideal)) V (Proc.devRef .tc main_v41)))
        (broadcastInDim S8192x8192 ![0, 1] bcast_S8192x1_S8192x8192_0_1 (broadcastInDim S8192x1 ![0] bcast_S8192_S8192x1_0 (Host.reduceAdd (F := Ideal) (asF S8192x8192 (after (ops (F := Ideal)) V (Proc.devRef .tc main_v41))) (constant (F := Ideal) S_ .f32 0x00000000#32) reducesTo_S8192x8192_S8192_d1 h_S_))) := by
  after_results_simp <;> rfl

set_option maxHeartbeats 1600000 in
/-- The attended features: the normalised weights against the features. -/
theorem val_at2 : (asF S8192x64 (after (ops (F := Ideal)) V (Proc.devRef .tc main_v46)))
    = Host.dotGeneral (F := Ideal) dot_S8192x8192_S8192x64_S8192x64_1_0_0_1_n_n none (asF S8192x8192 (after (ops (F := Ideal)) V (Proc.devRef .tc main_v45))) (asF S8192x64 (after (ops (F := Ideal)) V (Proc.devRef .tc main_v25))) := by
  after_results_simp <;> rfl

set_option maxHeartbeats 1600000 in
/-- The exponential linear unit, written as two selections on the sign around `exp x - 1`. -/
theorem val_out2 : (asF S8192x64 (after (ops (F := Ideal)) V (Proc.devRef .tc main_v47)))
    = select (cmpf (F := Ideal) .ogt (asF S8192x64 (after (ops (F := Ideal)) V (Proc.devRef .tc main_v46))) (broadcastInDim S8192x64 ![] bcast_S_S8192x64 (constant (F := Ideal) S_ .f32 0x00000000#32))) (asF S8192x64 (after (ops (F := Ideal)) V (Proc.devRef .tc main_v46)))
        (mulf (F := Ideal) (broadcastInDim S8192x64 ![] bcast_S_S8192x64 (constant (F := Ideal) S_ .f32 0x3F800000#32))
          (Host.expm1 (F := Ideal) (select (cmpf (F := Ideal) .ogt (asF S8192x64 (after (ops (F := Ideal)) V (Proc.devRef .tc main_v46))) (broadcastInDim S8192x64 ![] bcast_S_S8192x64 (constant (F := Ideal) S_ .f32 0x00000000#32))) (broadcastInDim S8192x64 ![] bcast_S_S8192x64 (id (constant (F := Ideal) S_ .f32 0x00000000#32))) (asF S8192x64 (after (ops (F := Ideal)) V (Proc.devRef .tc main_v46)))))) := by
  after_results_simp <;> rfl

end Vals

/-! ## The readings -/

section Readings
variable {m : (ℓ : Loc nD τ sig) → Buf (Elt Ideal) ℓ} {c : Dev nD} {P : Layer.Params}

/-! ### Layer 1: the readings, from the arguments to the layer's result -/

/-- The features are the dense product of the reals. -/
theorem read_h1 (R : Reads m c P) (i : Fin 8192) (d : Fin 256) :
    (asF S8192x256 (after (ops (F := Ideal)) (launchContents m c) (Proc.devRef .tc main_v2))) (ix2 i d) = (((Layer.dense P.x P.W0) i d : ℝ) : EReal) := by
  rw [val_h1]
  exact dot_apply _ _ P.x P.W0 i d (fun k => R.hx i k) (fun k => R.hW0 k d)

/-- The query column is the features' projection on the first attention vector. -/
theorem read_s1 (R : Reads m c P) (i : Fin 8192) :
    (asF S8192x1 (after (ops (F := Ideal)) (launchContents m c) (Proc.devRef .tc main_v3))) (ix2 i (0 : Fin 1)) = (((Layer.proj (Layer.dense P.x P.W0) P.aS0) i : ℝ) : EReal) := by
  rw [val_s1]
  exact dot_apply _ _ (Layer.dense P.x P.W0) (fun d _ => P.aS0 d) i (0 : Fin 1) (fun k => read_h1 R i k) (fun k => R.haS0 k)

/-- The key column is the features' projection on the second attention vector. -/
theorem read_n1 (R : Reads m c P) (j : Fin 8192) :
    (asF S8192x1 (after (ops (F := Ideal)) (launchContents m c) (Proc.devRef .tc main_v4))) (ix2 j (0 : Fin 1)) = (((Layer.proj (Layer.dense P.x P.W0) P.aN0) j : ℝ) : EReal) := by
  rw [val_n1]
  exact dot_apply _ _ (Layer.dense P.x P.W0) (fun d _ => P.aN0 d) j (0 : Fin 1) (fun k => read_h1 R j k) (fun k => R.haN0 k)

/-- The pre-activation. -/
theorem read_pre1 (R : Reads m c P) (i j : Fin 8192) :
    (asF S8192x8192 (after (ops (F := Ideal)) (launchContents m c) (Proc.devRef .tc main_v9))) (ix2 i j) = ((((Layer.proj (Layer.dense P.x P.W0) P.aS0) i + (Layer.proj (Layer.dense P.x P.W0) P.aN0) j) * P.M i j : ℝ) : EReal) := by
  rw [val_pre1]
  exact pre_apply _ _ _ _ _ _ i j _ _ _ (read_s1 R i) (read_n1 R j) (R.hM i j)

/-- The rectified pre-activation. -/
theorem read_lk1 (R : Reads m c P) (i j : Fin 8192) :
    (asF S8192x8192 (after (ops (F := Ideal)) (launchContents m c) (Proc.devRef .tc main_v10))) (ix2 i j) = ((Layer.leaky P.α (((Layer.proj (Layer.dense P.x P.W0) P.aS0) i + (Layer.proj (Layer.dense P.x P.W0) P.aN0) j) * P.M i j) : ℝ) : EReal) := by
  rw [val_lk1]
  exact leaky_apply _ _ (ix2 i j) _ P.α R.hα (read_pre1 R i j)

/-- The masked score. -/
theorem read_sc1 (R : Reads m c P) (i j : Fin 8192) :
    (asF S8192x8192 (after (ops (F := Ideal)) (launchContents m c) (Proc.devRef .tc main_v11))) (ix2 i j) = (((Layer.score P.α P.σ P.edge (Layer.proj (Layer.dense P.x P.W0) P.aS0) (Layer.proj (Layer.dense P.x P.W0) P.aN0) P.M) i j : ℝ) : EReal) := by
  rw [val_sc1]
  exact mask_apply _ _ _ (ix2 i j) _ P.σ (P.edge i j) R.hσ (read_lk1 R i j)
    (by rw [val_adj]; exact R.hedge i j)

/-- Each row's shift is some real. -/
theorem read_mx1 (R : Reads m c P) (i : Fin 8192) :
    ∃ Mx : ℝ, (asF S8192 (after (ops (F := Ideal)) (launchContents m c) (Proc.devRef .tc main_v14))) (ix1 i) = ((Mx : ℝ) : EReal) := by
  rw [val_mx1]
  exact rowmax_apply (by omega) _ reduces_row _ _ _ i (fun j => (Layer.score P.α P.σ P.edge (Layer.proj (Layer.dense P.x P.W0) P.aS0) (Layer.proj (Layer.dense P.x P.W0) P.aN0) P.M) i j) (fun j => read_sc1 R i j)

/-- The weight, at whatever real the row's shift is. -/
theorem read_w1 (R : Reads m c P) (i j : Fin 8192) (Mx : ℝ)
    (hM : (asF S8192 (after (ops (F := Ideal)) (launchContents m c) (Proc.devRef .tc main_v14))) (ix1 i) = ((Mx : ℝ) : EReal)) :
    (asF S8192x8192 (after (ops (F := Ideal)) (launchContents m c) (Proc.devRef .tc main_v18))) (ix2 i j) = ((Real.exp ((Layer.score P.α P.σ P.edge (Layer.proj (Layer.dense P.x P.W0) P.aS0) (Layer.proj (Layer.dense P.x P.W0) P.aN0) P.M) i j - Mx) : ℝ) : EReal) := by
  rw [val_w1]
  exact expshift_apply _ _ _ _ i j _ Mx (read_sc1 R i j) hM

/-- The normalised weight. -/
theorem read_nw1 (R : Reads m c P) (i j : Fin 8192) (Mx : ℝ)
    (hM : (asF S8192 (after (ops (F := Ideal)) (launchContents m c) (Proc.devRef .tc main_v14))) (ix1 i) = ((Mx : ℝ) : EReal)) :
    (asF S8192x8192 (after (ops (F := Ideal)) (launchContents m c) (Proc.devRef .tc main_v22))) (ix2 i j)
      = ((Real.exp ((Layer.score P.α P.σ P.edge (Layer.proj (Layer.dense P.x P.W0) P.aS0) (Layer.proj (Layer.dense P.x P.W0) P.aN0) P.M) i j - Mx) / ∑ j', Real.exp ((Layer.score P.α P.σ P.edge (Layer.proj (Layer.dense P.x P.W0) P.aS0) (Layer.proj (Layer.dense P.x P.W0) P.aN0) P.M) i j' - Mx) : ℝ) : EReal) := by
  rw [val_nw1]
  exact norm_apply (by omega) _ reduces_row _ _ _ _ i (fun j => Real.exp ((Layer.score P.α P.σ P.edge (Layer.proj (Layer.dense P.x P.W0) P.aS0) (Layer.proj (Layer.dense P.x P.W0) P.aN0) P.M) i j - Mx)) (fun j => Real.exp_pos _)
    (fun j => read_w1 R i j Mx hM) j

/-- The attended features: the shift cancels between the weights and their sum. -/
theorem read_at1 (R : Reads m c P) (i : Fin 8192) (d : Fin 256) :
    (asF S8192x256 (after (ops (F := Ideal)) (launchContents m c) (Proc.devRef .tc main_v23))) (ix2 i d)
      = (((∑ j, Real.exp ((Layer.score P.α P.σ P.edge (Layer.proj (Layer.dense P.x P.W0) P.aS0) (Layer.proj (Layer.dense P.x P.W0) P.aN0) P.M) i j) * (Layer.dense P.x P.W0) j d) / (∑ j, Real.exp ((Layer.score P.α P.σ P.edge (Layer.proj (Layer.dense P.x P.W0) P.aS0) (Layer.proj (Layer.dense P.x P.W0) P.aN0) P.M) i j)) : ℝ) : EReal) := by
  haveI : Nonempty (Fin 8192) := ⟨⟨0, by omega⟩⟩
  obtain ⟨Mx, hM⟩ := read_mx1 R i
  rw [val_at1]
  refine (dot_apply _ _ (fun i' j => Real.exp ((Layer.score P.α P.σ P.edge (Layer.proj (Layer.dense P.x P.W0) P.aS0) (Layer.proj (Layer.dense P.x P.W0) P.aN0) P.M) i' j - Mx) / ∑ j', Real.exp ((Layer.score P.α P.σ P.edge (Layer.proj (Layer.dense P.x P.W0) P.aS0) (Layer.proj (Layer.dense P.x P.W0) P.aN0) P.M) i' j' - Mx)) (Layer.dense P.x P.W0) i d
    (fun j => read_nw1 R i j Mx hM) (fun j => read_h1 R j d)).trans ?_
  exact congrArg (fun r : ℝ => (r : EReal)) (Spec.softmax_dot Mx (fun j => (Layer.score P.α P.σ P.edge (Layer.proj (Layer.dense P.x P.W0) P.aS0) (Layer.proj (Layer.dense P.x P.W0) P.aN0) P.M) i j) (fun j => (Layer.dense P.x P.W0) j d))

/-- The layer's result. -/
theorem read_out1 (R : Reads m c P) (i : Fin 8192) (d : Fin 256) :
    (asF S8192x256 (after (ops (F := Ideal)) (launchContents m c) (Proc.devRef .tc main_v24))) (ix2 i d) = ((P.hidden i d : ℝ) : EReal) := by
  rw [val_out1]
  exact elu_apply _ _ (ix2 i d) _ (read_at1 R i d)

/-! ### Layer 2: the readings, from the arguments to the layer's result -/

/-- The features are the dense product of the reals. -/
theorem read_h2 (R : Reads m c P) (i : Fin 8192) (d : Fin 64) :
    (asF S8192x64 (after (ops (F := Ideal)) (launchContents m c) (Proc.devRef .tc main_v25))) (ix2 i d) = (((Layer.dense P.hidden P.W1) i d : ℝ) : EReal) := by
  rw [val_h2]
  exact dot_apply _ _ P.hidden P.W1 i d (fun k => read_out1 R i k) (fun k => R.hW1 k d)

/-- The query column is the features' projection on the first attention vector. -/
theorem read_s2 (R : Reads m c P) (i : Fin 8192) :
    (asF S8192x1 (after (ops (F := Ideal)) (launchContents m c) (Proc.devRef .tc main_v26))) (ix2 i (0 : Fin 1)) = (((Layer.proj (Layer.dense P.hidden P.W1) P.aS1) i : ℝ) : EReal) := by
  rw [val_s2]
  exact dot_apply _ _ (Layer.dense P.hidden P.W1) (fun d _ => P.aS1 d) i (0 : Fin 1) (fun k => read_h2 R i k) (fun k => R.haS1 k)

/-- The key column is the features' projection on the second attention vector. -/
theorem read_n2 (R : Reads m c P) (j : Fin 8192) :
    (asF S8192x1 (after (ops (F := Ideal)) (launchContents m c) (Proc.devRef .tc main_v27))) (ix2 j (0 : Fin 1)) = (((Layer.proj (Layer.dense P.hidden P.W1) P.aN1) j : ℝ) : EReal) := by
  rw [val_n2]
  exact dot_apply _ _ (Layer.dense P.hidden P.W1) (fun d _ => P.aN1 d) j (0 : Fin 1) (fun k => read_h2 R j k) (fun k => R.haN1 k)

/-- The pre-activation. -/
theorem read_pre2 (R : Reads m c P) (i j : Fin 8192) :
    (asF S8192x8192 (after (ops (F := Ideal)) (launchContents m c) (Proc.devRef .tc main_v32))) (ix2 i j) = ((((Layer.proj (Layer.dense P.hidden P.W1) P.aS1) i + (Layer.proj (Layer.dense P.hidden P.W1) P.aN1) j) * P.M i j : ℝ) : EReal) := by
  rw [val_pre2]
  exact pre_apply _ _ _ _ _ _ i j _ _ _ (read_s2 R i) (read_n2 R j) (R.hM i j)

/-- The rectified pre-activation. -/
theorem read_lk2 (R : Reads m c P) (i j : Fin 8192) :
    (asF S8192x8192 (after (ops (F := Ideal)) (launchContents m c) (Proc.devRef .tc main_v33))) (ix2 i j) = ((Layer.leaky P.α (((Layer.proj (Layer.dense P.hidden P.W1) P.aS1) i + (Layer.proj (Layer.dense P.hidden P.W1) P.aN1) j) * P.M i j) : ℝ) : EReal) := by
  rw [val_lk2]
  exact leaky_apply _ _ (ix2 i j) _ P.α R.hα (read_pre2 R i j)

/-- The masked score. -/
theorem read_sc2 (R : Reads m c P) (i j : Fin 8192) :
    (asF S8192x8192 (after (ops (F := Ideal)) (launchContents m c) (Proc.devRef .tc main_v34))) (ix2 i j) = (((Layer.score P.α P.σ P.edge (Layer.proj (Layer.dense P.hidden P.W1) P.aS1) (Layer.proj (Layer.dense P.hidden P.W1) P.aN1) P.M) i j : ℝ) : EReal) := by
  rw [val_sc2]
  exact mask_apply _ _ _ (ix2 i j) _ P.σ (P.edge i j) R.hσ (read_lk2 R i j)
    (by rw [val_adj]; exact R.hedge i j)

/-- Each row's shift is some real. -/
theorem read_mx2 (R : Reads m c P) (i : Fin 8192) :
    ∃ Mx : ℝ, (asF S8192 (after (ops (F := Ideal)) (launchContents m c) (Proc.devRef .tc main_v37))) (ix1 i) = ((Mx : ℝ) : EReal) := by
  rw [val_mx2]
  exact rowmax_apply (by omega) _ reduces_row _ _ _ i (fun j => (Layer.score P.α P.σ P.edge (Layer.proj (Layer.dense P.hidden P.W1) P.aS1) (Layer.proj (Layer.dense P.hidden P.W1) P.aN1) P.M) i j) (fun j => read_sc2 R i j)

/-- The weight, at whatever real the row's shift is. -/
theorem read_w2 (R : Reads m c P) (i j : Fin 8192) (Mx : ℝ)
    (hM : (asF S8192 (after (ops (F := Ideal)) (launchContents m c) (Proc.devRef .tc main_v37))) (ix1 i) = ((Mx : ℝ) : EReal)) :
    (asF S8192x8192 (after (ops (F := Ideal)) (launchContents m c) (Proc.devRef .tc main_v41))) (ix2 i j) = ((Real.exp ((Layer.score P.α P.σ P.edge (Layer.proj (Layer.dense P.hidden P.W1) P.aS1) (Layer.proj (Layer.dense P.hidden P.W1) P.aN1) P.M) i j - Mx) : ℝ) : EReal) := by
  rw [val_w2]
  exact expshift_apply _ _ _ _ i j _ Mx (read_sc2 R i j) hM

/-- The normalised weight. -/
theorem read_nw2 (R : Reads m c P) (i j : Fin 8192) (Mx : ℝ)
    (hM : (asF S8192 (after (ops (F := Ideal)) (launchContents m c) (Proc.devRef .tc main_v37))) (ix1 i) = ((Mx : ℝ) : EReal)) :
    (asF S8192x8192 (after (ops (F := Ideal)) (launchContents m c) (Proc.devRef .tc main_v45))) (ix2 i j)
      = ((Real.exp ((Layer.score P.α P.σ P.edge (Layer.proj (Layer.dense P.hidden P.W1) P.aS1) (Layer.proj (Layer.dense P.hidden P.W1) P.aN1) P.M) i j - Mx) / ∑ j', Real.exp ((Layer.score P.α P.σ P.edge (Layer.proj (Layer.dense P.hidden P.W1) P.aS1) (Layer.proj (Layer.dense P.hidden P.W1) P.aN1) P.M) i j' - Mx) : ℝ) : EReal) := by
  rw [val_nw2]
  exact norm_apply (by omega) _ reduces_row _ _ _ _ i (fun j => Real.exp ((Layer.score P.α P.σ P.edge (Layer.proj (Layer.dense P.hidden P.W1) P.aS1) (Layer.proj (Layer.dense P.hidden P.W1) P.aN1) P.M) i j - Mx)) (fun j => Real.exp_pos _)
    (fun j => read_w2 R i j Mx hM) j

/-- The attended features: the shift cancels between the weights and their sum. -/
theorem read_at2 (R : Reads m c P) (i : Fin 8192) (d : Fin 64) :
    (asF S8192x64 (after (ops (F := Ideal)) (launchContents m c) (Proc.devRef .tc main_v46))) (ix2 i d)
      = (((∑ j, Real.exp ((Layer.score P.α P.σ P.edge (Layer.proj (Layer.dense P.hidden P.W1) P.aS1) (Layer.proj (Layer.dense P.hidden P.W1) P.aN1) P.M) i j) * (Layer.dense P.hidden P.W1) j d) / (∑ j, Real.exp ((Layer.score P.α P.σ P.edge (Layer.proj (Layer.dense P.hidden P.W1) P.aS1) (Layer.proj (Layer.dense P.hidden P.W1) P.aN1) P.M) i j)) : ℝ) : EReal) := by
  haveI : Nonempty (Fin 8192) := ⟨⟨0, by omega⟩⟩
  obtain ⟨Mx, hM⟩ := read_mx2 R i
  rw [val_at2]
  refine (dot_apply _ _ (fun i' j => Real.exp ((Layer.score P.α P.σ P.edge (Layer.proj (Layer.dense P.hidden P.W1) P.aS1) (Layer.proj (Layer.dense P.hidden P.W1) P.aN1) P.M) i' j - Mx) / ∑ j', Real.exp ((Layer.score P.α P.σ P.edge (Layer.proj (Layer.dense P.hidden P.W1) P.aS1) (Layer.proj (Layer.dense P.hidden P.W1) P.aN1) P.M) i' j' - Mx)) (Layer.dense P.hidden P.W1) i d
    (fun j => read_nw2 R i j Mx hM) (fun j => read_h2 R j d)).trans ?_
  exact congrArg (fun r : ℝ => (r : EReal)) (Spec.softmax_dot Mx (fun j => (Layer.score P.α P.σ P.edge (Layer.proj (Layer.dense P.hidden P.W1) P.aS1) (Layer.proj (Layer.dense P.hidden P.W1) P.aN1) P.M) i j) (fun j => (Layer.dense P.hidden P.W1) j d))

/-- The layer's result. -/
theorem read_out2 (R : Reads m c P) (i : Fin 8192) (d : Fin 64) :
    (asF S8192x64 (after (ops (F := Ideal)) (launchContents m c) (Proc.devRef .tc main_v47))) (ix2 i d) = ((P.final i d : ℝ) : EReal) := by
  rw [val_out2]
  exact elu_apply _ _ (ix2 i d) _ (read_at2 R i d)

end Readings

variable {m : (ℓ : Loc nD τ sig) → Buf (Elt Ideal) ℓ} {c : Dev nD} {P : Layer.Params} (R : Reads m c P)
include R

/-- After the first layer's operations the buffer `main_v24` holds the hidden features. -/
theorem hidden_value (i : Fin 8192) (d : Fin 256) :
    (after (ops (F := Ideal)) (launchContents m c) (Proc.devRef .tc main_v24) : S8192x256.Idx → EReal) (ix2 i d) = (P.hidden i d : EReal) :=
  read_out1 R i d

/-- THE REFERENCE'S VALUE: the result array, entry by entry, is the two stacked layers of the real parameters. -/
theorem ref_value (i : Fin 8192) (d : Fin 64) :
    (after (ops (F := Ideal)) (launchContents m c) (Proc.devRef .tc main_v47) : S8192x64.Idx → EReal) (ix2 i d) = (P.final i d : EReal) :=
  read_out2 R i d

end Cert.ReferenceIdeal.RefRead

end
-- ==== Proof.Algebraic.lean ====
/-
  The two idealized programs agree. From memories that agree on the nine arguments and finite float inputs: the
  arguments are real arrays; the kernel program's run ends with its result array at the two stacked attention
  layers of those reals, and so does the reference's; both leave the arguments as launched.
-/
import proofs.«404965_j38543036514339_3_alg».proof.Defs
import proofs.«404965_j38543036514339_3_alg».proof.Proof.Gen.KernelIdeal
import proofs.«404965_j38543036514339_3_alg».proof.Proof.Gen.ReferenceIdeal
import proofs.«404965_j38543036514339_3_alg».proof.Proof.Gen.Pre_finite_inputs
import proofs.«404965_j38543036514339_3_alg».proof.Proof.Finite
import proofs.«404965_j38543036514339_3_alg».proof.Proof.KI.Segs
import proofs.«404965_j38543036514339_3_alg».proof.Proof.KI.Value
import proofs.«404965_j38543036514339_3_alg».proof.Proof.RefRun
import proofs.«404965_j38543036514339_3_alg».proof.Proof.RefRead

set_option maxRecDepth 16384

noncomputable section

namespace Cert.Algebraic

open Idealize.ShloMosaic Idealize.ShloMosaic.TcCoe Idealize.ShloMosaic.ValueIdx Idealize.SL.Sem

/-- The common result on core `c`: the two stacked layers of the kernel program's real arguments, coerced. -/
def result {m : (ℓ : Loc Cert.KernelIdeal.nD Cert.KernelIdeal.τ Cert.KernelIdeal.sig) → Buf (Elt Ideal) ℓ} {c : Dev Cert.KernelIdeal.nD}
    (A : Cert.KernelIdeal.HostV.RealArgs m c) : Cert.KernelIdeal.S8192x64.Idx → EReal :=
  fun idx => (((Cert.KernelIdeal.Value.paramsOf A).final (idx 0) (idx 1) : ℝ) : EReal)

/-- The reference's memory, agreeing with the kernel program's on the arguments, reads as the same parameters. -/
theorem reads_of_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (A : Cert.KernelIdeal.HostV.RealArgs m c)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.RefRead.Reads m' c (Cert.KernelIdeal.Value.paramsOf A) := by
  obtain ⟨h0, h1, h2, h3, h4, h5, h6, h7, h8⟩ := hagree
  exact
    { hx := fun i k => by rw [h0]; exact A.hx i k
      hM := fun i j => by rw [h2]; exact A.hM i j
      hW0 := fun k d => by rw [h3]; exact A.hW0 k d
      haS0 := fun d => by rw [h4]; exact A.haS0 d
      haN0 := fun d => by rw [h5]; exact A.haN0 d
      hW1 := fun k d => by rw [h6]; exact A.hW1 k d
      haS1 := fun d => by rw [h7]; exact A.haS1 d
      haN1 := fun d => by rw [h8]; exact A.haN1 d
      hedge := fun i j => by rw [h1]; exact Iff.rfl
      hα := (Classical.choose_spec Cert.Consts.slope_real).1
      hα0 := (Classical.choose_spec Cert.Consts.slope_real).2.1
      hα1 := (Classical.choose_spec Cert.Consts.slope_real).2.2
      hσ := Classical.choose_spec Cert.Consts.sentinel_real }

/-- THE ALGEBRAIC CLAIM. -/
theorem algebraic :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m g m' g' hpre hagree
  -- the float arguments are real arrays on every core
  have A : ∀ c : Dev Cert.KernelIdeal.nD, Cert.KernelIdeal.HostV.RealArgs m c :=
    fun c => Classical.choice (Cert.Finite.realArgs_of_pre m hpre c)
  refine ⟨fun c => result (A c), ?_, ?_⟩
  · -- the kernel program: every unscoped buffer ends at the last boundary's contents
    refine (θ_run (Cert.KernelIdeal.defs (F := Ideal)) _ _).mono (fun _ h c => ?_) (Cert.KernelIdeal.Run.run_all (F := Ideal) m g)
    refine ⟨(h c _ (Cert.KernelIdeal.Run.mem_uc Cert.KernelIdeal.main_v11 (by decide))).trans ?_,
      (h c _ (Cert.KernelIdeal.Run.mem_uc Cert.KernelIdeal.main_arg0 (by decide))).trans (Cert.KernelIdeal.Run.W4_main_arg0 m c),
      (h c _ (Cert.KernelIdeal.Run.mem_uc Cert.KernelIdeal.main_arg1 (by decide))).trans (Cert.KernelIdeal.Run.W4_main_arg1 m c),
      (h c _ (Cert.KernelIdeal.Run.mem_uc Cert.KernelIdeal.main_arg2 (by decide))).trans (Cert.KernelIdeal.Run.W4_main_arg2 m c),
      (h c _ (Cert.KernelIdeal.Run.mem_uc Cert.KernelIdeal.main_arg3 (by decide))).trans (Cert.KernelIdeal.Run.W4_main_arg3 m c),
      (h c _ (Cert.KernelIdeal.Run.mem_uc Cert.KernelIdeal.main_arg4 (by decide))).trans (Cert.KernelIdeal.Run.W4_main_arg4 m c),
      (h c _ (Cert.KernelIdeal.Run.mem_uc Cert.KernelIdeal.main_arg5 (by decide))).trans (Cert.KernelIdeal.Run.W4_main_arg5 m c),
      (h c _ (Cert.KernelIdeal.Run.mem_uc Cert.KernelIdeal.main_arg6 (by decide))).trans (Cert.KernelIdeal.Run.W4_main_arg6 m c),
      (h c _ (Cert.KernelIdeal.Run.mem_uc Cert.KernelIdeal.main_arg7 (by decide))).trans (Cert.KernelIdeal.Run.W4_main_arg7 m c),
      (h c _ (Cert.KernelIdeal.Run.mem_uc Cert.KernelIdeal.main_arg8 (by decide))).trans (Cert.KernelIdeal.Run.W4_main_arg8 m c)⟩
    show (Cert.KernelIdeal.Run.W4 (F := Ideal) m c (Proc.devRef .tc Cert.KernelIdeal.main_v11) : Cert.KernelIdeal.S8192x64.Idx → EReal) = result (A c)
    refine funext fun idx => ?_
    obtain ⟨i, d, rfl⟩ : ∃ (i : Fin 8192) (d : Fin 64), idx = ix2 i d := ⟨idx 0, idx 1, eq_ix2 idx⟩
    exact Cert.KernelIdeal.Value.kernel_value (A c) i d
  · -- the reference: its result is the line's fold over the launch contents, read through the agreeing arguments
    refine (θ_run (Cert.ReferenceIdeal.defs (F := Ideal)) _ _).mono (fun _ h c => ⟨(h c).1.trans ?_, (h c).2⟩)
      (Cert.ReferenceIdeal.RefRun.run (F := Ideal) m' g')
    show (StableHlo.after (Cert.ReferenceIdeal.RefRun.ops (F := Ideal)) (StableHlo.launchContents m' c) (Proc.devRef .tc Cert.ReferenceIdeal.main_v47) :
        Cert.ReferenceIdeal.S8192x64.Idx → EReal) = result (A c)
    refine funext fun idx => ?_
    obtain ⟨i, d, rfl⟩ : ∃ (i : Fin 8192) (d : Fin 64), idx = ix2 i d := ⟨idx 0, idx 1, eq_ix2 idx⟩
    exact Cert.ReferenceIdeal.RefRead.ref_value (reads_of_agree m m' c (A c) (hagree c)) i d

end Cert.Algebraic

end
-- ==== Proof.lean ====
/-
  A two-layer graph attention encoder, computed by a kernel that streams the coefficient and adjacency matrices
  tile by tile with an online softmax, against the plain formulation that materialises every row's softmax.

  Each layer forms `h = x W`, the column `s = h a_self` and the row `n = h a_neighs`, scores `leaky ((s i + n j) M i j)`
  on the edges and a finite sentinel elsewhere, normalises each row by a softmax, sums the weights against `h` and
  applies the exponential linear unit. The kernel visits a query tile's eight key tiles in order carrying the row
  maxima, the row sums and the weighted features, rescaling what it carries whenever a maximum moves; the plain
  formulation subtracts each row's maximum once. On the reals both are `(∑ exp score * h) / (∑ exp score)`: a
  finite shift of a row's scores cancels in the quotient, whatever the order of accumulation, and every row sum is
  positive. The leaky rectifier is written `max e (α e)` on one side and by a comparison on the other, equal for a
  slope strictly between 0 and 1; the unit is written with `exp v - 1` on both. Finite inputs make every entry a
  real, which is where these laws hold.

  The frames: each kernel program is two stretches of host operations and two kernel regions; a region's body is
  run in each of its three control cases (first, middle, last key tile) and the carried buffers are tracked from
  point to point. The reference is a straight line of host operations. Nothing was rewritten in the idealization.
-/
import proofs.«404965_j38543036514339_3_alg».proof.Defs
import proofs.«404965_j38543036514339_3_alg».proof.Proof.Gen.Kernel
import proofs.«404965_j38543036514339_3_alg».proof.Proof.Gen.KernelIdeal
import proofs.«404965_j38543036514339_3_alg».proof.Proof.Gen.ReferenceIdeal
import proofs.«404965_j38543036514339_3_alg».proof.Proof.Gen.Pre_finite_inputs
import proofs.«404965_j38543036514339_3_alg».proof.Proof.K.Segs
import proofs.«404965_j38543036514339_3_alg».proof.Proof.KI.Segs
import proofs.«404965_j38543036514339_3_alg».proof.Proof.RefRun
import proofs.«404965_j38543036514339_3_alg».proof.Proof.Algebraic

noncomputable section

namespace Cert.Proof

open Idealize.ShloMosaic Idealize.SL.Sem

/-- The word-level kernel program runs and leaves its arguments as launched. -/
theorem frame_k : Cert.frame_Kernel (hKernel := Cert.Kernel.Gen.facts) (hPre_finite_inputs := Cert.Pre_finite_inputs.Gen.facts) :=
  fun m ρ _ => Cert.Kernel.Run.frame (F := Bits) m ρ
/-- So does the idealized kernel program, -/
theorem frame_ki : Cert.frame_KernelIdeal (hKernelIdeal := Cert.KernelIdeal.Gen.facts) (hPre_finite_inputs := Cert.Pre_finite_inputs.Gen.facts) :=
  fun m ρ _ => Cert.KernelIdeal.Run.frame (F := Ideal) m ρ
/-- and the idealized reference: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Algebraic.algebraic⟩

end Cert.Proof

end
